-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v61) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x128 : Shape := ⟨2, ![8192, 128]⟩
abbrev S8192 : Shape := ⟨1, ![8192]⟩
abbrev S_ : Shape := ⟨0, ![]⟩

class Facts : Prop where
  bcast_S_S8192x128 : S_.BroadcastsInDim S8192x128 (![] : Fin 0 → Fin S8192x128.rank)
  reducesTo_S8192x128_S_d0_1 : S8192x128.ReducesTo [0, 1] S_
  h_S_ : 0 < S_.numel

variable [Facts]

def fn {F : FTy → Type} [FloatOps F] (main_arg0 : FVec F S8192x128 .f32) (main_arg1 : IVec S8192 32) : IVec S_ 1 :=
  let main_v0 : FVec F S8192x128 .f32 := Host.absf main_arg0
  let main_cst : FVec F S_ .f32 := constant S_ .f32 0x7F800000#32
  let main_v1 : FVec F S8192x128 .f32 := broadcastInDim S8192x128 ![] bcast_S_S8192x128 main_cst
  let main_v2 : IVec S8192x128 1 := cmpf .olt main_v0 main_v1
  let main_c : IVec S_ 1 := constantI S_ 1 1#1
  let main_v3 : IVec S_ 1 := (fun x v => Host.reduce IntOp.andi x v reducesTo_S8192x128_S_d0_1 h_S_) main_v2 main_c
  main_v3
-- ==== Kernel.lean ====
abbrev S8192x128 : Shape := ⟨2, ![8192, 128]⟩
abbrev S8192 : Shape := ⟨1, ![8192]⟩
abbrev S1x8192 : Shape := ⟨2, ![1, 8192]⟩
abbrev S512x128 : Shape := ⟨2, ![512, 128]⟩
abbrev S1x512 : Shape := ⟨2, ![1, 512]⟩
abbrev S128x512 : Shape := ⟨2, ![128, 512]⟩
abbrev S512x512 : Shape := ⟨2, ![512, 512]⟩
abbrev S512 : Shape := ⟨1, ![512]⟩
abbrev S512x1 : Shape := ⟨2, ![512, 1]⟩
abbrev S_ : Shape := ⟨0, ![]⟩
abbrev S4000 : Shape := ⟨1, ![4000]⟩
abbrev S8192x1 : Shape := ⟨2, ![8192, 1]⟩

abbrev nBuf : Space → Nat
  | .hbm => 33
  | .vmem => 13
  | .smem => 0
  | _ => 0

abbrev bufTy : (tb : Table) → Fin (tcTables nBuf tb) → BufTy
  | .hbm, ⟨0, _⟩ => ⟨S8192x128, .f32⟩
  | .hbm, ⟨1, _⟩ => ⟨S8192, .i32⟩
  | .hbm, ⟨2, _⟩ => ⟨S1x8192, .i32⟩
  | .hbm, ⟨3, _⟩ => ⟨S1x8192, .f32⟩
  | .hbm, ⟨4, _⟩ => ⟨S8192, .f32⟩
  | .hbm, ⟨5, _⟩ => ⟨S_, .f32⟩
  | .hbm, ⟨6, _⟩ => ⟨S8192, .f32⟩
  | .hbm, ⟨7, _⟩ => ⟨S_, .f32⟩
  | .hbm, ⟨8, _⟩ => ⟨S4000, .f32⟩
  | .hbm, ⟨9, _⟩ => ⟨S8192x1, .i32⟩
  | .hbm, ⟨10, _⟩ => ⟨S4000, .f32⟩
  | .hbm, ⟨11, _⟩ => ⟨S_, .f32⟩
  | .hbm, ⟨12, _⟩ => ⟨S4000, .f32⟩
  | .hbm, ⟨13, _⟩ => ⟨S8192x1, .i32⟩
  | .hbm, ⟨14, _⟩ => ⟨S4000, .f32⟩
  | .hbm, ⟨15, _⟩ => ⟨S_, .f32⟩
  | .hbm, ⟨16, _⟩ => ⟨S4000, .f32⟩
  | .hbm, ⟨17, _⟩ => ⟨S4000, .i1⟩
  | .hbm, ⟨18, _⟩ => ⟨S_, .f32⟩
  | .hbm, ⟨19, _⟩ => ⟨S_, .f32⟩
  | .hbm, ⟨20, _⟩ => ⟨S4000, .f32⟩
  | .hbm, ⟨21, _⟩ => ⟨S4000, .f32⟩
  | .hbm, ⟨22, _⟩ => ⟨S4000, .f32⟩
  | .hbm, ⟨23, _⟩ => ⟨S_, .f32⟩
  | .hbm, ⟨24, _⟩ => ⟨S_, .f32⟩
  | .hbm, ⟨25, _⟩ => ⟨S4000, .f32⟩
  | .hbm, ⟨26, _⟩ => ⟨S4000, .f32⟩
  | .hbm, ⟨27, _⟩ => ⟨S4000, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .local _ .vmem, ⟨0, _⟩ => ⟨S512x128, .f32⟩
  | .local _ .vmem, ⟨1, _⟩ => ⟨S512x128, .f32⟩
  | .local _ .vmem, ⟨2, _⟩ => ⟨S512x128, .f32⟩
  | .local _ .vmem, ⟨3, _⟩ => ⟨S512x128, .f32⟩
  | .local _ .vmem, ⟨4, _⟩ => ⟨S1x512, .i32⟩
  | .local _ .vmem, ⟨5, _⟩ => ⟨S1x512, .i32⟩
  | .local _ .vmem, ⟨6, _⟩ => ⟨S1x512, .i32⟩
  | .local _ .vmem, ⟨7, _⟩ => ⟨S1x512, .i32⟩
  | .local _ .vmem, ⟨8, _⟩ => ⟨S1x512, .f32⟩
  | .local _ .vmem, ⟨9, _⟩ => ⟨S1x512, .f32⟩
  | .local _ .vmem, ⟨10, _⟩ => ⟨S1x512, .f32⟩
  | .local _ .vmem, ⟨11, _⟩ => ⟨S1x512, .f32⟩
  | .local _ .vmem, ⟨12, _⟩ => ⟨S1x512, .f32⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_2 : Ref sig .tc := ⟨.hbm, 15, rfl⟩
abbrev main_v10 : Ref sig .tc := ⟨.hbm, 16, rfl⟩
abbrev main_v11 : Ref sig .tc := ⟨.hbm, 17, rfl⟩
abbrev main_cst_3 : Ref sig .tc := ⟨.hbm, 18, rfl⟩
abbrev main_call0_v0 : Ref sig .tc := ⟨.hbm, 19, rfl⟩
abbrev main_call0_v1 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_call1_v0 : Ref sig .tc := ⟨.hbm, 24, rfl⟩
abbrev main_call1_v1 : Ref sig .tc := ⟨.hbm, 25, rfl⟩
abbrev main_v14 : Ref sig .tc := ⟨.hbm, 26, rfl⟩
abbrev main_v15 : Ref sig .tc := ⟨.hbm, 27, rfl⟩
abbrev main_cst_5 : Ref sig .tc := ⟨.hbm, 28, rfl⟩
abbrev main_v16 : Ref sig .tc := ⟨.hbm, 29, rfl⟩
abbrev main_cst_6 : Ref sig .tc := ⟨.hbm, 30, rfl⟩
abbrev main_v17 : Ref sig .tc := ⟨.hbm, 31, rfl⟩
abbrev main_v18 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![16, 16], ![false, false]⟩

def k0_cond2 (i : grid0.Coords) : BitVec 1 :=
  let arg1 : BitVec 32 := BitVec.ofNat 32 (i 1).val
  let c15_i32 : BitVec 32 := 15#32
  let v121 : BitVec 1 := Scalar.cmpi .eq arg1 c15_i32
  let v122 : BitVec 32 := Scalar.extui v121
  let c0_i32_46 : BitVec 32 := 0#32
  let v123 : BitVec 1 := Scalar.cmpi .ne v122 c0_i32_46
  v123

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x512 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  shapeCasts_S8192_S1x8192 : S8192.ShapeCasts S1x8192
  inb_S1x512_S1x512_0_0 : ∀ a, (![0, 0] : Fin 2 → Nat) a + S1x512.size a ≤ S1x512.size a
  h_S1x512 : 0 < S1x512.numel
  shapeCasts_S1x512_S1x512 : S1x512.ShapeCasts S1x512
  inb_S512x128_S512x128_0_0 : ∀ a, (![0, 0] : Fin 2 → Nat) a + S512x128.size a ≤ S512x128.size a
  h_S512x128 : 0 < S512x128.numel
  bitsLt_bf16_f32 : FTy.bits .bf16 < FTy.bits .f32
  transposes_S512x128_p1_0_S128x512 : S512x128.Transposes [1, 0] S128x512
  reduces_S512x128_S512 : S512x128.Reduces [1] S512
  shapeCasts_S512_S512x1 : S512.ShapeCasts S512x1
  transposes_S512x1_p1_0_S1x512 : S512x1.Transposes [1, 0] S1x512
  broadcasts_S512x1_S512x512 : S512x1.Broadcasts S512x512
  broadcasts_S1x512_S512x512 : S1x512.Broadcasts S512x512
  transposes_S1x512_p1_0_S512x1 : S1x512.Transposes [1, 0] S512x1
  natLt_1_32 : 1 < 32
  reduces_S512x512_S512 : S512x512.Reduces [0] S512
  shapeCasts_S512_S1x512 : S512.ShapeCasts S1x512
  shapeCasts_S1x8192_S8192 : S1x8192.ShapeCasts S8192
  bcast_S_S8192 : S_.BroadcastsInDim S8192 (![] : Fin 0 → Fin S8192.rank)
  bcast_S_S4000 : S_.BroadcastsInDim S4000 (![] : Fin 0 → Fin S4000.rank)
  bcast_S8192_S8192x1_0 : S8192.BroadcastsInDim S8192x1 (![0] : Fin 1 → Fin S8192x1.rank)
  reducesTo_S4000_S_d0 : S4000.ReducesTo [0] S_
  h_S_ : 0 < S_.numel
  dot_S512x128_S128x512_S512x512_1_0_0_1_n_n_wf : DotDims.WF S512x128 S128x512 S512x512 [1] [0] [0] [1] [] []
  scatter_S4000_S8192x1_S8192_n_0_0_1_wf : ScatterDims.WF S4000 S8192x1 S8192 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x128.size a ≤ S8192x128.size a
  hwx0_0 : ∀ i : grid0.Coords, EltTy.bits .f32 = 32 ∨ (Rect.block (s := S8192x128) S512x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x128.size a ≤ S8192x128.size a
  hwx0_1 : ∀ i : grid0.Coords, EltTy.bits .f32 = 32 ∨ (Rect.block (s := S8192x128) S512x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x8192.size a
  hwx0_2 : ∀ i : grid0.Coords, EltTy.bits .i32 = 32 ∨ (Rect.block (s := S1x8192) S1x512.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x8192.size a
  hwx0_3 : ∀ i : grid0.Coords, EltTy.bits .i32 = 32 ∨ (Rect.block (s := S1x8192) S1x512.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x512.size a ≤ S1x8192.size a
  hwx0_4 : ∀ i : grid0.Coords, EltTy.bits .f32 = 32 ∨ (Rect.block (s := S1x8192) S1x512.size (cc0_transform_4 i) (hinb0_4 i)).WholeWords (EltTy.packing .f32)

variable [Facts₀]

def dot_S512x128_S128x512_S512x512_1_0_0_1_n_n : DotDims S512x128 S128x512 S512x512 where
  lhsContracting := [1]
  rhsContracting := [0]
  lhsNonContracting := [0]
  rhsNonContracting := [1]
  lhsBatch := []
  rhsBatch := []
  wf := dot_S512x128_S128x512_S512x512_1_0_0_1_n_n_wf
def scatter_S4000_S8192x1_S8192_n_0_0_1 : ScatterDims S4000 S8192x1 S8192 where
  updateWindowDims := []
  insertedWindowDims := [0]
  scatterDimsToOperandDims := [0]
  indexVectorDim := 1
  wf := scatter_S4000_S8192x1_S8192_n_0_0_1_wf

abbrev win0_0 : Pipeline.Window sig grid0 :=
  Pipeline.Window.ofSpec (Memref.whole main_arg0) S512x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S512x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x512.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S8192x128 : Shape := ⟨2, ![8192, 128]⟩
abbrev S8192 : Shape := ⟨1, ![8192]⟩
abbrev S_ : Shape := ⟨0, ![]⟩
abbrev S8192x1 : Shape := ⟨2, ![8192, 1]⟩
abbrev S1x8192 : Shape := ⟨2, ![1, 8192]⟩
abbrev S8192x8192 : Shape := ⟨2, ![8192, 8192]⟩
abbrev S128x8192 : Shape := ⟨2, ![128, 8192]⟩
abbrev S4000 : Shape := ⟨1, ![4000]⟩

abbrev nBuf : Space → Nat
  | .hbm => 121
  | .vmem => 0
  | .smem => 0
  | _ => 0

abbrev bufTy : (tb : Table) → Fin (tcTables nBuf tb) → BufTy
  | .hbm, ⟨0, _⟩ => ⟨S8192x128, .f32⟩
  | .hbm, ⟨1, _⟩ => ⟨S8192, .i32⟩
  | .hbm, ⟨2, _⟩ => ⟨S_, .i32⟩
  | .hbm, ⟨3, _⟩ => ⟨S_, .i32⟩
  | .hbm, ⟨4, _⟩ => ⟨S8192, .i32⟩
  | .hbm, ⟨5, _⟩ => ⟨S8192, .i32⟩
  | .hbm, ⟨6, _⟩ => ⟨S8192, .i32⟩
  | .hbm, ⟨7, _⟩ => ⟨S_, .i32⟩
  | .hbm, ⟨8, _⟩ => ⟨S8192, .i32⟩
  | .hbm, ⟨9, _⟩ => ⟨S8192, .i1⟩
  | .hbm, ⟨10, _⟩ => ⟨S8192, .i32⟩
  | .hbm, ⟨11, _⟩ => ⟨S8192, .i32⟩
  | .hbm, ⟨12, _⟩ => ⟨S_, .i32⟩
  | .hbm, ⟨13, _⟩ => ⟨S8192, .i32⟩
  | .hbm, ⟨14, _⟩ => ⟨S8192, .i1⟩
  | .hbm, ⟨15, _⟩ => ⟨S8192, .i1⟩
  | .hbm, ⟨16, _⟩ => ⟨S_, .i32⟩
  | .hbm, ⟨17, _⟩ => ⟨S8192, .i32⟩
  | .hbm, ⟨18, _⟩ => ⟨S8192, .i32⟩
  | .hbm, ⟨19, _⟩ => ⟨S8192, .i32⟩
  | .hbm, ⟨20, _⟩ => ⟨S8192x128, .f32⟩
  | .hbm, ⟨21, _⟩ => ⟨S_, .f32⟩
  | .hbm, ⟨22, _⟩ => ⟨S8192, .f32⟩
  | .hbm, ⟨23, _⟩ => ⟨S8192x1, .f32⟩
  | .hbm, ⟨24, _⟩ => ⟨S1x8192, .f32⟩
  | .hbm, ⟨25, _⟩ => ⟨S8192x8192, .f32⟩
  | .hbm, ⟨26, _⟩ => ⟨S8192x8192, .f32⟩
  | .hbm, ⟨27, _⟩ => ⟨S8192x8192, .f32⟩
  | .hbm, ⟨28, _⟩ => ⟨S128x8192, .f32⟩
  | .hbm, ⟨29, _⟩ => ⟨S8192x8192, .f32⟩
  | .hbm, ⟨30, _⟩ => ⟨S_, .f32⟩
  | .hbm, ⟨31, _⟩ => ⟨S8192x8192, .f32⟩
  | .hbm, ⟨32, _⟩ => ⟨S8192x8192, .f32⟩
  | .hbm, ⟨33, _⟩ => ⟨S8192x8192, .f32⟩
  | .hbm, ⟨34, _⟩ => ⟨S_, .f32⟩
  | .hbm, ⟨35, _⟩ => ⟨S8192x8192, .f32⟩
  | .hbm, ⟨36, _⟩ => ⟨S8192x8192, .f32⟩
  | .hbm, ⟨37, _⟩ => ⟨S_, .f32⟩
  | .hbm, ⟨38, _⟩ => ⟨S8192x8192, .f32⟩
  | .hbm, ⟨39, _⟩ => ⟨S8192x8192, .i1⟩
  | .hbm, ⟨40, _⟩ => ⟨S_, .f32⟩
  | .hbm, ⟨41, _⟩ => ⟨S_, .f32⟩
  | .hbm, ⟨42, _⟩ => ⟨S8192x8192, .f32⟩
  | .hbm, ⟨43, _⟩ => ⟨S8192x8192, .f32⟩
  | .hbm, ⟨44, _⟩ => ⟨S_, .f32⟩
  | .hbm, ⟨45, _⟩ => ⟨S8192x8192, .f32⟩
  | .hbm, ⟨46, _⟩ => ⟨S8192x8192, .i1⟩
  | .hbm, ⟨47, _⟩ => ⟨S8192x8192, .f32⟩
  | .hbm, ⟨48, _⟩ => ⟨S_, .f32⟩
  | .hbm, ⟨49, _⟩ => ⟨S_, .f32⟩
  | .hbm, ⟨50, _⟩ => ⟨S8192x8192, .f32⟩
  | .hbm, ⟨51, _⟩ => ⟨S8192x8192, .f32⟩
  | .hbm, ⟨52, _⟩ => ⟨S8192x1, .i32⟩
  | .hbm, ⟨53, _⟩ => ⟨S1x8192, .i32⟩
  | .hbm, ⟨54, _⟩ => ⟨S8192x8192, .i32⟩
  | .hbm, ⟨55, _⟩ => ⟨S8192x8192, .i32⟩
  | .hbm, ⟨56, _⟩ => ⟨S8192x8192, .i1⟩
  | .hbm, ⟨57, _⟩ => ⟨S8192x1, .i32⟩
  | .hbm, ⟨58, _⟩ => ⟨S1x8192, .i32⟩
  | .hbm, ⟨59, _⟩ => ⟨S8192x8192, .i32⟩
  | .hbm, ⟨60, _⟩ => ⟨S8192x8192, .i32⟩
  | .hbm, ⟨61, _⟩ => ⟨S8192x8192, .i1⟩
  | .hbm, ⟨62, _⟩ => ⟨S8192x8192, .i1⟩
  | .hbm, ⟨63, _⟩ => ⟨S8192x8192, .i1⟩
  | .hbm, ⟨64, _⟩ => ⟨S_, .f32⟩
  | .hbm, ⟨65, _⟩ => ⟨S_, .f32⟩
  | .hbm, ⟨66, _⟩ => ⟨S8192x8192, .f32⟩
  | .hbm, ⟨67, _⟩ => ⟨S8192x8192, .f32⟩
  | .hbm, ⟨68, _⟩ => ⟨S_, .f32⟩
  | .hbm, ⟨69, _⟩ => ⟨S8192, .f32⟩
  | .hbm, ⟨70, _⟩ => ⟨S_, .f32⟩
  | .hbm, ⟨71, _⟩ => ⟨S_, .f32⟩
  | .hbm, ⟨72, _⟩ => ⟨S8192x8192, .f32⟩
  | .hbm, ⟨73, _⟩ => ⟨S8192x8192, .f32⟩
  | .hbm, ⟨74, _⟩ => ⟨S_, .f32⟩
  | .hbm, ⟨75, _⟩ => ⟨S8192, .f32⟩
  | .hbm, ⟨76, _⟩ => ⟨S_, .i1⟩
  | .hbm, ⟨77, _⟩ => ⟨S8192, .i1⟩
  | .hbm, ⟨78, _⟩ => ⟨S_, .f32⟩
  | .hbm, ⟨79, _⟩ => ⟨S_, .f32⟩
  | .hbm, ⟨80, _⟩ => ⟨S8192, .f32⟩
  | .hbm, ⟨81, _⟩ => ⟨S8192, .f32⟩
  | .hbm, ⟨82, _⟩ => ⟨S_, .f32⟩
  | .hbm, ⟨83, _⟩ => ⟨S8192, .f32⟩
  | .hbm, ⟨84, _⟩ => ⟨S8192, .f32⟩
  | .hbm, ⟨85, _⟩ => ⟨S8192, .f32⟩
  | .hbm, ⟨86, _⟩ => ⟨S_, .f32⟩
  | .hbm, ⟨87, _⟩ => ⟨S8192, .f32⟩
  | .hbm, ⟨88, _⟩ => ⟨S8192, .f32⟩
  | .hbm, ⟨89, _⟩ => ⟨S_, .f32⟩
  | .hbm, ⟨90, _⟩ => ⟨S_, .f32⟩
  | .hbm, ⟨91, _⟩ => ⟨S8192, .f32⟩
  | .hbm, ⟨92, _⟩ => ⟨S8192, .f32⟩
  | .hbm, ⟨93, _⟩ => ⟨S_, .f32⟩
  | .hbm, ⟨94, _⟩ => ⟨S8192, .f32⟩
  | .hbm, ⟨95, _⟩ => ⟨S_, .f32⟩
  | .hbm, ⟨96, _⟩ => ⟨S4000, .f32⟩
  | .hbm, ⟨97, _⟩ => ⟨S8192x1, .i32⟩
  | .hbm, ⟨98, _⟩ => ⟨S4000, .f32⟩
  | .hbm, ⟨99, _⟩ => ⟨S_, .f32⟩
  | .hbm, ⟨100, _⟩ => ⟨S4000, .f32⟩
  | .hbm, ⟨101, _⟩ => ⟨S8192x1, .i32⟩
  | .hbm, ⟨102, _⟩ => ⟨S4000, .f32⟩
  | .hbm, ⟨103, _⟩ => ⟨S_, .f32⟩
  | .hbm, ⟨104, _⟩ => ⟨S4000, .f32⟩
  | .hbm, ⟨105, _⟩ => ⟨S4000, .i1⟩
  | .hbm, ⟨106, _⟩ => ⟨S_, .f32⟩
  | .hbm, ⟨107, _⟩ => ⟨S_, .f32⟩
  | .hbm, ⟨108, _⟩ => ⟨S4000, .f32⟩
  | .hbm, ⟨109, _⟩ => ⟨S4000, .f32⟩
  | .hbm, ⟨110, _⟩ => ⟨S4000, .f32⟩
  | .hbm, ⟨111, _⟩ => ⟨S_, .f32⟩
  | .hbm, ⟨112, _⟩ => ⟨S_, .f32⟩
  | .hbm, ⟨113, _⟩ => ⟨S4000, .f32⟩
  | .hbm, ⟨114, _⟩ => ⟨S4000, .f32⟩
  | .hbm, ⟨115, _⟩ => ⟨S4000, .f32⟩
  | .hbm, ⟨116, _⟩ => ⟨S_, .f32⟩
  | .hbm, ⟨117, _⟩ => ⟨S_, .f32⟩
  | .hbm, ⟨118, _⟩ => ⟨S_, .f32⟩
  | .hbm, ⟨119, _⟩ => ⟨S_, .f32⟩
  | .hbm, ⟨120, _⟩ => ⟨S_, .f32⟩
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_call0_v1 : Ref sig .tc := ⟨.hbm, 4, rfl⟩
abbrev main_call0_v2 : Ref sig .tc := ⟨.hbm, 5, rfl⟩
abbrev main_call0_v3 : Ref sig .tc := ⟨.hbm, 6, rfl⟩
abbrev main_call0_v4 : Ref sig .tc := ⟨.hbm, 7, rfl⟩
abbrev main_call0_v5 : Ref sig .tc := ⟨.hbm, 8, rfl⟩
abbrev main_call0_v6 : Ref sig .tc := ⟨.hbm, 9, rfl⟩
abbrev main_call0_v7 : Ref sig .tc := ⟨.hbm, 10, rfl⟩
abbrev main_call0_v8 : Ref sig .tc := ⟨.hbm, 11, rfl⟩
abbrev main_call0_c : Ref sig .tc := ⟨.hbm, 12, rfl⟩
abbrev main_call0_v9 : Ref sig .tc := ⟨.hbm, 13, rfl⟩
abbrev main_call0_v10 : Ref sig .tc := ⟨.hbm, 14, rfl⟩
abbrev main_call0_v11 : Ref sig .tc := ⟨.hbm, 15, rfl⟩
abbrev main_call0_c_0 : Ref sig .tc := ⟨.hbm, 16, rfl⟩
abbrev main_call0_v12 : Ref sig .tc := ⟨.hbm, 17, rfl⟩
abbrev main_call0_v13 : Ref sig .tc := ⟨.hbm, 18, rfl⟩
abbrev main_v0 : Ref sig .tc := ⟨.hbm, 19, rfl⟩
abbrev main_v1 : Ref sig .tc := ⟨.hbm, 20, rfl⟩
abbrev main_cst : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_cst_0 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_cst_1 : Ref sig .tc := ⟨.hbm, 34, rfl⟩
abbrev main_v13 : Ref sig .tc := ⟨.hbm, 35, rfl⟩
abbrev main_v14 : Ref sig .tc := ⟨.hbm, 36, rfl⟩
abbrev main_cst_2 : Ref sig .tc := ⟨.hbm, 37, rfl⟩
abbrev main_v15 : Ref sig .tc := ⟨.hbm, 38, rfl⟩
abbrev main_v16 : Ref sig .tc := ⟨.hbm, 39, rfl⟩
abbrev main_cst_3 : Ref sig .tc := ⟨.hbm, 40, rfl⟩
abbrev main_call1_v0 : Ref sig .tc := ⟨.hbm, 41, rfl⟩
abbrev main_call1_v1 : Ref sig .tc := ⟨.hbm, 42, rfl⟩
abbrev main_v17 : Ref sig .tc := ⟨.hbm, 43, rfl⟩
abbrev main_cst_4 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_cst_5 : Ref sig .tc := ⟨.hbm, 48, rfl⟩
abbrev main_call2_v0 : Ref sig .tc := ⟨.hbm, 49, rfl⟩
abbrev main_call2_v1 : Ref sig .tc := ⟨.hbm, 50, rfl⟩
abbrev main_v21 : Ref sig .tc := ⟨.hbm, 51, rfl⟩
abbrev main_v22 : Ref sig .tc := ⟨.hbm, 52, rfl⟩
abbrev main_v23 : Ref sig .tc := ⟨.hbm, 53, rfl⟩
abbrev main_v24 : Ref sig .tc := ⟨.hbm, 54, rfl⟩
abbrev main_v25 : Ref sig .tc := ⟨.hbm, 55, rfl⟩
abbrev main_v26 : Ref sig .tc := ⟨.hbm, 56, rfl⟩
abbrev main_v27 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_cst_6 : Ref sig .tc := ⟨.hbm, 64, rfl⟩
abbrev main_call3_v0 : Ref sig .tc := ⟨.hbm, 65, rfl⟩
abbrev main_call3_v1 : Ref sig .tc := ⟨.hbm, 66, rfl⟩
abbrev main_v34 : Ref sig .tc := ⟨.hbm, 67, rfl⟩
abbrev main_cst_7 : Ref sig .tc := ⟨.hbm, 68, rfl⟩
abbrev main_v35 : Ref sig .tc := ⟨.hbm, 69, rfl⟩
abbrev main_cst_8 : Ref sig .tc := ⟨.hbm, 70, rfl⟩
abbrev main_call4_v0 : Ref sig .tc := ⟨.hbm, 71, rfl⟩
abbrev main_call4_v1 : Ref sig .tc := ⟨.hbm, 72, rfl⟩
abbrev main_v36 : Ref sig .tc := ⟨.hbm, 73, rfl⟩
abbrev main_cst_9 : Ref sig .tc := ⟨.hbm, 74, rfl⟩
abbrev main_v37 : Ref sig .tc := ⟨.hbm, 75, rfl⟩
abbrev main_c_10 : Ref sig .tc := ⟨.hbm, 76, rfl⟩
abbrev main_v38 : Ref sig .tc := ⟨.hbm, 77, rfl⟩
abbrev main_cst_11 : Ref sig .tc := ⟨.hbm, 78, rfl⟩
abbrev main_call5_v0 : Ref sig .tc := ⟨.hbm, 79, rfl⟩
abbrev main_call5_v1 : Ref sig .tc := ⟨.hbm, 80, rfl⟩
abbrev main_v39 : Ref sig .tc := ⟨.hbm, 81, rfl⟩
abbrev main_cst_12 : Ref sig .tc := ⟨.hbm, 82, rfl⟩
abbrev main_v40 : Ref sig .tc := ⟨.hbm, 83, rfl⟩
abbrev main_v41 : Ref sig .tc := ⟨.hbm, 84, rfl⟩
abbrev main_v42 : Ref sig .tc := ⟨.hbm, 85, rfl⟩
abbrev main_cst_13 : Ref sig .tc := ⟨.hbm, 86, rfl⟩
abbrev main_v43 : Ref sig .tc := ⟨.hbm, 87, rfl⟩
abbrev main_v44 : Ref sig .tc := ⟨.hbm, 88, rfl⟩
abbrev main_cst_14 : Ref sig .tc := ⟨.hbm, 89, rfl⟩
abbrev main_call6_v0 : Ref sig .tc := ⟨.hbm, 90, rfl⟩
abbrev main_call6_v1 : Ref sig .tc := ⟨.hbm, 91, rfl⟩
abbrev main_v45 : Ref sig .tc := ⟨.hbm, 92, rfl⟩
abbrev main_cst_15 : Ref sig .tc := ⟨.hbm, 93, rfl⟩
abbrev main_v46 : Ref sig .tc := ⟨.hbm, 94, rfl⟩
abbrev main_cst_16 : Ref sig .tc := ⟨.hbm, 95, rfl⟩
abbrev main_v47 : Ref sig .tc := ⟨.hbm, 96, rfl⟩
abbrev main_v48 : Ref sig .tc := ⟨.hbm, 97, rfl⟩
abbrev main_v49 : Ref sig .tc := ⟨.hbm, 98, rfl⟩
abbrev main_cst_17 : Ref sig .tc := ⟨.hbm, 99, rfl⟩
abbrev main_v50 : Ref sig .tc := ⟨.hbm, 100, rfl⟩
abbrev main_v51 : Ref sig .tc := ⟨.hbm, 101, rfl⟩
abbrev main_v52 : Ref sig .tc := ⟨.hbm, 102, rfl⟩
abbrev main_cst_18 : Ref sig .tc := ⟨.hbm, 103, rfl⟩
abbrev main_v53 : Ref sig .tc := ⟨.hbm, 104, rfl⟩
abbrev main_v54 : Ref sig .tc := ⟨.hbm, 105, rfl⟩
abbrev main_cst_19 : Ref sig .tc := ⟨.hbm, 106, rfl⟩
abbrev main_call7_v0 : Ref sig .tc := ⟨.hbm, 107, rfl⟩
abbrev main_call7_v1 : Ref sig .tc := ⟨.hbm, 108, rfl⟩
abbrev main_v55 : Ref sig .tc := ⟨.hbm, 109, rfl⟩
abbrev main_v56 : Ref sig .tc := ⟨.hbm, 110, rfl⟩
abbrev main_cst_20 : Ref sig .tc := ⟨.hbm, 111, rfl⟩
abbrev main_call8_v0 : Ref sig .tc := ⟨.hbm, 112, rfl⟩
abbrev main_call8_v1 : Ref sig .tc := ⟨.hbm, 113, rfl⟩
abbrev main_v57 : Ref sig .tc := ⟨.hbm, 114, rfl⟩
abbrev main_v58 : Ref sig .tc := ⟨.hbm, 115, rfl⟩
abbrev main_cst_21 : Ref sig .tc := ⟨.hbm, 116, rfl⟩
abbrev main_v59 : Ref sig .tc := ⟨.hbm, 117, rfl⟩
abbrev main_cst_22 : Ref sig .tc := ⟨.hbm, 118, rfl⟩
abbrev main_v60 : Ref sig .tc := ⟨.hbm, 119, rfl⟩
abbrev main_v61 : Ref sig .tc := ⟨.hbm, 120, rfl⟩

abbrev nD : Nat := 1
abbrev τ : Topo := Topo.v7x

variable {F : FTy → Type} [FloatOps F]

class Facts₀ : Prop where
  bcast_S_S8192 : S_.BroadcastsInDim S8192 (![] : Fin 0 → Fin S8192.rank)
  reducesTo_S8192x128_S8192_d1 : S8192x128.ReducesTo [1] S8192
  h_S_ : 0 < S_.numel
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  transposes_S8192x128_S128x8192_1_0 : S8192x128.Transposes [1, 0] S128x8192
  bcast_S_S8192x8192 : S_.BroadcastsInDim S8192x8192 (![] : Fin 0 → Fin S8192x8192.rank)
  reducesTo_S8192x8192_S8192_d0 : S8192x8192.ReducesTo [0] S8192
  bcast_S_S4000 : S_.BroadcastsInDim S4000 (![] : Fin 0 → Fin S4000.rank)
  reducesTo_S4000_S_d0 : S4000.ReducesTo [0] S_
  dot_S8192x128_S128x8192_S8192x8192_1_0_0_1_n_n_wf : DotDims.WF S8192x128 S128x8192 S8192x8192 [1] [0] [0] [1] [] []
  scatter_S4000_S8192x1_S8192_n_0_0_1_wf : ScatterDims.WF S4000 S8192x1 S8192 [] [0] [0] 1

variable [Facts₀]

def dot_S8192x128_S128x8192_S8192x8192_1_0_0_1_n_n : DotDims S8192x128 S128x8192 S8192x8192 where
  lhsContracting := [1]
  rhsContracting := [0]
  lhsNonContracting := [0]
  rhsNonContracting := [1]
  lhsBatch := []
  rhsBatch := []
  wf := dot_S8192x128_S128x8192_S8192x8192_1_0_0_1_n_n_wf
def scatter_S4000_S8192x1_S8192_n_0_0_1 : ScatterDims S4000 S8192x1 S8192 where
  updateWindowDims := []
  insertedWindowDims := [0]
  scatterDimsToOperandDims := [0]
  indexVectorDim := 1
  wf := scatter_S4000_S8192x1_S8192_n_0_0_1_wf

class Facts : Prop extends Facts₀ where

variable [Facts]
-- ==== Proof.K.TileDef.lean ====
/-
  One tile's update of the three one-row accumulators, and a row's accumulators as the fold of its sixteen tiles, over
  explicit blocks: the anchor block's rows and identities (a_i, id_i) and a partner block's (a_j, id_j).
  The first accumulator keeps, lane by lane, the maximum of the pairwise distance over the partners of the lane's
  identity; the second the minimum over the partners of the lane's class and another identity; the third the
  maximum of that mask read as 0 or 1.
-/
import proofs.«147753_j50903952392404_1_alg».proof.Proof.Gen.Kernel.Skeleton

noncomputable section

namespace Cert.Kernel.Hand

open Cert.Kernel Cert.Kernel.Gen
open Idealize.ShloMosaic Idealize.SL.Sem

variable {F : FTy → Type} [FloatOps F]

/-- One tile's update of the accumulators p. -/
def tileStep (a_i a_j : Vec F S512x128 .f32) (id_i id_j : Vec F S1x512 .i32)
    (p : Vec F S1x512 .f32 × Vec F S1x512 .f32 × Vec F S1x512 .f32) :
    Vec F S1x512 .f32 × Vec F S1x512 .f32 × Vec F S1x512 .f32 :=
  (k0_pay14 (k0_pay5 id_i) (k0_pay6 a_i a_j) (k0_pay7 id_j) p.1,
   k0_pay15 (k0_pay5 id_i) (k0_pay6 a_i a_j) (k0_pay7 id_j) (k0_pay8 (k0_pay7 id_j))
     (k0_pay9 (k0_pay5 id_i)) (k0_pay10 (k0_pay5 id_i)) k0_pay11 p.2.1,
   k0_pay16 (k0_pay5 id_i) (k0_pay7 id_j) (k0_pay8 (k0_pay7 id_j))
     (k0_pay9 (k0_pay5 id_i)) (k0_pay10 (k0_pay5 id_i)) k0_pay11 p.2.2)

/-- The accumulators a row starts from: −∞, +∞ and 0 in every lane. -/
def acc0 : Vec F S1x512 .f32 × Vec F S1x512 .f32 × Vec F S1x512 .f32 := (k0_pay2, k0_pay3, k0_pay4)

/-- A row's accumulators after its tiles 0 … j, the partner blocks given as families over the tile number. -/
def rowAcc (a_i : Vec F S512x128 .f32) (id_i : Vec F S1x512 .i32) (a_j : ℕ → Vec F S512x128 .f32) (id_j : ℕ → Vec F S1x512 .i32) :
    ℕ → Vec F S1x512 .f32 × Vec F S1x512 .f32 × Vec F S1x512 .f32
  | 0 => tileStep a_i (a_j 0) id_i (id_j 0) acc0
  | j + 1 => tileStep a_i (a_j (j + 1)) id_i (id_j (j + 1)) (rowAcc a_i id_i a_j id_j j)

end Cert.Kernel.Hand

end
-- ==== Proof.K.Data.lean ====
/-
  The proof data of the pairwise-distance kernel's one pipeline, for any float instance.
  The grid is 16 × 16, point t = 16·i + j: anchor block i (window 0 the embeddings' rows, window 2 their identities),
  partner block j (windows 1 and 3), the output block i (window 4), written back after the row's last point.
  Three one-row accumulators live in scratch: the running maximum over the partners of the same identity, the running
  minimum over the partners of the same class and another identity, and the running maximum of that mask as a float.
  At a row's first point they restart from −∞, +∞ and 0; every point folds its 512 × 512 tile in; the row's last point
  turns them into the output block. `acc` is those three rows after each point, `out4` the block the last point stores.
-/
import proofs.«147753_j50903952392404_1_alg».proof.Proof.Gen.Kernel.Launch
import proofs.«147753_j50903952392404_1_alg».proof.Proof.Gen.Kernel.Skeleton
import proofs.«147753_j50903952392404_1_alg».proof.Proof.K.TileDef
import proofs.«147753_j50903952392404_1_alg».proof.Proof.Gen.Kernel.Points
import Idealize.ShloMosaic.Lib.Pipeline.FrameBody
import Idealize.ShloMosaic.Lib.Pipeline.FrameSuffix
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- Core c's buffer contents when the region is entered: after the one host line before it (the identities reshaped
    to one row). -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

/-- The anchor rows' block at point t (window 0). -/
def ai (c : Dev nD) (t : Fin cfg0.N) : Vec F S512x128 .f32 :=
  ((cfg0.win 0).blk t).view.read (Elt F) (V m c (Pipeline.arrRef spec0 0))
/-- The partner rows' block at point t (window 1). -/
def aj (c : Dev nD) (t : Fin cfg0.N) : Vec F S512x128 .f32 :=
  ((cfg0.win 1).blk t).view.read (Elt F) (V m c (Pipeline.arrRef spec0 1))
/-- The anchors' identities at point t (window 2). -/
def idi (c : Dev nD) (t : Fin cfg0.N) : Vec F S1x512 .i32 :=
  ((cfg0.win 2).blk t).view.read (Elt F) (V m c (Pipeline.arrRef spec0 2))
/-- The partners' identities at point t (window 3). -/
def idj (c : Dev nD) (t : Fin cfg0.N) : Vec F S1x512 .i32 :=
  ((cfg0.win 3).blk t).view.read (Elt F) (V m c (Pipeline.arrRef spec0 3))

/-- One point's update of the three accumulators p from the point's blocks. -/
def stepAcc (c : Dev nD) (t : Fin cfg0.N) (p : Vec F S1x512 .f32 × Vec F S1x512 .f32 × Vec F S1x512 .f32) :
    Vec F S1x512 .f32 × Vec F S1x512 .f32 × Vec F S1x512 .f32 :=
  tileStep (ai m c t) (aj m c t) (idi m c t) (idj m c t) p

/-- The three accumulators after the body at position n: restarted at a row's first point (n ≡ 0 mod 16), else carried
    from the point before. -/
def acc (c : Dev nD) : (n : ℕ) → n < cfg0.N → Vec F S1x512 .f32 × Vec F S1x512 .f32 × Vec F S1x512 .f32
  | 0, hn => stepAcc m c ⟨0, hn⟩ acc0
  | n + 1, hn => stepAcc m c ⟨n + 1, hn⟩ (if (n + 1) % 16 = 0 then acc0 else acc c n (Nat.lt_of_succ_lt hn))

theorem acc_first (c : Dev nD) (t : Fin cfg0.N) (h : t.val % 16 = 0) : acc m c t.val t.isLt = stepAcc m c t acc0 := by
  obtain ⟨n, hn⟩ := t
  cases n with
  | zero => rfl
  | succ n => exact congrArg (stepAcc m c ⟨n + 1, hn⟩) (if_pos h)

theorem acc_next (c : Dev nD) (t : Fin cfg0.N) (h : ¬t.val % 16 = 0) :
    acc m c t.val t.isLt = stepAcc m c t (acc m c (t.val - 1) (Nat.lt_of_le_of_lt (Nat.sub_le _ _) t.isLt)) := by
  obtain ⟨n, hn⟩ := t
  cases n with
  | zero => exact absurd (Nat.zero_mod _) h
  | succ n => exact congrArg (stepAcc m c ⟨n + 1, hn⟩) (if_neg h)

/-- What the row's last point stores into the output block: the triplet term of the accumulators it has just updated. -/
def out4 (c : Dev nD) (t : Fin cfg0.N) : Vec F S1x512 .f32 :=
  k0_pay1 (acc m c t.val t.isLt).1 (acc m c t.val t.isLt).2.1 (acc m c t.val t.isLt).2.2

/-- The scratch operands as memrefs. -/
abbrev scM0 : Memref sig .tc .vmem S1x512 .f32 := Memref.whole cc0_scratch0
abbrev scM1 : Memref sig .tc .vmem S1x512 .f32 := Memref.whole cc0_scratch1
abbrev scM2 : Memref sig .tc .vmem S1x512 .f32 := Memref.whole cc0_scratch2

/-- The region invariant before position n: before the first point the three scratch buffers at anything; afterwards
    each at the accumulator the point before left in it. -/
def PhiS (c : Dev nD) : (n : ℕ) → n ≤ cfg0.N → sProp 𝕄
  | 0, _ => Pipeline.scopedRest spec0 c
  | n + 1, hn => iprop(owns (c : Thread nD τ) scM0 fullShare ((acc m c n hn).1)
      ∗ owns (c : Thread nD τ) scM1 fullShare ((acc m c n hn).2.1)
      ∗ owns (c : Thread nD τ) scM2 fullShare ((acc m c n hn).2.2))

theorem PhiS_zero (c : Dev nD) (n : ℕ) (h : n ≤ cfg0.N) (hz : n = 0) : PhiS m c n h = Pipeline.scopedRest spec0 c := by
  subst hz; rfl

theorem PhiS_succ (c : Dev nD) (n : ℕ) (hn : n < cfg0.N) :
    PhiS m c (n + 1) hn = iprop(owns (c : Thread nD τ) scM0 fullShare ((acc m c n hn).1)
      ∗ owns (c : Thread nD τ) scM1 fullShare ((acc m c n hn).2.1)
      ∗ owns (c : Thread nD τ) scM2 fullShare ((acc m c n hn).2.2)) := rfl

theorem PhiS_pos (c : Dev nD) (n : ℕ) (h : n ≤ cfg0.N) (hz : n ≠ 0) :
    PhiS m c n h = iprop(owns (c : Thread nD τ) scM0 fullShare ((acc m c (n - 1) (by omega)).1)
      ∗ owns (c : Thread nD τ) scM1 fullShare ((acc m c (n - 1) (by omega)).2.1)
      ∗ owns (c : Thread nD τ) scM2 fullShare ((acc m c (n - 1) (by omega)).2.2)) := by
  cases n with
  | zero => exact absurd rfl hz
  | succ n => rfl

/-- The proof data of the pipeline on core c. The embeddings' array is read by windows 0 and 1 and the identities' row
    by windows 2 and 3: each pair holds its array by the two halves of the full share. -/
def dats (_ : Fin 1) (c : Dev nD) : Dat τ (Elt F) Unit ℕ (UR sig nD τ) ℕ cfg0 c where
  A w := V m c (Pipeline.arrRef spec0 w)
  after w t := match w with
    | ⟨0, _⟩ => ai m c t
    | ⟨1, _⟩ => aj m c t
    | ⟨2, _⟩ => idi m c t
    | ⟨3, _⟩ => idj m c t
    | ⟨4, _⟩ => out4 m c t
  Φ t := PhiS m c t.val (Nat.le_of_lt_succ t.isLt)
  q w := match w with
    | ⟨0, _⟩ => fullShare.left
    | ⟨1, _⟩ => fullShare.right
    | ⟨2, _⟩ => fullShare.left
    | ⟨3, _⟩ => fullShare.right
    | ⟨4, _⟩ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = ai m c t := by dsimp only [dats]
theorem after0_1 (c : Dev nD) (t : Fin cfg0.N) : (dats m 0 c).after 1 t = aj m c t := by dsimp only [dats]
theorem after0_2 (c : Dev nD) (t : Fin cfg0.N) : (dats m 0 c).after 2 t = idi m c t := by dsimp only [dats]
theorem after0_3 (c : Dev nD) (t : Fin cfg0.N) : (dats m 0 c).after 3 t = idj m c t := by dsimp only [dats]
theorem after0_4 (c : Dev nD) (t : Fin cfg0.N) : (dats m 0 c).after 4 t = out4 m c t := by dsimp only [dats]

end Cert.Kernel.Hand

end
-- ==== Proof.K.Runs.lean ====
/-
  The kernel body run on any whole buffers, in each of the three cases of its two conditionals (first point of a row,
  a point inside a row, last point of a row), for any float instance: the four input windows are read and handed back
  unchanged, the three accumulator rows end at one tile's update of the rows the case starts from, and the output
  block is either untouched or, at a row's last point, the triplet term of the updated rows. Every load and store of
  the body is of a whole buffer, so every read-back is the last stored value.
-/
import proofs.«147753_j50903952392404_1_alg».proof.Proof.K.Data
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The two zero offsets, however spelt. -/
private theorem hz : (![0, 0] : Fin 2 → Nat) = fun _ => 0 := funext fun a => by fin_cases a <;> rfl

/-- A whole-buffer store made last leaves its payload, whatever the buffer held and whatever was stored before. -/
private theorem read_writes_cons_unit {κ : Kind} {sp : Space} {S : Shape} {e : EltTy} (v : View sig κ sp S e)
    (f : v.ty.Contents (Elt F)) {off : Fin S.rank → Nat} (h : off = fun _ => 0) (inb : ∀ a, off a + S.size a ≤ S.size a)
    (w : S.Idx → Elt F e) (L : List (View.Piece (Elt F) S e)) :
    v.read (Elt F) (v.writes (Elt F) f ((⟨Rect.unit off S.size inb, w⟩ : View.Piece (Elt F) S e) :: L)) = w := by
  rw [View.read_writes_eq_canon _ _ _ (fun y => ⟨_, List.mem_cons_self, View.mem_set_unit_zero h inb y⟩),
    View.canon_cons_unit_zero h]

/-! ## The body, case by case

The body on any whole memrefs: windows 0–3 at their blocks x0 … x3, handed back as they were; the three accumulator
rows handed back at one tile's update (tileStep) of the rows the case starts from; the output block untouched, or
(last point of a row) at the triplet term of the updated rows. -/

set_option maxHeartbeats 1000000 in
/-- A row's first point (j = 0, not the last): the accumulators, whatever they held, restart from acc0 and take the
    tile; the output's buffer is not touched. -/
theorem runA (c : Dev nD) (i : grid0.Coords) (arg2 : Memref sig .tc .vmem S512x128 .f32) (harg2 : arg2.IsWhole) (arg3 : Memref sig .tc .vmem S512x128 .f32) (harg3 : arg3.IsWhole) (arg4 : Memref sig .tc .vmem S1x512 .i32) (harg4 : arg4.IsWhole) (arg5 : Memref sig .tc .vmem S1x512 .i32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S1x512 .f32) (harg9 : arg9.IsWhole)
    (hc0 : (Scalar.cmpi .ne (Scalar.extui (Scalar.cmpi .eq (BitVec.ofNat 32 (i 1).val) 0#32)) 0#32) = 1#1) (hc1 : ¬(k0_cond2 i = 1#1))
    (x0 x1 : Vec F S512x128 .f32) (x2 x3 : Vec F S1x512 .i32) (xi4 : Vec F S1x512 .f32)
    (E : Set ℕ) (K : PUnit → sProp 𝕄) :
    iprop(owns (c : Thread nD τ) arg2 fullShare x0 ∗ owns (c : Thread nD τ) arg3 fullShare x1
        ∗ owns (c : Thread nD τ) arg4 fullShare x2 ∗ owns (c : Thread nD τ) arg5 fullShare x3
        ∗ owns (c : Thread nD τ) arg6 fullShare xi4
        ∗ (∃ d, owns (c : Thread nD τ) arg7 fullShare d) ∗ (∃ d, owns (c : Thread nD τ) arg8 fullShare d) ∗ (∃ d, owns (c : Thread nD τ) arg9 fullShare d)
        ∗ (iprop(owns (c : Thread nD τ) arg2 fullShare x0 ∗ owns (c : Thread nD τ) arg3 fullShare x1
        ∗ owns (c : Thread nD τ) arg4 fullShare x2 ∗ owns (c : Thread nD τ) arg5 fullShare x3
            ∗ owns (c : Thread nD τ) arg6 fullShare xi4
            ∗ owns (c : Thread nD τ) arg7 fullShare (tileStep x0 x1 x2 x3 acc0).1
            ∗ owns (c : Thread nD τ) arg8 fullShare (tileStep x0 x1 x2 x3 acc0).2.1
            ∗ owns (c : Thread nD τ) arg9 fullShare (tileStep x0 x1 x2 x3 acc0).2.2) -∗ K ⟨⟩))
      ⊢ wp frame (wpE (defs₀ (F := F)) Variants.none c none) E (cc0__assoc_kernel i arg2 harg2 arg3 harg3 arg4 harg4 arg5 harg5 arg6 harg6 arg7 harg7 arg8 harg8 arg9 harg9) K := by
  rw [cc0__assoc_kernel_eq_skeleton]; unfold cc0__assoc_kernel_skel
  unfold owns
  iintro ⟨⟨%f0, %hf0, H0⟩, ⟨%f1, %hf1, H1⟩, ⟨%f2, %hf2, H2⟩, ⟨%f3, %hf3, H3⟩, ⟨%f4, %hf4, H4⟩, ⟨%ds0, %fs0, -, HS0⟩, ⟨%ds1, %fs1, -, HS1⟩, ⟨%ds2, %fs2, -, HS2⟩, Hk⟩
  obtain rfl := harg2.eq_unread hf0; obtain rfl := harg3.eq_unread hf1
  obtain rfl := harg4.eq_unread hf2; obtain rfl := harg5.eq_unread hf3
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact hf4
    iexact H4
  isplitl [HS0]
  · iexists _; isplitr
    swap; · iexact HS0
    ipureintro
    sl_unfold_words
    rw [read_writes_cons_unit _ _ hz]
    simp only [View.readAt_eq_ld, Memref.IsWhole.read_unread, View.ld_unit_zero (S := S1x512) hz,
      View.ld_unit_zero (S := S512x128) hz, View.readCov_unit_zero (S := S1x512) _ hz]
    try rfl
  isplitl [HS1]
  · iexists _; isplitr
    swap; · iexact HS1
    ipureintro
    sl_unfold_words
    rw [read_writes_cons_unit _ _ hz]
    simp only [View.readAt_eq_ld, Memref.IsWhole.read_unread, View.ld_unit_zero (S := S1x512) hz,
      View.ld_unit_zero (S := S512x128) hz, View.readCov_unit_zero (S := S1x512) _ hz]
    try rfl
  · iexists _; isplitr
    swap; · iexact HS2
    ipureintro
    sl_unfold_words
    rw [read_writes_cons_unit _ _ hz]
    simp only [View.readAt_eq_ld, Memref.IsWhole.read_unread, View.ld_unit_zero (S := S1x512) hz,
      View.ld_unit_zero (S := S512x128) hz, View.readCov_unit_zero (S := S1x512) _ hz]
    try rfl

set_option maxHeartbeats 1000000 in
/-- A point inside a row (neither first nor last): the accumulators p take the tile; the output's buffer is not
    touched. -/
theorem runB (c : Dev nD) (i : grid0.Coords) (arg2 : Memref sig .tc .vmem S512x128 .f32) (harg2 : arg2.IsWhole) (arg3 : Memref sig .tc .vmem S512x128 .f32) (harg3 : arg3.IsWhole) (arg4 : Memref sig .tc .vmem S1x512 .i32) (harg4 : arg4.IsWhole) (arg5 : Memref sig .tc .vmem S1x512 .i32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S1x512 .f32) (harg9 : arg9.IsWhole)
    (hc0 : ¬((Scalar.cmpi .ne (Scalar.extui (Scalar.cmpi .eq (BitVec.ofNat 32 (i 1).val) 0#32)) 0#32) = 1#1)) (hc1 : ¬(k0_cond2 i = 1#1))
    (x0 x1 : Vec F S512x128 .f32) (x2 x3 : Vec F S1x512 .i32) (xi4 : Vec F S1x512 .f32)
    (p : Vec F S1x512 .f32 × Vec F S1x512 .f32 × Vec F S1x512 .f32) (E : Set ℕ) (K : PUnit → sProp 𝕄) :
    iprop(owns (c : Thread nD τ) arg2 fullShare x0 ∗ owns (c : Thread nD τ) arg3 fullShare x1
        ∗ owns (c : Thread nD τ) arg4 fullShare x2 ∗ owns (c : Thread nD τ) arg5 fullShare x3
        ∗ owns (c : Thread nD τ) arg6 fullShare xi4
        ∗ owns (c : Thread nD τ) arg7 fullShare p.1 ∗ owns (c : Thread nD τ) arg8 fullShare p.2.1 ∗ owns (c : Thread nD τ) arg9 fullShare p.2.2
        ∗ (iprop(owns (c : Thread nD τ) arg2 fullShare x0 ∗ owns (c : Thread nD τ) arg3 fullShare x1
        ∗ owns (c : Thread nD τ) arg4 fullShare x2 ∗ owns (c : Thread nD τ) arg5 fullShare x3
            ∗ owns (c : Thread nD τ) arg6 fullShare xi4
            ∗ owns (c : Thread nD τ) arg7 fullShare (tileStep x0 x1 x2 x3 p).1
            ∗ owns (c : Thread nD τ) arg8 fullShare (tileStep x0 x1 x2 x3 p).2.1
            ∗ owns (c : Thread nD τ) arg9 fullShare (tileStep x0 x1 x2 x3 p).2.2) -∗ K ⟨⟩))
      ⊢ wp frame (wpE (defs₀ (F := F)) Variants.none c none) E (cc0__assoc_kernel i arg2 harg2 arg3 harg3 arg4 harg4 arg5 harg5 arg6 harg6 arg7 harg7 arg8 harg8 arg9 harg9) K := by
  rw [cc0__assoc_kernel_eq_skeleton]; unfold cc0__assoc_kernel_skel
  unfold owns
  iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%fs1, %hfs1, HS1⟩, ⟨%fs2, %hfs2, HS2⟩, Hk⟩
  obtain rfl := harg2.eq_unread hf0; obtain rfl := harg3.eq_unread hf1
  obtain rfl := harg4.eq_unread hf2; obtain rfl := harg5.eq_unread hf3
  obtain rfl := harg7.eq_unread hfs0; obtain rfl := harg8.eq_unread hfs1; obtain rfl := harg9.eq_unread hfs2
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact hf4
    iexact H4
  isplitl [HS0]
  · iexists _; isplitr
    swap; · iexact HS0
    ipureintro
    sl_unfold_words
    rw [read_writes_cons_unit _ _ hz]
    simp only [View.readAt_eq_ld, Memref.IsWhole.read_unread, View.ld_unit_zero (S := S1x512) hz,
      View.ld_unit_zero (S := S512x128) hz, View.readCov_unit_zero (S := S1x512) _ hz]
    try rfl
  isplitl [HS1]
  · iexists _; isplitr
    swap; · iexact HS1
    ipureintro
    sl_unfold_words
    rw [read_writes_cons_unit _ _ hz]
    simp only [View.readAt_eq_ld, Memref.IsWhole.read_unread, View.ld_unit_zero (S := S1x512) hz,
      View.ld_unit_zero (S := S512x128) hz, View.readCov_unit_zero (S := S1x512) _ hz]
    try rfl
  · iexists _; isplitr
    swap; · iexact HS2
    ipureintro
    sl_unfold_words
    rw [read_writes_cons_unit _ _ hz]
    simp only [View.readAt_eq_ld, Memref.IsWhole.read_unread, View.ld_unit_zero (S := S1x512) hz,
      View.ld_unit_zero (S := S512x128) hz, View.readCov_unit_zero (S := S1x512) _ hz]
    try rfl

set_option maxHeartbeats 1000000 in
/-- A row's last point (j = 15, not the first): the accumulators p take the tile, and the output's buffer, whatever
    it held, receives the triplet term of the updated rows. -/
theorem runC (c : Dev nD) (i : grid0.Coords) (arg2 : Memref sig .tc .vmem S512x128 .f32) (harg2 : arg2.IsWhole) (arg3 : Memref sig .tc .vmem S512x128 .f32) (harg3 : arg3.IsWhole) (arg4 : Memref sig .tc .vmem S1x512 .i32) (harg4 : arg4.IsWhole) (arg5 : Memref sig .tc .vmem S1x512 .i32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S1x512 .f32) (harg9 : arg9.IsWhole)
    (hc0 : ¬((Scalar.cmpi .ne (Scalar.extui (Scalar.cmpi .eq (BitVec.ofNat 32 (i 1).val) 0#32)) 0#32) = 1#1)) (hc1 : k0_cond2 i = 1#1)
    (x0 x1 : Vec F S512x128 .f32) (x2 x3 : Vec F S1x512 .i32)
    (p : Vec F S1x512 .f32 × Vec F S1x512 .f32 × Vec F S1x512 .f32) (E : Set ℕ) (K : PUnit → sProp 𝕄) :
    iprop(owns (c : Thread nD τ) arg2 fullShare x0 ∗ owns (c : Thread nD τ) arg3 fullShare x1
        ∗ owns (c : Thread nD τ) arg4 fullShare x2 ∗ owns (c : Thread nD τ) arg5 fullShare x3
        ∗ (∃ d, owns (c : Thread nD τ) arg6 fullShare d)
        ∗ owns (c : Thread nD τ) arg7 fullShare p.1 ∗ owns (c : Thread nD τ) arg8 fullShare p.2.1 ∗ owns (c : Thread nD τ) arg9 fullShare p.2.2
        ∗ (iprop(owns (c : Thread nD τ) arg2 fullShare x0 ∗ owns (c : Thread nD τ) arg3 fullShare x1
        ∗ owns (c : Thread nD τ) arg4 fullShare x2 ∗ owns (c : Thread nD τ) arg5 fullShare x3
            ∗ owns (c : Thread nD τ) arg6 fullShare (k0_pay1 (tileStep x0 x1 x2 x3 p).1 (tileStep x0 x1 x2 x3 p).2.1 (tileStep x0 x1 x2 x3 p).2.2)
            ∗ owns (c : Thread nD τ) arg7 fullShare (tileStep x0 x1 x2 x3 p).1
            ∗ owns (c : Thread nD τ) arg8 fullShare (tileStep x0 x1 x2 x3 p).2.1
            ∗ owns (c : Thread nD τ) arg9 fullShare (tileStep x0 x1 x2 x3 p).2.2) -∗ K ⟨⟩))
      ⊢ wp frame (wpE (defs₀ (F := F)) Variants.none c none) E (cc0__assoc_kernel i arg2 harg2 arg3 harg3 arg4 harg4 arg5 harg5 arg6 harg6 arg7 harg7 arg8 harg8 arg9 harg9) K := by
  rw [cc0__assoc_kernel_eq_skeleton]; unfold cc0__assoc_kernel_skel
  unfold owns
  iintro ⟨⟨%f0, %hf0, H0⟩, ⟨%f1, %hf1, H1⟩, ⟨%f2, %hf2, H2⟩, ⟨%f3, %hf3, H3⟩, ⟨%d4, %f4, -, H4⟩, ⟨%fs0, %hfs0, HS0⟩, ⟨%fs1, %hfs1, HS1⟩, ⟨%fs2, %hfs2, HS2⟩, Hk⟩
  obtain rfl := harg2.eq_unread hf0; obtain rfl := harg3.eq_unread hf1
  obtain rfl := harg4.eq_unread hf2; obtain rfl := harg5.eq_unread hf3
  obtain rfl := harg7.eq_unread hfs0; obtain rfl := harg8.eq_unread hfs1; obtain rfl := harg9.eq_unread hfs2
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr
    swap; · iexact H4
    ipureintro
    sl_unfold_words
    rw [read_writes_cons_unit _ _ hz]
    simp only [View.readAt_eq_ld, Memref.IsWhole.read_unread, View.ld_unit_zero (S := S1x512) hz,
      View.ld_unit_zero (S := S512x128) hz, View.readCov_unit_zero (S := S1x512) _ hz]
    try rfl
  isplitl [HS0]
  · iexists _; isplitr
    swap; · iexact HS0
    ipureintro
    sl_unfold_words
    rw [read_writes_cons_unit _ _ hz]
    simp only [View.readAt_eq_ld, Memref.IsWhole.read_unread, View.ld_unit_zero (S := S1x512) hz,
      View.ld_unit_zero (S := S512x128) hz, View.readCov_unit_zero (S := S1x512) _ hz]
    try rfl
  isplitl [HS1]
  · iexists _; isplitr
    swap; · iexact HS1
    ipureintro
    sl_unfold_words
    rw [read_writes_cons_unit _ _ hz]
    simp only [View.readAt_eq_ld, Memref.IsWhole.read_unread, View.ld_unit_zero (S := S1x512) hz,
      View.ld_unit_zero (S := S512x128) hz, View.readCov_unit_zero (S := S1x512) _ hz]
    try rfl
  · iexists _; isplitr
    swap; · iexact HS2
    ipureintro
    sl_unfold_words
    rw [read_writes_cons_unit _ _ hz]
    simp only [View.readAt_eq_ld, Memref.IsWhole.read_unread, View.ld_unit_zero (S := S1x512) hz,
      View.ld_unit_zero (S := S512x128) hz, View.readCov_unit_zero (S := S1x512) _ hz]
    try rfl

end Cert.Kernel.Hand

end
-- ==== Proof.K.Body.lean ====
/-
  The kernel body's obligation for the pairwise-distance kernel's one pipeline, for any float instance. At every grid
  point t = 16·i + j the body, called with the region invariant and each window's current buffer, runs to the invariant
  at the next point and each buffer at what the proof data name: the four input windows at the point's blocks, the three
  accumulator rows at one tile's update of what the point before left (restarted from −∞, +∞ and 0 where j = 0), and
  the output's buffer as found, except where j = 15, where it holds the triplet term of the rows just updated. The
  two conditions of the body are decided over the 256 points in closed form (j = 0 ↔ t ≡ 0, j = 15 ↔ t ≡ 15 mod 16),
  and each of the three cases they leave is the body's run of that case at the point's buffers and blocks.
-/
import proofs.«147753_j50903952392404_1_alg».proof.Proof.K.Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The body's two conditions, in closed form over the grid -/

/-- The condition under which the accumulators restart: the column coordinate j is 0. -/
abbrev condFirst (i : grid0.Coords) : Prop := (Scalar.cmpi .ne (Scalar.extui (Scalar.cmpi .eq (BitVec.ofNat 32 (i 1).val) 0#32)) 0#32) = 1#1
/-- It holds at the points ≡ 0 (mod 16). -/
theorem hcondFirst : ∀ t : Fin cfg0.N, condFirst (grid0.coords t) ↔ t.val % 16 = 0 :=
  (by decide +kernel : ∀ t : Fin grid0.N, condFirst (grid0.coords t) ↔ t.val % 16 = 0)

/-- The condition under which the output block is stored: the column coordinate j is 15. -/
abbrev condLast (i : grid0.Coords) : Prop := k0_cond2 i = 1#1
/-- It holds at the points ≡ 15 (mod 16). -/
theorem hcondLast : ∀ t : Fin cfg0.N, condLast (grid0.coords t) ↔ t.val % 16 = 15 :=
  (by decide +kernel : ∀ t : Fin grid0.N, condLast (grid0.coords t) ↔ t.val % 16 = 15)

/-! ## Where the windows are idle -/

/-- The input windows are never idle. -/
theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel
/-- The output window is idle away from a row's last point, -/
theorem idle4 : ∀ t : Fin cfg0.N, ¬condLast (grid0.coords t) → cfg0.idle 4 (grid0.coords t) = true := by decide +kernel
/-- is not written back there, -/
theorem noFlush4 : ∀ t : Fin cfg0.N, ¬condLast (grid0.coords t) → (cfg0.win 4).flush t = false := by decide +kernel
/-- and is live at a row's last point. -/
theorem live4 : ∀ t : Fin cfg0.N, condLast (grid0.coords t) → cfg0.idle 4 (grid0.coords t) = false := by decide +kernel

/-! ## What the body finds in the input windows' buffers: their blocks, fetched at the point or not -/

theorem before0_0 (c : Dev nD) (t : Fin cfg0.N) (d) : (dats m 0 c).before 0 t d = ai m c t :=
  ((dats m 0 c).before_in_eq_fetched 0 rfl (fun _ => rfl) (fun _ _ _ => rfl)
    (fun t => by rw [after0_0]; unfold Dat.blockOf ai; rw [A_eq]; try rfl) t d).trans
    (by unfold Dat.fetched Dat.blockOf ai; rw [A_eq]; try rfl)
theorem before0_1 (c : Dev nD) (t : Fin cfg0.N) (d) : (dats m 0 c).before 1 t d = aj m c t :=
  ((dats m 0 c).before_in_eq_fetched 1 rfl (fun _ => rfl) (fun _ _ _ => rfl)
    (fun t => by rw [after0_1]; unfold Dat.blockOf aj; rw [A_eq]; try rfl) t d).trans
    (by unfold Dat.fetched Dat.blockOf aj; rw [A_eq]; try rfl)
theorem before0_2 (c : Dev nD) (t : Fin cfg0.N) (d) : (dats m 0 c).before 2 t d = idi m c t :=
  ((dats m 0 c).before_in_eq_fetched 2 rfl (fun _ => rfl) (fun _ _ _ => rfl)
    (fun t => by rw [after0_2]; unfold Dat.blockOf idi; rw [A_eq]; try rfl) t d).trans
    (by unfold Dat.fetched Dat.blockOf idi; rw [A_eq]; try rfl)
theorem before0_3 (c : Dev nD) (t : Fin cfg0.N) (d) : (dats m 0 c).before 3 t d = idj m c t :=
  ((dats m 0 c).before_in_eq_fetched 3 rfl (fun _ => rfl) (fun _ _ _ => rfl)
    (fun t => by rw [after0_3]; unfold Dat.blockOf idj; rw [A_eq]; try rfl) t d).trans
    (by unfold Dat.fetched Dat.blockOf idj; rw [A_eq]; try rfl)

/-! ## The windows' current buffers at a point, and the region invariant before the first point -/

abbrev ms0 (t : Fin cfg0.N) : Memref sig .tc .vmem S512x128 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S512x128 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x512 .i32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x512 .i32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x512 .f32 := win0_4.stage (cfg0.slots t 4)
abbrev hs4 (t : Fin cfg0.N) : (ms4 t).IsWhole := hstage0_4 ((cfg0.slots t 4).cast nbuf0_4)

/-- Before the first point the three accumulator rows are owned whole at some contents. -/
theorem Phi0_eq (c : Dev nD) :
    (Pipeline.scopedRest spec0 c : sProp 𝕄)
      = iprop((∃ d, owns (c : Thread nD τ) scM0 fullShare d) ∗ (∃ d, owns (c : Thread nD τ) scM1 fullShare d)
          ∗ (∃ d, owns (c : Thread nD τ) scM2 fullShare d)) := by
  rw [scopedRest0_eq]; simp only [scM0, scM1, scM2, owns_whole]; try rfl

/-! ## The body obligation, at a generic point -/

/-- What the body is called with at point t (the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

set_option maxHeartbeats 4800000 in
/-- The body at any point. The input windows' buffers hold the point's blocks; the closed forms say which case the
    point is in; the invariant hands the body the accumulator rows the point before left (anything, before the first
    point) and takes them back at this point's; the output's buffer is handed back as found except at a row's last
    point, where it receives the triplet term of the rows just updated; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0 t) fullShare ((dats m 0 c).after 0 t) from by
    unfold Dat.leavesExact; rw [live0 t], after0_0]
  rw [show (dats m 0 c).leavesExact 1 t = owns (c : Thread nD τ) (ms1 t) fullShare ((dats m 0 c).after 1 t) from by
    unfold Dat.leavesExact; rw [live1 t], after0_1]
  rw [show (dats m 0 c).leavesExact 2 t = owns (c : Thread nD τ) (ms2 t) fullShare ((dats m 0 c).after 2 t) from by
    unfold Dat.leavesExact; rw [live2 t], after0_2]
  rw [show (dats m 0 c).leavesExact 3 t = owns (c : Thread nD τ) (ms3 t) fullShare ((dats m 0 c).after 3 t) from by
    unfold Dat.leavesExact; rw [live3 t], after0_3]
  have hN : t.val < 256 := lt_of_lt_of_eq t.isLt (show cfg0.N = 256 from N_0)
  by_cases h0 : t.val % 16 = 0
  · -- a row's first point
    have h1 : ¬t.val % 16 = 15 := by omega
    have hc0 : condFirst (grid0.coords t) := (hcondFirst t).mpr h0
    have hc1 : ¬condLast (grid0.coords t) := fun h => h1 ((hcondLast t).mp h)
    rw [Dat.leavesExact_idle (dats m 0 c) 4 t (idle4 t hc1) (noFlush4 t hc1)]
    rw [acc_first m c t h0]; unfold stepAcc
    by_cases hz : t.val = 0
    · rw [PhiS_castSucc m c t, PhiS_zero m c _ _ hz, Phi0_eq]
      iintro ⟨⟨HS0, HS1, HS2⟩, Ho, ⟨%d0, H0⟩, ⟨%d1, H1⟩, ⟨%d2, H2⟩, ⟨%d3, H3⟩, ⟨%d4, H4⟩⟩
      iapply (runA c (grid0.coords t) _ (hs0 t) _ (hs1 t) _ (hs2 t) _ (hs3 t) _ (hs4 t) _ (Memref.isWhole_whole _) _ (Memref.isWhole_whole _) _ (Memref.isWhole_whole _) hc0 hc1
        (ai m c t) (aj m c t) (idi m c t) (idj m c t) _ Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      isplitl [HS2]; · iexact HS2
      iintro ⟨H0, H1, H2, H3, H4, HS0, HS1, HS2⟩
      isplitl [HS0 HS1 HS2]
      · isplitl [HS0]; · iexact HS0
        isplitl [HS1]; · iexact HS1
        iexact HS2
      isplitl [Ho]; · iexact Ho
      isplitl [H0]; · iexact H0
      isplitl [H1]; · iexact H1
      isplitl [H2]; · iexact H2
      isplitl [H3]; · iexact H3
      iexists _; iexact H4
    · rw [PhiS_castSucc m c t, PhiS_pos m c _ _ hz]
      iintro ⟨⟨HS0, HS1, HS2⟩, Ho, ⟨%d0, H0⟩, ⟨%d1, H1⟩, ⟨%d2, H2⟩, ⟨%d3, H3⟩, ⟨%d4, H4⟩⟩
      iapply (runA c (grid0.coords t) _ (hs0 t) _ (hs1 t) _ (hs2 t) _ (hs3 t) _ (hs4 t) _ (Memref.isWhole_whole _) _ (Memref.isWhole_whole _) _ (Memref.isWhole_whole _) hc0 hc1
        (ai m c t) (aj m c t) (idi m c t) (idj m c t) _ Set.univ _)
      isplitl [H0]; · iexact H0
      isplitl [H1]; · iexact H1
      isplitl [H2]; · iexact H2
      isplitl [H3]; · iexact H3
      isplitl [H4]; · iexact H4
      isplitl [HS0]; · iexists _; iexact HS0
      isplitl [HS1]; · iexists _; iexact HS1
      isplitl [HS2]; · iexists _; iexact HS2
      iintro ⟨H0, H1, H2, H3, H4, HS0, HS1, HS2⟩
      isplitl [HS0 HS1 HS2]
      · isplitl [HS0]; · iexact HS0
        isplitl [HS1]; · iexact HS1
        iexact HS2
      isplitl [Ho]; · iexact Ho
      isplitl [H0]; · iexact H0
      isplitl [H1]; · iexact H1
      isplitl [H2]; · iexact H2
      isplitl [H3]; · iexact H3
      iexists _; iexact H4
  · have hz : t.val ≠ 0 := fun e => h0 (by rw [e])
    have hc0 : ¬condFirst (grid0.coords t) := fun h => h0 ((hcondFirst t).mp h)
    rw [PhiS_castSucc m c t, PhiS_pos m c _ _ hz]
    rw [acc_next m c t h0]; unfold stepAcc
    by_cases h1 : t.val % 16 = 15
    · -- a row's last point
      have hc1 : condLast (grid0.coords t) := (hcondLast t).mpr h1
      rw [show (dats m 0 c).leavesExact 4 t = owns (c : Thread nD τ) (ms4 t) fullShare ((dats m 0 c).after 4 t) from by
        unfold Dat.leavesExact; rw [live4 t hc1], after0_4]
      unfold out4; rw [acc_next m c t h0]; unfold stepAcc
      iintro ⟨⟨HS0, HS1, HS2⟩, Ho, ⟨%d0, H0⟩, ⟨%d1, H1⟩, ⟨%d2, H2⟩, ⟨%d3, H3⟩, ⟨%d4, H4⟩⟩
      iapply (runC c (grid0.coords t) _ (hs0 t) _ (hs1 t) _ (hs2 t) _ (hs3 t) _ (hs4 t) _ (Memref.isWhole_whole _) _ (Memref.isWhole_whole _) _ (Memref.isWhole_whole _) hc0 hc1
        (ai m c t) (aj m c t) (idi m c t) (idj m c t)
        (acc m c (t.val - 1) (Nat.lt_of_le_of_lt (Nat.sub_le _ _) t.isLt)) Set.univ _)
      isplitl [H0]; · iexact H0
      isplitl [H1]; · iexact H1
      isplitl [H2]; · iexact H2
      isplitl [H3]; · iexact H3
      isplitl [H4]; · iexists _; iexact H4
      isplitl [HS0]; · iexact HS0
      isplitl [HS1]; · iexact HS1
      isplitl [HS2]; · iexact HS2
      iintro ⟨H0, H1, H2, H3, H4, HS0, HS1, HS2⟩
      isplitl [HS0 HS1 HS2]
      · isplitl [HS0]; · iexact HS0
        isplitl [HS1]; · iexact HS1
        iexact HS2
      isplitl [Ho]; · iexact Ho
      isplitl [H0]; · iexact H0
      isplitl [H1]; · iexact H1
      isplitl [H2]; · iexact H2
      isplitl [H3]; · iexact H3
      iexact H4
    · -- a point inside a row
      have hc1 : ¬condLast (grid0.coords t) := fun h => h1 ((hcondLast t).mp h)
      rw [Dat.leavesExact_idle (dats m 0 c) 4 t (idle4 t hc1) (noFlush4 t hc1)]
      iintro ⟨⟨HS0, HS1, HS2⟩, Ho, ⟨%d0, H0⟩, ⟨%d1, H1⟩, ⟨%d2, H2⟩, ⟨%d3, H3⟩, ⟨%d4, H4⟩⟩
      iapply (runB c (grid0.coords t) _ (hs0 t) _ (hs1 t) _ (hs2 t) _ (hs3 t) _ (hs4 t) _ (Memref.isWhole_whole _) _ (Memref.isWhole_whole _) _ (Memref.isWhole_whole _) hc0 hc1
        (ai m c t) (aj m c t) (idi m c t) (idj m c t) _
        (acc m c (t.val - 1) (Nat.lt_of_le_of_lt (Nat.sub_le _ _) t.isLt)) Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      isplitl [HS2]; · iexact HS2
      iintro ⟨H0, H1, H2, H3, H4, HS0, HS1, HS2⟩
      isplitl [HS0 HS1 HS2]
      · isplitl [HS0]; · iexact HS0
        isplitl [HS1]; · iexact HS1
        iexact HS2
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation (c : Dev nD) : BodyObligation (dats (F := F) m 0 c) (defs₀ (F := F)) Variants.none () Set.univ := fun t => by
  rw [bigSep_W0, bigSep_W0]
  exact sound_body m c t

end Cert.Kernel.Hand

end
-- ==== Proof.K.Launch.lean ====
/-
  The launch of the pairwise-distance kernel's program and the lines around its region.
  The embeddings' array is read through two windows and so is the identities' row: at the region's entry each of the
  two arrays is split into the two halves of its full share, one per window, and joined again at the exit; the result
  row is held outright. After the region the program's remaining lines (the per-identity sums and the final quotient)
  run from the exit contents: the result row at what the proof data compute, every other buffer as the region found it.
-/
import proofs.«147753_j50903952392404_1_alg».proof.Proof.K.Data
import Idealize.ShloMosaic.Lib.StableHlo.Run

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev tailOpss : List (List (HloOp τ sig (Elt F))) := [hostOps1, hostOps1_1, hostOps1_2, hostOps1_3, hostOps1_4]

theorem hmain : Pipeline.HMainK (Ix := Unit) (Name := ℕ) (U := UR sig nD τ) (Lvl := ℕ) cfgs 0 defs₀ Variants.none m (main (F := F)) (V m)
      (fun _ => Pipeline.chain ((tailOpss (F := F)).map StableHlo.seq)) :=
  Pipeline.hmain_around cfgs 0 defs₀ Variants.none m main [hostOps0] tailOpss (by simp only [List.Forall]; exact hostOps0_sub)
    (by simp only [List.Forall]; repeat' constructor) main_chain

def Vx (c : Dev nD) : Valuation τ sig (Elt F) :=
  Function.update (V0 m c) (Proc.devRef .tc main_v1) ((dats m 0 c).arrAt (4 : Fin 5) cfg0.N)

def afterV (c : Dev nD) (b : Ref sig .tc) : Buf (Elt F) ((c : Thread nD τ).loc b) :=
  StableHlo.after (tailOpss (F := F)).flatten (Vx m c) (Proc.devRef .tc b)

theorem img_eq : Finset.univ.image (Pipeline.arrRef spec0) = ([main_arg0, main_v0, main_v1] : List (Ref sig .tc)).toFinset := by decide

theorem arrBufs_eq3 (c : Dev nD) (W : (b : Ref sig .tc) → Buf (Elt F) ((c : Thread nD τ).loc b)) :
    (Pipeline.arrBufs (Ix := Unit) (Name := ℕ) (U := UR sig nD τ) (Lvl := ℕ) spec0 c W : sProp 𝕄)
      = iprop((((c : Thread nD τ).loc main_arg0) ↦{fullShare} W main_arg0) ∗ (((c : Thread nD τ).loc main_v0) ↦{fullShare} W main_v0)
          ∗ (((c : Thread nD τ).loc main_v1) ↦{fullShare} W main_v1)) := by
  unfold Pipeline.arrBufs
  exact bigSep_eq_bigSepL_of_eq [main_arg0, main_v0, main_v1] img_eq (by decide) _

theorem share_0 (c : Dev nD) : (dats m 0 c).share (0 : Fin 5) = fullShare.left := rfl
theorem share_1 (c : Dev nD) : (dats m 0 c).share (1 : Fin 5) = fullShare.right := rfl
theorem share_2 (c : Dev nD) : (dats m 0 c).share (2 : Fin 5) = fullShare.left := rfl
theorem share_3 (c : Dev nD) : (dats m 0 c).share (3 : Fin 5) = fullShare.right := rfl
theorem share_4 (c : Dev nD) : (dats m 0 c).share (4 : Fin 5) = fullShare := rfl

theorem arrays_univ (c : Dev nD) (G : (w : Fin cfg0.W) → Buf (Elt F) ((cfg0.win w).arr.view.loc (c : Thread nD τ))) :
    ((dats m 0 c).arrays G : sProp 𝕄)
      = bigSep Finset.univ fun w : Fin cfg0.W => (((c : Thread nD τ).loc (Pipeline.arrRef spec0 w)) ↦{(dats m 0 c).share w} G w : sProp 𝕄) := by
  unfold Dat.arrays
  exact bigSep_congr fun w _ => by rw [(arr_whole0 w).set_eq_univ]

theorem arrays_eq3 (c : Dev nD) (G : (w : Fin cfg0.W) → Buf (Elt F) ((cfg0.win w).arr.view.loc (c : Thread nD τ)))
    (X0 : Buf (Elt F) ((c : Thread nD τ).loc main_arg0)) (X2 : Buf (Elt F) ((c : Thread nD τ).loc main_v0))
    (X4 : Buf (Elt F) ((c : Thread nD τ).loc main_v1))
    (h0 : G 0 = X0) (h1 : G 1 = X0) (h2 : G 2 = X2) (h3 : G 3 = X2) (h4 : G 4 = X4) :
    ((dats m 0 c).arrays G : sProp 𝕄)
      = iprop((((c : Thread nD τ).loc main_arg0) ↦{fullShare} X0) ∗ (((c : Thread nD τ).loc main_v0) ↦{fullShare} X2)
          ∗ (((c : Thread nD τ).loc main_v1) ↦{fullShare} X4)) := by
  rw [arrays_univ, bigSep_W0, share_0, share_1, share_2, share_3, share_4, h0, h1, h2, h3, h4]
  refine BI.Entails.antisymm ?_ ?_
  · show (_ : sProp 𝕄) ⊢ (_ : sProp 𝕄)
    iintro ⟨H0, H1, H2, H3, H4⟩
    isplitl [H0 H1]
    · iapply (pointsTo_share (PosShare.mem_left_op_right fullShare)).2
      isplitl [H0]; · iexact H0
      iexact H1
    isplitl [H2 H3]
    · iapply (pointsTo_share (PosShare.mem_left_op_right fullShare)).2
      isplitl [H2]; · iexact H2
      iexact H3
    iexact H4
  · show (_ : sProp 𝕄) ⊢ (_ : sProp 𝕄)
    iintro ⟨H0, H2, H4⟩
    ihave H0' := (pointsTo_share (PosShare.mem_left_op_right fullShare)).1 $$ H0
    ihave H2' := (pointsTo_share (PosShare.mem_left_op_right fullShare)).1 $$ H2
    icases H0' with ⟨H0, H1⟩
    icases H2' with ⟨H2, H3⟩
    isplitl [H0]; · iexact H0
    isplitl [H1]; · iexact H1
    isplitl [H2]; · iexact H2
    isplitl [H3]; · iexact H3
    iexact H4

/-- All of the core's unscoped buffers held at a valuation: the three arrays behind the windows and the rest. -/
theorem held_eq (c : Dev nD) (W : Valuation τ sig (Elt F)) :
    (StableHlo.held (c.tc : Thread nD τ) (Pipeline.ucRefs τ sig) W : sProp 𝕄)
      = iprop(iprop((((c : Thread nD τ).loc main_arg0) ↦{fullShare} W (Proc.devRef .tc main_arg0))
            ∗ (((c : Thread nD τ).loc main_v0) ↦{fullShare} W (Proc.devRef .tc main_v0))
            ∗ (((c : Thread nD τ).loc main_v1) ↦{fullShare} W (Proc.devRef .tc main_v1)))
          ∗ Pipeline.unscopedRest (Ix := Unit) (Name := ℕ) (U := UR sig nD τ) (Lvl := ℕ) spec0 c (fun b => W (Proc.devRef .tc b))) := by
  rw [← Pipeline.unscopedBufs_held (Ix := Unit) (Name := ℕ) (U := UR sig nD τ) (Lvl := ℕ) c W,
    Pipeline.unscopedBufs_split₀ cfgs (0 : Fin 1) winFacts₀0.arr_unscoped c, arrBufs_eq3]

theorem arrAt0 (c : Dev nD) (n : ℕ) : (dats m 0 c).arrAt (0 : Fin 5) n = V m c main_arg0 :=
  ((dats m 0 c).arrAt_in (0 : Fin 5) rfl n).trans (A_eq m c 0)
theorem arrAt1 (c : Dev nD) (n : ℕ) : (dats m 0 c).arrAt (1 : Fin 5) n = V m c main_arg0 :=
  ((dats m 0 c).arrAt_in (1 : Fin 5) rfl n).trans (A_eq m c 1)
theorem arrAt2 (c : Dev nD) (n : ℕ) : (dats m 0 c).arrAt (2 : Fin 5) n = V m c main_v0 :=
  ((dats m 0 c).arrAt_in (2 : Fin 5) rfl n).trans (A_eq m c 2)
theorem arrAt3 (c : Dev nD) (n : ℕ) : (dats m 0 c).arrAt (3 : Fin 5) n = V m c main_v0 :=
  ((dats m 0 c).arrAt_in (3 : Fin 5) rfl n).trans (A_eq m c 3)

theorem hsplit (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  rw [arrBufs_eq3, arrays_eq3 m c (fun x => (dats m 0 c).arrAt x 0) (V m c main_arg0) (V m c main_v0) (V m c main_v1) (arrAt0 m c 0) (arrAt1 m c 0) (arrAt2 m c 0)
    (arrAt3 m c 0) (A_eq m c 4)]

theorem Vx_v1 (c : Dev nD) : Vx m c (Proc.devRef .tc main_v1) = (dats m 0 c).arrAt (4 : Fin 5) cfg0.N := by
  unfold Vx; exact Function.update_self ..

theorem Vx_of_ne (c : Dev nD) (b : Ref sig .tc) (hb : b ≠ main_v1) : Vx m c (Proc.devRef .tc b) = V m c b := by
  unfold Vx; exact Function.update_of_ne (fun e => hb (Proc.devRef_injective _ e)) ..

/-- Every buffer the lines after the region write. -/
abbrev tailW : List (Ref sig .tc) := [main_v2, main_cst, main_v3, main_cst_0, main_v4, main_v5, main_v6, main_cst_1, main_v7, main_v8, main_v9, main_cst_2, main_v10, main_v11, main_cst_3, main_call0_v0, main_call0_v1, main_v12, main_v13, main_cst_4, main_call1_v0, main_call1_v1, main_v14, main_v15, main_cst_5, main_v16, main_cst_6, main_v17, main_v18]

theorem tail_writes : ((tailOpss (F := F)).flatten).Forall fun op => op.writes ⊆ ((tailW.map (Proc.devRef (τ := τ) .tc)).toFinset) := by
  simp only [tailOpss, List.flatten_cons, List.flatten_nil, List.append_nil, hostOps1, hostOps1_1, hostOps1_2, hostOps1_3, hostOps1_4,
    List.cons_append, List.nil_append, List.Forall]
  repeat' constructor
  all_goals (
    simp only [StableHlo.TRef.unary, StableHlo.TRef.ternary, StableHlo.nullary_writes, StableHlo.unary_writes, StableHlo.binary_writes,
      StableHlo.ternary_writes, StableHlo.reshape_writes, Finset.singleton_subset_iff, List.mem_toFinset]
    exact List.mem_map.mpr ⟨_, by decide, rfl⟩)

theorem tail_keeps (W : Valuation τ sig (Elt F)) (r : Ref sig .tc) (hr : r ∉ tailW) :
    StableHlo.after ((tailOpss (F := F)).flatten) W (Proc.devRef .tc r) = W (Proc.devRef .tc r) :=
  StableHlo.after_of_writes_sub _ W tail_writes hr

theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps1_3_fresh : (hostOps1_3 : List (HloOp τ sig (Elt F))).Forall fun op => op.fresh = ∅ := by
  simp only [List.Forall]; repeat' constructor
theorem hostOps1_4_fresh : (hostOps1_4 : List (HloOp τ sig (Elt F))).Forall fun op => op.fresh = ∅ := by
  simp only [List.Forall]; repeat' constructor

theorem tail_sub : ∀ ops ∈ (tailOpss : List (List (HloOp τ sig (Elt F)))), ∀ op ∈ ops, op.bufs ⊆ Pipeline.ucRefs τ sig := by
  intro ops hops op hop
  simp only [tailOpss, List.mem_cons, List.mem_nil_iff, or_false] at hops
  rcases hops with rfl | rfl | rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
  · exact Pipeline.sub_ucRefs op ((List.forall_iff_forall_mem.mp hostOps1_3_sub) op hop)
  · exact Pipeline.sub_ucRefs op ((List.forall_iff_forall_mem.mp hostOps1_4_sub) op hop)

theorem tail_fresh : ∀ ops ∈ (tailOpss : List (List (HloOp τ sig (Elt F)))), ∀ op ∈ ops, op.fresh = ∅ := by
  intro ops hops op hop
  simp only [tailOpss, List.mem_cons, List.mem_nil_iff, or_false] at hops
  rcases hops with rfl | rfl | rfl | rfl | rfl
  · exact (List.forall_iff_forall_mem.mp hostOps1_fresh) op hop
  · exact (List.forall_iff_forall_mem.mp hostOps1_1_fresh) op hop
  · exact (List.forall_iff_forall_mem.mp hostOps1_2_fresh) op hop
  · exact (List.forall_iff_forall_mem.mp hostOps1_3_fresh) op hop
  · exact (List.forall_iff_forall_mem.mp hostOps1_4_fresh) op hop

/-- No window's array is among the rest. -/
theorem rest_ne_v1 (b : Ref sig .tc) (hb : b ∈ (Finset.univ.filter fun b : Ref sig .tc => ¬ b.isScoped) \ Finset.univ.image (Pipeline.arrRef spec0)) :
    b ≠ main_v1 := fun e =>
  (Finset.mem_sdiff.mp hb).2 (Finset.mem_image.mpr ⟨4, Finset.mem_univ _, e.symm⟩)

/-- The region's exit — the windows' arrays at their final contents, the other unscoped buffers as the region found
    them — is the core's unscoped buffers held at the exit valuation. -/
theorem held_exit (c : Dev nD) :
    (StableHlo.held (c.tc : Thread nD τ) (Pipeline.ucRefs τ sig) (Vx m c) : sProp 𝕄)
      = iprop((dats m 0 c).arrays ((dats m 0 c).arrAt · cfg0.N)
          ∗ Pipeline.unscopedRest (Ix := Unit) (Name := ℕ) (U := UR sig nD τ) (Lvl := ℕ) spec0 c (V m c)) := by
  rw [held_eq, arrays_eq3 m c (fun w => (dats m 0 c).arrAt w cfg0.N) (V m c main_arg0) (V m c main_v0) ((dats m 0 c).arrAt 4 cfg0.N)
    (arrAt0 m c _) (arrAt1 m c _) (arrAt2 m c _) (arrAt3 m c _) rfl,
    Vx_v1, Vx_of_ne m c main_arg0 (by decide), Vx_of_ne m c main_v0 (by decide)]
  congr 1
  all_goals (unfold Pipeline.unscopedRest; exact bigSep_congr fun b hb => by rw [Vx_of_ne m c b (rest_ne_v1 b hb)])

/-- After the lines that follow the region: the same, the rest at the lines' results. -/
theorem held_after (c : Dev nD) :
    (StableHlo.held (c.tc : Thread nD τ) (Pipeline.ucRefs τ sig) (StableHlo.after ((tailOpss (F := F)).flatten) (Vx m c)) : sProp 𝕄)
      = iprop((dats m 0 c).arrays ((dats m 0 c).arrAt · cfg0.N)
          ∗ Pipeline.unscopedRest (Ix := Unit) (Name := ℕ) (U := UR sig nD τ) (Lvl := ℕ) spec0 c (afterV m c)) := by
  rw [held_eq, arrays_eq3 m c (fun w => (dats m 0 c).arrAt w cfg0.N) (V m c main_arg0) (V m c main_v0) ((dats m 0 c).arrAt 4 cfg0.N)
    (arrAt0 m c _) (arrAt1 m c _) (arrAt2 m c _) (arrAt3 m c _) rfl,
    tail_keeps (Vx m c) main_arg0 (by decide), tail_keeps (Vx m c) main_v0 (by decide), tail_keeps (Vx m c) main_v1 (by decide),
    Vx_v1, Vx_of_ne m c main_arg0 (by decide), Vx_of_ne m c main_v0 (by decide)]
  rfl

set_option backward.isDefEq.respectTransparency.types false in
theorem htail (c : Dev nD) (Q' : PUnit → sProp 𝕄) :
    iprop((iprop((dats m 0 c).arrays ((dats m 0 c).arrAt · cfg0.N)
              ∗ Pipeline.unscopedRest (Ix := Unit) (Name := ℕ) (U := UR sig nD τ) (Lvl := ℕ) spec0 c (afterV m c)) -∗ Q' ⟨⟩)
        ∗ boundary (c.tc : Thread nD τ) ∗ (dats m 0 c).arrays ((dats m 0 c).arrAt · cfg0.N)
        ∗ Pipeline.unscopedRest (Ix := Unit) (Name := ℕ) (U := UR sig nD τ) (Lvl := ℕ) spec0 c (V m c))
      ⊢ wp frame (wpE (Pipeline.defs (fun q => (cfgs q).toPCfg (Val := Elt F)) defs₀) (Variants.lift Variants.none) (c.tc : Thread nD τ) none) Set.univ
          (Pipeline.chain ((tailOpss (F := F)).map StableHlo.seq)) Q' := by
  rw [← List.append_nil ((tailOpss (F := F)).map StableHlo.seq), ← held_exit]
  iintro ⟨Hk, Hb⟩
  iapply (Pipeline.wp_seqs_then (fun q => (cfgs q).toPCfg (Val := Elt F)) defs₀ Variants.none c (Pipeline.ucRefs τ sig) [] tailOpss tail_sub tail_fresh (Vx m c)) $$ Hb
  iintro Hb
  rw [Pipeline.chain_nil, wp_pure, held_after]
  imodintro
  iapply Hk
  icases Hb with ⟨-, H⟩
  iexact H

theorem hout (c : Dev nD) : (dats m 0 c).Φ (Fin.last cfg0.N) ⊢ iprop((BI.emp : sProp 𝕄) ∗ Pipeline.scopedRest spec0 c) := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 256 := N_0; omega), scopedRest0_eq]
  simp only [scM0, scM1, scM2, owns_whole]
  iintro ⟨H0, H1, H2⟩
  isplitr; · iempintro
  isplitl [H0]; · iexists _; iexact H0
  isplitl [H1]; · iexists _; iexact H1
  iexists _; iexact H2

theorem hin (c : Dev nD) : (Pipeline.scopedRest spec0 c : sProp 𝕄) ⊢ (dats m 0 c).Φ 0 := by
  rw [show (dats m 0 c).Φ 0 = PhiS m c 0 (Nat.zero_le _) from rfl, PhiS_zero m c 0 _ rfl]

set_option backward.isDefEq.respectTransparency.types false in
/-- The run: every weakly fair execution of @main terminates without a fault; at the end every unscoped buffer that is
    no window's array holds what the lines after the region compute from the region's exit, and the windows' arrays
    hold the proof data's final contents. -/
theorem run_main (hbody : ∀ c, BodyObligation (dats (F := F) m 0 c) (defs₀ (F := F)) Variants.none () Set.univ) :
    θ_run defs (onTc (τ := τ) (main (F := F))) ⟨m, fun _ => 0, ρ⟩ (fun r => ∀ c : Dev nD,
      (∀ w, r.2.mem (((cfg0.win w).arr.view.loc (c.tc : Thread nD τ))) = (dats m 0 c).arrAt w cfg0.N)
      ∧ ∀ b ∈ Pipeline.restRefs sig spec0, r.2.mem ((c.tc : Thread nD τ).loc b) = afterV m c b) :=
  Pipeline.θ_run_region_noSem_pf_tail (fun q => (cfgs q).toPCfg (Val := Elt F)) (fun q => (cfgs q).toPCfg_adm) (dats m) () cellOf_inj (0 : Fin 1)
    winFacts₀0 (Pipeline.PreFacts.none _) emb₁ defs₀ Variants.none m ρ main
    (fun _ => Pipeline.chain ((tailOpss (F := F)).map StableHlo.seq))
    (hbody := fun c => (hbody c).loose) (hne := block_pos0) (harr := arr_whole0) (hstage := stage_whole0) (howed := fun _ _ => rfl)
    (u₀ := initOf (Pipeline.cells cfgs cellOf_inj) (Pipeline.launchToks cfgs cellOf_inj)) (hu₀ := .rfl)
    (V := V m) (hmain := hmain m) (hsplit := hsplit m) (hpf := fun _ k => k.elim0)
    (X := fun _ => iprop(emp)) (Y := fun _ => iprop(emp))
    (Z := fun c => Pipeline.unscopedRest (Ix := Unit) (Name := ℕ) (U := UR sig nD τ) (Lvl := ℕ) spec0 c (V m c))
    (Z' := fun c => Pipeline.unscopedRest (Ix := Unit) (Name := ℕ) (U := UR sig nD τ) (Lvl := ℕ) spec0 c (afterV m c))
    (hX := fun c => by
      rw [Pipeline.unscopedRestP_none]
      iintro H; isplitr; · iempintro
      iexact H)
    (hin := fun c => (show _ ⊢ (Pipeline.scopedRest spec0 c : sProp 𝕄) from by iintro ⟨-, -, HR⟩; iexact HR).trans (hin m c))
    (hout := hout m)
    (htail := htail m)
    (QY := fun c s => ∀ b ∈ Pipeline.restRefs sig spec0, s.mem ((c.tc : Thread nD τ).loc b) = afterV m c b)
    (hY := fun c s' => by
      iintro ⟨-, HU, HSI⟩
      unfold Pipeline.unscopedRest
      imodintro
      iapply (pointsTo_read_all (Pipeline.restRefs sig spec0) (fun b => (c.tc : Thread nD τ).loc b) (afterV m c) s')
      isplitl [HU] <;> iassumption)
    (hQ := fun s h c => ⟨(h c).1, (h c).2.2⟩)

/-- The host line before the region does not write the embeddings, -/
theorem V_at_arg0 (c : Dev nD) : V m c main_arg0 = m ((c : Thread nD τ).loc main_arg0) := by
  show StableHlo.after hostOps0 (fun b => m (c, b)) (Proc.devRef .tc main_arg0) = _
  after_results

/-- nor the identities. -/
theorem V_at_arg1 (c : Dev nD) : V m c main_arg1 = m ((c : Thread nD τ).loc main_arg1) := by
  show StableHlo.after hostOps0 (fun b => m (c, b)) (Proc.devRef .tc main_arg1) = _
  after_results

/-- No line after the region writes the identities either. -/
theorem afterV_arg1 (c : Dev nD) : afterV m c main_arg1 = m ((c : Thread nD τ).loc main_arg1) := by
  unfold afterV
  rw [tail_keeps (Vx m c) main_arg1 (by decide), Vx_of_ne m c main_arg1 (by decide), V_at_arg1]

theorem arg1_rest : main_arg1 ∈ Pipeline.restRefs sig spec0 := by decide
theorem v18_rest : main_v18 ∈ Pipeline.restRefs sig spec0 := by decide

/-- The frame: the run ends with both arguments as they were. -/
theorem frame (hbody : ∀ c, BodyObligation (dats (F := F) m 0 c) (defs₀ (F := F)) Variants.none () Set.univ) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((h c).1 0).trans ((arrAt0 m c _).trans (V_at_arg0 m c)),
      ((h c).2 main_arg1 arg1_rest).trans (afterV_arg1 m c)⟩) (run_main m ρ hbody)

end Cert.Kernel.Hand

end
-- ==== Proof.KI.TileDef.lean ====
/-
  One tile's update of the three one-row accumulators, and a row's accumulators as the fold of its sixteen tiles, over
  explicit blocks: the anchor block's rows and identities (a_i, id_i) and a partner block's (a_j, id_j).
  The first accumulator keeps, lane by lane, the maximum of the pairwise distance over the partners of the lane's
  identity; the second the minimum over the partners of the lane's class and another identity; the third the
  maximum of that mask read as 0 or 1.
-/
import proofs.«147753_j50903952392404_1_alg».proof.Proof.Gen.KernelIdeal.Skeleton

noncomputable section

namespace Cert.KernelIdeal.Hand

open Cert.KernelIdeal Cert.KernelIdeal.Gen
open Idealize.ShloMosaic Idealize.SL.Sem

variable {F : FTy → Type} [FloatOps F]

/-- One tile's update of the accumulators p. -/
def tileStep (a_i a_j : Vec F S512x128 .f32) (id_i id_j : Vec F S1x512 .i32)
    (p : Vec F S1x512 .f32 × Vec F S1x512 .f32 × Vec F S1x512 .f32) :
    Vec F S1x512 .f32 × Vec F S1x512 .f32 × Vec F S1x512 .f32 :=
  (k0_pay14 (k0_pay5 id_i) (k0_pay6 a_i a_j) (k0_pay7 id_j) p.1,
   k0_pay15 (k0_pay5 id_i) (k0_pay6 a_i a_j) (k0_pay7 id_j) (k0_pay8 (k0_pay7 id_j))
     (k0_pay9 (k0_pay5 id_i)) (k0_pay10 (k0_pay5 id_i)) k0_pay11 p.2.1,
   k0_pay16 (k0_pay5 id_i) (k0_pay7 id_j) (k0_pay8 (k0_pay7 id_j))
     (k0_pay9 (k0_pay5 id_i)) (k0_pay10 (k0_pay5 id_i)) k0_pay11 p.2.2)

/-- The accumulators a row starts from: −∞, +∞ and 0 in every lane. -/
def acc0 : Vec F S1x512 .f32 × Vec F S1x512 .f32 × Vec F S1x512 .f32 := (k0_pay2, k0_pay3, k0_pay4)

/-- A row's accumulators after its tiles 0 … j, the partner blocks given as families over the tile number. -/
def rowAcc (a_i : Vec F S512x128 .f32) (id_i : Vec F S1x512 .i32) (a_j : ℕ → Vec F S512x128 .f32) (id_j : ℕ → Vec F S1x512 .i32) :
    ℕ → Vec F S1x512 .f32 × Vec F S1x512 .f32 × Vec F S1x512 .f32
  | 0 => tileStep a_i (a_j 0) id_i (id_j 0) acc0
  | j + 1 => tileStep a_i (a_j (j + 1)) id_i (id_j (j + 1)) (rowAcc a_i id_i a_j id_j j)

end Cert.KernelIdeal.Hand

end
-- ==== Proof.KI.Data.lean ====
/-
  The proof data of the pairwise-distance kernel's one pipeline, for any float instance.
  The grid is 16 × 16, point t = 16·i + j: anchor block i (window 0 the embeddings' rows, window 2 their identities),
  partner block j (windows 1 and 3), the output block i (window 4), written back after the row's last point.
  Three one-row accumulators live in scratch: the running maximum over the partners of the same identity, the running
  minimum over the partners of the same class and another identity, and the running maximum of that mask as a float.
  At a row's first point they restart from −∞, +∞ and 0; every point folds its 512 × 512 tile in; the row's last point
  turns them into the output block. `acc` is those three rows after each point, `out4` the block the last point stores.
-/
import proofs.«147753_j50903952392404_1_alg».proof.Proof.Gen.KernelIdeal.Launch
import proofs.«147753_j50903952392404_1_alg».proof.Proof.Gen.KernelIdeal.Skeleton
import proofs.«147753_j50903952392404_1_alg».proof.Proof.KI.TileDef
import proofs.«147753_j50903952392404_1_alg».proof.Proof.Gen.KernelIdeal.Points
import Idealize.ShloMosaic.Lib.Pipeline.FrameBody
import Idealize.ShloMosaic.Lib.Pipeline.FrameSuffix
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- Core c's buffer contents when the region is entered: after the one host line before it (the identities reshaped
    to one row). -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

/-- The anchor rows' block at point t (window 0). -/
def ai (c : Dev nD) (t : Fin cfg0.N) : Vec F S512x128 .f32 :=
  ((cfg0.win 0).blk t).view.read (Elt F) (V m c (Pipeline.arrRef spec0 0))
/-- The partner rows' block at point t (window 1). -/
def aj (c : Dev nD) (t : Fin cfg0.N) : Vec F S512x128 .f32 :=
  ((cfg0.win 1).blk t).view.read (Elt F) (V m c (Pipeline.arrRef spec0 1))
/-- The anchors' identities at point t (window 2). -/
def idi (c : Dev nD) (t : Fin cfg0.N) : Vec F S1x512 .i32 :=
  ((cfg0.win 2).blk t).view.read (Elt F) (V m c (Pipeline.arrRef spec0 2))
/-- The partners' identities at point t (window 3). -/
def idj (c : Dev nD) (t : Fin cfg0.N) : Vec F S1x512 .i32 :=
  ((cfg0.win 3).blk t).view.read (Elt F) (V m c (Pipeline.arrRef spec0 3))

/-- One point's update of the three accumulators p from the point's blocks. -/
def stepAcc (c : Dev nD) (t : Fin cfg0.N) (p : Vec F S1x512 .f32 × Vec F S1x512 .f32 × Vec F S1x512 .f32) :
    Vec F S1x512 .f32 × Vec F S1x512 .f32 × Vec F S1x512 .f32 :=
  tileStep (ai m c t) (aj m c t) (idi m c t) (idj m c t) p

/-- The three accumulators after the body at position n: restarted at a row's first point (n ≡ 0 mod 16), else carried
    from the point before. -/
def acc (c : Dev nD) : (n : ℕ) → n < cfg0.N → Vec F S1x512 .f32 × Vec F S1x512 .f32 × Vec F S1x512 .f32
  | 0, hn => stepAcc m c ⟨0, hn⟩ acc0
  | n + 1, hn => stepAcc m c ⟨n + 1, hn⟩ (if (n + 1) % 16 = 0 then acc0 else acc c n (Nat.lt_of_succ_lt hn))

theorem acc_first (c : Dev nD) (t : Fin cfg0.N) (h : t.val % 16 = 0) : acc m c t.val t.isLt = stepAcc m c t acc0 := by
  obtain ⟨n, hn⟩ := t
  cases n with
  | zero => rfl
  | succ n => exact congrArg (stepAcc m c ⟨n + 1, hn⟩) (if_pos h)

theorem acc_next (c : Dev nD) (t : Fin cfg0.N) (h : ¬t.val % 16 = 0) :
    acc m c t.val t.isLt = stepAcc m c t (acc m c (t.val - 1) (Nat.lt_of_le_of_lt (Nat.sub_le _ _) t.isLt)) := by
  obtain ⟨n, hn⟩ := t
  cases n with
  | zero => exact absurd (Nat.zero_mod _) h
  | succ n => exact congrArg (stepAcc m c ⟨n + 1, hn⟩) (if_neg h)

/-- What the row's last point stores into the output block: the triplet term of the accumulators it has just updated. -/
def out4 (c : Dev nD) (t : Fin cfg0.N) : Vec F S1x512 .f32 :=
  k0_pay1 (acc m c t.val t.isLt).1 (acc m c t.val t.isLt).2.1 (acc m c t.val t.isLt).2.2

/-- The scratch operands as memrefs. -/
abbrev scM0 : Memref sig .tc .vmem S1x512 .f32 := Memref.whole cc0_scratch0
abbrev scM1 : Memref sig .tc .vmem S1x512 .f32 := Memref.whole cc0_scratch1
abbrev scM2 : Memref sig .tc .vmem S1x512 .f32 := Memref.whole cc0_scratch2

/-- The region invariant before position n: before the first point the three scratch buffers at anything; afterwards
    each at the accumulator the point before left in it. -/
def PhiS (c : Dev nD) : (n : ℕ) → n ≤ cfg0.N → sProp 𝕄
  | 0, _ => Pipeline.scopedRest spec0 c
  | n + 1, hn => iprop(owns (c : Thread nD τ) scM0 fullShare ((acc m c n hn).1)
      ∗ owns (c : Thread nD τ) scM1 fullShare ((acc m c n hn).2.1)
      ∗ owns (c : Thread nD τ) scM2 fullShare ((acc m c n hn).2.2))

theorem PhiS_zero (c : Dev nD) (n : ℕ) (h : n ≤ cfg0.N) (hz : n = 0) : PhiS m c n h = Pipeline.scopedRest spec0 c := by
  subst hz; rfl

theorem PhiS_succ (c : Dev nD) (n : ℕ) (hn : n < cfg0.N) :
    PhiS m c (n + 1) hn = iprop(owns (c : Thread nD τ) scM0 fullShare ((acc m c n hn).1)
      ∗ owns (c : Thread nD τ) scM1 fullShare ((acc m c n hn).2.1)
      ∗ owns (c : Thread nD τ) scM2 fullShare ((acc m c n hn).2.2)) := rfl

theorem PhiS_pos (c : Dev nD) (n : ℕ) (h : n ≤ cfg0.N) (hz : n ≠ 0) :
    PhiS m c n h = iprop(owns (c : Thread nD τ) scM0 fullShare ((acc m c (n - 1) (by omega)).1)
      ∗ owns (c : Thread nD τ) scM1 fullShare ((acc m c (n - 1) (by omega)).2.1)
      ∗ owns (c : Thread nD τ) scM2 fullShare ((acc m c (n - 1) (by omega)).2.2)) := by
  cases n with
  | zero => exact absurd rfl hz
  | succ n => rfl

/-- The proof data of the pipeline on core c. The embeddings' array is read by windows 0 and 1 and the identities' row
    by windows 2 and 3: each pair holds its array by the two halves of the full share. -/
def dats (_ : Fin 1) (c : Dev nD) : Dat τ (Elt F) Unit ℕ (UR sig nD τ) ℕ cfg0 c where
  A w := V m c (Pipeline.arrRef spec0 w)
  after w t := match w with
    | ⟨0, _⟩ => ai m c t
    | ⟨1, _⟩ => aj m c t
    | ⟨2, _⟩ => idi m c t
    | ⟨3, _⟩ => idj m c t
    | ⟨4, _⟩ => out4 m c t
  Φ t := PhiS m c t.val (Nat.le_of_lt_succ t.isLt)
  q w := match w with
    | ⟨0, _⟩ => fullShare.left
    | ⟨1, _⟩ => fullShare.right
    | ⟨2, _⟩ => fullShare.left
    | ⟨3, _⟩ => fullShare.right
    | ⟨4, _⟩ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = ai m c t := by dsimp only [dats]
theorem after0_1 (c : Dev nD) (t : Fin cfg0.N) : (dats m 0 c).after 1 t = aj m c t := by dsimp only [dats]
theorem after0_2 (c : Dev nD) (t : Fin cfg0.N) : (dats m 0 c).after 2 t = idi m c t := by dsimp only [dats]
theorem after0_3 (c : Dev nD) (t : Fin cfg0.N) : (dats m 0 c).after 3 t = idj m c t := by dsimp only [dats]
theorem after0_4 (c : Dev nD) (t : Fin cfg0.N) : (dats m 0 c).after 4 t = out4 m c t := by dsimp only [dats]

end Cert.KernelIdeal.Hand

end
-- ==== Proof.KI.Runs.lean ====
/-
  The kernel body run on any whole buffers, in each of the three cases of its two conditionals (first point of a row,
  a point inside a row, last point of a row), for any float instance: the four input windows are read and handed back
  unchanged, the three accumulator rows end at one tile's update of the rows the case starts from, and the output
  block is either untouched or, at a row's last point, the triplet term of the updated rows. Every load and store of
  the body is of a whole buffer, so every read-back is the last stored value.
-/
import proofs.«147753_j50903952392404_1_alg».proof.Proof.KI.Data
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The two zero offsets, however spelt. -/
private theorem hz : (![0, 0] : Fin 2 → Nat) = fun _ => 0 := funext fun a => by fin_cases a <;> rfl

/-- A whole-buffer store made last leaves its payload, whatever the buffer held and whatever was stored before. -/
private theorem read_writes_cons_unit {κ : Kind} {sp : Space} {S : Shape} {e : EltTy} (v : View sig κ sp S e)
    (f : v.ty.Contents (Elt F)) {off : Fin S.rank → Nat} (h : off = fun _ => 0) (inb : ∀ a, off a + S.size a ≤ S.size a)
    (w : S.Idx → Elt F e) (L : List (View.Piece (Elt F) S e)) :
    v.read (Elt F) (v.writes (Elt F) f ((⟨Rect.unit off S.size inb, w⟩ : View.Piece (Elt F) S e) :: L)) = w := by
  rw [View.read_writes_eq_canon _ _ _ (fun y => ⟨_, List.mem_cons_self, View.mem_set_unit_zero h inb y⟩),
    View.canon_cons_unit_zero h]

/-! ## The body, case by case

The body on any whole memrefs: windows 0–3 at their blocks x0 … x3, handed back as they were; the three accumulator
rows handed back at one tile's update (tileStep) of the rows the case starts from; the output block untouched, or
(last point of a row) at the triplet term of the updated rows. -/

set_option maxHeartbeats 1000000 in
/-- A row's first point (j = 0, not the last): the accumulators, whatever they held, restart from acc0 and take the
    tile; the output's buffer is not touched. -/
theorem runA (c : Dev nD) (i : grid0.Coords) (arg2 : Memref sig .tc .vmem S512x128 .f32) (harg2 : arg2.IsWhole) (arg3 : Memref sig .tc .vmem S512x128 .f32) (harg3 : arg3.IsWhole) (arg4 : Memref sig .tc .vmem S1x512 .i32) (harg4 : arg4.IsWhole) (arg5 : Memref sig .tc .vmem S1x512 .i32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S1x512 .f32) (harg9 : arg9.IsWhole)
    (hc0 : (Scalar.cmpi .ne (Scalar.extui (Scalar.cmpi .eq (BitVec.ofNat 32 (i 1).val) 0#32)) 0#32) = 1#1) (hc1 : ¬(k0_cond2 i = 1#1))
    (x0 x1 : Vec F S512x128 .f32) (x2 x3 : Vec F S1x512 .i32) (xi4 : Vec F S1x512 .f32)
    (E : Set ℕ) (K : PUnit → sProp 𝕄) :
    iprop(owns (c : Thread nD τ) arg2 fullShare x0 ∗ owns (c : Thread nD τ) arg3 fullShare x1
        ∗ owns (c : Thread nD τ) arg4 fullShare x2 ∗ owns (c : Thread nD τ) arg5 fullShare x3
        ∗ owns (c : Thread nD τ) arg6 fullShare xi4
        ∗ (∃ d, owns (c : Thread nD τ) arg7 fullShare d) ∗ (∃ d, owns (c : Thread nD τ) arg8 fullShare d) ∗ (∃ d, owns (c : Thread nD τ) arg9 fullShare d)
        ∗ (iprop(owns (c : Thread nD τ) arg2 fullShare x0 ∗ owns (c : Thread nD τ) arg3 fullShare x1
        ∗ owns (c : Thread nD τ) arg4 fullShare x2 ∗ owns (c : Thread nD τ) arg5 fullShare x3
            ∗ owns (c : Thread nD τ) arg6 fullShare xi4
            ∗ owns (c : Thread nD τ) arg7 fullShare (tileStep x0 x1 x2 x3 acc0).1
            ∗ owns (c : Thread nD τ) arg8 fullShare (tileStep x0 x1 x2 x3 acc0).2.1
            ∗ owns (c : Thread nD τ) arg9 fullShare (tileStep x0 x1 x2 x3 acc0).2.2) -∗ K ⟨⟩))
      ⊢ wp frame (wpE (defs₀ (F := F)) Variants.none c none) E (cc0__assoc_kernel i arg2 harg2 arg3 harg3 arg4 harg4 arg5 harg5 arg6 harg6 arg7 harg7 arg8 harg8 arg9 harg9) K := by
  rw [cc0__assoc_kernel_eq_skeleton]; unfold cc0__assoc_kernel_skel
  unfold owns
  iintro ⟨⟨%f0, %hf0, H0⟩, ⟨%f1, %hf1, H1⟩, ⟨%f2, %hf2, H2⟩, ⟨%f3, %hf3, H3⟩, ⟨%f4, %hf4, H4⟩, ⟨%ds0, %fs0, -, HS0⟩, ⟨%ds1, %fs1, -, HS1⟩, ⟨%ds2, %fs2, -, HS2⟩, Hk⟩
  obtain rfl := harg2.eq_unread hf0; obtain rfl := harg3.eq_unread hf1
  obtain rfl := harg4.eq_unread hf2; obtain rfl := harg5.eq_unread hf3
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact hf4
    iexact H4
  isplitl [HS0]
  · iexists _; isplitr
    swap; · iexact HS0
    ipureintro
    sl_unfold_words
    rw [read_writes_cons_unit _ _ hz]
    simp only [View.readAt_eq_ld, Memref.IsWhole.read_unread, View.ld_unit_zero (S := S1x512) hz,
      View.ld_unit_zero (S := S512x128) hz, View.readCov_unit_zero (S := S1x512) _ hz]
    try rfl
  isplitl [HS1]
  · iexists _; isplitr
    swap; · iexact HS1
    ipureintro
    sl_unfold_words
    rw [read_writes_cons_unit _ _ hz]
    simp only [View.readAt_eq_ld, Memref.IsWhole.read_unread, View.ld_unit_zero (S := S1x512) hz,
      View.ld_unit_zero (S := S512x128) hz, View.readCov_unit_zero (S := S1x512) _ hz]
    try rfl
  · iexists _; isplitr
    swap; · iexact HS2
    ipureintro
    sl_unfold_words
    rw [read_writes_cons_unit _ _ hz]
    simp only [View.readAt_eq_ld, Memref.IsWhole.read_unread, View.ld_unit_zero (S := S1x512) hz,
      View.ld_unit_zero (S := S512x128) hz, View.readCov_unit_zero (S := S1x512) _ hz]
    try rfl

set_option maxHeartbeats 1000000 in
/-- A point inside a row (neither first nor last): the accumulators p take the tile; the output's buffer is not
    touched. -/
theorem runB (c : Dev nD) (i : grid0.Coords) (arg2 : Memref sig .tc .vmem S512x128 .f32) (harg2 : arg2.IsWhole) (arg3 : Memref sig .tc .vmem S512x128 .f32) (harg3 : arg3.IsWhole) (arg4 : Memref sig .tc .vmem S1x512 .i32) (harg4 : arg4.IsWhole) (arg5 : Memref sig .tc .vmem S1x512 .i32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S1x512 .f32) (harg9 : arg9.IsWhole)
    (hc0 : ¬((Scalar.cmpi .ne (Scalar.extui (Scalar.cmpi .eq (BitVec.ofNat 32 (i 1).val) 0#32)) 0#32) = 1#1)) (hc1 : ¬(k0_cond2 i = 1#1))
    (x0 x1 : Vec F S512x128 .f32) (x2 x3 : Vec F S1x512 .i32) (xi4 : Vec F S1x512 .f32)
    (p : Vec F S1x512 .f32 × Vec F S1x512 .f32 × Vec F S1x512 .f32) (E : Set ℕ) (K : PUnit → sProp 𝕄) :
    iprop(owns (c : Thread nD τ) arg2 fullShare x0 ∗ owns (c : Thread nD τ) arg3 fullShare x1
        ∗ owns (c : Thread nD τ) arg4 fullShare x2 ∗ owns (c : Thread nD τ) arg5 fullShare x3
        ∗ owns (c : Thread nD τ) arg6 fullShare xi4
        ∗ owns (c : Thread nD τ) arg7 fullShare p.1 ∗ owns (c : Thread nD τ) arg8 fullShare p.2.1 ∗ owns (c : Thread nD τ) arg9 fullShare p.2.2
        ∗ (iprop(owns (c : Thread nD τ) arg2 fullShare x0 ∗ owns (c : Thread nD τ) arg3 fullShare x1
        ∗ owns (c : Thread nD τ) arg4 fullShare x2 ∗ owns (c : Thread nD τ) arg5 fullShare x3
            ∗ owns (c : Thread nD τ) arg6 fullShare xi4
            ∗ owns (c : Thread nD τ) arg7 fullShare (tileStep x0 x1 x2 x3 p).1
            ∗ owns (c : Thread nD τ) arg8 fullShare (tileStep x0 x1 x2 x3 p).2.1
            ∗ owns (c : Thread nD τ) arg9 fullShare (tileStep x0 x1 x2 x3 p).2.2) -∗ K ⟨⟩))
      ⊢ wp frame (wpE (defs₀ (F := F)) Variants.none c none) E (cc0__assoc_kernel i arg2 harg2 arg3 harg3 arg4 harg4 arg5 harg5 arg6 harg6 arg7 harg7 arg8 harg8 arg9 harg9) K := by
  rw [cc0__assoc_kernel_eq_skeleton]; unfold cc0__assoc_kernel_skel
  unfold owns
  iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%fs1, %hfs1, HS1⟩, ⟨%fs2, %hfs2, HS2⟩, Hk⟩
  obtain rfl := harg2.eq_unread hf0; obtain rfl := harg3.eq_unread hf1
  obtain rfl := harg4.eq_unread hf2; obtain rfl := harg5.eq_unread hf3
  obtain rfl := harg7.eq_unread hfs0; obtain rfl := harg8.eq_unread hfs1; obtain rfl := harg9.eq_unread hfs2
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact hf4
    iexact H4
  isplitl [HS0]
  · iexists _; isplitr
    swap; · iexact HS0
    ipureintro
    sl_unfold_words
    rw [read_writes_cons_unit _ _ hz]
    simp only [View.readAt_eq_ld, Memref.IsWhole.read_unread, View.ld_unit_zero (S := S1x512) hz,
      View.ld_unit_zero (S := S512x128) hz, View.readCov_unit_zero (S := S1x512) _ hz]
    try rfl
  isplitl [HS1]
  · iexists _; isplitr
    swap; · iexact HS1
    ipureintro
    sl_unfold_words
    rw [read_writes_cons_unit _ _ hz]
    simp only [View.readAt_eq_ld, Memref.IsWhole.read_unread, View.ld_unit_zero (S := S1x512) hz,
      View.ld_unit_zero (S := S512x128) hz, View.readCov_unit_zero (S := S1x512) _ hz]
    try rfl
  · iexists _; isplitr
    swap; · iexact HS2
    ipureintro
    sl_unfold_words
    rw [read_writes_cons_unit _ _ hz]
    simp only [View.readAt_eq_ld, Memref.IsWhole.read_unread, View.ld_unit_zero (S := S1x512) hz,
      View.ld_unit_zero (S := S512x128) hz, View.readCov_unit_zero (S := S1x512) _ hz]
    try rfl

set_option maxHeartbeats 1000000 in
/-- A row's last point (j = 15, not the first): the accumulators p take the tile, and the output's buffer, whatever
    it held, receives the triplet term of the updated rows. -/
theorem runC (c : Dev nD) (i : grid0.Coords) (arg2 : Memref sig .tc .vmem S512x128 .f32) (harg2 : arg2.IsWhole) (arg3 : Memref sig .tc .vmem S512x128 .f32) (harg3 : arg3.IsWhole) (arg4 : Memref sig .tc .vmem S1x512 .i32) (harg4 : arg4.IsWhole) (arg5 : Memref sig .tc .vmem S1x512 .i32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S1x512 .f32) (harg9 : arg9.IsWhole)
    (hc0 : ¬((Scalar.cmpi .ne (Scalar.extui (Scalar.cmpi .eq (BitVec.ofNat 32 (i 1).val) 0#32)) 0#32) = 1#1)) (hc1 : k0_cond2 i = 1#1)
    (x0 x1 : Vec F S512x128 .f32) (x2 x3 : Vec F S1x512 .i32)
    (p : Vec F S1x512 .f32 × Vec F S1x512 .f32 × Vec F S1x512 .f32) (E : Set ℕ) (K : PUnit → sProp 𝕄) :
    iprop(owns (c : Thread nD τ) arg2 fullShare x0 ∗ owns (c : Thread nD τ) arg3 fullShare x1
        ∗ owns (c : Thread nD τ) arg4 fullShare x2 ∗ owns (c : Thread nD τ) arg5 fullShare x3
        ∗ (∃ d, owns (c : Thread nD τ) arg6 fullShare d)
        ∗ owns (c : Thread nD τ) arg7 fullShare p.1 ∗ owns (c : Thread nD τ) arg8 fullShare p.2.1 ∗ owns (c : Thread nD τ) arg9 fullShare p.2.2
        ∗ (iprop(owns (c : Thread nD τ) arg2 fullShare x0 ∗ owns (c : Thread nD τ) arg3 fullShare x1
        ∗ owns (c : Thread nD τ) arg4 fullShare x2 ∗ owns (c : Thread nD τ) arg5 fullShare x3
            ∗ owns (c : Thread nD τ) arg6 fullShare (k0_pay1 (tileStep x0 x1 x2 x3 p).1 (tileStep x0 x1 x2 x3 p).2.1 (tileStep x0 x1 x2 x3 p).2.2)
            ∗ owns (c : Thread nD τ) arg7 fullShare (tileStep x0 x1 x2 x3 p).1
            ∗ owns (c : Thread nD τ) arg8 fullShare (tileStep x0 x1 x2 x3 p).2.1
            ∗ owns (c : Thread nD τ) arg9 fullShare (tileStep x0 x1 x2 x3 p).2.2) -∗ K ⟨⟩))
      ⊢ wp frame (wpE (defs₀ (F := F)) Variants.none c none) E (cc0__assoc_kernel i arg2 harg2 arg3 harg3 arg4 harg4 arg5 harg5 arg6 harg6 arg7 harg7 arg8 harg8 arg9 harg9) K := by
  rw [cc0__assoc_kernel_eq_skeleton]; unfold cc0__assoc_kernel_skel
  unfold owns
  iintro ⟨⟨%f0, %hf0, H0⟩, ⟨%f1, %hf1, H1⟩, ⟨%f2, %hf2, H2⟩, ⟨%f3, %hf3, H3⟩, ⟨%d4, %f4, -, H4⟩, ⟨%fs0, %hfs0, HS0⟩, ⟨%fs1, %hfs1, HS1⟩, ⟨%fs2, %hfs2, HS2⟩, Hk⟩
  obtain rfl := harg2.eq_unread hf0; obtain rfl := harg3.eq_unread hf1
  obtain rfl := harg4.eq_unread hf2; obtain rfl := harg5.eq_unread hf3
  obtain rfl := harg7.eq_unread hfs0; obtain rfl := harg8.eq_unread hfs1; obtain rfl := harg9.eq_unread hfs2
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr
    swap; · iexact H4
    ipureintro
    sl_unfold_words
    rw [read_writes_cons_unit _ _ hz]
    simp only [View.readAt_eq_ld, Memref.IsWhole.read_unread, View.ld_unit_zero (S := S1x512) hz,
      View.ld_unit_zero (S := S512x128) hz, View.readCov_unit_zero (S := S1x512) _ hz]
    try rfl
  isplitl [HS0]
  · iexists _; isplitr
    swap; · iexact HS0
    ipureintro
    sl_unfold_words
    rw [read_writes_cons_unit _ _ hz]
    simp only [View.readAt_eq_ld, Memref.IsWhole.read_unread, View.ld_unit_zero (S := S1x512) hz,
      View.ld_unit_zero (S := S512x128) hz, View.readCov_unit_zero (S := S1x512) _ hz]
    try rfl
  isplitl [HS1]
  · iexists _; isplitr
    swap; · iexact HS1
    ipureintro
    sl_unfold_words
    rw [read_writes_cons_unit _ _ hz]
    simp only [View.readAt_eq_ld, Memref.IsWhole.read_unread, View.ld_unit_zero (S := S1x512) hz,
      View.ld_unit_zero (S := S512x128) hz, View.readCov_unit_zero (S := S1x512) _ hz]
    try rfl
  · iexists _; isplitr
    swap; · iexact HS2
    ipureintro
    sl_unfold_words
    rw [read_writes_cons_unit _ _ hz]
    simp only [View.readAt_eq_ld, Memref.IsWhole.read_unread, View.ld_unit_zero (S := S1x512) hz,
      View.ld_unit_zero (S := S512x128) hz, View.readCov_unit_zero (S := S1x512) _ hz]
    try rfl

end Cert.KernelIdeal.Hand

end
-- ==== Proof.KI.Body.lean ====
/-
  The kernel body's obligation for the pairwise-distance kernel's one pipeline, for any float instance. At every grid
  point t = 16·i + j the body, called with the region invariant and each window's current buffer, runs to the invariant
  at the next point and each buffer at what the proof data name: the four input windows at the point's blocks, the three
  accumulator rows at one tile's update of what the point before left (restarted from −∞, +∞ and 0 where j = 0), and
  the output's buffer as found, except where j = 15, where it holds the triplet term of the rows just updated. The
  two conditions of the body are decided over the 256 points in closed form (j = 0 ↔ t ≡ 0, j = 15 ↔ t ≡ 15 mod 16),
  and each of the three cases they leave is the body's run of that case at the point's buffers and blocks.
-/
import proofs.«147753_j50903952392404_1_alg».proof.Proof.KI.Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The body's two conditions, in closed form over the grid -/

/-- The condition under which the accumulators restart: the column coordinate j is 0. -/
abbrev condFirst (i : grid0.Coords) : Prop := (Scalar.cmpi .ne (Scalar.extui (Scalar.cmpi .eq (BitVec.ofNat 32 (i 1).val) 0#32)) 0#32) = 1#1
/-- It holds at the points ≡ 0 (mod 16). -/
theorem hcondFirst : ∀ t : Fin cfg0.N, condFirst (grid0.coords t) ↔ t.val % 16 = 0 :=
  (by decide +kernel : ∀ t : Fin grid0.N, condFirst (grid0.coords t) ↔ t.val % 16 = 0)

/-- The condition under which the output block is stored: the column coordinate j is 15. -/
abbrev condLast (i : grid0.Coords) : Prop := k0_cond2 i = 1#1
/-- It holds at the points ≡ 15 (mod 16). -/
theorem hcondLast : ∀ t : Fin cfg0.N, condLast (grid0.coords t) ↔ t.val % 16 = 15 :=
  (by decide +kernel : ∀ t : Fin grid0.N, condLast (grid0.coords t) ↔ t.val % 16 = 15)

/-! ## Where the windows are idle -/

/-- The input windows are never idle. -/
theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel
/-- The output window is idle away from a row's last point, -/
theorem idle4 : ∀ t : Fin cfg0.N, ¬condLast (grid0.coords t) → cfg0.idle 4 (grid0.coords t) = true := by decide +kernel
/-- is not written back there, -/
theorem noFlush4 : ∀ t : Fin cfg0.N, ¬condLast (grid0.coords t) → (cfg0.win 4).flush t = false := by decide +kernel
/-- and is live at a row's last point. -/
theorem live4 : ∀ t : Fin cfg0.N, condLast (grid0.coords t) → cfg0.idle 4 (grid0.coords t) = false := by decide +kernel

/-! ## What the body finds in the input windows' buffers: their blocks, fetched at the point or not -/

theorem before0_0 (c : Dev nD) (t : Fin cfg0.N) (d) : (dats m 0 c).before 0 t d = ai m c t :=
  ((dats m 0 c).before_in_eq_fetched 0 rfl (fun _ => rfl) (fun _ _ _ => rfl)
    (fun t => by rw [after0_0]; unfold Dat.blockOf ai; rw [A_eq]; try rfl) t d).trans
    (by unfold Dat.fetched Dat.blockOf ai; rw [A_eq]; try rfl)
theorem before0_1 (c : Dev nD) (t : Fin cfg0.N) (d) : (dats m 0 c).before 1 t d = aj m c t :=
  ((dats m 0 c).before_in_eq_fetched 1 rfl (fun _ => rfl) (fun _ _ _ => rfl)
    (fun t => by rw [after0_1]; unfold Dat.blockOf aj; rw [A_eq]; try rfl) t d).trans
    (by unfold Dat.fetched Dat.blockOf aj; rw [A_eq]; try rfl)
theorem before0_2 (c : Dev nD) (t : Fin cfg0.N) (d) : (dats m 0 c).before 2 t d = idi m c t :=
  ((dats m 0 c).before_in_eq_fetched 2 rfl (fun _ => rfl) (fun _ _ _ => rfl)
    (fun t => by rw [after0_2]; unfold Dat.blockOf idi; rw [A_eq]; try rfl) t d).trans
    (by unfold Dat.fetched Dat.blockOf idi; rw [A_eq]; try rfl)
theorem before0_3 (c : Dev nD) (t : Fin cfg0.N) (d) : (dats m 0 c).before 3 t d = idj m c t :=
  ((dats m 0 c).before_in_eq_fetched 3 rfl (fun _ => rfl) (fun _ _ _ => rfl)
    (fun t => by rw [after0_3]; unfold Dat.blockOf idj; rw [A_eq]; try rfl) t d).trans
    (by unfold Dat.fetched Dat.blockOf idj; rw [A_eq]; try rfl)

/-! ## The windows' current buffers at a point, and the region invariant before the first point -/

abbrev ms0 (t : Fin cfg0.N) : Memref sig .tc .vmem S512x128 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S512x128 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x512 .i32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x512 .i32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x512 .f32 := win0_4.stage (cfg0.slots t 4)
abbrev hs4 (t : Fin cfg0.N) : (ms4 t).IsWhole := hstage0_4 ((cfg0.slots t 4).cast nbuf0_4)

/-- Before the first point the three accumulator rows are owned whole at some contents. -/
theorem Phi0_eq (c : Dev nD) :
    (Pipeline.scopedRest spec0 c : sProp 𝕄)
      = iprop((∃ d, owns (c : Thread nD τ) scM0 fullShare d) ∗ (∃ d, owns (c : Thread nD τ) scM1 fullShare d)
          ∗ (∃ d, owns (c : Thread nD τ) scM2 fullShare d)) := by
  rw [scopedRest0_eq]; simp only [scM0, scM1, scM2, owns_whole]; try rfl

/-! ## The body obligation, at a generic point -/

/-- What the body is called with at point t (the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

set_option maxHeartbeats 4800000 in
/-- The body at any point. The input windows' buffers hold the point's blocks; the closed forms say which case the
    point is in; the invariant hands the body the accumulator rows the point before left (anything, before the first
    point) and takes them back at this point's; the output's buffer is handed back as found except at a row's last
    point, where it receives the triplet term of the rows just updated; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0 t) fullShare ((dats m 0 c).after 0 t) from by
    unfold Dat.leavesExact; rw [live0 t], after0_0]
  rw [show (dats m 0 c).leavesExact 1 t = owns (c : Thread nD τ) (ms1 t) fullShare ((dats m 0 c).after 1 t) from by
    unfold Dat.leavesExact; rw [live1 t], after0_1]
  rw [show (dats m 0 c).leavesExact 2 t = owns (c : Thread nD τ) (ms2 t) fullShare ((dats m 0 c).after 2 t) from by
    unfold Dat.leavesExact; rw [live2 t], after0_2]
  rw [show (dats m 0 c).leavesExact 3 t = owns (c : Thread nD τ) (ms3 t) fullShare ((dats m 0 c).after 3 t) from by
    unfold Dat.leavesExact; rw [live3 t], after0_3]
  have hN : t.val < 256 := lt_of_lt_of_eq t.isLt (show cfg0.N = 256 from N_0)
  by_cases h0 : t.val % 16 = 0
  · -- a row's first point
    have h1 : ¬t.val % 16 = 15 := by omega
    have hc0 : condFirst (grid0.coords t) := (hcondFirst t).mpr h0
    have hc1 : ¬condLast (grid0.coords t) := fun h => h1 ((hcondLast t).mp h)
    rw [Dat.leavesExact_idle (dats m 0 c) 4 t (idle4 t hc1) (noFlush4 t hc1)]
    rw [acc_first m c t h0]; unfold stepAcc
    by_cases hz : t.val = 0
    · rw [PhiS_castSucc m c t, PhiS_zero m c _ _ hz, Phi0_eq]
      iintro ⟨⟨HS0, HS1, HS2⟩, Ho, ⟨%d0, H0⟩, ⟨%d1, H1⟩, ⟨%d2, H2⟩, ⟨%d3, H3⟩, ⟨%d4, H4⟩⟩
      iapply (runA c (grid0.coords t) _ (hs0 t) _ (hs1 t) _ (hs2 t) _ (hs3 t) _ (hs4 t) _ (Memref.isWhole_whole _) _ (Memref.isWhole_whole _) _ (Memref.isWhole_whole _) hc0 hc1
        (ai m c t) (aj m c t) (idi m c t) (idj m c t) _ Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      isplitl [HS2]; · iexact HS2
      iintro ⟨H0, H1, H2, H3, H4, HS0, HS1, HS2⟩
      isplitl [HS0 HS1 HS2]
      · isplitl [HS0]; · iexact HS0
        isplitl [HS1]; · iexact HS1
        iexact HS2
      isplitl [Ho]; · iexact Ho
      isplitl [H0]; · iexact H0
      isplitl [H1]; · iexact H1
      isplitl [H2]; · iexact H2
      isplitl [H3]; · iexact H3
      iexists _; iexact H4
    · rw [PhiS_castSucc m c t, PhiS_pos m c _ _ hz]
      iintro ⟨⟨HS0, HS1, HS2⟩, Ho, ⟨%d0, H0⟩, ⟨%d1, H1⟩, ⟨%d2, H2⟩, ⟨%d3, H3⟩, ⟨%d4, H4⟩⟩
      iapply (runA c (grid0.coords t) _ (hs0 t) _ (hs1 t) _ (hs2 t) _ (hs3 t) _ (hs4 t) _ (Memref.isWhole_whole _) _ (Memref.isWhole_whole _) _ (Memref.isWhole_whole _) hc0 hc1
        (ai m c t) (aj m c t) (idi m c t) (idj m c t) _ Set.univ _)
      isplitl [H0]; · iexact H0
      isplitl [H1]; · iexact H1
      isplitl [H2]; · iexact H2
      isplitl [H3]; · iexact H3
      isplitl [H4]; · iexact H4
      isplitl [HS0]; · iexists _; iexact HS0
      isplitl [HS1]; · iexists _; iexact HS1
      isplitl [HS2]; · iexists _; iexact HS2
      iintro ⟨H0, H1, H2, H3, H4, HS0, HS1, HS2⟩
      isplitl [HS0 HS1 HS2]
      · isplitl [HS0]; · iexact HS0
        isplitl [HS1]; · iexact HS1
        iexact HS2
      isplitl [Ho]; · iexact Ho
      isplitl [H0]; · iexact H0
      isplitl [H1]; · iexact H1
      isplitl [H2]; · iexact H2
      isplitl [H3]; · iexact H3
      iexists _; iexact H4
  · have hz : t.val ≠ 0 := fun e => h0 (by rw [e])
    have hc0 : ¬condFirst (grid0.coords t) := fun h => h0 ((hcondFirst t).mp h)
    rw [PhiS_castSucc m c t, PhiS_pos m c _ _ hz]
    rw [acc_next m c t h0]; unfold stepAcc
    by_cases h1 : t.val % 16 = 15
    · -- a row's last point
      have hc1 : condLast (grid0.coords t) := (hcondLast t).mpr h1
      rw [show (dats m 0 c).leavesExact 4 t = owns (c : Thread nD τ) (ms4 t) fullShare ((dats m 0 c).after 4 t) from by
        unfold Dat.leavesExact; rw [live4 t hc1], after0_4]
      unfold out4; rw [acc_next m c t h0]; unfold stepAcc
      iintro ⟨⟨HS0, HS1, HS2⟩, Ho, ⟨%d0, H0⟩, ⟨%d1, H1⟩, ⟨%d2, H2⟩, ⟨%d3, H3⟩, ⟨%d4, H4⟩⟩
      iapply (runC c (grid0.coords t) _ (hs0 t) _ (hs1 t) _ (hs2 t) _ (hs3 t) _ (hs4 t) _ (Memref.isWhole_whole _) _ (Memref.isWhole_whole _) _ (Memref.isWhole_whole _) hc0 hc1
        (ai m c t) (aj m c t) (idi m c t) (idj m c t)
        (acc m c (t.val - 1) (Nat.lt_of_le_of_lt (Nat.sub_le _ _) t.isLt)) Set.univ _)
      isplitl [H0]; · iexact H0
      isplitl [H1]; · iexact H1
      isplitl [H2]; · iexact H2
      isplitl [H3]; · iexact H3
      isplitl [H4]; · iexists _; iexact H4
      isplitl [HS0]; · iexact HS0
      isplitl [HS1]; · iexact HS1
      isplitl [HS2]; · iexact HS2
      iintro ⟨H0, H1, H2, H3, H4, HS0, HS1, HS2⟩
      isplitl [HS0 HS1 HS2]
      · isplitl [HS0]; · iexact HS0
        isplitl [HS1]; · iexact HS1
        iexact HS2
      isplitl [Ho]; · iexact Ho
      isplitl [H0]; · iexact H0
      isplitl [H1]; · iexact H1
      isplitl [H2]; · iexact H2
      isplitl [H3]; · iexact H3
      iexact H4
    · -- a point inside a row
      have hc1 : ¬condLast (grid0.coords t) := fun h => h1 ((hcondLast t).mp h)
      rw [Dat.leavesExact_idle (dats m 0 c) 4 t (idle4 t hc1) (noFlush4 t hc1)]
      iintro ⟨⟨HS0, HS1, HS2⟩, Ho, ⟨%d0, H0⟩, ⟨%d1, H1⟩, ⟨%d2, H2⟩, ⟨%d3, H3⟩, ⟨%d4, H4⟩⟩
      iapply (runB c (grid0.coords t) _ (hs0 t) _ (hs1 t) _ (hs2 t) _ (hs3 t) _ (hs4 t) _ (Memref.isWhole_whole _) _ (Memref.isWhole_whole _) _ (Memref.isWhole_whole _) hc0 hc1
        (ai m c t) (aj m c t) (idi m c t) (idj m c t) _
        (acc m c (t.val - 1) (Nat.lt_of_le_of_lt (Nat.sub_le _ _) t.isLt)) Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      isplitl [HS2]; · iexact HS2
      iintro ⟨H0, H1, H2, H3, H4, HS0, HS1, HS2⟩
      isplitl [HS0 HS1 HS2]
      · isplitl [HS0]; · iexact HS0
        isplitl [HS1]; · iexact HS1
        iexact HS2
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation (c : Dev nD) : BodyObligation (dats (F := F) m 0 c) (defs₀ (F := F)) Variants.none () Set.univ := fun t => by
  rw [bigSep_W0, bigSep_W0]
  exact sound_body m c t

end Cert.KernelIdeal.Hand

end
-- ==== Proof.KI.Launch.lean ====
/-
  The launch of the pairwise-distance kernel's program and the lines around its region.
  The embeddings' array is read through two windows and so is the identities' row: at the region's entry each of the
  two arrays is split into the two halves of its full share, one per window, and joined again at the exit; the result
  row is held outright. After the region the program's remaining lines (the per-identity sums and the final quotient)
  run from the exit contents: the result row at what the proof data compute, every other buffer as the region found it.
-/
import proofs.«147753_j50903952392404_1_alg».proof.Proof.KI.Data
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev tailOpss : List (List (HloOp τ sig (Elt F))) := [hostOps1, hostOps1_1, hostOps1_2, hostOps1_3, hostOps1_4]

theorem hmain : Pipeline.HMainK (Ix := Unit) (Name := ℕ) (U := UR sig nD τ) (Lvl := ℕ) cfgs 0 defs₀ Variants.none m (main (F := F)) (V m)
      (fun _ => Pipeline.chain ((tailOpss (F := F)).map StableHlo.seq)) :=
  Pipeline.hmain_around cfgs 0 defs₀ Variants.none m main [hostOps0] tailOpss (by simp only [List.Forall]; exact hostOps0_sub)
    (by simp only [List.Forall]; repeat' constructor) main_chain

def Vx (c : Dev nD) : Valuation τ sig (Elt F) :=
  Function.update (V0 m c) (Proc.devRef .tc main_v1) ((dats m 0 c).arrAt (4 : Fin 5) cfg0.N)

def afterV (c : Dev nD) (b : Ref sig .tc) : Buf (Elt F) ((c : Thread nD τ).loc b) :=
  StableHlo.after (tailOpss (F := F)).flatten (Vx m c) (Proc.devRef .tc b)

theorem img_eq : Finset.univ.image (Pipeline.arrRef spec0) = ([main_arg0, main_v0, main_v1] : List (Ref sig .tc)).toFinset := by decide

theorem arrBufs_eq3 (c : Dev nD) (W : (b : Ref sig .tc) → Buf (Elt F) ((c : Thread nD τ).loc b)) :
    (Pipeline.arrBufs (Ix := Unit) (Name := ℕ) (U := UR sig nD τ) (Lvl := ℕ) spec0 c W : sProp 𝕄)
      = iprop((((c : Thread nD τ).loc main_arg0) ↦{fullShare} W main_arg0) ∗ (((c : Thread nD τ).loc main_v0) ↦{fullShare} W main_v0)
          ∗ (((c : Thread nD τ).loc main_v1) ↦{fullShare} W main_v1)) := by
  unfold Pipeline.arrBufs
  exact bigSep_eq_bigSepL_of_eq [main_arg0, main_v0, main_v1] img_eq (by decide) _

theorem share_0 (c : Dev nD) : (dats m 0 c).share (0 : Fin 5) = fullShare.left := rfl
theorem share_1 (c : Dev nD) : (dats m 0 c).share (1 : Fin 5) = fullShare.right := rfl
theorem share_2 (c : Dev nD) : (dats m 0 c).share (2 : Fin 5) = fullShare.left := rfl
theorem share_3 (c : Dev nD) : (dats m 0 c).share (3 : Fin 5) = fullShare.right := rfl
theorem share_4 (c : Dev nD) : (dats m 0 c).share (4 : Fin 5) = fullShare := rfl

theorem arrays_univ (c : Dev nD) (G : (w : Fin cfg0.W) → Buf (Elt F) ((cfg0.win w).arr.view.loc (c : Thread nD τ))) :
    ((dats m 0 c).arrays G : sProp 𝕄)
      = bigSep Finset.univ fun w : Fin cfg0.W => (((c : Thread nD τ).loc (Pipeline.arrRef spec0 w)) ↦{(dats m 0 c).share w} G w : sProp 𝕄) := by
  unfold Dat.arrays
  exact bigSep_congr fun w _ => by rw [(arr_whole0 w).set_eq_univ]

theorem arrays_eq3 (c : Dev nD) (G : (w : Fin cfg0.W) → Buf (Elt F) ((cfg0.win w).arr.view.loc (c : Thread nD τ)))
    (X0 : Buf (Elt F) ((c : Thread nD τ).loc main_arg0)) (X2 : Buf (Elt F) ((c : Thread nD τ).loc main_v0))
    (X4 : Buf (Elt F) ((c : Thread nD τ).loc main_v1))
    (h0 : G 0 = X0) (h1 : G 1 = X0) (h2 : G 2 = X2) (h3 : G 3 = X2) (h4 : G 4 = X4) :
    ((dats m 0 c).arrays G : sProp 𝕄)
      = iprop((((c : Thread nD τ).loc main_arg0) ↦{fullShare} X0) ∗ (((c : Thread nD τ).loc main_v0) ↦{fullShare} X2)
          ∗ (((c : Thread nD τ).loc main_v1) ↦{fullShare} X4)) := by
  rw [arrays_univ, bigSep_W0, share_0, share_1, share_2, share_3, share_4, h0, h1, h2, h3, h4]
  refine BI.Entails.antisymm ?_ ?_
  · show (_ : sProp 𝕄) ⊢ (_ : sProp 𝕄)
    iintro ⟨H0, H1, H2, H3, H4⟩
    isplitl [H0 H1]
    · iapply (pointsTo_share (PosShare.mem_left_op_right fullShare)).2
      isplitl [H0]; · iexact H0
      iexact H1
    isplitl [H2 H3]
    · iapply (pointsTo_share (PosShare.mem_left_op_right fullShare)).2
      isplitl [H2]; · iexact H2
      iexact H3
    iexact H4
  · show (_ : sProp 𝕄) ⊢ (_ : sProp 𝕄)
    iintro ⟨H0, H2, H4⟩
    ihave H0' := (pointsTo_share (PosShare.mem_left_op_right fullShare)).1 $$ H0
    ihave H2' := (pointsTo_share (PosShare.mem_left_op_right fullShare)).1 $$ H2
    icases H0' with ⟨H0, H1⟩
    icases H2' with ⟨H2, H3⟩
    isplitl [H0]; · iexact H0
    isplitl [H1]; · iexact H1
    isplitl [H2]; · iexact H2
    isplitl [H3]; · iexact H3
    iexact H4

/-- All of the core's unscoped buffers held at a valuation: the three arrays behind the windows and the rest. -/
theorem held_eq (c : Dev nD) (W : Valuation τ sig (Elt F)) :
    (StableHlo.held (c.tc : Thread nD τ) (Pipeline.ucRefs τ sig) W : sProp 𝕄)
      = iprop(iprop((((c : Thread nD τ).loc main_arg0) ↦{fullShare} W (Proc.devRef .tc main_arg0))
            ∗ (((c : Thread nD τ).loc main_v0) ↦{fullShare} W (Proc.devRef .tc main_v0))
            ∗ (((c : Thread nD τ).loc main_v1) ↦{fullShare} W (Proc.devRef .tc main_v1)))
          ∗ Pipeline.unscopedRest (Ix := Unit) (Name := ℕ) (U := UR sig nD τ) (Lvl := ℕ) spec0 c (fun b => W (Proc.devRef .tc b))) := by
  rw [← Pipeline.unscopedBufs_held (Ix := Unit) (Name := ℕ) (U := UR sig nD τ) (Lvl := ℕ) c W,
    Pipeline.unscopedBufs_split₀ cfgs (0 : Fin 1) winFacts₀0.arr_unscoped c, arrBufs_eq3]

theorem arrAt0 (c : Dev nD) (n : ℕ) : (dats m 0 c).arrAt (0 : Fin 5) n = V m c main_arg0 :=
  ((dats m 0 c).arrAt_in (0 : Fin 5) rfl n).trans (A_eq m c 0)
theorem arrAt1 (c : Dev nD) (n : ℕ) : (dats m 0 c).arrAt (1 : Fin 5) n = V m c main_arg0 :=
  ((dats m 0 c).arrAt_in (1 : Fin 5) rfl n).trans (A_eq m c 1)
theorem arrAt2 (c : Dev nD) (n : ℕ) : (dats m 0 c).arrAt (2 : Fin 5) n = V m c main_v0 :=
  ((dats m 0 c).arrAt_in (2 : Fin 5) rfl n).trans (A_eq m c 2)
theorem arrAt3 (c : Dev nD) (n : ℕ) : (dats m 0 c).arrAt (3 : Fin 5) n = V m c main_v0 :=
  ((dats m 0 c).arrAt_in (3 : Fin 5) rfl n).trans (A_eq m c 3)

theorem hsplit (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  rw [arrBufs_eq3, arrays_eq3 m c (fun x => (dats m 0 c).arrAt x 0) (V m c main_arg0) (V m c main_v0) (V m c main_v1) (arrAt0 m c 0) (arrAt1 m c 0) (arrAt2 m c 0)
    (arrAt3 m c 0) (A_eq m c 4)]

theorem Vx_v1 (c : Dev nD) : Vx m c (Proc.devRef .tc main_v1) = (dats m 0 c).arrAt (4 : Fin 5) cfg0.N := by
  unfold Vx; exact Function.update_self ..

theorem Vx_of_ne (c : Dev nD) (b : Ref sig .tc) (hb : b ≠ main_v1) : Vx m c (Proc.devRef .tc b) = V m c b := by
  unfold Vx; exact Function.update_of_ne (fun e => hb (Proc.devRef_injective _ e)) ..

/-- Every buffer the lines after the region write. -/
abbrev tailW : List (Ref sig .tc) := [main_v2, main_cst, main_v3, main_cst_0, main_v4, main_v5, main_v6, main_cst_1, main_v7, main_v8, main_v9, main_cst_2, main_v10, main_v11, main_cst_3, main_call0_v0, main_call0_v1, main_v12, main_v13, main_cst_4, main_call1_v0, main_call1_v1, main_v14, main_v15, main_cst_5, main_v16, main_cst_6, main_v17, main_v18]

theorem tail_writes : ((tailOpss (F := F)).flatten).Forall fun op => op.writes ⊆ ((tailW.map (Proc.devRef (τ := τ) .tc)).toFinset) := by
  simp only [tailOpss, List.flatten_cons, List.flatten_nil, List.append_nil, hostOps1, hostOps1_1, hostOps1_2, hostOps1_3, hostOps1_4,
    List.cons_append, List.nil_append, List.Forall]
  repeat' constructor
  all_goals (
    simp only [StableHlo.TRef.unary, StableHlo.TRef.ternary, StableHlo.nullary_writes, StableHlo.unary_writes, StableHlo.binary_writes,
      StableHlo.ternary_writes, StableHlo.reshape_writes, Finset.singleton_subset_iff, List.mem_toFinset]
    exact List.mem_map.mpr ⟨_, by decide, rfl⟩)

theorem tail_keeps (W : Valuation τ sig (Elt F)) (r : Ref sig .tc) (hr : r ∉ tailW) :
    StableHlo.after ((tailOpss (F := F)).flatten) W (Proc.devRef .tc r) = W (Proc.devRef .tc r) :=
  StableHlo.after_of_writes_sub _ W tail_writes hr

theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps1_3_fresh : (hostOps1_3 : List (HloOp τ sig (Elt F))).Forall fun op => op.fresh = ∅ := by
  simp only [List.Forall]; repeat' constructor
theorem hostOps1_4_fresh : (hostOps1_4 : List (HloOp τ sig (Elt F))).Forall fun op => op.fresh = ∅ := by
  simp only [List.Forall]; repeat' constructor

theorem tail_sub : ∀ ops ∈ (tailOpss : List (List (HloOp τ sig (Elt F)))), ∀ op ∈ ops, op.bufs ⊆ Pipeline.ucRefs τ sig := by
  intro ops hops op hop
  simp only [tailOpss, List.mem_cons, List.mem_nil_iff, or_false] at hops
  rcases hops with rfl | rfl | rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
  · exact Pipeline.sub_ucRefs op ((List.forall_iff_forall_mem.mp hostOps1_3_sub) op hop)
  · exact Pipeline.sub_ucRefs op ((List.forall_iff_forall_mem.mp hostOps1_4_sub) op hop)

theorem tail_fresh : ∀ ops ∈ (tailOpss : List (List (HloOp τ sig (Elt F)))), ∀ op ∈ ops, op.fresh = ∅ := by
  intro ops hops op hop
  simp only [tailOpss, List.mem_cons, List.mem_nil_iff, or_false] at hops
  rcases hops with rfl | rfl | rfl | rfl | rfl
  · exact (List.forall_iff_forall_mem.mp hostOps1_fresh) op hop
  · exact (List.forall_iff_forall_mem.mp hostOps1_1_fresh) op hop
  · exact (List.forall_iff_forall_mem.mp hostOps1_2_fresh) op hop
  · exact (List.forall_iff_forall_mem.mp hostOps1_3_fresh) op hop
  · exact (List.forall_iff_forall_mem.mp hostOps1_4_fresh) op hop

/-- No window's array is among the rest. -/
theorem rest_ne_v1 (b : Ref sig .tc) (hb : b ∈ (Finset.univ.filter fun b : Ref sig .tc => ¬ b.isScoped) \ Finset.univ.image (Pipeline.arrRef spec0)) :
    b ≠ main_v1 := fun e =>
  (Finset.mem_sdiff.mp hb).2 (Finset.mem_image.mpr ⟨4, Finset.mem_univ _, e.symm⟩)

/-- The region's exit — the windows' arrays at their final contents, the other unscoped buffers as the region found
    them — is the core's unscoped buffers held at the exit valuation. -/
theorem held_exit (c : Dev nD) :
    (StableHlo.held (c.tc : Thread nD τ) (Pipeline.ucRefs τ sig) (Vx m c) : sProp 𝕄)
      = iprop((dats m 0 c).arrays ((dats m 0 c).arrAt · cfg0.N)
          ∗ Pipeline.unscopedRest (Ix := Unit) (Name := ℕ) (U := UR sig nD τ) (Lvl := ℕ) spec0 c (V m c)) := by
  rw [held_eq, arrays_eq3 m c (fun w => (dats m 0 c).arrAt w cfg0.N) (V m c main_arg0) (V m c main_v0) ((dats m 0 c).arrAt 4 cfg0.N)
    (arrAt0 m c _) (arrAt1 m c _) (arrAt2 m c _) (arrAt3 m c _) rfl,
    Vx_v1, Vx_of_ne m c main_arg0 (by decide), Vx_of_ne m c main_v0 (by decide)]
  congr 1
  all_goals (unfold Pipeline.unscopedRest; exact bigSep_congr fun b hb => by rw [Vx_of_ne m c b (rest_ne_v1 b hb)])

/-- After the lines that follow the region: the same, the rest at the lines' results. -/
theorem held_after (c : Dev nD) :
    (StableHlo.held (c.tc : Thread nD τ) (Pipeline.ucRefs τ sig) (StableHlo.after ((tailOpss (F := F)).flatten) (Vx m c)) : sProp 𝕄)
      = iprop((dats m 0 c).arrays ((dats m 0 c).arrAt · cfg0.N)
          ∗ Pipeline.unscopedRest (Ix := Unit) (Name := ℕ) (U := UR sig nD τ) (Lvl := ℕ) spec0 c (afterV m c)) := by
  rw [held_eq, arrays_eq3 m c (fun w => (dats m 0 c).arrAt w cfg0.N) (V m c main_arg0) (V m c main_v0) ((dats m 0 c).arrAt 4 cfg0.N)
    (arrAt0 m c _) (arrAt1 m c _) (arrAt2 m c _) (arrAt3 m c _) rfl,
    tail_keeps (Vx m c) main_arg0 (by decide), tail_keeps (Vx m c) main_v0 (by decide), tail_keeps (Vx m c) main_v1 (by decide),
    Vx_v1, Vx_of_ne m c main_arg0 (by decide), Vx_of_ne m c main_v0 (by decide)]
  rfl

set_option backward.isDefEq.respectTransparency.types false in
theorem htail (c : Dev nD) (Q' : PUnit → sProp 𝕄) :
    iprop((iprop((dats m 0 c).arrays ((dats m 0 c).arrAt · cfg0.N)
              ∗ Pipeline.unscopedRest (Ix := Unit) (Name := ℕ) (U := UR sig nD τ) (Lvl := ℕ) spec0 c (afterV m c)) -∗ Q' ⟨⟩)
        ∗ boundary (c.tc : Thread nD τ) ∗ (dats m 0 c).arrays ((dats m 0 c).arrAt · cfg0.N)
        ∗ Pipeline.unscopedRest (Ix := Unit) (Name := ℕ) (U := UR sig nD τ) (Lvl := ℕ) spec0 c (V m c))
      ⊢ wp frame (wpE (Pipeline.defs (fun q => (cfgs q).toPCfg (Val := Elt F)) defs₀) (Variants.lift Variants.none) (c.tc : Thread nD τ) none) Set.univ
          (Pipeline.chain ((tailOpss (F := F)).map StableHlo.seq)) Q' := by
  rw [← List.append_nil ((tailOpss (F := F)).map StableHlo.seq), ← held_exit]
  iintro ⟨Hk, Hb⟩
  iapply (Pipeline.wp_seqs_then (fun q => (cfgs q).toPCfg (Val := Elt F)) defs₀ Variants.none c (Pipeline.ucRefs τ sig) [] tailOpss tail_sub tail_fresh (Vx m c)) $$ Hb
  iintro Hb
  rw [Pipeline.chain_nil, wp_pure, held_after]
  imodintro
  iapply Hk
  icases Hb with ⟨-, H⟩
  iexact H

theorem hout (c : Dev nD) : (dats m 0 c).Φ (Fin.last cfg0.N) ⊢ iprop((BI.emp : sProp 𝕄) ∗ Pipeline.scopedRest spec0 c) := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 256 := N_0; omega), scopedRest0_eq]
  simp only [scM0, scM1, scM2, owns_whole]
  iintro ⟨H0, H1, H2⟩
  isplitr; · iempintro
  isplitl [H0]; · iexists _; iexact H0
  isplitl [H1]; · iexists _; iexact H1
  iexists _; iexact H2

theorem hin (c : Dev nD) : (Pipeline.scopedRest spec0 c : sProp 𝕄) ⊢ (dats m 0 c).Φ 0 := by
  rw [show (dats m 0 c).Φ 0 = PhiS m c 0 (Nat.zero_le _) from rfl, PhiS_zero m c 0 _ rfl]

set_option backward.isDefEq.respectTransparency.types false in
/-- The run: every weakly fair execution of @main terminates without a fault; at the end every unscoped buffer that is
    no window's array holds what the lines after the region compute from the region's exit, and the windows' arrays
    hold the proof data's final contents. -/
theorem run_main (hbody : ∀ c, BodyObligation (dats (F := F) m 0 c) (defs₀ (F := F)) Variants.none () Set.univ) :
    θ_run defs (onTc (τ := τ) (main (F := F))) ⟨m, fun _ => 0, ρ⟩ (fun r => ∀ c : Dev nD,
      (∀ w, r.2.mem (((cfg0.win w).arr.view.loc (c.tc : Thread nD τ))) = (dats m 0 c).arrAt w cfg0.N)
      ∧ ∀ b ∈ Pipeline.restRefs sig spec0, r.2.mem ((c.tc : Thread nD τ).loc b) = afterV m c b) :=
  Pipeline.θ_run_region_noSem_pf_tail (fun q => (cfgs q).toPCfg (Val := Elt F)) (fun q => (cfgs q).toPCfg_adm) (dats m) () cellOf_inj (0 : Fin 1)
    winFacts₀0 (Pipeline.PreFacts.none _) emb₁ defs₀ Variants.none m ρ main
    (fun _ => Pipeline.chain ((tailOpss (F := F)).map StableHlo.seq))
    (hbody := fun c => (hbody c).loose) (hne := block_pos0) (harr := arr_whole0) (hstage := stage_whole0) (howed := fun _ _ => rfl)
    (u₀ := initOf (Pipeline.cells cfgs cellOf_inj) (Pipeline.launchToks cfgs cellOf_inj)) (hu₀ := .rfl)
    (V := V m) (hmain := hmain m) (hsplit := hsplit m) (hpf := fun _ k => k.elim0)
    (X := fun _ => iprop(emp)) (Y := fun _ => iprop(emp))
    (Z := fun c => Pipeline.unscopedRest (Ix := Unit) (Name := ℕ) (U := UR sig nD τ) (Lvl := ℕ) spec0 c (V m c))
    (Z' := fun c => Pipeline.unscopedRest (Ix := Unit) (Name := ℕ) (U := UR sig nD τ) (Lvl := ℕ) spec0 c (afterV m c))
    (hX := fun c => by
      rw [Pipeline.unscopedRestP_none]
      iintro H; isplitr; · iempintro
      iexact H)
    (hin := fun c => (show _ ⊢ (Pipeline.scopedRest spec0 c : sProp 𝕄) from by iintro ⟨-, -, HR⟩; iexact HR).trans (hin m c))
    (hout := hout m)
    (htail := htail m)
    (QY := fun c s => ∀ b ∈ Pipeline.restRefs sig spec0, s.mem ((c.tc : Thread nD τ).loc b) = afterV m c b)
    (hY := fun c s' => by
      iintro ⟨-, HU, HSI⟩
      unfold Pipeline.unscopedRest
      imodintro
      iapply (pointsTo_read_all (Pipeline.restRefs sig spec0) (fun b => (c.tc : Thread nD τ).loc b) (afterV m c) s')
      isplitl [HU] <;> iassumption)
    (hQ := fun s h c => ⟨(h c).1, (h c).2.2⟩)

/-- The host line before the region does not write the embeddings, -/
theorem V_at_arg0 (c : Dev nD) : V m c main_arg0 = m ((c : Thread nD τ).loc main_arg0) := by
  show StableHlo.after hostOps0 (fun b => m (c, b)) (Proc.devRef .tc main_arg0) = _
  after_results

/-- nor the identities. -/
theorem V_at_arg1 (c : Dev nD) : V m c main_arg1 = m ((c : Thread nD τ).loc main_arg1) := by
  show StableHlo.after hostOps0 (fun b => m (c, b)) (Proc.devRef .tc main_arg1) = _
  after_results

/-- No line after the region writes the identities either. -/
theorem afterV_arg1 (c : Dev nD) : afterV m c main_arg1 = m ((c : Thread nD τ).loc main_arg1) := by
  unfold afterV
  rw [tail_keeps (Vx m c) main_arg1 (by decide), Vx_of_ne m c main_arg1 (by decide), V_at_arg1]

theorem arg1_rest : main_arg1 ∈ Pipeline.restRefs sig spec0 := by decide
theorem v18_rest : main_v18 ∈ Pipeline.restRefs sig spec0 := by decide

/-- The frame: the run ends with both arguments as they were. -/
theorem frame (hbody : ∀ c, BodyObligation (dats (F := F) m 0 c) (defs₀ (F := F)) Variants.none () Set.univ) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((h c).1 0).trans ((arrAt0 m c _).trans (V_at_arg0 m c)),
      ((h c).2 main_arg1 arg1_rest).trans (afterV_arg1 m c)⟩) (run_main m ρ hbody)

end Cert.KernelIdeal.Hand

end
-- ==== Proof.Ref.Defs.lean ====
/-
  The reference's value as two composed pure terms of its arguments: the per-anchor triplet term
  (statements up to %45) and the scalar made from it (statements %cst_15 … %61), each the printed
  operations in their order, the callees' bodies in place of their calls. Every line is a `have`: no line's type
  depends on an earlier line's value, and the chain unfolds to the composition by zeta reduction.
-/
import proofs.«147753_j50903952392404_1_alg».proof.Proof.Gen.ReferenceIdeal
import Idealize.ShloMosaic.PureOps

noncomputable section

namespace Cert.ReferenceIdeal.Hand

open Idealize.ShloMosaic
open Cert.ReferenceIdeal Cert.ReferenceIdeal.Facts₀

variable {F : FTy → Type} [FloatOps F]

/-- The per-anchor triplet term (%45) as a function of the embeddings and the identities. -/
def refTrip (x : FVec F S8192x128 .f32) (ids : IVec S8192 32) : FVec F S8192 .f32 :=
  -- %c and the floor division by it (the callee's seventeen lines, then its select)
  have c : IVec S_ 32 := constantI S_ 32 1000#32
  have fd0 : IVec S_ 32 := c
  have fd1 : IVec S8192 32 := broadcastInDim S8192 ![] bcast_S_S8192 fd0
  have fd2 : IVec S8192 32 := Host.divsi ids fd1
  have fd3 : IVec S8192 32 := signi ids
  have fd4 : IVec S_ 32 := signi fd0
  have fd5 : IVec S8192 32 := broadcastInDim S8192 ![] bcast_S_S8192 fd4
  have fd6 : IVec S8192 1 := cmpi .ne fd3 fd5
  have fd7 : IVec S8192 32 := broadcastInDim S8192 ![] bcast_S_S8192 fd0
  have fd8 : IVec S8192 32 := Host.remsi ids fd7
  have fdc : IVec S_ 32 := constantI S_ 32 0#32
  have fd9 : IVec S8192 32 := broadcastInDim S8192 ![] bcast_S_S8192 fdc
  have fd10 : IVec S8192 1 := cmpi .ne fd8 fd9
  have fd11 : IVec S8192 1 := andi fd6 fd10
  have fdc0 : IVec S_ 32 := constantI S_ 32 1#32
  have fd12 : IVec S8192 32 := broadcastInDim S8192 ![] bcast_S_S8192 fdc0
  have fd13 : IVec S8192 32 := subi fd2 fd12
  have v0 : IVec S8192 32 := select fd11 fd13 fd2
  -- the pairwise squared distances
  have v1 : FVec F S8192x128 .f32 := mulf x x
  have cst : FVec F S_ .f32 := constant S_ .f32 0x00000000#32
  have v2 : FVec F S8192 .f32 := Host.reduceAdd v1 cst reducesTo_S8192x128_S8192_d1 h_S_
  have v3 : FVec F S8192x1 .f32 := broadcastInDim S8192x1 ![0] bcast_S8192_S8192x1_0 v2
  have v4 : FVec F S1x8192 .f32 := broadcastInDim S1x8192 ![1] bcast_S8192_S1x8192_1 v2
  have v5 : FVec F S8192x8192 .f32 := broadcastInDim S8192x8192 ![0, 1] bcast_S8192x1_S8192x8192_0_1 v3
  have v6 : FVec F S8192x8192 .f32 := broadcastInDim S8192x8192 ![0, 1] bcast_S1x8192_S8192x8192_0_1 v4
  have v7 : FVec F S8192x8192 .f32 := addf v5 v6
  have v8 : FVec F S128x8192 .f32 := transpose S128x8192 [1, 0] x transposes_S8192x128_S128x8192_1_0
  have v9 : FVec F S8192x8192 .f32 := Host.dotGeneral dot_S8192x128_S128x8192_S8192x8192_1_0_0_1_n_n none x v8
  have cst_0 : FVec F S_ .f32 := constant S_ .f32 0x40000000#32
  have v10 : FVec F S8192x8192 .f32 := broadcastInDim S8192x8192 ![] bcast_S_S8192x8192 cst_0
  have v11 : FVec F S8192x8192 .f32 := mulf v10 v9
  have v12 : FVec F S8192x8192 .f32 := subf v7 v11
  have cst_1 : FVec F S_ .f32 := constant S_ .f32 0x00000000#32
  have v13 : FVec F S8192x8192 .f32 := broadcastInDim S8192x8192 ![] bcast_S_S8192x8192 cst_1
  have v14 : FVec F S8192x8192 .f32 := maximumf v12 v13
  -- the guarded square root
  have cst_2 : FVec F S_ .f32 := constant S_ .f32 0x00000000#32
  have v15 : FVec F S8192x8192 .f32 := broadcastInDim S8192x8192 ![] bcast_S_S8192x8192 cst_2
  have v16 : IVec S8192x8192 1 := cmpf .ogt v14 v15
  have cst_3 : FVec F S_ .f32 := constant S_ .f32 0x3F800000#32
  have w1_0 : FVec F S_ .f32 := cst_3
  have w1_1 : FVec F S8192x8192 .f32 := broadcastInDim S8192x8192 ![] bcast_S_S8192x8192 w1_0
  have v17 : FVec F S8192x8192 .f32 := select v16 v14 w1_1
  have cst_4 : FVec F S_ .f32 := constant S_ .f32 0x00000000#32
  have v18 : FVec F S8192x8192 .f32 := broadcastInDim S8192x8192 ![] bcast_S_S8192x8192 cst_4
  have v19 : IVec S8192x8192 1 := cmpf .ogt v14 v18
  have v20 : FVec F S8192x8192 .f32 := Host.sqrt v17
  have cst_5 : FVec F S_ .f32 := constant S_ .f32 0x00000000#32
  have w2_0 : FVec F S_ .f32 := cst_5
  have w2_1 : FVec F S8192x8192 .f32 := broadcastInDim S8192x8192 ![] bcast_S_S8192x8192 w2_0
  have v21 : FVec F S8192x8192 .f32 := select v19 v20 w2_1
  -- the masks: same identity, and same class with another identity
  have v22 : IVec S8192x1 32 := broadcastInDim S8192x1 ![0] bcast_S8192_S8192x1_0 ids
  have v23 : IVec S1x8192 32 := broadcastInDim S1x8192 ![1] bcast_S8192_S1x8192_1 ids
  have v24 : IVec S8192x8192 32 := broadcastInDim S8192x8192 ![0, 1] bcast_S8192x1_S8192x8192_0_1 v22
  have v25 : IVec S8192x8192 32 := broadcastInDim S8192x8192 ![0, 1] bcast_S1x8192_S8192x8192_0_1 v23
  have v26 : IVec S8192x8192 1 := cmpi .eq v24 v25
  have v27 : IVec S8192x1 32 := broadcastInDim S8192x1 ![0] bcast_S8192_S8192x1_0 v0
  have v28 : IVec S1x8192 32 := broadcastInDim S1x8192 ![1] bcast_S8192_S1x8192_1 v0
  have v29 : IVec S8192x8192 32 := broadcastInDim S8192x8192 ![0, 1] bcast_S8192x1_S8192x8192_0_1 v27
  have v30 : IVec S8192x8192 32 := broadcastInDim S8192x8192 ![0, 1] bcast_S1x8192_S8192x8192_0_1 v28
  have v31 : IVec S8192x8192 1 := cmpi .eq v29 v30
  have v32 : IVec S8192x8192 1 := noti v26
  have v33 : IVec S8192x8192 1 := andi v31 v32
  -- the hardest positive and the hardest negative of each anchor
  have cst_6 : FVec F S_ .f32 := constant S_ .f32 0xFF800000#32
  have w3_0 : FVec F S_ .f32 := cst_6
  have w3_1 : FVec F S8192x8192 .f32 := broadcastInDim S8192x8192 ![] bcast_S_S8192x8192 w3_0
  have v34 : FVec F S8192x8192 .f32 := select v26 v21 w3_1
  have cst_7 : FVec F S_ .f32 := constant S_ .f32 0xFF800000#32
  have v35 : FVec F S8192 .f32 := Host.reduce FloatOps.maximumf v34 cst_7 reducesTo_S8192x8192_S8192_d0 h_S_
  have cst_8 : FVec F S_ .f32 := constant S_ .f32 0x7F800000#32
  have w4_0 : FVec F S_ .f32 := cst_8
  have w4_1 : FVec F S8192x8192 .f32 := broadcastInDim S8192x8192 ![] bcast_S_S8192x8192 w4_0
  have v36 : FVec F S8192x8192 .f32 := select v33 v21 w4_1
  have cst_9 : FVec F S_ .f32 := constant S_ .f32 0x7F800000#32
  have v37 : FVec F S8192 .f32 := Host.reduce FloatOps.minimumf v36 cst_9 reducesTo_S8192x8192_S8192_d0 h_S_
  have c_10 : IVec S_ 1 := constantI S_ 1 0#1
  have v38 : IVec S8192 1 := Host.reduce IntOp.ori v33 c_10 reducesTo_S8192x8192_S8192_d0 h_S_
  have cst_11 : FVec F S_ .f32 := constant S_ .f32 0x00000000#32
  have w5_0 : FVec F S_ .f32 := cst_11
  have w5_1 : FVec F S8192 .f32 := broadcastInDim S8192 ![] bcast_S_S8192 w5_0
  have v39 : FVec F S8192 .f32 := select v38 v37 w5_1
  -- the margin term, kept where the anchor has a negative
  have cst_12 : FVec F S_ .f32 := constant S_ .f32 0x3DCCCCCD#32
  have v40 : FVec F S8192 .f32 := broadcastInDim S8192 ![] bcast_S_S8192 cst_12
  have v41 : FVec F S8192 .f32 := addf v40 v35
  have v42 : FVec F S8192 .f32 := subf v41 v39
  have cst_13 : FVec F S_ .f32 := constant S_ .f32 0x00000000#32
  have v43 : FVec F S8192 .f32 := broadcastInDim S8192 ![] bcast_S_S8192 cst_13
  have v44 : FVec F S8192 .f32 := maximumf v42 v43
  have cst_14 : FVec F S_ .f32 := constant S_ .f32 0x00000000#32
  have w6_0 : FVec F S_ .f32 := cst_14
  have w6_1 : FVec F S8192 .f32 := broadcastInDim S8192 ![] bcast_S_S8192 w6_0
  select v38 v44 w6_1

/-- The scalar (%61) as a function of the per-anchor term (%45) and the identities. -/
def refTail (t : FVec F S8192 .f32) (ids : IVec S8192 32) : FVec F S_ .f32 :=
  -- how many anchors each identity has, and the sum of their terms
  have cst_15 : FVec F S_ .f32 := constant S_ .f32 0x3F800000#32
  have v46 : FVec F S8192 .f32 := broadcastInDim S8192 ![] bcast_S_S8192 cst_15
  have cst_16 : FVec F S_ .f32 := constant S_ .f32 0x00000000#32
  have v47 : FVec F S4000 .f32 := broadcastInDim S4000 ![] bcast_S_S4000 cst_16
  have v48 : IVec S8192x1 32 := broadcastInDim S8192x1 ![0] bcast_S8192_S8192x1_0 ids
  have v49 : FVec F S4000 .f32 := Host.scatterAdd scatter_S4000_S8192x1_S8192_n_0_0_1 v47 v48 v46
  have cst_17 : FVec F S_ .f32 := constant S_ .f32 0x00000000#32
  have v50 : FVec F S4000 .f32 := broadcastInDim S4000 ![] bcast_S_S4000 cst_17
  have v51 : IVec S8192x1 32 := broadcastInDim S8192x1 ![0] bcast_S8192_S8192x1_0 ids
  have v52 : FVec F S4000 .f32 := Host.scatterAdd scatter_S4000_S8192x1_S8192_n_0_0_1 v50 v51 t
  -- the mean per present identity, and the mean of those
  have cst_18 : FVec F S_ .f32 := constant S_ .f32 0x00000000#32
  have v53 : FVec F S4000 .f32 := broadcastInDim S4000 ![] bcast_S_S4000 cst_18
  have v54 : IVec S4000 1 := cmpf .ogt v49 v53
  have cst_19 : FVec F S_ .f32 := constant S_ .f32 0x3F800000#32
  have w7_0 : FVec F S_ .f32 := cst_19
  have w7_1 : FVec F S4000 .f32 := broadcastInDim S4000 ![] bcast_S_S4000 w7_0
  have v55 : FVec F S4000 .f32 := select v54 v49 w7_1
  have v56 : FVec F S4000 .f32 := Host.divf v52 v55
  have cst_20 : FVec F S_ .f32 := constant S_ .f32 0x00000000#32
  have w8_0 : FVec F S_ .f32 := cst_20
  have w8_1 : FVec F S4000 .f32 := broadcastInDim S4000 ![] bcast_S_S4000 w8_0
  have v57 : FVec F S4000 .f32 := select v54 v56 w8_1
  have v58 : FVec F S4000 .f32 := uitofp .f32 v54
  have cst_21 : FVec F S_ .f32 := constant S_ .f32 0x00000000#32
  have v59 : FVec F S_ .f32 := Host.reduceAdd v58 cst_21 reducesTo_S4000_S_d0 h_S_
  have cst_22 : FVec F S_ .f32 := constant S_ .f32 0x00000000#32
  have v60 : FVec F S_ .f32 := Host.reduceAdd v57 cst_22 reducesTo_S4000_S_d0 h_S_
  Host.divf v60 v59

end Cert.ReferenceIdeal.Hand

end
-- ==== Proof.KI.OutTail.lean ====
/-
  The scalar the kernel's program returns, as a function of the result row and the identities: the lines after the
  region (the per-identity counts and sums by scatter-add, the guarded quotient, the two sums and their quotient) are,
  operation for operation, the lines with which the reference ends, applied to the result row read as a vector.
-/
import proofs.«147753_j50903952392404_1_alg».proof.Proof.KI.Launch
import proofs.«147753_j50903952392404_1_alg».proof.Proof.Ref.Defs
import Idealize.ShloMosaic.PureOps.Ideal

set_option maxRecDepth 16384

noncomputable section

namespace Cert.KernelIdeal.Hand

open Cert.KernelIdeal Cert.KernelIdeal.Gen
open Idealize.ShloMosaic Idealize.ShloMosaic.TcCoe
open Idealize.SL Idealize.SL.Sem
open Idealize.ShloMosaic.Pipeline (Dat Cfg Window)

variable (m : (ℓ : Loc nD τ sig) → Buf (Elt Ideal) ℓ)

set_option maxHeartbeats 2000000 in
/-- The program's result: the reference's closing lines on the result row and the identities. -/
theorem afterV_v18 (c : Dev nD) :
    afterV m c main_v18
      = Cert.ReferenceIdeal.Hand.refTail (F := Ideal)
          (shapeCast S8192 ((dats m 0 c).arrAt (4 : Fin 5) cfg0.N : FVec Ideal S1x8192 .f32) shapeCasts_S1x8192_S8192)
          (m ((c : Thread nD τ).loc main_arg1)) := by
  unfold afterV
  simp only [tailOpss, List.flatten_cons, List.flatten_nil, List.append_nil, hostOps1, hostOps1_1, hostOps1_2, hostOps1_3, hostOps1_4,
    List.cons_append, List.nil_append]
  after_results_simp
  rw [Vx_v1, Vx_of_ne m c main_arg1 (by decide), V_at_arg1]
  rfl

end Cert.KernelIdeal.Hand

end
-- ==== Proof.Spec.lean ====
/-
  What both programs compute for one anchor row, stated once over plain index functions on the extended reals.
  For embeddings x : 8192 × 128 and identities ids : 8192 (32-bit words):
  * sq r        = Σ_k x[r,k]²,   gram j i = Σ_k x[j,k]·x[i,k];
  * d2 j i      = max (sq j + sq i − 2·gram j i) 0;   dist j i = √d2 where d2 > 0 and 0 elsewhere
                  (the guarded square root of the pairwise Euclidean distance);
  * cls b       = the floor quotient of the signed word b by 1000 (the truncated quotient, lowered by one
                  when the signs differ and the remainder is not zero);
  * sameId j i  : ids[j] = ids[i];   negMask j i : same class and different identity;
  * hardPos i   = the maximum over j of dist j i on the same identity (−∞ elsewhere);
  * hardNeg i   = the minimum over j of dist j i on negMask (+∞ elsewhere);
  * trip i      = max (margin + hardPos i − hardNeg i) 0 if some j has negMask j i, else 0.
  The float literals are kept as the words both programs print.
-/
import Idealize.ShloMosaic.PureOps.Ideal
import Idealize.ShloMosaic.PureOps.Ideal.Laws

noncomputable section

namespace Cert.Spec

open Idealize.ShloMosaic

abbrev zeroW : EReal := Ideal.ofBits .f32 0x00000000#32
abbrev oneW : EReal := Ideal.ofBits .f32 0x3F800000#32
abbrev twoW : EReal := Ideal.ofBits .f32 0x40000000#32
abbrev marginW : EReal := Ideal.ofBits .f32 0x3DCCCCCD#32
abbrev negInfW : EReal := Ideal.ofBits .f32 0xFF800000#32
abbrev posInfW : EReal := Ideal.ofBits .f32 0x7F800000#32

/-- The squared norm of row r. -/
def sq (x : Fin 8192 → Fin 128 → EReal) (r : Fin 8192) : EReal := ∑ k : Fin 128, x r k * x r k

/-- The inner product of rows j and i. -/
def gram (x : Fin 8192 → Fin 128 → EReal) (j i : Fin 8192) : EReal := ∑ k : Fin 128, x j k * x i k

/-- The squared distance, clamped at zero. -/
def d2 (x : Fin 8192 → Fin 128 → EReal) (j i : Fin 8192) : EReal :=
  max (sq x j + sq x i - twoW * gram x j i) zeroW

/-- The distance with the guarded square root: zero where the squared distance is not positive. -/
def dist (x : Fin 8192 → Fin 128 → EReal) (j i : Fin 8192) : EReal :=
  Scalar.select (Ideal.cmp .ogt (d2 x j i) zeroW)
    (Ideal.sqrt (Scalar.select (Ideal.cmp .ogt (d2 x j i) zeroW) (d2 x j i) oneW)) zeroW

/-- The sign of a signed word as a word: 0, 1 or −1. -/
def sgn (b : BitVec 32) : BitVec 32 := if b = 0 then 0 else if b.msb then -1 else 1

/-- The floor quotient by 1000. -/
def cls (b : BitVec 32) : BitVec 32 :=
  if sgn b ≠ 1#32 ∧ b.srem 1000#32 ≠ 0#32 then b.sdiv 1000#32 - 1#32 else b.sdiv 1000#32

/-- Same identity, as a one-bit word. -/
def sameId (ids : Fin 8192 → BitVec 32) (j i : Fin 8192) : BitVec 1 := IntOp.cmpi .eq (ids j) (ids i)

/-- Same class and different identity, as a one-bit word. -/
def negMask (ids : Fin 8192 → BitVec 32) (j i : Fin 8192) : BitVec 1 :=
  IntOp.andi (IntOp.cmpi .eq (cls (ids j)) (cls (ids i))) (IntOp.xori (sameId ids j i) 1#1)

/-- The hardest positive of anchor i. -/
def hardPos (x : Fin 8192 → Fin 128 → EReal) (ids : Fin 8192 → BitVec 32) (i : Fin 8192) : EReal :=
  (Finset.univ : Finset (Fin 8192)).fold max negInfW fun j => Scalar.select (sameId ids j i) (dist x j i) negInfW

/-- The hardest negative of anchor i. -/
def hardNeg (x : Fin 8192 → Fin 128 → EReal) (ids : Fin 8192 → BitVec 32) (i : Fin 8192) : EReal :=
  (Finset.univ : Finset (Fin 8192)).fold min posInfW fun j => Scalar.select (negMask ids j i) (dist x j i) posInfW

/-- Anchor i has a negative. -/
def hasNeg (ids : Fin 8192 → BitVec 32) (i : Fin 8192) : Prop := ∃ j, negMask ids j i = 1#1

open Classical in
/-- The triplet term of anchor i. -/
def trip (x : Fin 8192 → Fin 128 → EReal) (ids : Fin 8192 → BitVec 32) (i : Fin 8192) : EReal :=
  if hasNeg ids i then max (marginW + hardPos x ids i - hardNeg x ids i) zeroW else zeroW

end Cert.Spec

end
-- ==== Proof.KI.TileWords.lean ====
/-
  Words: the kernel's floor division by 1000 of a signed 32-bit word is the class of the specification.
  The truncated quotient and remainder by 1000 meet no division corner (1000 is neither 0 nor −1); the sign the kernel
  computes, (b > 0) − (b < 0) on words, is 0, 1 or −1 as the word is zero, positive or negative; the sign of the
  constant 1000 is 1. The kernel lowers the quotient by one where the dividend's sign is not the divisor's and the
  remainder is not zero: the floor quotient.
-/
import proofs.«147753_j50903952392404_1_alg».proof.Proof.Spec

namespace Cert.KernelIdeal.Hand

open Idealize.ShloMosaic

/-- The truncated quotient by 1000 on the vector unit is the word's signed quotient: no corner. -/
theorem divsi_1000 (b : BitVec 32) : IntOp.divsi .vector b 1000#32 = b.sdiv 1000#32 := by
  unfold IntOp.divsi
  rw [if_neg]
  rintro (h | ⟨_, h⟩) <;> exact absurd h (by decide)

/-- The remainder by 1000 likewise. -/
theorem remsi_1000 (b : BitVec 32) : IntOp.remsi .vector b 1000#32 = b.srem 1000#32 := by
  unfold IntOp.remsi
  rw [if_neg]
  rintro (h | ⟨_, h⟩) <;> exact absurd h (by decide)

/-- (b > 0) − (b < 0), each bit widened to a word, is the sign of b: 0, −1 or 1. -/
theorem sign_word (b : BitVec 32) :
    IntOp.subi ((IntOp.cmpi .sgt b 0#32).setWidth 32) ((IntOp.cmpi .slt b 0#32).setWidth 32) = Cert.Spec.sgn b := by
  unfold Cert.Spec.sgn IntOp.subi IntOp.cmpi
  by_cases h0 : b = 0
  · subst h0; decide
  · rw [if_neg h0]
    have hs : (0#32).slt b = decide (0 < b.toInt) := by simp [BitVec.slt_eq_decide]
    have hl : b.slt 0#32 = decide (b.toInt < 0) := by simp [BitVec.slt_eq_decide]
    have hmsb : b.msb = decide (b.toInt < 0) := BitVec.msb_eq_toInt
    have hne : b.toInt ≠ 0 := fun h => h0 (BitVec.toInt_inj.mp (by simpa using h))
    simp only [hs, hl, hmsb]
    rcases lt_trichotomy b.toInt 0 with h | h | h
    · have h1 : decide (0 < b.toInt) = false := by simp; omega
      have h2 : decide (b.toInt < 0) = true := by simp; exact h
      rw [h1, h2]; decide
    · exact absurd h hne
    · have h1 : decide (0 < b.toInt) = true := by simp; exact h
      have h2 : decide (b.toInt < 0) = false := by simp; omega
      rw [h1, h2]; decide

/-- The sign of the constant 1000, computed the same way, is 1. -/
theorem const_sign :
    Scalar.subi (Scalar.extui (Scalar.cmpi .sgt 1000#32 0#32)) (Scalar.extui (Scalar.cmpi .slt 1000#32 0#32)) = 1#32 := by
  decide

/-- The quotient lowered by one where the sign is not 1 and the remainder is not zero: the floor quotient by 1000. -/
theorem cls_word (b : BitVec 32) :
    Scalar.select
        (IntOp.andi
          (IntOp.cmpi .ne (IntOp.subi ((IntOp.cmpi .sgt b 0#32).setWidth 32) ((IntOp.cmpi .slt b 0#32).setWidth 32))
            (Scalar.subi (Scalar.extui (Scalar.cmpi .sgt 1000#32 0#32)) (Scalar.extui (Scalar.cmpi .slt 1000#32 0#32))))
          (IntOp.cmpi .ne (IntOp.remsi .vector b 1000#32) 0#32))
        (IntOp.subi (IntOp.divsi .vector b 1000#32) 1#32) (IntOp.divsi .vector b 1000#32)
      = Cert.Spec.cls b := by
  rw [const_sign, sign_word, divsi_1000, remsi_1000]
  unfold Cert.Spec.cls Scalar.select IntOp.andi IntOp.cmpi IntOp.subi
  by_cases h1 : Cert.Spec.sgn b = 1#32
  · by_cases h2 : b.srem 1000#32 = 0#32 <;> simp [h1, h2]
  · by_cases h2 : b.srem 1000#32 = 0#32
    · simp [h1, h2]
    · have e1 : (Cert.Spec.sgn b != 1#32) = true := by simpa using h1
      have e2 : (b.srem 1000#32 != 0#32) = true := by simpa using h2
      simp [h1, h2, e1, e2]

end Cert.KernelIdeal.Hand
-- ==== Proof.KI.TilePay.lean ====
/-
  The payloads of one tile read at an index, at the ideal values. The anchor block holds rows 512 ib … of the
  embeddings and identities, the partner block rows 512 jb …. At row r (partner J) and lane l (anchor I) of the tile:
  the product of the partner block with the transposed anchor block, into the zero accumulator, is the inner product
  Σ_k x[J,k]·x[I,k]; the lane sums of the squares, one kept as a column and one turned into a row, are the two squared
  norms; the pointwise chain after them is the clamped squared distance and its guarded square root. The identity
  masks compare the partner column's word r with the anchor row's word l, and the floor quotients by 1000 of the two.
  Down a column of the tile the three reductions are folds over the 512 rows, from −∞, +∞ and −∞, and each accumulator's
  update at a lane is the maximum or minimum of its old value with that fold.
-/
import proofs.«147753_j50903952392404_1_alg».proof.Proof.KI.TileDef
import proofs.«147753_j50903952392404_1_alg».proof.Proof.KI.TileWords
import proofs.«147753_j50903952392404_1_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Hand

open Cert.KernelIdeal Cert.KernelIdeal.Gen
open Idealize.ShloMosaic Idealize.SL.Sem
open Idealize.ShloMosaic.ValueIdx

/-! ## The block product at an index: the contraction's index maps, axis by axis, and the inner product -/

/-- The left operand's row is the result's row. -/
theorem dd_lhs_0 (j : S512x512.Idx) (k : dot_S512x128_S128x512_S512x512_1_0_0_1_n_n.contr.Idx) :
    (dot_S512x128_S128x512_S512x512_1_0_0_1_n_n.lhsIdx j k 0).val = (j 0).val := by
  simp [DotDims.lhsIdx, dot_S512x128_S128x512_S512x512_1_0_0_1_n_n]; rfl

/-- The left operand's column is the contraction position. -/
theorem dd_lhs_1 (j : S512x512.Idx) (k : dot_S512x128_S128x512_S512x512_1_0_0_1_n_n.contr.Idx) :
    (dot_S512x128_S128x512_S512x512_1_0_0_1_n_n.lhsIdx j k 1).val = (k ⟨0, by decide⟩).val :=
  dot_S512x128_S128x512_S512x512_1_0_0_1_n_n.lhsIdx_val_of_single (cl := 1) rfl j k

/-- The right operand's row is the contraction position. -/
theorem dd_rhs_0 (j : S512x512.Idx) (k : dot_S512x128_S128x512_S512x512_1_0_0_1_n_n.contr.Idx) :
    (dot_S512x128_S128x512_S512x512_1_0_0_1_n_n.rhsIdx j k 0).val = (k ⟨0, by decide⟩).val :=
  dot_S512x128_S128x512_S512x512_1_0_0_1_n_n.rhsIdx_val_of_single (cr := 0) rfl j k

/-- The right operand's column is the result's column. -/
theorem dd_rhs_1 (j : S512x512.Idx) (k : dot_S512x128_S128x512_S512x512_1_0_0_1_n_n.contr.Idx) :
    (dot_S512x128_S128x512_S512x512_1_0_0_1_n_n.rhsIdx j k 1).val = (j 1).val := by
  simp [DotDims.rhsIdx, dot_S512x128_S128x512_S512x512_1_0_0_1_n_n]; rfl

/-- The product of a block with the transpose of another, into the zero accumulator, at (r, l): the inner product of row r of the first with row l of the second. -/
theorem gram_apply (A B : FVec Ideal S512x128 .f32) (r l : Fin 512) :
    matmul dot_S512x128_S128x512_S512x512_1_0_0_1_n_n none (truncf .bf16 B bitsLt_bf16_f32)
        (transpose S128x512 [1, 0] (truncf .bf16 A bitsLt_bf16_f32) transposes_S512x128_p1_0_S128x512)
        (constant S512x512 .f32 0x00000000#32) (ix2 r l)
      = ∑ k : Fin 128, B (ix2 r k) * A (ix2 l k) := by
  refine (Ideal.matmul_constant_zero_apply dot_S512x128_S128x512_S512x512_1_0_0_1_n_n none _ _ (ix2 r l)).trans ?_
  rw [← Equiv.sum_comp (contrEquiv1 dot_S512x128_S128x512_S512x512_1_0_0_1_n_n 128 rfl rfl).symm]
  refine Finset.sum_congr rfl fun k _ => ?_
  have hk := contrEquiv1_symm_val dot_S512x128_S128x512_S512x512_1_0_0_1_n_n 128 rfl rfl k
  congr 1
  · show B _ = B _
    refine congrArg B (Shape.idx_ext₂ ?_ ?_)
    · exact dd_lhs_0 (ix2 r l) _
    · exact (dd_lhs_1 (ix2 r l) _).trans hk
  · refine (transpose_apply [1, 0] _ transposes_S512x128_p1_0_S128x512 _ (ix2 l k) fun c => ?_).trans rfl
    match c with
    | ⟨0, _⟩ => exact ((dd_rhs_0 (ix2 r l) _).trans hk).symm
    | ⟨1, _⟩ => exact (dd_rhs_1 (ix2 r l) _).symm

/-! ## The keepdims column forms of a cast, a broadcast, and the lane sum -/

/-- An [a] array cast to [a, 1] reads, at (i, u), the operand at i. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An [a, 1] column broadcast to [a, b] reads, at (p, c), the column at p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The sum along the lanes of a [512, 128] block at row r. -/
theorem rowsum_apply (X : FVec Ideal S512x128 .f32) (hφ : FKind.Formats .f32)
    (hacc : (0x00000000#32 : BitVec 32) = FKind.add.neutral .f32 hφ) (r : Fin 512) :
    multiReduction .add [1] S512 X 0x00000000#32 reduces_S512x128_S512 hφ hacc (ix1 r) = ∑ k : Fin 128, X (ix2 r k) := by
  refine (Ideal.multiReduction_add_single X _ reduces_S512x128_S512 hφ hacc (ix1 r)).trans ?_
  refine Finset.sum_congr rfl fun k _ => congrArg X ?_
  funext c
  match c with
  | ⟨0, _⟩ => exact Fin.ext rfl
  | ⟨1, _⟩ => exact Fin.ext rfl

/-! ## The tile of distances at an index -/

/-- A square root at an index is the square root of the element. -/
theorem sqrt_apply' {s : Shape} {φ : FTy} (a : FVec Ideal s φ) (i : s.Idx) : Idealize.ShloMosaic.sqrt a i = Ideal.sqrt (a i) := rfl

/-- The tile of pairwise distances at (r, l): the distance of the partner block's row r and the anchor block's row l. -/
theorem pay6_apply (x : Fin 8192 → Fin 128 → EReal) (ai aj : FVec Ideal S512x128 .f32) (r l : Fin 512) (I J : Fin 8192)
    (hai : ∀ k : Fin 128, ai (ix2 l k) = x I k) (haj : ∀ k : Fin 128, aj (ix2 r k) = x J k) :
    k0_pay6 (F := Ideal) ai aj (ix2 r l) = Cert.Spec.dist x J I := by
  have hg : matmul (F := Ideal) dot_S512x128_S128x512_S512x512_1_0_0_1_n_n none (truncf .bf16 aj bitsLt_bf16_f32)
        (transpose S128x512 [1, 0] (truncf .bf16 ai bitsLt_bf16_f32) transposes_S512x128_p1_0_S128x512)
        (constant S512x512 .f32 0x00000000#32) (ix2 r l) = Cert.Spec.gram x J I := by
    refine (gram_apply ai aj r l).trans ?_
    unfold Cert.Spec.gram
    exact Finset.sum_congr rfl fun k _ => by rw [hai k, haj k]
  have hsj : broadcastTo S512x512 (shapeCast S512x1 (multiReduction (F := Ideal) .add [1] S512 (mulf aj aj) 0x00000000#32 reduces_S512x128_S512 (.inl rfl) rfl) shapeCasts_S512_S512x1)
        broadcasts_S512x1_S512x512 (ix2 r l) = Cert.Spec.sq x J := by
    refine (broadcastTo_a1_ab_apply _ broadcasts_S512x1_S512x512 r l).trans ?_
    refine (shapeCast_a_a1_apply _ shapeCasts_S512_S512x1 r 0).trans ?_
    refine (rowsum_apply (mulf aj aj) _ _ r).trans ?_
    unfold Cert.Spec.sq
    exact Finset.sum_congr rfl fun k _ => by rw [mulf_apply, haj k]
  have hsi : broadcastTo S512x512 (transpose S1x512 [1, 0] (shapeCast S512x1 (multiReduction (F := Ideal) .add [1] S512 (mulf ai ai) 0x00000000#32 reduces_S512x128_S512 (.inl rfl) rfl) shapeCasts_S512_S512x1) transposes_S512x1_p1_0_S1x512)
        broadcasts_S1x512_S512x512 (ix2 r l) = Cert.Spec.sq x I := by
    refine (broadcastTo_1b_ab_apply _ broadcasts_S1x512_S512x512 r l).trans ?_
    refine (transpose_ix2_apply _ transposes_S512x1_p1_0_S1x512 (0 : Fin 1) l).trans ?_
    refine (shapeCast_a_a1_apply _ shapeCasts_S512_S512x1 l 0).trans ?_
    refine (rowsum_apply (mulf ai ai) _ _ l).trans ?_
    unfold Cert.Spec.sq
    exact Finset.sum_congr rfl fun k _ => by rw [mulf_apply, hai k]
  unfold k0_pay6
  simp only [select_apply, cmpf_apply, sqrt_apply', maximumf_apply, subf_apply, addf_apply, mulf_apply, broadcast_apply,
    Ideal.cmpf_def, hg, hsj, hsi]
  rfl

/-! ## The identities: the blocks' words where the masks read them, the class, and the two masks at (r, l) -/

/-- The anchor identities pass through a cast to their own shape. -/
theorem pay5_eq (v : Vec Ideal S1x512 .i32) : k0_pay5 (F := Ideal) v = v := by
  unfold k0_pay5
  exact shapeCast_self v shapeCasts_S1x512_S1x512

/-- The partner identities as a column: row r holds the block's word r. -/
theorem pay7_apply (v : Vec Ideal S1x512 .i32) (r : Fin 512) : k0_pay7 (F := Ideal) v (ix2 r (0 : Fin 1)) = v (ix2 (0 : Fin 1) r) := by
  unfold k0_pay7
  refine (transpose_ix2_apply _ transposes_S1x512_p1_0_S512x1 r (0 : Fin 1)).trans ?_
  exact congrFun (shapeCast_self v shapeCasts_S1x512_S1x512) _

/-- The partner column's class. -/
theorem pay8_apply (v : IVec S512x1 32) (i : S512x1.Idx) : k0_pay8 v i = Cert.Spec.cls (v i) := by
  unfold k0_pay8
  exact cls_word (v i)

/-- The anchor row's class: the quotient, lowered by one where the sign and remainder say so. -/
theorem anchor_cls (v6 : IVec S1x512 32) (i : S1x512.Idx) :
    select (k0_pay10 v6) (subi (k0_pay9 v6) k0_pay11) (k0_pay9 v6) i = Cert.Spec.cls (v6 i) := by
  unfold k0_pay10 k0_pay9 k0_pay11
  exact cls_word (v6 i)

/-- Same identity at (r, l): the partner column's word r against the anchor row's word l. -/
theorem pay12_apply (v6 : IVec S1x512 32) (v37 : IVec S512x1 32) (r l : Fin 512) :
    k0_pay12 v6 v37 (ix2 r l) = IntOp.cmpi .eq (v37 (ix2 r (0 : Fin 1))) (v6 (ix2 (0 : Fin 1) l)) := by
  unfold k0_pay12
  show IntOp.cmpi .eq (broadcastTo S512x512 v37 broadcasts_S512x1_S512x512 (ix2 r l))
      (broadcastTo S512x512 v6 broadcasts_S1x512_S512x512 (ix2 r l)) = _
  rw [broadcastTo_a1_ab_apply, broadcastTo_1b_ab_apply]

/-- Same class and another identity at (r, l). -/
theorem pay13_apply (v6 : IVec S1x512 32) (v37 v61 : IVec S512x1 32) (v63 : IVec S1x512 32) (v82 : IVec S1x512 1)
    (v83 : IVec S1x512 32) (r l : Fin 512) :
    k0_pay13 v6 v37 v61 v63 v82 v83 (ix2 r l)
      = IntOp.andi (IntOp.cmpi .eq (v61 (ix2 r (0 : Fin 1))) (select v82 (subi v63 v83) v63 (ix2 (0 : Fin 1) l)))
          (IntOp.xori (k0_pay12 v6 v37 (ix2 r l)) 1#1) := by
  unfold k0_pay13
  show IntOp.andi (IntOp.cmpi .eq (broadcastTo S512x512 v61 broadcasts_S512x1_S512x512 (ix2 r l))
      (broadcastTo S512x512 (select v82 (subi v63 v83) v63) broadcasts_S1x512_S512x512 (ix2 r l)))
      (IntOp.xori (k0_pay12 v6 v37 (ix2 r l)) 1#1) = _
  rw [broadcastTo_a1_ab_apply, broadcastTo_1b_ab_apply]

/-- The tile's same-identity mask at (r, l) is the specification's, partner J against anchor I. -/
theorem sameId_tile (ids : Fin 8192 → BitVec 32) (Ii Ij : Vec Ideal S1x512 .i32) (r l : Fin 512) (I J : Fin 8192)
    (hIi : Ii (ix2 (0 : Fin 1) l) = ids I) (hIj : Ij (ix2 (0 : Fin 1) r) = ids J) :
    k0_pay12 (k0_pay5 (F := Ideal) Ii) (k0_pay7 (F := Ideal) Ij) (ix2 r l) = Cert.Spec.sameId ids J I := by
  rw [pay12_apply, pay7_apply, pay5_eq, hIi, hIj]
  rfl

/-- The tile's negative mask at (r, l) is the specification's. -/
theorem negMask_tile (ids : Fin 8192 → BitVec 32) (Ii Ij : Vec Ideal S1x512 .i32) (r l : Fin 512) (I J : Fin 8192)
    (hIi : Ii (ix2 (0 : Fin 1) l) = ids I) (hIj : Ij (ix2 (0 : Fin 1) r) = ids J) :
    k0_pay13 (k0_pay5 (F := Ideal) Ii) (k0_pay7 (F := Ideal) Ij) (k0_pay8 (k0_pay7 (F := Ideal) Ij)) (k0_pay9 (k0_pay5 (F := Ideal) Ii))
        (k0_pay10 (k0_pay5 (F := Ideal) Ii)) k0_pay11 (ix2 r l) = Cert.Spec.negMask ids J I := by
  rw [pay13_apply, anchor_cls, pay8_apply, sameId_tile ids Ii Ij r l I J hIi hIj, pay7_apply, pay5_eq, hIi, hIj]
  rfl

/-! ## The reductions down a tile's columns, and the accumulators' updates at a lane -/

/-- The maximum down column l of a [512, 512] tile from −∞: the fold of max over the rows. -/
theorem colmax_apply (X : FVec Ideal S512x512 .f32) (hφ : FKind.Formats .f32)
    (hacc : (0xFF800000#32 : BitVec 32) = FKind.maximumf.neutral .f32 hφ) (l : Fin 512) :
    multiReduction .maximumf [0] S512 X 0xFF800000#32 reduces_S512x512_S512 hφ hacc (ix1 l)
      = (Finset.univ : Finset (Fin 512)).fold max Cert.Spec.negInfW (fun r => X (ix2 r l)) := by
  refine (Ideal.multiReduction_maximumf_single X _ reduces_S512x512_S512 hφ hacc (ix1 l)).trans ?_
  refine Finset.fold_congr fun r _ => congrArg X ?_
  funext c
  match c with
  | ⟨0, _⟩ => exact Fin.ext rfl
  | ⟨1, _⟩ => exact Fin.ext rfl

/-- The minimum down column l from +∞: the fold of min over the rows. -/
theorem colmin_apply (X : FVec Ideal S512x512 .f32) (hφ : FKind.Formats .f32)
    (hacc : (0x7F800000#32 : BitVec 32) = FKind.minimumf.neutral .f32 hφ) (l : Fin 512) :
    multiReduction .minimumf [0] S512 X 0x7F800000#32 reduces_S512x512_S512 hφ hacc (ix1 l)
      = (Finset.univ : Finset (Fin 512)).fold min Cert.Spec.posInfW (fun r => X (ix2 r l)) := by
  refine (multiReduction_minimumf_eq_fold X _ reduces_S512x512_S512 hφ hacc (ix1 l)).trans ?_
  refine (reduces_S512x512_S512.fold_filter_drop_single _ _ X (ix1 l)).trans ?_
  refine Finset.fold_congr fun r _ => congrArg X ?_
  funext c
  match c with
  | ⟨0, _⟩ => exact Fin.ext rfl
  | ⟨1, _⟩ => exact Fin.ext rfl

/-- The first accumulator's update at lane l: the maximum with the column's maximum of the distance over the same identity. -/
theorem pay14_apply (v6 : IVec S1x512 32) (v36 : FVec Ideal S512x512 .f32) (v37 : IVec S512x1 32) (p : FVec Ideal S1x512 .f32)
    (l : Fin 512) :
    k0_pay14 (F := Ideal) v6 v36 v37 p (ix2 (0 : Fin 1) l)
      = max (p (ix2 (0 : Fin 1) l)) ((Finset.univ : Finset (Fin 512)).fold max Cert.Spec.negInfW fun r =>
          Scalar.select (k0_pay12 v6 v37 (ix2 r l)) (v36 (ix2 r l)) Cert.Spec.negInfW) := by
  unfold k0_pay14
  refine (congrFun (shapeCast_self _ shapeCasts_S1x512_S1x512) (ix2 (0 : Fin 1) l)).trans ?_
  refine (maximumf_apply p _ (ix2 (0 : Fin 1) l)).trans (congrArg (max (p (ix2 (0 : Fin 1) l))) ?_)
  refine (shapeCast_a_1a_apply _ shapeCasts_S512_S1x512 (0 : Fin 1) l).trans ?_
  exact colmax_apply _ _ _ l

/-- The second accumulator's update at lane l: the minimum with the column's minimum of the distance over the negatives. -/
theorem pay15_apply (v6 : IVec S1x512 32) (v36 : FVec Ideal S512x512 .f32) (v37 v61 : IVec S512x1 32) (v63 : IVec S1x512 32)
    (v82 : IVec S1x512 1) (v83 : IVec S1x512 32) (p : FVec Ideal S1x512 .f32) (l : Fin 512) :
    k0_pay15 (F := Ideal) v6 v36 v37 v61 v63 v82 v83 p (ix2 (0 : Fin 1) l)
      = min (p (ix2 (0 : Fin 1) l)) ((Finset.univ : Finset (Fin 512)).fold min Cert.Spec.posInfW fun r =>
          Scalar.select (k0_pay13 v6 v37 v61 v63 v82 v83 (ix2 r l)) (v36 (ix2 r l)) Cert.Spec.posInfW) := by
  unfold k0_pay15
  refine (congrFun (shapeCast_self _ shapeCasts_S1x512_S1x512) (ix2 (0 : Fin 1) l)).trans ?_
  refine (minimumf_apply p _ (ix2 (0 : Fin 1) l)).trans (congrArg (min (p (ix2 (0 : Fin 1) l))) ?_)
  refine (shapeCast_a_1a_apply _ shapeCasts_S512_S1x512 (0 : Fin 1) l).trans ?_
  exact colmin_apply _ _ _ l

/-- The third accumulator's update at lane l: the maximum with the column's maximum of the negative mask read as 0 or 1. -/
theorem pay16_apply (v6 : IVec S1x512 32) (v37 v61 : IVec S512x1 32) (v63 : IVec S1x512 32)
    (v82 : IVec S1x512 1) (v83 : IVec S1x512 32) (p : FVec Ideal S1x512 .f32) (l : Fin 512) :
    k0_pay16 (F := Ideal) v6 v37 v61 v63 v82 v83 p (ix2 (0 : Fin 1) l)
      = max (p (ix2 (0 : Fin 1) l)) ((Finset.univ : Finset (Fin 512)).fold max Cert.Spec.negInfW fun r =>
          ((((k0_pay13 v6 v37 v61 v63 v82 v83 (ix2 r l)).setWidth 32).toInt : ℝ) : EReal)) := by
  unfold k0_pay16
  refine (congrFun (shapeCast_self _ shapeCasts_S1x512_S1x512) (ix2 (0 : Fin 1) l)).trans ?_
  refine (maximumf_apply p _ (ix2 (0 : Fin 1) l)).trans (congrArg (max (p (ix2 (0 : Fin 1) l))) ?_)
  refine (shapeCast_a_1a_apply _ shapeCasts_S512_S1x512 (0 : Fin 1) l).trans ?_
  exact colmax_apply _ _ _ l

/-- The starting accumulators at a lane: −∞, +∞ and 0. -/
theorem pay2_apply (i : S1x512.Idx) : k0_pay2 (F := Ideal) i = Cert.Spec.negInfW := by
  unfold k0_pay2
  exact congrFun (shapeCast_self _ shapeCasts_S1x512_S1x512) i
theorem pay3_apply (i : S1x512.Idx) : k0_pay3 (F := Ideal) i = Cert.Spec.posInfW := by
  unfold k0_pay3
  exact congrFun (shapeCast_self _ shapeCasts_S1x512_S1x512) i
theorem pay4_apply (i : S1x512.Idx) : k0_pay4 (F := Ideal) i = Cert.Spec.zeroW := by
  unfold k0_pay4
  exact congrFun (shapeCast_self _ shapeCasts_S1x512_S1x512) i

/-- The row's result at a lane: where the third accumulator is positive, the margin plus the first less the second, clamped at zero; zero elsewhere. -/
theorem pay1_apply (hp hn has : FVec Ideal S1x512 .f32) (i : S1x512.Idx) :
    k0_pay1 (F := Ideal) hp hn has i
      = Scalar.select (Ideal.cmp .ogt (has i) Cert.Spec.zeroW) (max (Cert.Spec.marginW + hp i - hn i) Cert.Spec.zeroW) Cert.Spec.zeroW := by
  unfold k0_pay1
  rfl

end Cert.KernelIdeal.Hand

end
-- ==== Proof.KI.Tile.lean ====
/-
  One row of tiles is the specification. A tile's update of the three accumulators at the lane of anchor I is the
  maximum of the old value with the tile's maximum of the distance over the partners of I's identity, the minimum with
  the tile's minimum of the distance over the negatives, and the maximum with the tile's maximum of the negative mask
  read as 0 or 1. A running maximum that starts at max b M₀ and takes max with M_{n+1} is below c exactly when b and
  every M_m are, and dually for a running minimum; so after the sixteen tiles, which between them meet every row
  j = 512 (j / 512) + j % 512 once, the first two accumulators are the folds over all 8192 partners — the hardest
  positive and the hardest negative — by the universal properties of max and min, and the third is positive exactly
  when some partner is a negative. The row's result is then the triplet term: the select on the third accumulator is
  the case split on whether the anchor has a negative.
-/
import proofs.«147753_j50903952392404_1_alg».proof.Proof.KI.TilePay

noncomputable section

namespace Cert.KernelIdeal.Hand

open Cert.KernelIdeal Cert.KernelIdeal.Gen
open Idealize.ShloMosaic Idealize.SL.Sem
open Idealize.ShloMosaic.ValueIdx

/-! ## A running maximum and a running minimum over the tiles, by their universal properties -/

/-- A sequence that starts at max b (M 0) and takes the maximum with M (n + 1) at each step is below c exactly when b
    and every M m met so far are. -/
theorem seq_max_le {α : Type} [LinearOrder α] {N : ℕ} (a : ℕ → α) (M : Fin N → α) (b : α)
    (h0 : ∀ h : 0 < N, a 0 = max b (M ⟨0, h⟩))
    (hs : ∀ n (h : n + 1 < N), a (n + 1) = max (a n) (M ⟨n + 1, h⟩))
    (n : ℕ) (hn : n < N) (c : α) : a n ≤ c ↔ b ≤ c ∧ ∀ m : Fin N, m.val ≤ n → M m ≤ c := by
  induction n with
  | zero =>
    rw [h0 hn, max_le_iff]
    constructor
    · rintro ⟨h1, h2⟩
      refine ⟨h1, fun m hm => ?_⟩
      have e : m = ⟨0, hn⟩ := Fin.ext (by show m.val = 0; omega)
      rw [e]; exact h2
    · rintro ⟨h1, h2⟩
      exact ⟨h1, h2 ⟨0, hn⟩ le_rfl⟩
  | succ n ih =>
    rw [hs n hn, max_le_iff, ih (by omega)]
    constructor
    · rintro ⟨⟨h1, h2⟩, h3⟩
      refine ⟨h1, fun m hm => ?_⟩
      rcases Nat.lt_or_eq_of_le hm with h | h
      · exact h2 m (by omega)
      · have e : m = ⟨n + 1, hn⟩ := Fin.ext h
        rw [e]; exact h3
    · rintro ⟨h1, h2⟩
      exact ⟨⟨h1, fun m hm => h2 m (by omega)⟩, h2 ⟨n + 1, hn⟩ le_rfl⟩

/-- The same for a running minimum: c is below it exactly when c is below b and every M m met so far. -/
theorem seq_le_min {α : Type} [LinearOrder α] {N : ℕ} (a : ℕ → α) (M : Fin N → α) (b : α)
    (h0 : ∀ h : 0 < N, a 0 = min b (M ⟨0, h⟩))
    (hs : ∀ n (h : n + 1 < N), a (n + 1) = min (a n) (M ⟨n + 1, h⟩))
    (n : ℕ) (hn : n < N) (c : α) : c ≤ a n ↔ c ≤ b ∧ ∀ m : Fin N, m.val ≤ n → c ≤ M m := by
  induction n with
  | zero =>
    rw [h0 hn, le_min_iff]
    constructor
    · rintro ⟨h1, h2⟩
      refine ⟨h1, fun m hm => ?_⟩
      have e : m = ⟨0, hn⟩ := Fin.ext (by show m.val = 0; omega)
      rw [e]; exact h2
    · rintro ⟨h1, h2⟩
      exact ⟨h1, h2 ⟨0, hn⟩ le_rfl⟩
  | succ n ih =>
    rw [hs n hn, le_min_iff, ih (by omega)]
    constructor
    · rintro ⟨⟨h1, h2⟩, h3⟩
      refine ⟨h1, fun m hm => ?_⟩
      rcases Nat.lt_or_eq_of_le hm with h | h
      · exact h2 m (by omega)
      · have e : m = ⟨n + 1, hn⟩ := Fin.ext h
        rw [e]; exact h3
    · rintro ⟨h1, h2⟩
      exact ⟨⟨h1, fun m hm => h2 m (by omega)⟩, h2 ⟨n + 1, hn⟩ le_rfl⟩

/-! ## One anchor: the three terms a partner contributes, and a tile's update of the accumulators at the anchor's lane -/

/-- Row 512 b + r of the arrays: row r of block b. -/
abbrev gidx (b : Fin 16) (r : Fin 512) : Fin 8192 := ⟨512 * b.val + r.val, by omega⟩

/-- Every row is row j % 512 of block j / 512. -/
theorem gidx_div_mod (j : Fin 8192) : gidx ⟨j.val / 512, by omega⟩ ⟨j.val % 512, by omega⟩ = j :=
  Fin.ext (by show 512 * (j.val / 512) + j.val % 512 = j.val; omega)

section Anchor
variable (x : Fin 8192 → Fin 128 → EReal) (ids : Fin 8192 → BitVec 32) (I : Fin 8192)

/-- Partner j's term of the hardest positive: its distance on the same identity, −∞ elsewhere. -/
def posTerm (j : Fin 8192) : EReal := Scalar.select (Cert.Spec.sameId ids j I) (Cert.Spec.dist x j I) Cert.Spec.negInfW
/-- Partner j's term of the hardest negative: its distance on the negative mask, +∞ elsewhere. -/
def negTerm (j : Fin 8192) : EReal := Scalar.select (Cert.Spec.negMask ids j I) (Cert.Spec.dist x j I) Cert.Spec.posInfW
/-- Partner j's negative mask read as 0 or 1. -/
def hasTerm (j : Fin 8192) : EReal := ((((Cert.Spec.negMask ids j I).setWidth 32).toInt : ℝ) : EReal)

theorem hardPos_eq : Cert.Spec.hardPos x ids I = (Finset.univ : Finset (Fin 8192)).fold max Cert.Spec.negInfW (posTerm x ids I) := rfl
theorem hardNeg_eq : Cert.Spec.hardNeg x ids I = (Finset.univ : Finset (Fin 8192)).fold min Cert.Spec.posInfW (negTerm x ids I) := rfl

variable (Ai Aj : FVec Ideal S512x128 .f32) (Ii Ij : Vec Ideal S1x512 .i32)
  (p : Vec Ideal S1x512 .f32 × Vec Ideal S1x512 .f32 × Vec Ideal S1x512 .f32) (l : Fin 512) (Jf : Fin 512 → Fin 8192)
  (hAi : ∀ k : Fin 128, Ai (ix2 l k) = x I k) (hIi : Ii (ix2 (0 : Fin 1) l) = ids I)
  (hAj : ∀ (r : Fin 512) (k : Fin 128), Aj (ix2 r k) = x (Jf r) k) (hIj : ∀ r : Fin 512, Ij (ix2 (0 : Fin 1) r) = ids (Jf r))
include hAi hIi hAj hIj

/-- The first accumulator after a tile, at the anchor's lane. -/
theorem tile_fst :
    (tileStep (F := Ideal) Ai Aj Ii Ij p).1 (ix2 (0 : Fin 1) l)
      = max (p.1 (ix2 (0 : Fin 1) l)) ((Finset.univ : Finset (Fin 512)).fold max Cert.Spec.negInfW fun r => posTerm x ids I (Jf r)) := by
  show k0_pay14 (F := Ideal) (k0_pay5 Ii) (k0_pay6 Ai Aj) (k0_pay7 Ij) p.1 (ix2 (0 : Fin 1) l) = _
  rw [pay14_apply]
  refine congrArg (max _) (Finset.fold_congr fun r _ => ?_)
  rw [sameId_tile ids Ii Ij r l I (Jf r) hIi (hIj r), pay6_apply x Ai Aj r l I (Jf r) hAi (hAj r)]
  rfl

/-- The second accumulator after a tile, at the anchor's lane. -/
theorem tile_snd :
    (tileStep (F := Ideal) Ai Aj Ii Ij p).2.1 (ix2 (0 : Fin 1) l)
      = min (p.2.1 (ix2 (0 : Fin 1) l)) ((Finset.univ : Finset (Fin 512)).fold min Cert.Spec.posInfW fun r => negTerm x ids I (Jf r)) := by
  show k0_pay15 (F := Ideal) (k0_pay5 Ii) (k0_pay6 Ai Aj) (k0_pay7 Ij) (k0_pay8 (k0_pay7 Ij)) (k0_pay9 (k0_pay5 Ii))
    (k0_pay10 (k0_pay5 Ii)) k0_pay11 p.2.1 (ix2 (0 : Fin 1) l) = _
  rw [pay15_apply]
  refine congrArg (min _) (Finset.fold_congr fun r _ => ?_)
  rw [negMask_tile ids Ii Ij r l I (Jf r) hIi (hIj r), pay6_apply x Ai Aj r l I (Jf r) hAi (hAj r)]
  rfl

omit hAi hAj in
/-- The third accumulator after a tile, at the anchor's lane. -/
theorem tile_thd :
    (tileStep (F := Ideal) Ai Aj Ii Ij p).2.2 (ix2 (0 : Fin 1) l)
      = max (p.2.2 (ix2 (0 : Fin 1) l)) ((Finset.univ : Finset (Fin 512)).fold max Cert.Spec.negInfW fun r => hasTerm ids I (Jf r)) := by
  show k0_pay16 (F := Ideal) (k0_pay5 Ii) (k0_pay7 Ij) (k0_pay8 (k0_pay7 Ij)) (k0_pay9 (k0_pay5 Ii))
    (k0_pay10 (k0_pay5 Ii)) k0_pay11 p.2.2 (ix2 (0 : Fin 1) l) = _
  rw [pay16_apply]
  refine congrArg (max _) (Finset.fold_congr fun r _ => ?_)
  rw [negMask_tile ids Ii Ij r l I (Jf r) hIi (hIj r)]
  rfl

end Anchor

/-! ## The sixteen tiles of a row: the accumulators at a lane are the folds over all 8192 partners -/

/-- The words of the three starting values and the mask's two values, as extended reals. -/
theorem negInfW_eq : Cert.Spec.negInfW = ⊥ := by simp [Ideal.ofBits, Ideal.ieee]
theorem zeroW_eq : Cert.Spec.zeroW = 0 := Ideal.ofBits_zero_f32

section Row
variable (x : Fin 8192 → Fin 128 → EReal) (ids : Fin 8192 → BitVec 32) (ib : Fin 16)
  (Ai : FVec Ideal S512x128 .f32) (Ii : Vec Ideal S1x512 .i32) (Aj : ℕ → FVec Ideal S512x128 .f32) (Ij : ℕ → Vec Ideal S1x512 .i32)
  (hAi : ∀ (r : Fin 512) (k : Fin 128), Ai (ix2 r k) = x (gidx ib r) k)
  (hIi : ∀ l : Fin 512, Ii (ix2 (0 : Fin 1) l) = ids (gidx ib l))
  (hAj : ∀ (jb : Fin 16) (r : Fin 512) (k : Fin 128), Aj jb.val (ix2 r k) = x (gidx jb r) k)
  (hIj : ∀ (jb : Fin 16) (r : Fin 512), Ij jb.val (ix2 (0 : Fin 1) r) = ids (gidx jb r))
  (l : Fin 512)
include hAi hIi hAj hIj

/-- After the sixteen tiles the first accumulator holds the hardest positive of the lane's anchor. -/
theorem rowAcc_fst : (rowAcc (F := Ideal) Ai Ii Aj Ij 15).1 (ix2 (0 : Fin 1) l) = Cert.Spec.hardPos x ids (gidx ib l) := by
  refine eq_of_forall_ge_iff fun c => ?_
  have h0 : ∀ h : 0 < 16, (rowAcc (F := Ideal) Ai Ii Aj Ij 0).1 (ix2 (0 : Fin 1) l)
      = max Cert.Spec.negInfW ((Finset.univ : Finset (Fin 512)).fold max Cert.Spec.negInfW fun r =>
          posTerm x ids (gidx ib l) (gidx ⟨0, h⟩ r)) := fun h =>
    (tile_fst x ids (gidx ib l) Ai (Aj 0) Ii (Ij 0) acc0 l (gidx ⟨0, h⟩) (hAi l) (hIi l) (hAj ⟨0, h⟩) (hIj ⟨0, h⟩)).trans
      (congrArg (fun t => max t _) (pay2_apply (ix2 (0 : Fin 1) l)))
  have hs : ∀ n (h : n + 1 < 16), (rowAcc (F := Ideal) Ai Ii Aj Ij (n + 1)).1 (ix2 (0 : Fin 1) l)
      = max ((rowAcc (F := Ideal) Ai Ii Aj Ij n).1 (ix2 (0 : Fin 1) l))
          ((Finset.univ : Finset (Fin 512)).fold max Cert.Spec.negInfW fun r => posTerm x ids (gidx ib l) (gidx ⟨n + 1, h⟩ r)) :=
    fun n h => tile_fst x ids (gidx ib l) Ai (Aj (n + 1)) Ii (Ij (n + 1)) (rowAcc Ai Ii Aj Ij n) l (gidx ⟨n + 1, h⟩)
      (hAi l) (hIi l) (hAj ⟨n + 1, h⟩) (hIj ⟨n + 1, h⟩)
  refine (seq_max_le (fun n => (rowAcc (F := Ideal) Ai Ii Aj Ij n).1 (ix2 (0 : Fin 1) l))
      (fun m : Fin 16 => (Finset.univ : Finset (Fin 512)).fold max Cert.Spec.negInfW fun r => posTerm x ids (gidx ib l) (gidx m r))
      Cert.Spec.negInfW h0 hs 15 (by omega) c).trans ?_
  rw [hardPos_eq, Finset.fold_max_le]
  constructor
  · rintro ⟨h1, h2⟩
    refine ⟨h1, fun j _ => ?_⟩
    have h3 := ((Finset.fold_max_le _).mp (h2 ⟨j.val / 512, by omega⟩ (by show j.val / 512 ≤ 15; omega))).2
      ⟨j.val % 512, by omega⟩ (Finset.mem_univ _)
    rw [gidx_div_mod j] at h3
    exact h3
  · rintro ⟨h1, h2⟩
    exact ⟨h1, fun m _ => (Finset.fold_max_le _).mpr ⟨h1, fun r _ => h2 _ (Finset.mem_univ _)⟩⟩

/-- The second accumulator holds the hardest negative. -/
theorem rowAcc_snd : (rowAcc (F := Ideal) Ai Ii Aj Ij 15).2.1 (ix2 (0 : Fin 1) l) = Cert.Spec.hardNeg x ids (gidx ib l) := by
  refine eq_of_forall_le_iff fun c => ?_
  have h0 : ∀ h : 0 < 16, (rowAcc (F := Ideal) Ai Ii Aj Ij 0).2.1 (ix2 (0 : Fin 1) l)
      = min Cert.Spec.posInfW ((Finset.univ : Finset (Fin 512)).fold min Cert.Spec.posInfW fun r =>
          negTerm x ids (gidx ib l) (gidx ⟨0, h⟩ r)) := fun h =>
    (tile_snd x ids (gidx ib l) Ai (Aj 0) Ii (Ij 0) acc0 l (gidx ⟨0, h⟩) (hAi l) (hIi l) (hAj ⟨0, h⟩) (hIj ⟨0, h⟩)).trans
      (congrArg (fun t => min t _) (pay3_apply (ix2 (0 : Fin 1) l)))
  have hs : ∀ n (h : n + 1 < 16), (rowAcc (F := Ideal) Ai Ii Aj Ij (n + 1)).2.1 (ix2 (0 : Fin 1) l)
      = min ((rowAcc (F := Ideal) Ai Ii Aj Ij n).2.1 (ix2 (0 : Fin 1) l))
          ((Finset.univ : Finset (Fin 512)).fold min Cert.Spec.posInfW fun r => negTerm x ids (gidx ib l) (gidx ⟨n + 1, h⟩ r)) :=
    fun n h => tile_snd x ids (gidx ib l) Ai (Aj (n + 1)) Ii (Ij (n + 1)) (rowAcc Ai Ii Aj Ij n) l (gidx ⟨n + 1, h⟩)
      (hAi l) (hIi l) (hAj ⟨n + 1, h⟩) (hIj ⟨n + 1, h⟩)
  refine (seq_le_min (fun n => (rowAcc (F := Ideal) Ai Ii Aj Ij n).2.1 (ix2 (0 : Fin 1) l))
      (fun m : Fin 16 => (Finset.univ : Finset (Fin 512)).fold min Cert.Spec.posInfW fun r => negTerm x ids (gidx ib l) (gidx m r))
      Cert.Spec.posInfW h0 hs 15 (by omega) c).trans ?_
  rw [hardNeg_eq, Finset.le_fold_min]
  constructor
  · rintro ⟨h1, h2⟩
    refine ⟨h1, fun j _ => ?_⟩
    have h3 := ((Finset.le_fold_min _).mp (h2 ⟨j.val / 512, by omega⟩ (by show j.val / 512 ≤ 15; omega))).2
      ⟨j.val % 512, by omega⟩ (Finset.mem_univ _)
    rw [gidx_div_mod j] at h3
    exact h3
  · rintro ⟨h1, h2⟩
    exact ⟨h1, fun m _ => (Finset.le_fold_min _).mpr ⟨h1, fun r _ => h2 _ (Finset.mem_univ _)⟩⟩

omit hAi hAj in
/-- The third accumulator is below c exactly when 0, −∞ and every partner's mask value are. -/
theorem rowAcc_thd_le (c : EReal) :
    (rowAcc (F := Ideal) Ai Ii Aj Ij 15).2.2 (ix2 (0 : Fin 1) l) ≤ c
      ↔ Cert.Spec.zeroW ≤ c ∧ Cert.Spec.negInfW ≤ c ∧ ∀ j : Fin 8192, hasTerm ids (gidx ib l) j ≤ c := by
  have h0 : ∀ h : 0 < 16, (rowAcc (F := Ideal) Ai Ii Aj Ij 0).2.2 (ix2 (0 : Fin 1) l)
      = max Cert.Spec.zeroW ((Finset.univ : Finset (Fin 512)).fold max Cert.Spec.negInfW fun r =>
          hasTerm ids (gidx ib l) (gidx ⟨0, h⟩ r)) := fun h =>
    (tile_thd ids (gidx ib l) Ai (Aj 0) Ii (Ij 0) acc0 l (gidx ⟨0, h⟩) (hIi l) (hIj ⟨0, h⟩)).trans
      (congrArg (fun t => max t _) (pay4_apply (ix2 (0 : Fin 1) l)))
  have hs : ∀ n (h : n + 1 < 16), (rowAcc (F := Ideal) Ai Ii Aj Ij (n + 1)).2.2 (ix2 (0 : Fin 1) l)
      = max ((rowAcc (F := Ideal) Ai Ii Aj Ij n).2.2 (ix2 (0 : Fin 1) l))
          ((Finset.univ : Finset (Fin 512)).fold max Cert.Spec.negInfW fun r => hasTerm ids (gidx ib l) (gidx ⟨n + 1, h⟩ r)) :=
    fun n h => tile_thd ids (gidx ib l) Ai (Aj (n + 1)) Ii (Ij (n + 1)) (rowAcc Ai Ii Aj Ij n) l (gidx ⟨n + 1, h⟩)
      (hIi l) (hIj ⟨n + 1, h⟩)
  refine (seq_max_le (fun n => (rowAcc (F := Ideal) Ai Ii Aj Ij n).2.2 (ix2 (0 : Fin 1) l))
      (fun m : Fin 16 => (Finset.univ : Finset (Fin 512)).fold max Cert.Spec.negInfW fun r => hasTerm ids (gidx ib l) (gidx m r))
      Cert.Spec.zeroW h0 hs 15 (by omega) c).trans ?_
  constructor
  · rintro ⟨h1, h2⟩
    have hb := ((Finset.fold_max_le _).mp (h2 ⟨0, by omega⟩ (by show 0 ≤ 15; omega))).1
    refine ⟨h1, hb, fun j => ?_⟩
    have h3 := ((Finset.fold_max_le _).mp (h2 ⟨j.val / 512, by omega⟩ (by show j.val / 512 ≤ 15; omega))).2
      ⟨j.val % 512, by omega⟩ (Finset.mem_univ _)
    rw [gidx_div_mod j] at h3
    exact h3
  · rintro ⟨h1, hb, h2⟩
    exact ⟨h1, fun m _ => (Finset.fold_max_le _).mpr ⟨hb, fun r _ => h2 _⟩⟩

end Row

/-- A partner under the negative mask counts 1 … -/
theorem hasTerm_one (ids : Fin 8192 → BitVec 32) (I j : Fin 8192) (h : Cert.Spec.negMask ids j I = 1#1) :
    hasTerm ids I j = 1 := by
  unfold hasTerm
  rw [h]
  have e : (BitVec.setWidth 32 1#1).toInt = 1 := by decide
  rw [e]
  simp
/-- … and one outside it counts 0. -/
theorem hasTerm_zero (ids : Fin 8192 → BitVec 32) (I j : Fin 8192) (h : ¬Cert.Spec.negMask ids j I = 1#1) :
    hasTerm ids I j = 0 := by
  unfold hasTerm
  rw [eq_zero_of_ne_one h]
  have e : (BitVec.setWidth 32 0#1).toInt = 0 := by decide
  rw [e]
  simp

/-- ONE ROW OF TILES IS THE SPECIFICATION: the row's result at lane l is the triplet term of anchor 512 ib + l. -/
theorem row_trip (x : Fin 8192 → Fin 128 → EReal) (ids : Fin 8192 → BitVec 32) (ib : Fin 16)
    (Ai : Vec Ideal S512x128 .f32) (Ii : Vec Ideal S1x512 .i32) (Aj : ℕ → Vec Ideal S512x128 .f32) (Ij : ℕ → Vec Ideal S1x512 .i32)
    (hAi : ∀ (r : Fin 512) (k : Fin 128), Ai (ix2 r k) = x ⟨512 * ib.val + r.val, by omega⟩ k)
    (hIi : ∀ l : Fin 512, Ii (ix2 (0 : Fin 1) l) = ids ⟨512 * ib.val + l.val, by omega⟩)
    (hAj : ∀ (jb : Fin 16) (r : Fin 512) (k : Fin 128), Aj jb.val (ix2 r k) = x ⟨512 * jb.val + r.val, by omega⟩ k)
    (hIj : ∀ (jb : Fin 16) (r : Fin 512), Ij jb.val (ix2 (0 : Fin 1) r) = ids ⟨512 * jb.val + r.val, by omega⟩)
    (l : Fin 512) :
    k0_pay1 (rowAcc Ai Ii Aj Ij 15).1 (rowAcc Ai Ii Aj Ij 15).2.1 (rowAcc Ai Ii Aj Ij 15).2.2 (ix2 (0 : Fin 1) l)
      = Cert.Spec.trip x ids ⟨512 * ib.val + l.val, by omega⟩ := by
  show k0_pay1 (F := Ideal) (rowAcc Ai Ii Aj Ij 15).1 (rowAcc Ai Ii Aj Ij 15).2.1 (rowAcc Ai Ii Aj Ij 15).2.2 (ix2 (0 : Fin 1) l)
      = Cert.Spec.trip x ids (gidx ib l)
  rw [pay1_apply, rowAcc_fst x ids ib Ai Ii Aj Ij hAi hIi hAj hIj l, rowAcc_snd x ids ib Ai Ii Aj Ij hAi hIi hAj hIj l]
  have hthd := rowAcc_thd_le ids ib Ai Ii Aj Ij hIi hIj l Cert.Spec.zeroW
  unfold Cert.Spec.trip
  by_cases hh : Cert.Spec.hasNeg ids (gidx ib l)
  · rw [if_pos hh]
    have hlt : Cert.Spec.zeroW < (rowAcc (F := Ideal) Ai Ii Aj Ij 15).2.2 (ix2 (0 : Fin 1) l) := by
      by_contra hle
      obtain ⟨j, hj⟩ := hh
      have h1 := (hthd.mp (not_lt.mp hle)).2.2 j
      rw [hasTerm_one ids _ j hj, zeroW_eq] at h1
      exact absurd h1 (by norm_num)
    have hc : Ideal.cmp .ogt ((rowAcc (F := Ideal) Ai Ii Aj Ij 15).2.2 (ix2 (0 : Fin 1) l)) Cert.Spec.zeroW = 1#1 := by
      have hlt' := hlt
      rw [zeroW_eq] at hlt'
      unfold Ideal.cmp
      simp [hlt']
    rw [hc, select_one]
  · rw [if_neg hh]
    have hle : (rowAcc (F := Ideal) Ai Ii Aj Ij 15).2.2 (ix2 (0 : Fin 1) l) ≤ Cert.Spec.zeroW :=
      hthd.mpr ⟨le_rfl, by rw [negInfW_eq]; exact bot_le, fun j => by
        rw [hasTerm_zero ids _ j (fun h => hh ⟨j, h⟩), zeroW_eq]⟩
    have hc : Ideal.cmp .ogt ((rowAcc (F := Ideal) Ai Ii Aj Ij 15).2.2 (ix2 (0 : Fin 1) l)) Cert.Spec.zeroW = 0#1 := by
      have hle' := not_lt.mpr hle
      rw [zeroW_eq] at hle'
      unfold Ideal.cmp
      simp [hle']
    rw [hc, select_zero]

end Cert.KernelIdeal.Hand

end
-- ==== Proof.KI.Value.lean ====
/-
  From the proof data to the result row. The grid is 16 × 16, point t = 16·i + j. The host line before the region only
  reshapes the identities to one row, so the region finds the embeddings and the identities as the arguments hold them.
  Window 0 reads rows 512·i … of the embeddings and window 1 rows 512·j …; windows 2 and 3 read columns 512·i … and
  512·j … of the identities' row; the output block is columns 512·i … of the result row, written back after point
  16·i + 15. Along grid row i the anchor blocks stay and the accumulators are the fold of the row's sixteen tiles, so what
  the row's last point stores is, lane by lane, the specification on anchors 512·i …; the sixteen blocks tile the result
  row, which therefore ends holding the specification column by column.
-/
import proofs.«147753_j50903952392404_1_alg».proof.Proof.KI.Data
import proofs.«147753_j50903952392404_1_alg».proof.Proof.KI.Tile
import proofs.«147753_j50903952392404_1_alg».proof.Proof.Spec
import Idealize.ShloMosaic.Lib.Pipeline.Value
import Idealize.ShloMosaic.Lib.ValueIdx
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.Sem
open Idealize.ShloMosaic.Pipeline (Dat Cfg Window)
open Idealize.ShloMosaic.ValueIdx
open Idealize.ShloMosaic.StableHlo

section Generic
variable {F : FTy → Type} [FloatOps F]
variable (m : (ℓ : Loc nD τ sig) → Buf (Elt F) ℓ)

/-- The host line before the region does not write the embeddings. -/
theorem V_arg0 (c : Dev nD) : V m c main_arg0 = m ((c : Thread nD τ).loc main_arg0) := by
  show StableHlo.after hostOps0 (fun b => m (c, b)) (Proc.devRef .tc main_arg0) = _
  after_results

/-- Nor the identities. -/
theorem V_arg1 (c : Dev nD) : V m c main_arg1 = m ((c : Thread nD τ).loc main_arg1) := by
  show StableHlo.after hostOps0 (fun b => m (c, b)) (Proc.devRef .tc main_arg1) = _
  after_results

/-- The identities' row, as the region finds it: the identities reshaped to one row. -/
theorem V_v0 (c : Dev nD) : (V m c main_v0 : S1x8192.Idx → Elt F .i32)
    = shapeCast S1x8192 (m ((c : Thread nD τ).loc main_arg1) : S8192.Idx → Elt F .i32) shapeCasts_S8192_S1x8192 := by
  show StableHlo.after hostOps0 (fun b => m (c, b)) (Proc.devRef .tc main_v0) = _
  after_results
  rfl

/-- The reshape read at an index. -/
theorem V_v0_apply (c : Dev nD) (n : Fin 8192) :
    (V m c main_v0 : S1x8192.Idx → Elt F .i32) (ix2 (0 : Fin 1) n)
      = (m ((c : Thread nD τ).loc main_arg1) : S8192.Idx → Elt F .i32) (ix1 n) := by
  rw [V_v0]
  refine shapeCast_apply _ _ _ _ ?_
  show (S8192.rowMajor (ix1 n)).val = (S1x8192.rowMajor (ix2 (0 : Fin 1) n)).val
  rw [Shape.rowMajor_val_two, Shape.rowMajor_val_one]
  show n.val = 0 * 8192 + n.val
  omega

end Generic

/-- The printed index maps over the grid: window 0 and the output follow the row, windows 1 and 3 the column. -/
theorem widx0 : ∀ t : Fin cfg0.N, win0_0.index t (0 : Fin 2) = t.val / 16 ∧ win0_0.index t (1 : Fin 2) = 0 :=
  (by decide +kernel : ∀ t : Fin grid0.N, _)
theorem widx1 : ∀ t : Fin cfg0.N, win0_1.index t (0 : Fin 2) = t.val % 16 ∧ win0_1.index t (1 : Fin 2) = 0 :=
  (by decide +kernel : ∀ t : Fin grid0.N, _)
theorem widx2 : ∀ t : Fin cfg0.N, win0_2.index t (0 : Fin 2) = 0 ∧ win0_2.index t (1 : Fin 2) = t.val / 16 :=
  (by decide +kernel : ∀ t : Fin grid0.N, _)
theorem widx3 : ∀ t : Fin cfg0.N, win0_3.index t (0 : Fin 2) = 0 ∧ win0_3.index t (1 : Fin 2) = t.val % 16 :=
  (by decide +kernel : ∀ t : Fin grid0.N, _)
theorem widx4 : ∀ t : Fin cfg0.N, win0_4.index t (0 : Fin 2) = 0 ∧ win0_4.index t (1 : Fin 2) = t.val / 16 :=
  (by decide +kernel : ∀ t : Fin grid0.N, _)

section Generic
variable {F : FTy → Type} [FloatOps F]
variable (m : (ℓ : Loc nD τ sig) → Buf (Elt F) ℓ)

theorem point_lt (t : Fin cfg0.N) : t.val < 256 := lt_of_lt_of_eq (show t.val < grid0.N from t.isLt) N_0

/-- The anchor rows' block at point t is rows 512·(t/16) … of the embeddings. -/
theorem ai_apply (c : Dev nD) (t : Fin cfg0.N) (r : Fin 512) (k : Fin 128) (R : Fin 8192)
    (hR : R.val = 512 * (t.val / 16) + r.val) :
    ai m c t (ix2 r k) = (m ((c : Thread nD τ).loc main_arg0) : S8192x128.Idx → Elt F .f32) (ix2 R k) := by
  rw [← V_arg0 m c]
  unfold ai
  rw [View.read_apply]
  show V m c main_arg0 (((cfg0.win 0).blk t).view.emb (ix2 r k)) = V m c main_arg0 (ix2 R k)
  congr 1
  funext a
  apply Fin.ext
  obtain ⟨e0, e1⟩ := widx0 t
  match a with
  | ⟨0, _⟩ => show win0_0.index t (0 : Fin 2) * 512 + 1 * r.val = R.val; rw [e0, hR]; omega
  | ⟨1, _⟩ => show win0_0.index t (1 : Fin 2) * 128 + 1 * k.val = k.val; rw [e1]; omega

/-- The partner rows' block at point t is rows 512·(t mod 16) … of the embeddings. -/
theorem aj_apply (c : Dev nD) (t : Fin cfg0.N) (r : Fin 512) (k : Fin 128) (R : Fin 8192)
    (hR : R.val = 512 * (t.val % 16) + r.val) :
    aj m c t (ix2 r k) = (m ((c : Thread nD τ).loc main_arg0) : S8192x128.Idx → Elt F .f32) (ix2 R k) := by
  rw [← V_arg0 m c]
  unfold aj
  rw [View.read_apply]
  show V m c main_arg0 (((cfg0.win 1).blk t).view.emb (ix2 r k)) = V m c main_arg0 (ix2 R k)
  congr 1
  funext a
  apply Fin.ext
  obtain ⟨e0, e1⟩ := widx1 t
  match a with
  | ⟨0, _⟩ => show win0_1.index t (0 : Fin 2) * 512 + 1 * r.val = R.val; rw [e0, hR]; omega
  | ⟨1, _⟩ => show win0_1.index t (1 : Fin 2) * 128 + 1 * k.val = k.val; rw [e1]; omega

/-- The anchors' identities at point t are entries 512·(t/16) … of the identities. -/
theorem idi_apply (c : Dev nD) (t : Fin cfg0.N) (l : Fin 512) (R : Fin 8192)
    (hR : R.val = 512 * (t.val / 16) + l.val) :
    idi m c t (ix2 (0 : Fin 1) l) = (m ((c : Thread nD τ).loc main_arg1) : S8192.Idx → Elt F .i32) (ix1 R) := by
  rw [← V_v0_apply m c R]
  unfold idi
  rw [View.read_apply]
  show V m c main_v0 (((cfg0.win 2).blk t).view.emb (ix2 (0 : Fin 1) l)) = V m c main_v0 (ix2 (0 : Fin 1) R)
  congr 1
  funext a
  apply Fin.ext
  obtain ⟨e0, e1⟩ := widx2 t
  match a with
  | ⟨0, _⟩ => show win0_2.index t (0 : Fin 2) * 1 + 1 * 0 = 0; rw [e0]
  | ⟨1, _⟩ => show win0_2.index t (1 : Fin 2) * 512 + 1 * l.val = R.val; rw [e1, hR]; omega

/-- The partners' identities at point t are entries 512·(t mod 16) … of the identities. -/
theorem idj_apply (c : Dev nD) (t : Fin cfg0.N) (l : Fin 512) (R : Fin 8192)
    (hR : R.val = 512 * (t.val % 16) + l.val) :
    idj m c t (ix2 (0 : Fin 1) l) = (m ((c : Thread nD τ).loc main_arg1) : S8192.Idx → Elt F .i32) (ix1 R) := by
  rw [← V_v0_apply m c R]
  unfold idj
  rw [View.read_apply]
  show V m c main_v0 (((cfg0.win 3).blk t).view.emb (ix2 (0 : Fin 1) l)) = V m c main_v0 (ix2 (0 : Fin 1) R)
  congr 1
  funext a
  apply Fin.ext
  obtain ⟨e0, e1⟩ := widx3 t
  match a with
  | ⟨0, _⟩ => show win0_3.index t (0 : Fin 2) * 1 + 1 * 0 = 0; rw [e0]
  | ⟨1, _⟩ => show win0_3.index t (1 : Fin 2) * 512 + 1 * l.val = R.val; rw [e1, hR]; omega

/-- Two points of one grid row read the same anchor blocks. -/
theorem ai_congr (c : Dev nD) (t t' : Fin cfg0.N) (h : t.val / 16 = t'.val / 16) : ai m c t = ai m c t' := by
  funext x
  obtain ⟨r, k, rfl⟩ : ∃ (r : Fin 512) (k : Fin 128), x = ix2 r k := ⟨x 0, x 1, eq_ix2 x⟩
  have ht := point_lt t
  rw [ai_apply m c t r k ⟨512 * (t.val / 16) + r.val, by omega⟩ rfl,
    ai_apply m c t' r k ⟨512 * (t.val / 16) + r.val, by omega⟩ (by show 512 * (t.val / 16) + r.val = _; rw [h])]

theorem idi_congr (c : Dev nD) (t t' : Fin cfg0.N) (h : t.val / 16 = t'.val / 16) : idi m c t = idi m c t' := by
  funext x
  obtain ⟨z, l, rfl⟩ : ∃ (z : Fin 1) (l : Fin 512), x = ix2 z l := ⟨x 0, x 1, eq_ix2 x⟩
  obtain rfl : z = 0 := Subsingleton.elim _ _
  have ht := point_lt t
  rw [idi_apply m c t l ⟨512 * (t.val / 16) + l.val, by omega⟩ rfl,
    idi_apply m c t' l ⟨512 * (t.val / 16) + l.val, by omega⟩ (by show 512 * (t.val / 16) + l.val = _; rw [h])]

end Generic

section Generic
variable {F : FTy → Type} [FloatOps F]
variable (m : (ℓ : Loc nD τ sig) → Buf (Elt F) ℓ)

/-- Point j of grid row ib. -/
def rowPt (ib j : ℕ) (hi : ib < 16) : Fin cfg0.N := ⟨16 * ib + j % 16, by rw [show cfg0.N = 256 from N_0]; omega⟩

theorem rowPt_val (ib j : ℕ) (hi : ib < 16) : (rowPt ib j hi).val = 16 * ib + j % 16 := rfl

theorem acc_congr_pos (c : Dev nD) (n n' : ℕ) (h : n < cfg0.N) (h' : n' < cfg0.N) (e : n = n') : acc m c n h = acc m c n' h' := by
  subst e; rfl

/-- Along grid row ib the accumulators are the fold of the row's tiles over the row's anchor block. -/
theorem acc_row (c : Dev nD) (ib : ℕ) (hi : ib < 16) : ∀ (j : ℕ) (hj : j < 16) (h : 16 * ib + j < cfg0.N),
    acc m c (16 * ib + j) h
      = rowAcc (ai m c (rowPt ib 0 hi)) (idi m c (rowPt ib 0 hi)) (fun j => aj m c (rowPt ib j hi)) (fun j => idj m c (rowPt ib j hi)) j
  | 0, hj, h => by
    have e : (⟨16 * ib + 0, h⟩ : Fin cfg0.N) = rowPt ib 0 hi := Fin.ext (by show 16 * ib + 0 = 16 * ib + 0 % 16; omega)
    have h1 := acc_first m c ⟨16 * ib + 0, h⟩ (by show (16 * ib + 0) % 16 = 0; omega)
    refine h1.trans ?_
    rw [e]
    rfl
  | j + 1, hj, h => by
    have ih := acc_row c ib hi j (by omega) (by omega)
    have e : (⟨16 * ib + (j + 1), h⟩ : Fin cfg0.N) = rowPt ib (j + 1) hi :=
      Fin.ext (by show 16 * ib + (j + 1) = 16 * ib + (j + 1) % 16; omega)
    have h1 := acc_next m c ⟨16 * ib + (j + 1), h⟩ (by show ¬(16 * ib + (j + 1)) % 16 = 0; omega)
    refine h1.trans ?_
    rw [acc_congr_pos m c (16 * ib + (j + 1) - 1) (16 * ib + j) _ (by omega) (by omega), ih, e]
    show tileStep (ai m c (rowPt ib (j + 1) hi)) (aj m c (rowPt ib (j + 1) hi)) (idi m c (rowPt ib (j + 1) hi)) (idj m c (rowPt ib (j + 1) hi)) _ = _
    rw [ai_congr m c (rowPt ib (j + 1) hi) (rowPt ib 0 hi) (by rw [rowPt_val, rowPt_val]; omega),
      idi_congr m c (rowPt ib (j + 1) hi) (rowPt ib 0 hi) (by rw [rowPt_val, rowPt_val]; omega)]
    rfl

end Generic

section AtIdeal
variable (m : (ℓ : Loc nD τ sig) → Buf (Elt Ideal) ℓ)

/-- The embeddings as a plain index function. -/
abbrev argX (c : Dev nD) : Fin 8192 → Fin 128 → EReal :=
  fun r k => (m ((c : Thread nD τ).loc main_arg0) : S8192x128.Idx → Elt Ideal .f32) (ix2 r k)
/-- The identities as a plain index function. -/
abbrev argIds (c : Dev nD) : Fin 8192 → BitVec 32 :=
  fun r => (m ((c : Thread nD τ).loc main_arg1) : S8192.Idx → Elt Ideal .i32) (ix1 r)

/-- What a row's last point stores, lane by lane: the specification on the row's anchors. -/
theorem out4_apply (c : Dev nD) (t : Fin cfg0.N) (ht : t.val % 16 = 15) (l : Fin 512) (n : Fin 8192)
    (hn : n.val = 512 * (t.val / 16) + l.val) :
    out4 m c t (ix2 (0 : Fin 1) l) = Cert.Spec.trip (argX m c) (argIds m c) n := by
  have h256 := point_lt t
  have hi : t.val / 16 < 16 := by omega
  have e : t.val = 16 * (t.val / 16) + 15 := by omega
  unfold out4
  rw [acc_congr_pos m c t.val (16 * (t.val / 16) + 15) t.isLt (by rw [← e]; exact t.isLt) e,
    acc_row m c (t.val / 16) hi 15 (by omega) (by rw [← e]; exact t.isLt)]
  have key := row_trip (argX m c) (argIds m c) ⟨t.val / 16, hi⟩
    (ai m c (rowPt (t.val / 16) 0 hi)) (idi m c (rowPt (t.val / 16) 0 hi))
    (fun j => aj m c (rowPt (t.val / 16) j hi)) (fun j => idj m c (rowPt (t.val / 16) j hi))
    (fun r k => ai_apply m c _ r k _
      (by show 512 * (t.val / 16) + r.val = 512 * ((16 * (t.val / 16) + 0 % 16) / 16) + r.val; omega))
    (fun l => idi_apply m c _ l _
      (by show 512 * (t.val / 16) + l.val = 512 * ((16 * (t.val / 16) + 0 % 16) / 16) + l.val; omega))
    (fun jb r k => aj_apply m c _ r k _
      (by show 512 * jb.val + r.val = 512 * ((16 * (t.val / 16) + jb.val % 16) % 16) + r.val; omega))
    (fun jb r => idj_apply m c _ r _
      (by show 512 * jb.val + r.val = 512 * ((16 * (t.val / 16) + jb.val % 16) % 16) + r.val; omega))
    l
  exact key.trans (congrArg (Cert.Spec.trip (argX m c) (argIds m c))
    (Fin.ext (by show 512 * (t.val / 16) + l.val = n.val; exact hn.symm)))

end AtIdeal

section AtIdeal
variable (m : (ℓ : Loc nD τ sig) → Buf (Elt Ideal) ℓ)

/-- The result row as one function of the arguments: the specification, column by column. -/
abbrev outRow (c : Dev nD) : S1x8192.Idx → EReal :=
  fun i => Cert.Spec.trip (argX m c) (argIds m c) ⟨(i 1).val, idx2_lt1 i⟩

/-- What a row's last point writes back is the row's block of that function. -/
theorem flushed4_eq (c : Dev nD) (t : Fin cfg0.N) (hf : (cfg0.win 4).flush t = true) :
    (dats m 0 c).flushed 4 t = ((cfg0.win 4).blk t).view.read (Elt Ideal) (outRow m c) := by
  have ht : t.val % 16 = 15 := (flush0_4 t).mp hf
  have h256 := point_lt t
  show (cfg0.win 4).cut (grid0.coords t) ((dats m 0 c).after 4 t) = _
  rw [after0_4]
  funext y
  rw [View.read_apply]
  have hy0 : (y 0).val < 1 := (y 0).isLt
  have hy1 : (y 1).val < 512 := (y 1).isLt
  have e1 : (win0_4.xinj (grid0.coords t) y : S1x512.Idx) = ix2 (0 : Fin 1) (⟨(y 1).val, hy1⟩ : Fin 512) := by
    funext a
    apply Fin.ext
    match a with
    | ⟨0, _⟩ => show (y 0).val = 0; omega
    | ⟨1, _⟩ => rfl
  show out4 m c t (win0_4.xinj (grid0.coords t) y) = outRow m c (((cfg0.win 4).blk t).view.emb y)
  refine (congrArg (out4 m c t) e1).trans ?_
  refine (out4_apply m c t ht ⟨(y 1).val, hy1⟩ ⟨512 * (t.val / 16) + (y 1).val, by omega⟩ rfl).trans ?_
  show _ = Cert.Spec.trip (argX m c) (argIds m c) ⟨((((cfg0.win 4).blk t).view.emb y) 1).val, _⟩
  congr 1
  apply Fin.ext
  show 512 * (t.val / 16) + (y 1).val = win0_4.index t (1 : Fin 2) * 512 + 1 * (y 1).val
  rw [(widx4 t).2]
  omega

/-- An index of the result row is in point t's block iff each coordinate is in the block's range on its axis. -/
theorem mem_blk4 (t : Fin cfg0.N) (i : S1x8192.Idx) :
    i ∈ ((cfg0.win 4).blk t).view.set ↔ ∀ a : Fin 2, win0_4.index t a * S1x512.size a ≤ (i a).val ∧ (i a).val < win0_4.index t a * S1x512.size a + S1x512.size a := by
  show i ∈ ((View.whole main_v1).slice (win0_4.rect t)).set ↔ _
  rw [View.set_slice_whole, Rect.mem_set_unit]
  exact Iff.rfl

/-- Column n is written back by the last point of grid row n / 512. -/
theorem cover4 (i : S1x8192.Idx) : ∃ t : Fin cfg0.N, (cfg0.win 4).flush t = true ∧ i ∈ ((cfg0.win 4).blk t).view.set := by
  have hi0 : (i 0).val < 1 := idx2_lt0 i
  have hi1 : (i 1).val < 8192 := idx2_lt1 i
  have hb : (i 1).val / 512 < 16 := by omega
  refine ⟨rowPt ((i 1).val / 512) 15 hb, (flush0_4 _).mpr (by rw [rowPt_val]; omega), ?_⟩
  rw [mem_blk4]
  intro a
  obtain ⟨e0, e1⟩ := widx4 (rowPt ((i 1).val / 512) 15 hb)
  match a with
  | ⟨0, _⟩ =>
    show win0_4.index (rowPt ((i 1).val / 512) 15 hb) (0 : Fin 2) * 1 ≤ (i 0).val ∧ (i 0).val < win0_4.index (rowPt ((i 1).val / 512) 15 hb) (0 : Fin 2) * 1 + 1
    rw [e0]; omega
  | ⟨1, _⟩ =>
    show win0_4.index (rowPt ((i 1).val / 512) 15 hb) (1 : Fin 2) * 512 ≤ (i 1).val ∧ (i 1).val < win0_4.index (rowPt ((i 1).val / 512) 15 hb) (1 : Fin 2) * 512 + 512
    rw [e1, rowPt_val]; omega

/-- The result row after the run is that function. -/
theorem final4 (c : Dev nD) : (dats m 0 c).arrAt 4 cfg0.N = outRow m c :=
  (dats m 0 c).arrAt_eq_of_cover 4 (outRow m c) (fun t hf => flushed4_eq m c t hf) cover4

/-- The result row after the run, column by column: the specification of the argument arrays. -/
theorem out_value (c : Dev nD) (n : Fin 8192) :
    ((dats m 0 c).arrAt (4 : Fin 5) cfg0.N : S1x8192.Idx → EReal) (ix2 (0 : Fin 1) n)
      = Cert.Spec.trip (fun r k => (m ((c : Thread nD τ).loc main_arg0) : S8192x128.Idx → EReal) (ix2 r k))
          (fun r => (m ((c : Thread nD τ).loc main_arg1) : S8192.Idx → BitVec 32) (ix1 r)) n := by
  rw [final4]

end AtIdeal

end Cert.KernelIdeal.Hand

end
-- ==== Proof.Ref.Value.lean ====
/-
  The reference's per-anchor term read at an anchor, at the extended reals: it is the specification's triplet term.
  The term is cut into stages (the class of an identity, the squared norms, the inner products, the clamped squared
  distances, the guarded distances, the two masks, the three folds down a column, the margin term); each stage is read
  at an index by one lemma per operation that is not pointwise — a vector laid as a column or a row and copied across,
  a transpose, a sum over the features, a product contracted over the features, a fold over an axis — and the last
  stage collapses to the specification by cases on whether the anchor has a negative.
-/
import proofs.«147753_j50903952392404_1_alg».proof.Proof.Ref.Defs
import proofs.«147753_j50903952392404_1_alg».proof.Proof.Spec
import Idealize.ShloMosaic.Lib.ValueIdx
import Idealize.ShloMosaic.Lib.ValueLayout
import Idealize.ShloMosaic.Lib.IdealHost
import Idealize.ShloMosaic.Lib.KernelVsHost
import Idealize.ShloMosaic.Lib.Affine
import Idealize.ShloMosaic.Lib.Pipeline.Value
import Idealize.ShloMosaic.PureOps.Ideal.Laws

noncomputable section

namespace Cert.ReferenceIdeal.Hand

open Idealize.ShloMosaic Idealize.ShloMosaic.ValueIdx
open Cert.ReferenceIdeal Cert.ReferenceIdeal.Facts₀
open scoped BigOperators

/-! ## Layout operations read at an index -/

section Layout
variable {α : Type}

/-- A vector laid as a column reads its entry at the row. -/
theorem bcastCol_apply (v : S8192.Idx → α) (r : Fin 8192) (u : Fin 1) :
    broadcastInDim S8192x1 ![0] bcast_S8192_S8192x1_0 v (ix2 r u) = v (ix1 r) :=
  broadcastInDim_apply ![0] bcast_S8192_S8192x1_0 v (ix2 r u) (ix1 r) fun a => match a with | ⟨0, _⟩ => rfl

/-- A vector laid as a row reads its entry at the column. -/
theorem bcastRow_apply (v : S8192.Idx → α) (u : Fin 1) (c : Fin 8192) :
    broadcastInDim S1x8192 ![1] bcast_S8192_S1x8192_1 v (ix2 u c) = v (ix1 c) :=
  broadcastInDim_apply ![1] bcast_S8192_S1x8192_1 v (ix2 u c) (ix1 c) fun a => match a with | ⟨0, _⟩ => rfl

/-- A column copied along the rows reads the column at the row. -/
theorem bcastColFull_apply (w : S8192x1.Idx → α) (r c : Fin 8192) :
    broadcastInDim S8192x8192 ![0, 1] bcast_S8192x1_S8192x8192_0_1 w (ix2 r c) = w (ix2 r (0 : Fin 1)) :=
  broadcastInDim_apply ![0, 1] bcast_S8192x1_S8192x8192_0_1 w (ix2 r c) (ix2 r (0 : Fin 1)) fun a =>
    match a with | ⟨0, _⟩ => rfl | ⟨1, _⟩ => rfl

/-- A row copied down the columns reads the row at the column. -/
theorem bcastRowFull_apply (w : S1x8192.Idx → α) (r c : Fin 8192) :
    broadcastInDim S8192x8192 ![0, 1] bcast_S1x8192_S8192x8192_0_1 w (ix2 r c) = w (ix2 (0 : Fin 1) c) :=
  broadcastInDim_apply ![0, 1] bcast_S1x8192_S8192x8192_0_1 w (ix2 r c) (ix2 (0 : Fin 1) c) fun a =>
    match a with | ⟨0, _⟩ => rfl | ⟨1, _⟩ => rfl

/-- The outer arrangement by rows: entry (r, c) is the vector's entry r. -/
theorem outerCol_apply (v : S8192.Idx → α) (r c : Fin 8192) :
    broadcastInDim S8192x8192 ![0, 1] bcast_S8192x1_S8192x8192_0_1
      (broadcastInDim S8192x1 ![0] bcast_S8192_S8192x1_0 v) (ix2 r c) = v (ix1 r) := by
  rw [bcastColFull_apply, bcastCol_apply]

/-- The outer arrangement by columns: entry (r, c) is the vector's entry c. -/
theorem outerRow_apply (v : S8192.Idx → α) (r c : Fin 8192) :
    broadcastInDim S8192x8192 ![0, 1] bcast_S1x8192_S8192x8192_0_1
      (broadcastInDim S1x8192 ![1] bcast_S8192_S1x8192_1 v) (ix2 r c) = v (ix1 c) := by
  rw [bcastRowFull_apply, bcastRow_apply]

/-- The transposed embeddings read the embeddings with the coordinates exchanged. -/
theorem transposeX_apply (x : S8192x128.Idx → α) (k : Fin 128) (i : Fin 8192) :
    transpose S128x8192 [1, 0] x transposes_S8192x128_S128x8192_1_0 (ix2 k i) = x (ix2 i k) :=
  transpose_ix2_apply x transposes_S8192x128_S128x8192_1_0 k i

end Layout

/-! ## Reductions over one axis -/

/-- Summing over the second axis of the embeddings' shape leaves the first. -/
theorem red_d1 : S8192x128.Reduces [1] S8192 := by decide
/-- Folding over the first axis of the square shape leaves the second. -/
theorem red_d0 : S8192x8192.Reduces [0] S8192 := by decide

theorem lift_d1 (r : Fin 8192) (k : Fin 128) : red_d1.lift (ix1 r) k = ix2 r k := by
  funext c; apply Fin.ext; match c with | ⟨0, _⟩ => rfl | ⟨1, _⟩ => rfl

theorem lift_d0 (i : Fin 8192) (k : Fin 8192) : red_d0.lift (ix1 i) k = ix2 k i := by
  funext c; apply Fin.ext; match c with | ⟨0, _⟩ => rfl | ⟨1, _⟩ => rfl

/-- The host sum over the second axis from the zero word: the sum of the row. -/
theorem rowSum_apply (v : FVec Ideal S8192x128 .f32) (r : Fin 8192) :
    Host.reduceAdd v (constant (F := Ideal) S_ .f32 0x00000000#32) reducesTo_S8192x128_S8192_d1 h_S_ (ix1 r)
      = ∑ k : Fin 128, v (ix2 r k) := by
  rw [hostReduceAdd_apply, Ideal.hostReduceAdd_single reducesTo_S8192x128_S8192_d1 red_d1]
  show Ideal.ofBits .f32 0x00000000#32 + ∑ k : Fin 128, v (red_d1.lift (ix1 r) k) = _
  rw [Ideal.ofBits_zero_f32, zero_add]
  exact Finset.sum_congr rfl fun k _ => congrArg v (lift_d1 r k)

/-- A host fold over the first axis with a commutative associative body: the fold over the column. -/
theorem colFold_apply {α : Type} (f : α → α → α) [Std.Commutative f] [Std.Associative f] (v : S8192x8192.Idx → α)
    (init : S_.Idx → α) (i : Fin 8192) :
    Host.reduce f v init reducesTo_S8192x8192_S8192_d0 h_S_ (ix1 i)
      = (Finset.univ : Finset (Fin 8192)).fold f (init ix0) fun k => v (ix2 k i) := by
  rw [Host.reduce_eq_fold_single f v init reducesTo_S8192x8192_S8192_d0 red_d0 h_S_ (ix1 i)]
  show (Finset.univ : Finset (Fin 8192)).fold f (init (Shape.Idx.first h_S_)) (v ∘ red_d0.lift (ix1 i)) = _
  rw [show Shape.Idx.first h_S_ = ix0 from eq_ix0 _]
  exact congrArg (fun g => (Finset.univ : Finset (Fin 8192)).fold f (init ix0) g) (funext fun k => congrArg v (lift_d0 i k))

/-! ## The product contracted over the features -/

theorem dot_lhs_0 (j : S8192x8192.Idx) (k : (dot_S8192x128_S128x8192_S8192x8192_1_0_0_1_n_n).contr.Idx) :
    ((dot_S8192x128_S128x8192_S8192x8192_1_0_0_1_n_n).lhsIdx j k 0).val = (j 0).val := by
  unfold DotDims.lhsIdx
  rw [dif_neg (show ¬(0 : Fin S8192x128.rank) ∈ (dot_S8192x128_S128x8192_S8192x8192_1_0_0_1_n_n).lhsBatch by decide),
    dif_pos (show (0 : Fin S8192x128.rank) ∈ (dot_S8192x128_S128x8192_S8192x8192_1_0_0_1_n_n).lhsNonContracting by decide)]
  rfl

theorem dot_lhs_1 (j : S8192x8192.Idx) (k : (dot_S8192x128_S128x8192_S8192x8192_1_0_0_1_n_n).contr.Idx) :
    ((dot_S8192x128_S128x8192_S8192x8192_1_0_0_1_n_n).lhsIdx j k 1).val = (k ⟨0, by decide⟩).val :=
  DotDims.lhsIdx_val_of_single _ rfl j k

theorem dot_rhs_0 (j : S8192x8192.Idx) (k : (dot_S8192x128_S128x8192_S8192x8192_1_0_0_1_n_n).contr.Idx) :
    ((dot_S8192x128_S128x8192_S8192x8192_1_0_0_1_n_n).rhsIdx j k 0).val = (k ⟨0, by decide⟩).val :=
  DotDims.rhsIdx_val_of_single _ rfl j k

theorem dot_rhs_1 (j : S8192x8192.Idx) (k : (dot_S8192x128_S128x8192_S8192x8192_1_0_0_1_n_n).contr.Idx) :
    ((dot_S8192x128_S128x8192_S8192x8192_1_0_0_1_n_n).rhsIdx j k 1).val = (j 1).val := by
  unfold DotDims.rhsIdx
  rw [dif_neg (show ¬(1 : Fin S128x8192.rank) ∈ (dot_S8192x128_S128x8192_S8192x8192_1_0_0_1_n_n).rhsBatch by decide),
    dif_pos (show (1 : Fin S128x8192.rank) ∈ (dot_S8192x128_S128x8192_S8192x8192_1_0_0_1_n_n).rhsNonContracting by decide)]
  rfl

/-- The host product of the embeddings with a 128 × 8192 matrix at (j, i): the sum over the 128 features. -/
theorem dot_apply (x : FVec Ideal S8192x128 .f32) (y : FVec Ideal S128x8192 .f32) (j i : Fin 8192) :
    Host.dotGeneral dot_S8192x128_S128x8192_S8192x8192_1_0_0_1_n_n none x y (ix2 j i)
      = ∑ k : Fin 128, x (ix2 j k) * y (ix2 k i) := by
  simp only [Host.dotGeneral]
  rw [Ideal.dotGeneral_apply,
    ← Equiv.sum_comp (contrEquiv1 dot_S8192x128_S128x8192_S8192x8192_1_0_0_1_n_n 128 rfl rfl).symm]
  refine Finset.sum_congr rfl fun k _ => ?_
  have hk := contrEquiv1_symm_val dot_S8192x128_S128x8192_S8192x8192_1_0_0_1_n_n 128 rfl rfl k
  congr 1
  · refine congrArg x (funext fun a => Fin.ext ?_)
    match a with
    | ⟨0, _⟩ => exact dot_lhs_0 _ _
    | ⟨1, _⟩ => exact (dot_lhs_1 _ _).trans hk
  · refine congrArg y (funext fun a => Fin.ext ?_)
    match a with
    | ⟨0, _⟩ => exact (dot_rhs_0 _ _).trans hk
    | ⟨1, _⟩ => exact dot_rhs_1 _ _

/-! ## Words: the floor quotient by 1000, a one-bit complement, an or over a finite set -/

theorem divsi_1000 (b : BitVec 32) : IntOp.divsi .host b 1000#32 = b.sdiv 1000#32 :=
  if_neg (IntOp.not_corner_of_pos (by decide))

theorem remsi_1000 (b : BitVec 32) : IntOp.remsi .host b 1000#32 = b.srem 1000#32 :=
  IntOp.remsi_of_pos .host (by decide)

/-- The quotient lowered by one where the signs differ and the remainder is not zero: the floor quotient. -/
theorem cls_scalar (b : BitVec 32) :
    Scalar.select
        (IntOp.andi (IntOp.cmpi .ne (Spec.sgn b) (Spec.sgn 1000#32)) (IntOp.cmpi .ne (IntOp.remsi .host b 1000#32) 0#32))
        (IntOp.subi (IntOp.divsi .host b 1000#32) 1#32) (IntOp.divsi .host b 1000#32)
      = Spec.cls b := by
  rw [divsi_1000, remsi_1000, show Spec.sgn 1000#32 = 1#32 from by decide]
  unfold Spec.cls
  by_cases h : Spec.sgn b ≠ 1#32 ∧ b.srem 1000#32 ≠ 0#32
  · rw [if_pos h, IntOp.andi_eq_one.mpr ⟨IntOp.cmpi_ne.mpr h.1, IntOp.cmpi_ne.mpr h.2⟩]
    exact select_one _ _
  · rw [if_neg h, eq_zero_of_ne_one fun hc =>
      h ⟨IntOp.cmpi_ne.mp (IntOp.andi_eq_one.mp hc).1, IntOp.cmpi_ne.mp (IntOp.andi_eq_one.mp hc).2⟩]
    exact select_zero _ _

/-- On one bit the complement is the exclusive or with one. -/
theorem not_eq_xori_one (c : BitVec 1) : ~~~c = IntOp.xori c 1#1 := by revert c; decide

/-- The or of one-bit words over a finite set is one exactly when one of them is. -/
theorem orFold_eq_one {ι : Type} (s : Finset ι) (m : ι → BitVec 1) :
    s.fold IntOp.ori 0#1 m = 1#1 ↔ ∃ j ∈ s, m j = 1#1 := by
  classical
  induction s using Finset.induction_on with
  | empty =>
    rw [Finset.fold_empty]
    exact ⟨fun h => absurd h (by decide), fun ⟨j, hj, _⟩ => absurd hj (Finset.notMem_empty j)⟩
  | insert a s ha ih =>
    rw [Finset.fold_insert ha, IntOp.ori_eq_one, ih, Finset.exists_mem_insert]

/-! ## The stages of the reference's term -/

section Stages
variable {F : FTy → Type} [FloatOps F]

/-- A scalar word copied to every pair. -/
abbrev splatM (w : BitVec 32) : FVec F S8192x8192 .f32 :=
  broadcastInDim S8192x8192 ![] bcast_S_S8192x8192 (constant S_ .f32 w)

/-- The class of every identity: the truncated quotient by 1000, lowered by one where the signs differ and the
    remainder is not zero. -/
def clsV (ids : IVec S8192 32) : IVec S8192 32 :=
  have c : IVec S_ 32 := constantI S_ 32 1000#32
  have q : IVec S8192 32 := Host.divsi ids (broadcastInDim S8192 ![] bcast_S_S8192 c)
  have sdiff : IVec S8192 1 := cmpi .ne (signi ids) (broadcastInDim S8192 ![] bcast_S_S8192 (signi c))
  have rem : IVec S8192 32 := Host.remsi ids (broadcastInDim S8192 ![] bcast_S_S8192 c)
  have rnz : IVec S8192 1 := cmpi .ne rem (broadcastInDim S8192 ![] bcast_S_S8192 (constantI S_ 32 0#32))
  select (andi sdiff rnz) (subi q (broadcastInDim S8192 ![] bcast_S_S8192 (constantI S_ 32 1#32))) q

/-- The squared norm of every row. -/
def sqV (x : FVec F S8192x128 .f32) : FVec F S8192 .f32 :=
  Host.reduceAdd (mulf x x) (constant S_ .f32 0x00000000#32) reducesTo_S8192x128_S8192_d1 h_S_

/-- The inner product of every pair of rows. -/
def gramM (x : FVec F S8192x128 .f32) : FVec F S8192x8192 .f32 :=
  Host.dotGeneral dot_S8192x128_S128x8192_S8192x8192_1_0_0_1_n_n none x
    (transpose S128x8192 [1, 0] x transposes_S8192x128_S128x8192_1_0)

/-- The squared distance of every pair, clamped at zero. -/
def d2M (x : FVec F S8192x128 .f32) : FVec F S8192x8192 .f32 :=
  maximumf
    (subf
      (addf
        (broadcastInDim S8192x8192 ![0, 1] bcast_S8192x1_S8192x8192_0_1
          (broadcastInDim S8192x1 ![0] bcast_S8192_S8192x1_0 (sqV x)))
        (broadcastInDim S8192x8192 ![0, 1] bcast_S1x8192_S8192x8192_0_1
          (broadcastInDim S1x8192 ![1] bcast_S8192_S1x8192_1 (sqV x))))
      (mulf (splatM 0x40000000#32) (gramM x)))
    (splatM 0x00000000#32)

/-- The distance of every pair, with the guarded square root. -/
def distM (x : FVec F S8192x128 .f32) : FVec F S8192x8192 .f32 :=
  select (cmpf .ogt (d2M x) (splatM 0x00000000#32))
    (Host.sqrt (select (cmpf .ogt (d2M x) (splatM 0x00000000#32)) (d2M x) (splatM 0x3F800000#32)))
    (splatM 0x00000000#32)

/-- A vector of words compared with itself, pair by pair. -/
def eqPairs (v : IVec S8192 32) : IVec S8192x8192 1 :=
  cmpi .eq
    (broadcastInDim S8192x8192 ![0, 1] bcast_S8192x1_S8192x8192_0_1 (broadcastInDim S8192x1 ![0] bcast_S8192_S8192x1_0 v))
    (broadcastInDim S8192x8192 ![0, 1] bcast_S1x8192_S8192x8192_0_1 (broadcastInDim S1x8192 ![1] bcast_S8192_S1x8192_1 v))

/-- Same class and another identity. -/
def negM (ids : IVec S8192 32) : IVec S8192x8192 1 := andi (eqPairs (clsV ids)) (noti (eqPairs ids))

/-- Whether each anchor has a negative: the or down its column. -/
def hasV (neg : IVec S8192x8192 1) : IVec S8192 1 :=
  Host.reduce IntOp.ori neg (constantI S_ 1 0#1) reducesTo_S8192x8192_S8192_d0 h_S_

/-- The hardest positive of each anchor: the maximum down its column of the distances on the same identity. -/
def hardPosV (dist : FVec F S8192x8192 .f32) (same : IVec S8192x8192 1) : FVec F S8192 .f32 :=
  Host.reduce FloatOps.maximumf (select same dist (splatM 0xFF800000#32)) (constant S_ .f32 0xFF800000#32)
    reducesTo_S8192x8192_S8192_d0 h_S_

/-- The hardest negative of each anchor: the minimum down its column of the distances on the negatives. -/
def hardNegV (dist : FVec F S8192x8192 .f32) (neg : IVec S8192x8192 1) : FVec F S8192 .f32 :=
  Host.reduce FloatOps.minimumf (select neg dist (splatM 0x7F800000#32)) (constant S_ .f32 0x7F800000#32)
    reducesTo_S8192x8192_S8192_d0 h_S_

/-- A scalar word copied to every anchor. -/
abbrev splatV (w : BitVec 32) : FVec F S8192 .f32 := broadcastInDim S8192 ![] bcast_S_S8192 (constant S_ .f32 w)

/-- The last stage: the margin term, kept where the anchor has a negative. -/
def tripV (dist : FVec F S8192x8192 .f32) (same neg : IVec S8192x8192 1) : FVec F S8192 .f32 :=
  select (hasV neg)
    (maximumf
      (subf (addf (splatV 0x3DCCCCCD#32) (hardPosV dist same))
        (select (hasV neg) (hardNegV dist neg) (splatV 0x00000000#32)))
      (splatV 0x00000000#32))
    (splatV 0x00000000#32)

/-- The reference's term is its stages composed. -/
theorem refTrip_eq (x : FVec F S8192x128 .f32) (ids : IVec S8192 32) :
    refTrip x ids = tripV (distM x) (eqPairs ids) (negM ids) := rfl

end Stages

/-! ## The stages read at an index, at the extended reals -/

section AtIdeal

theorem cmpi_apply {s : Shape} {w : Nat} (p : CmpIPredicate) (a b : IVec s w) (i : s.Idx) :
    cmpi p a b i = IntOp.cmpi p (a i) (b i) := rfl
theorem andi_apply {s : Shape} {w : Nat} (a b : IVec s w) (i : s.Idx) : andi a b i = IntOp.andi (a i) (b i) := rfl
theorem noti_apply {s : Shape} {w : Nat} (a : IVec s w) (i : s.Idx) : noti a i = ~~~(a i) := rfl
theorem hostSqrt_apply {s : Shape} {φ : FTy} (a : FVec Ideal s φ) (i : s.Idx) : Host.sqrt a i = Ideal.sqrt (a i) := rfl
theorem splatM_apply (w : BitVec 32) (i : S8192x8192.Idx) : splatM (F := Ideal) w i = Ideal.ofBits .f32 w := rfl
theorem splatV_apply (w : BitVec 32) (i : S8192.Idx) : splatV (F := Ideal) w i = Ideal.ofBits .f32 w := rfl

theorem clsV_apply (ids : IVec S8192 32) (n : Fin 8192) : clsV ids (ix1 n) = Spec.cls (ids (ix1 n)) :=
  cls_scalar (ids (ix1 n))

theorem sqV_apply (x : FVec Ideal S8192x128 .f32) (r : Fin 8192) :
    sqV x (ix1 r) = Spec.sq (fun r k => x (ix2 r k)) r :=
  rowSum_apply (mulf x x) r

theorem gramM_apply (x : FVec Ideal S8192x128 .f32) (j i : Fin 8192) :
    gramM x (ix2 j i) = Spec.gram (fun r k => x (ix2 r k)) j i := by
  unfold gramM Spec.gram
  rw [dot_apply]
  exact Finset.sum_congr rfl fun k _ => by rw [transposeX_apply]

theorem d2M_apply (x : FVec Ideal S8192x128 .f32) (j i : Fin 8192) :
    d2M x (ix2 j i) = Spec.d2 (fun r k => x (ix2 r k)) j i := by
  unfold d2M Spec.d2
  rw [maximumf_apply, subf_apply, addf_apply, mulf_apply, outerCol_apply, outerRow_apply, sqV_apply, sqV_apply,
    gramM_apply, splatM_apply, splatM_apply]

theorem distM_apply (x : FVec Ideal S8192x128 .f32) (j i : Fin 8192) :
    distM x (ix2 j i) = Spec.dist (fun r k => x (ix2 r k)) j i := by
  unfold distM Spec.dist
  rw [select_apply, hostSqrt_apply, select_apply, cmpf_apply, d2M_apply, splatM_apply, splatM_apply]
  rfl

theorem eqPairs_apply (v : IVec S8192 32) (j i : Fin 8192) :
    eqPairs v (ix2 j i) = IntOp.cmpi .eq (v (ix1 j)) (v (ix1 i)) := by
  unfold eqPairs
  rw [cmpi_apply, outerCol_apply, outerRow_apply]

theorem sameM_apply (ids : IVec S8192 32) (j i : Fin 8192) :
    eqPairs ids (ix2 j i) = Spec.sameId (fun r => ids (ix1 r)) j i := eqPairs_apply ids j i

theorem negM_apply (ids : IVec S8192 32) (j i : Fin 8192) :
    negM ids (ix2 j i) = Spec.negMask (fun r => ids (ix1 r)) j i := by
  unfold negM Spec.negMask Spec.sameId
  rw [andi_apply, noti_apply, eqPairs_apply, eqPairs_apply, clsV_apply, clsV_apply, not_eq_xori_one]

variable (X : Fin 8192 → Fin 128 → EReal) (I : Fin 8192 → BitVec 32)
variable (dist : FVec Ideal S8192x8192 .f32) (same neg : IVec S8192x8192 1)

theorem hasV_apply (hn : ∀ j i, neg (ix2 j i) = Spec.negMask I j i) (n : Fin 8192) :
    hasV neg (ix1 n) = 1#1 ↔ Spec.hasNeg I n := by
  unfold hasV Spec.hasNeg
  rw [colFold_apply]
  show (Finset.univ : Finset (Fin 8192)).fold IntOp.ori 0#1 (fun k => neg (ix2 k n)) = 1#1 ↔ _
  rw [orFold_eq_one]
  simp only [Finset.mem_univ, true_and, hn]

theorem hardPosV_apply (hd : ∀ j i, dist (ix2 j i) = Spec.dist X j i) (hs : ∀ j i, same (ix2 j i) = Spec.sameId I j i)
    (n : Fin 8192) : hardPosV dist same (ix1 n) = Spec.hardPos X I n := by
  unfold hardPosV Spec.hardPos
  rw [colFold_apply]
  show (Finset.univ : Finset (Fin 8192)).fold max Spec.negInfW
      (fun k => Scalar.select (same (ix2 k n)) (dist (ix2 k n)) Spec.negInfW) = _
  simp only [hd, hs]

theorem hardNegV_apply (hd : ∀ j i, dist (ix2 j i) = Spec.dist X j i) (hn : ∀ j i, neg (ix2 j i) = Spec.negMask I j i)
    (n : Fin 8192) : hardNegV dist neg (ix1 n) = Spec.hardNeg X I n := by
  unfold hardNegV Spec.hardNeg
  rw [colFold_apply]
  show (Finset.univ : Finset (Fin 8192)).fold min Spec.posInfW
      (fun k => Scalar.select (neg (ix2 k n)) (dist (ix2 k n)) Spec.posInfW) = _
  simp only [hd, hn]

theorem tripV_apply (hd : ∀ j i, dist (ix2 j i) = Spec.dist X j i) (hs : ∀ j i, same (ix2 j i) = Spec.sameId I j i)
    (hn : ∀ j i, neg (ix2 j i) = Spec.negMask I j i) (n : Fin 8192) :
    tripV dist same neg (ix1 n) = Spec.trip X I n := by
  have hhas := hasV_apply I neg hn n
  unfold tripV Spec.trip
  rw [select_apply]
  by_cases h : Spec.hasNeg I n
  · rw [if_pos h, hhas.mpr h, select_one, maximumf_apply, subf_apply, addf_apply, select_apply, hhas.mpr h, select_one,
      hardPosV_apply X I dist same hd hs n, hardNegV_apply X I dist neg hd hn n, splatV_apply, splatV_apply]
  · rw [if_neg h, eq_zero_of_ne_one fun e => h (hhas.mp e), select_zero, splatV_apply]

/-- The reference's per-anchor term, at the extended reals, is the specification's. -/
theorem refTrip_apply (x : FVec Ideal S8192x128 .f32) (ids : IVec S8192 32) (n : Fin 8192) :
    refTrip (F := Ideal) x ids (ValueIdx.ix1 n)
      = Cert.Spec.trip (fun r k => x (ValueIdx.ix2 r k)) (fun r => ids (ValueIdx.ix1 r)) n := by
  rw [refTrip_eq]
  exact tripV_apply _ _ _ _ _ (distM_apply x) (sameM_apply ids) (negM_apply ids) n

end AtIdeal

end Cert.ReferenceIdeal.Hand

end
-- ==== Proof.KI.OutValue.lean ====
/-
  The result row reshaped to a vector is the reference's per-anchor triplet term of the two arguments: both are, entry by
  entry, the specification of the embeddings and the identities.
-/
import proofs.«147753_j50903952392404_1_alg».proof.Proof.KI.Value
import proofs.«147753_j50903952392404_1_alg».proof.Proof.Ref.Value

set_option maxRecDepth 16384

noncomputable section

namespace Cert.KernelIdeal.Hand

open Cert.KernelIdeal Cert.KernelIdeal.Gen
open Idealize.ShloMosaic Idealize.ShloMosaic.TcCoe
open Idealize.SL Idealize.SL.Sem
open Idealize.ShloMosaic.Pipeline (Dat Cfg Window)
open Idealize.ShloMosaic.ValueIdx

variable (m : (ℓ : Loc nD τ sig) → Buf (Elt Ideal) ℓ)

/-- The result row after the run, reshaped to a vector, is the reference's triplet term of the arguments. -/
theorem trip_vec (c : Dev nD) :
    (shapeCast S8192 ((dats m 0 c).arrAt (4 : Fin 5) cfg0.N : FVec Ideal S1x8192 .f32) shapeCasts_S1x8192_S8192 : FVec Ideal S8192 .f32)
      = Cert.ReferenceIdeal.Hand.refTrip (F := Ideal) (m ((c : Thread nD τ).loc main_arg0)) (m ((c : Thread nD τ).loc main_arg1)) := by
  funext i
  obtain ⟨n, rfl⟩ : ∃ n : Fin 8192, i = ix1 n := ⟨i 0, eq_ix1 i⟩
  refine (shapeCast_apply _ _ (ix1 n) (ix2 (0 : Fin 1) n) ?_).trans ?_
  · show (S1x8192.rowMajor (ix2 (0 : Fin 1) n)).val = (S8192.rowMajor (ix1 n)).val
    rw [Shape.rowMajor_val_two, Shape.rowMajor_val_one]
    show 0 * 8192 + n.val = n.val
    omega
  · refine (out_value m c n).trans ?_
    exact (Cert.ReferenceIdeal.Hand.refTrip_apply _ _ n).symm

end Cert.KernelIdeal.Hand

end
-- ==== Proof.Ref.Run.lean ====
/- The reference program's @main as the list of its host operations, the calls of its module-local functions
   unfolded at their call sites, and its run read back: every weakly fair execution terminates with each buffer at
   the operations' fold over the launch contents. -/
import proofs.«147753_j50903952392404_1_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The first window's 86 operations, in order: the integer floor division of the labels by 1000 (seventeen,
    its select last), the squared norms, the Gram matrix, the clamped squared distances and their guarded root, the two
    masks, the masked maximum and minimum over the rows, and the first guarded selection. -/
abbrev ops0 : List (HloOp τ sig (Elt F)) :=
  [ StableHlo.nullary main_c (constantI S_ 32 1000#32),
    StableHlo.TRef.unary (StableHlo.TRef.of main_c : StableHlo.TRef sig ⟨S_, .i32⟩) main_call0.v0 id,
    StableHlo.TRef.unary main_call0.v0 main_call0.v1 (broadcastInDim S8192 ![] bcast_S_S8192),
    StableHlo.TRef.binary (StableHlo.TRef.of main_arg1 : StableHlo.TRef sig ⟨S8192, .i32⟩) main_call0.v1 main_call0.v2 Host.divsi,
    StableHlo.TRef.unary (StableHlo.TRef.of main_arg1 : StableHlo.TRef sig ⟨S8192, .i32⟩) main_call0.v3 signi,
    StableHlo.TRef.unary main_call0.v0 main_call0.v4 signi,
    StableHlo.TRef.unary main_call0.v4 main_call0.v5 (broadcastInDim S8192 ![] bcast_S_S8192),
    StableHlo.TRef.binary main_call0.v3 main_call0.v5 main_call0.v6 (cmpi .ne),
    StableHlo.TRef.unary main_call0.v0 main_call0.v7 (broadcastInDim S8192 ![] bcast_S_S8192),
    StableHlo.TRef.binary (StableHlo.TRef.of main_arg1 : StableHlo.TRef sig ⟨S8192, .i32⟩) main_call0.v7 main_call0.v8 Host.remsi,
    StableHlo.TRef.nullary main_call0.c (constantI S_ 32 0#32),
    StableHlo.TRef.unary main_call0.c main_call0.v9 (broadcastInDim S8192 ![] bcast_S_S8192),
    StableHlo.TRef.binary main_call0.v8 main_call0.v9 main_call0.v10 (cmpi .ne),
    StableHlo.TRef.binary main_call0.v6 main_call0.v10 main_call0.v11 andi,
    StableHlo.TRef.nullary main_call0.c_0 (constantI S_ 32 1#32),
    StableHlo.TRef.unary main_call0.c_0 main_call0.v12 (broadcastInDim S8192 ![] bcast_S_S8192),
    StableHlo.TRef.binary main_call0.v2 main_call0.v12 main_call0.v13 subi,
    StableHlo.TRef.ternary main_call0.v11 main_call0.v13 main_call0.v2 main_call0.call0.v0 select,
    StableHlo.binary main_arg0 main_arg0 main_v1 (mulf : (⟨S8192x128, .f32⟩ : BufTy).Contents (Elt F) → (⟨S8192x128, .f32⟩ : BufTy).Contents (Elt F) → (⟨S8192x128, .f32⟩ : BufTy).Contents (Elt F)),
    StableHlo.nullary main_cst (constant S_ .f32 0x00000000#32),
    StableHlo.binary main_v1 main_cst main_v2 ((fun x v => Host.reduceAdd x v reducesTo_S8192x128_S8192_d1 h_S_) : (⟨S8192x128, .f32⟩ : BufTy).Contents (Elt F) → (⟨S_, .f32⟩ : BufTy).Contents (Elt F) → (⟨S8192, .f32⟩ : BufTy).Contents (Elt F)),
    StableHlo.unary main_v2 main_v3 (broadcastInDim S8192x1 ![0] bcast_S8192_S8192x1_0 : (⟨S8192, .f32⟩ : BufTy).Contents (Elt F) → (⟨S8192x1, .f32⟩ : BufTy).Contents (Elt F)),
    StableHlo.unary main_v2 main_v4 (broadcastInDim S1x8192 ![1] bcast_S8192_S1x8192_1 : (⟨S8192, .f32⟩ : BufTy).Contents (Elt F) → (⟨S1x8192, .f32⟩ : BufTy).Contents (Elt F)),
    StableHlo.unary main_v3 main_v5 (broadcastInDim S8192x8192 ![0, 1] bcast_S8192x1_S8192x8192_0_1 : (⟨S8192x1, .f32⟩ : BufTy).Contents (Elt F) → (⟨S8192x8192, .f32⟩ : BufTy).Contents (Elt F)),
    StableHlo.unary main_v4 main_v6 (broadcastInDim S8192x8192 ![0, 1] bcast_S1x8192_S8192x8192_0_1 : (⟨S1x8192, .f32⟩ : BufTy).Contents (Elt F) → (⟨S8192x8192, .f32⟩ : BufTy).Contents (Elt F)),
    StableHlo.binary main_v5 main_v6 main_v7 (addf : (⟨S8192x8192, .f32⟩ : BufTy).Contents (Elt F) → (⟨S8192x8192, .f32⟩ : BufTy).Contents (Elt F) → (⟨S8192x8192, .f32⟩ : BufTy).Contents (Elt F)),
    StableHlo.unary main_arg0 main_v8 ((transpose S128x8192 [1, 0] · transposes_S8192x128_S128x8192_1_0) : (⟨S8192x128, .f32⟩ : BufTy).Contents (Elt F) → (⟨S128x8192, .f32⟩ : BufTy).Contents (Elt F)),
    StableHlo.binary main_arg0 main_v8 main_v9 ((fun l r => Host.dotGeneral dot_S8192x128_S128x8192_S8192x8192_1_0_0_1_n_n none l r) : (⟨S8192x128, .f32⟩ : BufTy).Contents (Elt F) → (⟨S128x8192, .f32⟩ : BufTy).Contents (Elt F) → (⟨S8192x8192, .f32⟩ : BufTy).Contents (Elt F)),
    StableHlo.nullary main_cst_0 (constant S_ .f32 0x40000000#32),
    StableHlo.unary main_cst_0 main_v10 (broadcastInDim S8192x8192 ![] bcast_S_S8192x8192 : (⟨S_, .f32⟩ : BufTy).Contents (Elt F) → (⟨S8192x8192, .f32⟩ : BufTy).Contents (Elt F)),
    StableHlo.binary main_v10 main_v9 main_v11 (mulf : (⟨S8192x8192, .f32⟩ : BufTy).Contents (Elt F) → (⟨S8192x8192, .f32⟩ : BufTy).Contents (Elt F) → (⟨S8192x8192, .f32⟩ : BufTy).Contents (Elt F)),
    StableHlo.binary main_v7 main_v11 main_v12 (subf : (⟨S8192x8192, .f32⟩ : BufTy).Contents (Elt F) → (⟨S8192x8192, .f32⟩ : BufTy).Contents (Elt F) → (⟨S8192x8192, .f32⟩ : BufTy).Contents (Elt F)),
    StableHlo.nullary main_cst_1 (constant S_ .f32 0x00000000#32),
    StableHlo.unary main_cst_1 main_v13 (broadcastInDim S8192x8192 ![] bcast_S_S8192x8192 : (⟨S_, .f32⟩ : BufTy).Contents (Elt F) → (⟨S8192x8192, .f32⟩ : BufTy).Contents (Elt F)),
    StableHlo.binary main_v12 main_v13 main_v14 (maximumf : (⟨S8192x8192, .f32⟩ : BufTy).Contents (Elt F) → (⟨S8192x8192, .f32⟩ : BufTy).Contents (Elt F) → (⟨S8192x8192, .f32⟩ : BufTy).Contents (Elt F)),
    StableHlo.nullary main_cst_2 (constant S_ .f32 0x00000000#32),
    StableHlo.unary main_cst_2 main_v15 (broadcastInDim S8192x8192 ![] bcast_S_S8192x8192 : (⟨S_, .f32⟩ : BufTy).Contents (Elt F) → (⟨S8192x8192, .f32⟩ : BufTy).Contents (Elt F)),
    StableHlo.binary main_v14 main_v15 main_v16 (cmpf .ogt : (⟨S8192x8192, .f32⟩ : BufTy).Contents (Elt F) → (⟨S8192x8192, .f32⟩ : BufTy).Contents (Elt F) → (⟨S8192x8192, .i1⟩ : BufTy).Contents (Elt F)),
    StableHlo.nullary main_cst_3 (constant S_ .f32 0x3F800000#32),
    StableHlo.TRef.unary (StableHlo.TRef.of main_cst_3 : StableHlo.TRef sig ⟨S_, .f32⟩) main_call1.v0 id,
    StableHlo.TRef.unary main_call1.v0 main_call1.v1 (broadcastInDim S8192x8192 ![] bcast_S_S8192x8192),
    StableHlo.TRef.ternary (StableHlo.TRef.of main_v16 : StableHlo.TRef sig ⟨S8192x8192, .i1⟩) (StableHlo.TRef.of main_v14 : StableHlo.TRef sig ⟨S8192x8192, .f32⟩) main_call1.v1 main_call1.v2 select,
    StableHlo.nullary main_cst_4 (constant S_ .f32 0x00000000#32),
    StableHlo.unary main_cst_4 main_v18 (broadcastInDim S8192x8192 ![] bcast_S_S8192x8192 : (⟨S_, .f32⟩ : BufTy).Contents (Elt F) → (⟨S8192x8192, .f32⟩ : BufTy).Contents (Elt F)),
    StableHlo.binary main_v14 main_v18 main_v19 (cmpf .ogt : (⟨S8192x8192, .f32⟩ : BufTy).Contents (Elt F) → (⟨S8192x8192, .f32⟩ : BufTy).Contents (Elt F) → (⟨S8192x8192, .i1⟩ : BufTy).Contents (Elt F)),
    StableHlo.unary main_v17 main_v20 (Host.sqrt : (⟨S8192x8192, .f32⟩ : BufTy).Contents (Elt F) → (⟨S8192x8192, .f32⟩ : BufTy).Contents (Elt F)),
    StableHlo.nullary main_cst_5 (constant S_ .f32 0x00000000#32),
    StableHlo.TRef.unary (StableHlo.TRef.of main_cst_5 : StableHlo.TRef sig ⟨S_, .f32⟩) main_call2.v0 id,
    StableHlo.TRef.unary main_call2.v0 main_call2.v1 (broadcastInDim S8192x8192 ![] bcast_S_S8192x8192),
    StableHlo.TRef.ternary (StableHlo.TRef.of main_v19 : StableHlo.TRef sig ⟨S8192x8192, .i1⟩) (StableHlo.TRef.of main_v20 : StableHlo.TRef sig ⟨S8192x8192, .f32⟩) main_call2.v1 main_call2.v2 select,
    StableHlo.unary main_arg1 main_v22 (broadcastInDim S8192x1 ![0] bcast_S8192_S8192x1_0 : (⟨S8192, .i32⟩ : BufTy).Contents (Elt F) → (⟨S8192x1, .i32⟩ : BufTy).Contents (Elt F)),
    StableHlo.unary main_arg1 main_v23 (broadcastInDim S1x8192 ![1] bcast_S8192_S1x8192_1 : (⟨S8192, .i32⟩ : BufTy).Contents (Elt F) → (⟨S1x8192, .i32⟩ : BufTy).Contents (Elt F)),
    StableHlo.unary main_v22 main_v24 (broadcastInDim S8192x8192 ![0, 1] bcast_S8192x1_S8192x8192_0_1 : (⟨S8192x1, .i32⟩ : BufTy).Contents (Elt F) → (⟨S8192x8192, .i32⟩ : BufTy).Contents (Elt F)),
    StableHlo.unary main_v23 main_v25 (broadcastInDim S8192x8192 ![0, 1] bcast_S1x8192_S8192x8192_0_1 : (⟨S1x8192, .i32⟩ : BufTy).Contents (Elt F) → (⟨S8192x8192, .i32⟩ : BufTy).Contents (Elt F)),
    StableHlo.binary main_v24 main_v25 main_v26 (cmpi .eq : (⟨S8192x8192, .i32⟩ : BufTy).Contents (Elt F) → (⟨S8192x8192, .i32⟩ : BufTy).Contents (Elt F) → (⟨S8192x8192, .i1⟩ : BufTy).Contents (Elt F)),
    StableHlo.unary main_v0 main_v27 (broadcastInDim S8192x1 ![0] bcast_S8192_S8192x1_0 : (⟨S8192, .i32⟩ : BufTy).Contents (Elt F) → (⟨S8192x1, .i32⟩ : BufTy).Contents (Elt F)),
    StableHlo.unary main_v0 main_v28 (broadcastInDim S1x8192 ![1] bcast_S8192_S1x8192_1 : (⟨S8192, .i32⟩ : BufTy).Contents (Elt F) → (⟨S1x8192, .i32⟩ : BufTy).Contents (Elt F)),
    StableHlo.unary main_v27 main_v29 (broadcastInDim S8192x8192 ![0, 1] bcast_S8192x1_S8192x8192_0_1 : (⟨S8192x1, .i32⟩ : BufTy).Contents (Elt F) → (⟨S8192x8192, .i32⟩ : BufTy).Contents (Elt F)),
    StableHlo.unary main_v28 main_v30 (broadcastInDim S8192x8192 ![0, 1] bcast_S1x8192_S8192x8192_0_1 : (⟨S1x8192, .i32⟩ : BufTy).Contents (Elt F) → (⟨S8192x8192, .i32⟩ : BufTy).Contents (Elt F)),
    StableHlo.binary main_v29 main_v30 main_v31 (cmpi .eq : (⟨S8192x8192, .i32⟩ : BufTy).Contents (Elt F) → (⟨S8192x8192, .i32⟩ : BufTy).Contents (Elt F) → (⟨S8192x8192, .i1⟩ : BufTy).Contents (Elt F)),
    StableHlo.unary main_v26 main_v32 (noti : (⟨S8192x8192, .i1⟩ : BufTy).Contents (Elt F) → (⟨S8192x8192, .i1⟩ : BufTy).Contents (Elt F)),
    StableHlo.binary main_v31 main_v32 main_v33 (andi : (⟨S8192x8192, .i1⟩ : BufTy).Contents (Elt F) → (⟨S8192x8192, .i1⟩ : BufTy).Contents (Elt F) → (⟨S8192x8192, .i1⟩ : BufTy).Contents (Elt F)),
    StableHlo.nullary main_cst_6 (constant S_ .f32 0xFF800000#32),
    StableHlo.TRef.unary (StableHlo.TRef.of main_cst_6 : StableHlo.TRef sig ⟨S_, .f32⟩) main_call3.v0 id,
    StableHlo.TRef.unary main_call3.v0 main_call3.v1 (broadcastInDim S8192x8192 ![] bcast_S_S8192x8192),
    StableHlo.TRef.ternary (StableHlo.TRef.of main_v26 : StableHlo.TRef sig ⟨S8192x8192, .i1⟩) (StableHlo.TRef.of main_v21 : StableHlo.TRef sig ⟨S8192x8192, .f32⟩) main_call3.v1 main_call3.v2 select,
    StableHlo.nullary main_cst_7 (constant S_ .f32 0xFF800000#32),
    StableHlo.binary main_v34 main_cst_7 main_v35 ((fun x v => Host.reduce FloatOps.maximumf x v reducesTo_S8192x8192_S8192_d0 h_S_) : (⟨S8192x8192, .f32⟩ : BufTy).Contents (Elt F) → (⟨S_, .f32⟩ : BufTy).Contents (Elt F) → (⟨S8192, .f32⟩ : BufTy).Contents (Elt F)),
    StableHlo.nullary main_cst_8 (constant S_ .f32 0x7F800000#32),
    StableHlo.TRef.unary (StableHlo.TRef.of main_cst_8 : StableHlo.TRef sig ⟨S_, .f32⟩) main_call4.v0 id,
    StableHlo.TRef.unary main_call4.v0 main_call4.v1 (broadcastInDim S8192x8192 ![] bcast_S_S8192x8192),
    StableHlo.TRef.ternary (StableHlo.TRef.of main_v33 : StableHlo.TRef sig ⟨S8192x8192, .i1⟩) (StableHlo.TRef.of main_v21 : StableHlo.TRef sig ⟨S8192x8192, .f32⟩) main_call4.v1 main_call4.v2 select,
    StableHlo.nullary main_cst_9 (constant S_ .f32 0x7F800000#32),
    StableHlo.binary main_v36 main_cst_9 main_v37 ((fun x v => Host.reduce FloatOps.minimumf x v reducesTo_S8192x8192_S8192_d0 h_S_) : (⟨S8192x8192, .f32⟩ : BufTy).Contents (Elt F) → (⟨S_, .f32⟩ : BufTy).Contents (Elt F) → (⟨S8192, .f32⟩ : BufTy).Contents (Elt F)),
    StableHlo.nullary main_c_10 (constantI S_ 1 0#1),
    StableHlo.binary main_v33 main_c_10 main_v38 ((fun x v => Host.reduce IntOp.ori x v reducesTo_S8192x8192_S8192_d0 h_S_) : (⟨S8192x8192, .i1⟩ : BufTy).Contents (Elt F) → (⟨S_, .i1⟩ : BufTy).Contents (Elt F) → (⟨S8192, .i1⟩ : BufTy).Contents (Elt F)),
    StableHlo.nullary main_cst_11 (constant S_ .f32 0x00000000#32),
    StableHlo.TRef.unary (StableHlo.TRef.of main_cst_11 : StableHlo.TRef sig ⟨S_, .f32⟩) main_call5.v0 id,
    StableHlo.TRef.unary main_call5.v0 main_call5.v1 (broadcastInDim S8192 ![] bcast_S_S8192),
    StableHlo.TRef.ternary (StableHlo.TRef.of main_v38 : StableHlo.TRef sig ⟨S8192, .i1⟩) (StableHlo.TRef.of main_v37 : StableHlo.TRef sig ⟨S8192, .f32⟩) main_call5.v1 main_call5.v2 select,
    StableHlo.nullary main_cst_12 (constant S_ .f32 0x3DCCCCCD#32),
    StableHlo.unary main_cst_12 main_v40 (broadcastInDim S8192 ![] bcast_S_S8192 : (⟨S_, .f32⟩ : BufTy).Contents (Elt F) → (⟨S8192, .f32⟩ : BufTy).Contents (Elt F)),
    StableHlo.binary main_v40 main_v35 main_v41 (addf : (⟨S8192, .f32⟩ : BufTy).Contents (Elt F) → (⟨S8192, .f32⟩ : BufTy).Contents (Elt F) → (⟨S8192, .f32⟩ : BufTy).Contents (Elt F)),
    StableHlo.binary main_v41 main_v39 main_v42 (subf : (⟨S8192, .f32⟩ : BufTy).Contents (Elt F) → (⟨S8192, .f32⟩ : BufTy).Contents (Elt F) → (⟨S8192, .f32⟩ : BufTy).Contents (Elt F)),
    StableHlo.nullary main_cst_13 (constant S_ .f32 0x00000000#32),
    StableHlo.unary main_cst_13 main_v43 (broadcastInDim S8192 ![] bcast_S_S8192 : (⟨S_, .f32⟩ : BufTy).Contents (Elt F) → (⟨S8192, .f32⟩ : BufTy).Contents (Elt F)) ]

/-- The second window's 33 operations, in order: the clamped margin, its guarded selection, the two scatter-sums
    by label, the guarded quotient, and the final ratio of the two sums. -/
abbrev ops1 : List (HloOp τ sig (Elt F)) :=
  [ StableHlo.binary main_v42 main_v43 main_v44 (maximumf : (⟨S8192, .f32⟩ : BufTy).Contents (Elt F) → (⟨S8192, .f32⟩ : BufTy).Contents (Elt F) → (⟨S8192, .f32⟩ : BufTy).Contents (Elt F)),
    StableHlo.nullary main_cst_14 (constant S_ .f32 0x00000000#32),
    StableHlo.TRef.unary (StableHlo.TRef.of main_cst_14 : StableHlo.TRef sig ⟨S_, .f32⟩) main_call6.v0 id,
    StableHlo.TRef.unary main_call6.v0 main_call6.v1 (broadcastInDim S8192 ![] bcast_S_S8192),
    StableHlo.TRef.ternary (StableHlo.TRef.of main_v38 : StableHlo.TRef sig ⟨S8192, .i1⟩) (StableHlo.TRef.of main_v44 : StableHlo.TRef sig ⟨S8192, .f32⟩) main_call6.v1 main_call6.v2 select,
    StableHlo.nullary main_cst_15 (constant S_ .f32 0x3F800000#32),
    StableHlo.unary main_cst_15 main_v46 (broadcastInDim S8192 ![] bcast_S_S8192 : (⟨S_, .f32⟩ : BufTy).Contents (Elt F) → (⟨S8192, .f32⟩ : BufTy).Contents (Elt F)),
    StableHlo.nullary main_cst_16 (constant S_ .f32 0x00000000#32),
    StableHlo.unary main_cst_16 main_v47 (broadcastInDim S4000 ![] bcast_S_S4000 : (⟨S_, .f32⟩ : BufTy).Contents (Elt F) → (⟨S4000, .f32⟩ : BufTy).Contents (Elt F)),
    StableHlo.unary main_arg1 main_v48 (broadcastInDim S8192x1 ![0] bcast_S8192_S8192x1_0 : (⟨S8192, .i32⟩ : BufTy).Contents (Elt F) → (⟨S8192x1, .i32⟩ : BufTy).Contents (Elt F)),
    StableHlo.ternary main_v47 main_v48 main_v46 main_v49 ((fun x i u => Host.scatterAdd scatter_S4000_S8192x1_S8192_n_0_0_1 x i u) : (⟨S4000, .f32⟩ : BufTy).Contents (Elt F) → (⟨S8192x1, .i32⟩ : BufTy).Contents (Elt F) → (⟨S8192, .f32⟩ : BufTy).Contents (Elt F) → (⟨S4000, .f32⟩ : BufTy).Contents (Elt F)),
    StableHlo.nullary main_cst_17 (constant S_ .f32 0x00000000#32),
    StableHlo.unary main_cst_17 main_v50 (broadcastInDim S4000 ![] bcast_S_S4000 : (⟨S_, .f32⟩ : BufTy).Contents (Elt F) → (⟨S4000, .f32⟩ : BufTy).Contents (Elt F)),
    StableHlo.unary main_arg1 main_v51 (broadcastInDim S8192x1 ![0] bcast_S8192_S8192x1_0 : (⟨S8192, .i32⟩ : BufTy).Contents (Elt F) → (⟨S8192x1, .i32⟩ : BufTy).Contents (Elt F)),
    StableHlo.ternary main_v50 main_v51 main_v45 main_v52 ((fun x i u => Host.scatterAdd scatter_S4000_S8192x1_S8192_n_0_0_1 x i u) : (⟨S4000, .f32⟩ : BufTy).Contents (Elt F) → (⟨S8192x1, .i32⟩ : BufTy).Contents (Elt F) → (⟨S8192, .f32⟩ : BufTy).Contents (Elt F) → (⟨S4000, .f32⟩ : BufTy).Contents (Elt F)),
    StableHlo.nullary main_cst_18 (constant S_ .f32 0x00000000#32),
    StableHlo.unary main_cst_18 main_v53 (broadcastInDim S4000 ![] bcast_S_S4000 : (⟨S_, .f32⟩ : BufTy).Contents (Elt F) → (⟨S4000, .f32⟩ : BufTy).Contents (Elt F)),
    StableHlo.binary main_v49 main_v53 main_v54 (cmpf .ogt : (⟨S4000, .f32⟩ : BufTy).Contents (Elt F) → (⟨S4000, .f32⟩ : BufTy).Contents (Elt F) → (⟨S4000, .i1⟩ : BufTy).Contents (Elt F)),
    StableHlo.nullary main_cst_19 (constant S_ .f32 0x3F800000#32),
    StableHlo.TRef.unary (StableHlo.TRef.of main_cst_19 : StableHlo.TRef sig ⟨S_, .f32⟩) main_call7.v0 id,
    StableHlo.TRef.unary main_call7.v0 main_call7.v1 (broadcastInDim S4000 ![] bcast_S_S4000),
    StableHlo.TRef.ternary (StableHlo.TRef.of main_v54 : StableHlo.TRef sig ⟨S4000, .i1⟩) (StableHlo.TRef.of main_v49 : StableHlo.TRef sig ⟨S4000, .f32⟩) main_call7.v1 main_call7.v2 select,
    StableHlo.binary main_v52 main_v55 main_v56 (Host.divf : (⟨S4000, .f32⟩ : BufTy).Contents (Elt F) → (⟨S4000, .f32⟩ : BufTy).Contents (Elt F) → (⟨S4000, .f32⟩ : BufTy).Contents (Elt F)),
    StableHlo.nullary main_cst_20 (constant S_ .f32 0x00000000#32),
    StableHlo.TRef.unary (StableHlo.TRef.of main_cst_20 : StableHlo.TRef sig ⟨S_, .f32⟩) main_call8.v0 id,
    StableHlo.TRef.unary main_call8.v0 main_call8.v1 (broadcastInDim S4000 ![] bcast_S_S4000),
    StableHlo.TRef.ternary (StableHlo.TRef.of main_v54 : StableHlo.TRef sig ⟨S4000, .i1⟩) (StableHlo.TRef.of main_v56 : StableHlo.TRef sig ⟨S4000, .f32⟩) main_call8.v1 main_call8.v2 select,
    StableHlo.unary main_v54 main_v58 (uitofp .f32 : (⟨S4000, .i1⟩ : BufTy).Contents (Elt F) → (⟨S4000, .f32⟩ : BufTy).Contents (Elt F)),
    StableHlo.nullary main_cst_21 (constant S_ .f32 0x00000000#32),
    StableHlo.binary main_v58 main_cst_21 main_v59 ((fun x v => Host.reduceAdd x v reducesTo_S4000_S_d0 h_S_) : (⟨S4000, .f32⟩ : BufTy).Contents (Elt F) → (⟨S_, .f32⟩ : BufTy).Contents (Elt F) → (⟨S_, .f32⟩ : BufTy).Contents (Elt F)),
    StableHlo.nullary main_cst_22 (constant S_ .f32 0x00000000#32),
    StableHlo.binary main_v57 main_cst_22 main_v60 ((fun x v => Host.reduceAdd x v reducesTo_S4000_S_d0 h_S_) : (⟨S4000, .f32⟩ : BufTy).Contents (Elt F) → (⟨S_, .f32⟩ : BufTy).Contents (Elt F) → (⟨S_, .f32⟩ : BufTy).Contents (Elt F)),
    StableHlo.binary main_v60 main_v59 main_v61 (Host.divf : (⟨S_, .f32⟩ : BufTy).Contents (Elt F) → (⟨S_, .f32⟩ : BufTy).Contents (Elt F) → (⟨S_, .f32⟩ : BufTy).Contents (Elt F)) ]

/-- @main's 119 operations, in order, the calls unfolded. -/
abbrev ops : List (HloOp τ sig (Elt F)) :=
  [ StableHlo.nullary main_c (constantI S_ 32 1000#32),
    StableHlo.TRef.unary (StableHlo.TRef.of main_c : StableHlo.TRef sig ⟨S_, .i32⟩) main_call0.v0 id,
    StableHlo.TRef.unary main_call0.v0 main_call0.v1 (broadcastInDim S8192 ![] bcast_S_S8192),
    StableHlo.TRef.binary (StableHlo.TRef.of main_arg1 : StableHlo.TRef sig ⟨S8192, .i32⟩) main_call0.v1 main_call0.v2 Host.divsi,
    StableHlo.TRef.unary (StableHlo.TRef.of main_arg1 : StableHlo.TRef sig ⟨S8192, .i32⟩) main_call0.v3 signi,
    StableHlo.TRef.unary main_call0.v0 main_call0.v4 signi,
    StableHlo.TRef.unary main_call0.v4 main_call0.v5 (broadcastInDim S8192 ![] bcast_S_S8192),
    StableHlo.TRef.binary main_call0.v3 main_call0.v5 main_call0.v6 (cmpi .ne),
    StableHlo.TRef.unary main_call0.v0 main_call0.v7 (broadcastInDim S8192 ![] bcast_S_S8192),
    StableHlo.TRef.binary (StableHlo.TRef.of main_arg1 : StableHlo.TRef sig ⟨S8192, .i32⟩) main_call0.v7 main_call0.v8 Host.remsi,
    StableHlo.TRef.nullary main_call0.c (constantI S_ 32 0#32),
    StableHlo.TRef.unary main_call0.c main_call0.v9 (broadcastInDim S8192 ![] bcast_S_S8192),
    StableHlo.TRef.binary main_call0.v8 main_call0.v9 main_call0.v10 (cmpi .ne),
    StableHlo.TRef.binary main_call0.v6 main_call0.v10 main_call0.v11 andi,
    StableHlo.TRef.nullary main_call0.c_0 (constantI S_ 32 1#32),
    StableHlo.TRef.unary main_call0.c_0 main_call0.v12 (broadcastInDim S8192 ![] bcast_S_S8192),
    StableHlo.TRef.binary main_call0.v2 main_call0.v12 main_call0.v13 subi,
    StableHlo.TRef.ternary main_call0.v11 main_call0.v13 main_call0.v2 main_call0.call0.v0 select,
    StableHlo.binary main_arg0 main_arg0 main_v1 (mulf : (⟨S8192x128, .f32⟩ : BufTy).Contents (Elt F) → (⟨S8192x128, .f32⟩ : BufTy).Contents (Elt F) → (⟨S8192x128, .f32⟩ : BufTy).Contents (Elt F)),
    StableHlo.nullary main_cst (constant S_ .f32 0x00000000#32),
    StableHlo.binary main_v1 main_cst main_v2 ((fun x v => Host.reduceAdd x v reducesTo_S8192x128_S8192_d1 h_S_) : (⟨S8192x128, .f32⟩ : BufTy).Contents (Elt F) → (⟨S_, .f32⟩ : BufTy).Contents (Elt F) → (⟨S8192, .f32⟩ : BufTy).Contents (Elt F)),
    StableHlo.unary main_v2 main_v3 (broadcastInDim S8192x1 ![0] bcast_S8192_S8192x1_0 : (⟨S8192, .f32⟩ : BufTy).Contents (Elt F) → (⟨S8192x1, .f32⟩ : BufTy).Contents (Elt F)),
    StableHlo.unary main_v2 main_v4 (broadcastInDim S1x8192 ![1] bcast_S8192_S1x8192_1 : (⟨S8192, .f32⟩ : BufTy).Contents (Elt F) → (⟨S1x8192, .f32⟩ : BufTy).Contents (Elt F)),
    StableHlo.unary main_v3 main_v5 (broadcastInDim S8192x8192 ![0, 1] bcast_S8192x1_S8192x8192_0_1 : (⟨S8192x1, .f32⟩ : BufTy).Contents (Elt F) → (⟨S8192x8192, .f32⟩ : BufTy).Contents (Elt F)),
    StableHlo.unary main_v4 main_v6 (broadcastInDim S8192x8192 ![0, 1] bcast_S1x8192_S8192x8192_0_1 : (⟨S1x8192, .f32⟩ : BufTy).Contents (Elt F) → (⟨S8192x8192, .f32⟩ : BufTy).Contents (Elt F)),
    StableHlo.binary main_v5 main_v6 main_v7 (addf : (⟨S8192x8192, .f32⟩ : BufTy).Contents (Elt F) → (⟨S8192x8192, .f32⟩ : BufTy).Contents (Elt F) → (⟨S8192x8192, .f32⟩ : BufTy).Contents (Elt F)),
    StableHlo.unary main_arg0 main_v8 ((transpose S128x8192 [1, 0] · transposes_S8192x128_S128x8192_1_0) : (⟨S8192x128, .f32⟩ : BufTy).Contents (Elt F) → (⟨S128x8192, .f32⟩ : BufTy).Contents (Elt F)),
    StableHlo.binary main_arg0 main_v8 main_v9 ((fun l r => Host.dotGeneral dot_S8192x128_S128x8192_S8192x8192_1_0_0_1_n_n none l r) : (⟨S8192x128, .f32⟩ : BufTy).Contents (Elt F) → (⟨S128x8192, .f32⟩ : BufTy).Contents (Elt F) → (⟨S8192x8192, .f32⟩ : BufTy).Contents (Elt F)),
    StableHlo.nullary main_cst_0 (constant S_ .f32 0x40000000#32),
    StableHlo.unary main_cst_0 main_v10 (broadcastInDim S8192x8192 ![] bcast_S_S8192x8192 : (⟨S_, .f32⟩ : BufTy).Contents (Elt F) → (⟨S8192x8192, .f32⟩ : BufTy).Contents (Elt F)),
    StableHlo.binary main_v10 main_v9 main_v11 (mulf : (⟨S8192x8192, .f32⟩ : BufTy).Contents (Elt F) → (⟨S8192x8192, .f32⟩ : BufTy).Contents (Elt F) → (⟨S8192x8192, .f32⟩ : BufTy).Contents (Elt F)),
    StableHlo.binary main_v7 main_v11 main_v12 (subf : (⟨S8192x8192, .f32⟩ : BufTy).Contents (Elt F) → (⟨S8192x8192, .f32⟩ : BufTy).Contents (Elt F) → (⟨S8192x8192, .f32⟩ : BufTy).Contents (Elt F)),
    StableHlo.nullary main_cst_1 (constant S_ .f32 0x00000000#32),
    StableHlo.unary main_cst_1 main_v13 (broadcastInDim S8192x8192 ![] bcast_S_S8192x8192 : (⟨S_, .f32⟩ : BufTy).Contents (Elt F) → (⟨S8192x8192, .f32⟩ : BufTy).Contents (Elt F)),
    StableHlo.binary main_v12 main_v13 main_v14 (maximumf : (⟨S8192x8192, .f32⟩ : BufTy).Contents (Elt F) → (⟨S8192x8192, .f32⟩ : BufTy).Contents (Elt F) → (⟨S8192x8192, .f32⟩ : BufTy).Contents (Elt F)),
    StableHlo.nullary main_cst_2 (constant S_ .f32 0x00000000#32),
    StableHlo.unary main_cst_2 main_v15 (broadcastInDim S8192x8192 ![] bcast_S_S8192x8192 : (⟨S_, .f32⟩ : BufTy).Contents (Elt F) → (⟨S8192x8192, .f32⟩ : BufTy).Contents (Elt F)),
    StableHlo.binary main_v14 main_v15 main_v16 (cmpf .ogt : (⟨S8192x8192, .f32⟩ : BufTy).Contents (Elt F) → (⟨S8192x8192, .f32⟩ : BufTy).Contents (Elt F) → (⟨S8192x8192, .i1⟩ : BufTy).Contents (Elt F)),
    StableHlo.nullary main_cst_3 (constant S_ .f32 0x3F800000#32),
    StableHlo.TRef.unary (StableHlo.TRef.of main_cst_3 : StableHlo.TRef sig ⟨S_, .f32⟩) main_call1.v0 id,
    StableHlo.TRef.unary main_call1.v0 main_call1.v1 (broadcastInDim S8192x8192 ![] bcast_S_S8192x8192),
    StableHlo.TRef.ternary (StableHlo.TRef.of main_v16 : StableHlo.TRef sig ⟨S8192x8192, .i1⟩) (StableHlo.TRef.of main_v14 : StableHlo.TRef sig ⟨S8192x8192, .f32⟩) main_call1.v1 main_call1.v2 select,
    StableHlo.nullary main_cst_4 (constant S_ .f32 0x00000000#32),
    StableHlo.unary main_cst_4 main_v18 (broadcastInDim S8192x8192 ![] bcast_S_S8192x8192 : (⟨S_, .f32⟩ : BufTy).Contents (Elt F) → (⟨S8192x8192, .f32⟩ : BufTy).Contents (Elt F)),
    StableHlo.binary main_v14 main_v18 main_v19 (cmpf .ogt : (⟨S8192x8192, .f32⟩ : BufTy).Contents (Elt F) → (⟨S8192x8192, .f32⟩ : BufTy).Contents (Elt F) → (⟨S8192x8192, .i1⟩ : BufTy).Contents (Elt F)),
    StableHlo.unary main_v17 main_v20 (Host.sqrt : (⟨S8192x8192, .f32⟩ : BufTy).Contents (Elt F) → (⟨S8192x8192, .f32⟩ : BufTy).Contents (Elt F)),
    StableHlo.nullary main_cst_5 (constant S_ .f32 0x00000000#32),
    StableHlo.TRef.unary (StableHlo.TRef.of main_cst_5 : StableHlo.TRef sig ⟨S_, .f32⟩) main_call2.v0 id,
    StableHlo.TRef.unary main_call2.v0 main_call2.v1 (broadcastInDim S8192x8192 ![] bcast_S_S8192x8192),
    StableHlo.TRef.ternary (StableHlo.TRef.of main_v19 : StableHlo.TRef sig ⟨S8192x8192, .i1⟩) (StableHlo.TRef.of main_v20 : StableHlo.TRef sig ⟨S8192x8192, .f32⟩) main_call2.v1 main_call2.v2 select,
    StableHlo.unary main_arg1 main_v22 (broadcastInDim S8192x1 ![0] bcast_S8192_S8192x1_0 : (⟨S8192, .i32⟩ : BufTy).Contents (Elt F) → (⟨S8192x1, .i32⟩ : BufTy).Contents (Elt F)),
    StableHlo.unary main_arg1 main_v23 (broadcastInDim S1x8192 ![1] bcast_S8192_S1x8192_1 : (⟨S8192, .i32⟩ : BufTy).Contents (Elt F) → (⟨S1x8192, .i32⟩ : BufTy).Contents (Elt F)),
    StableHlo.unary main_v22 main_v24 (broadcastInDim S8192x8192 ![0, 1] bcast_S8192x1_S8192x8192_0_1 : (⟨S8192x1, .i32⟩ : BufTy).Contents (Elt F) → (⟨S8192x8192, .i32⟩ : BufTy).Contents (Elt F)),
    StableHlo.unary main_v23 main_v25 (broadcastInDim S8192x8192 ![0, 1] bcast_S1x8192_S8192x8192_0_1 : (⟨S1x8192, .i32⟩ : BufTy).Contents (Elt F) → (⟨S8192x8192, .i32⟩ : BufTy).Contents (Elt F)),
    StableHlo.binary main_v24 main_v25 main_v26 (cmpi .eq : (⟨S8192x8192, .i32⟩ : BufTy).Contents (Elt F) → (⟨S8192x8192, .i32⟩ : BufTy).Contents (Elt F) → (⟨S8192x8192, .i1⟩ : BufTy).Contents (Elt F)),
    StableHlo.unary main_v0 main_v27 (broadcastInDim S8192x1 ![0] bcast_S8192_S8192x1_0 : (⟨S8192, .i32⟩ : BufTy).Contents (Elt F) → (⟨S8192x1, .i32⟩ : BufTy).Contents (Elt F)),
    StableHlo.unary main_v0 main_v28 (broadcastInDim S1x8192 ![1] bcast_S8192_S1x8192_1 : (⟨S8192, .i32⟩ : BufTy).Contents (Elt F) → (⟨S1x8192, .i32⟩ : BufTy).Contents (Elt F)),
    StableHlo.unary main_v27 main_v29 (broadcastInDim S8192x8192 ![0, 1] bcast_S8192x1_S8192x8192_0_1 : (⟨S8192x1, .i32⟩ : BufTy).Contents (Elt F) → (⟨S8192x8192, .i32⟩ : BufTy).Contents (Elt F)),
    StableHlo.unary main_v28 main_v30 (broadcastInDim S8192x8192 ![0, 1] bcast_S1x8192_S8192x8192_0_1 : (⟨S1x8192, .i32⟩ : BufTy).Contents (Elt F) → (⟨S8192x8192, .i32⟩ : BufTy).Contents (Elt F)),
    StableHlo.binary main_v29 main_v30 main_v31 (cmpi .eq : (⟨S8192x8192, .i32⟩ : BufTy).Contents (Elt F) → (⟨S8192x8192, .i32⟩ : BufTy).Contents (Elt F) → (⟨S8192x8192, .i1⟩ : BufTy).Contents (Elt F)),
    StableHlo.unary main_v26 main_v32 (noti : (⟨S8192x8192, .i1⟩ : BufTy).Contents (Elt F) → (⟨S8192x8192, .i1⟩ : BufTy).Contents (Elt F)),
    StableHlo.binary main_v31 main_v32 main_v33 (andi : (⟨S8192x8192, .i1⟩ : BufTy).Contents (Elt F) → (⟨S8192x8192, .i1⟩ : BufTy).Contents (Elt F) → (⟨S8192x8192, .i1⟩ : BufTy).Contents (Elt F)),
    StableHlo.nullary main_cst_6 (constant S_ .f32 0xFF800000#32),
    StableHlo.TRef.unary (StableHlo.TRef.of main_cst_6 : StableHlo.TRef sig ⟨S_, .f32⟩) main_call3.v0 id,
    StableHlo.TRef.unary main_call3.v0 main_call3.v1 (broadcastInDim S8192x8192 ![] bcast_S_S8192x8192),
    StableHlo.TRef.ternary (StableHlo.TRef.of main_v26 : StableHlo.TRef sig ⟨S8192x8192, .i1⟩) (StableHlo.TRef.of main_v21 : StableHlo.TRef sig ⟨S8192x8192, .f32⟩) main_call3.v1 main_call3.v2 select,
    StableHlo.nullary main_cst_7 (constant S_ .f32 0xFF800000#32),
    StableHlo.binary main_v34 main_cst_7 main_v35 ((fun x v => Host.reduce FloatOps.maximumf x v reducesTo_S8192x8192_S8192_d0 h_S_) : (⟨S8192x8192, .f32⟩ : BufTy).Contents (Elt F) → (⟨S_, .f32⟩ : BufTy).Contents (Elt F) → (⟨S8192, .f32⟩ : BufTy).Contents (Elt F)),
    StableHlo.nullary main_cst_8 (constant S_ .f32 0x7F800000#32),
    StableHlo.TRef.unary (StableHlo.TRef.of main_cst_8 : StableHlo.TRef sig ⟨S_, .f32⟩) main_call4.v0 id,
    StableHlo.TRef.unary main_call4.v0 main_call4.v1 (broadcastInDim S8192x8192 ![] bcast_S_S8192x8192),
    StableHlo.TRef.ternary (StableHlo.TRef.of main_v33 : StableHlo.TRef sig ⟨S8192x8192, .i1⟩) (StableHlo.TRef.of main_v21 : StableHlo.TRef sig ⟨S8192x8192, .f32⟩) main_call4.v1 main_call4.v2 select,
    StableHlo.nullary main_cst_9 (constant S_ .f32 0x7F800000#32),
    StableHlo.binary main_v36 main_cst_9 main_v37 ((fun x v => Host.reduce FloatOps.minimumf x v reducesTo_S8192x8192_S8192_d0 h_S_) : (⟨S8192x8192, .f32⟩ : BufTy).Contents (Elt F) → (⟨S_, .f32⟩ : BufTy).Contents (Elt F) → (⟨S8192, .f32⟩ : BufTy).Contents (Elt F)),
    StableHlo.nullary main_c_10 (constantI S_ 1 0#1),
    StableHlo.binary main_v33 main_c_10 main_v38 ((fun x v => Host.reduce IntOp.ori x v reducesTo_S8192x8192_S8192_d0 h_S_) : (⟨S8192x8192, .i1⟩ : BufTy).Contents (Elt F) → (⟨S_, .i1⟩ : BufTy).Contents (Elt F) → (⟨S8192, .i1⟩ : BufTy).Contents (Elt F)),
    StableHlo.nullary main_cst_11 (constant S_ .f32 0x00000000#32),
    StableHlo.TRef.unary (StableHlo.TRef.of main_cst_11 : StableHlo.TRef sig ⟨S_, .f32⟩) main_call5.v0 id,
    StableHlo.TRef.unary main_call5.v0 main_call5.v1 (broadcastInDim S8192 ![] bcast_S_S8192),
    StableHlo.TRef.ternary (StableHlo.TRef.of main_v38 : StableHlo.TRef sig ⟨S8192, .i1⟩) (StableHlo.TRef.of main_v37 : StableHlo.TRef sig ⟨S8192, .f32⟩) main_call5.v1 main_call5.v2 select,
    StableHlo.nullary main_cst_12 (constant S_ .f32 0x3DCCCCCD#32),
    StableHlo.unary main_cst_12 main_v40 (broadcastInDim S8192 ![] bcast_S_S8192 : (⟨S_, .f32⟩ : BufTy).Contents (Elt F) → (⟨S8192, .f32⟩ : BufTy).Contents (Elt F)),
    StableHlo.binary main_v40 main_v35 main_v41 (addf : (⟨S8192, .f32⟩ : BufTy).Contents (Elt F) → (⟨S8192, .f32⟩ : BufTy).Contents (Elt F) → (⟨S8192, .f32⟩ : BufTy).Contents (Elt F)),
    StableHlo.binary main_v41 main_v39 main_v42 (subf : (⟨S8192, .f32⟩ : BufTy).Contents (Elt F) → (⟨S8192, .f32⟩ : BufTy).Contents (Elt F) → (⟨S8192, .f32⟩ : BufTy).Contents (Elt F)),
    StableHlo.nullary main_cst_13 (constant S_ .f32 0x00000000#32),
    StableHlo.unary main_cst_13 main_v43 (broadcastInDim S8192 ![] bcast_S_S8192 : (⟨S_, .f32⟩ : BufTy).Contents (Elt F) → (⟨S8192, .f32⟩ : BufTy).Contents (Elt F)),
    StableHlo.binary main_v42 main_v43 main_v44 (maximumf : (⟨S8192, .f32⟩ : BufTy).Contents (Elt F) → (⟨S8192, .f32⟩ : BufTy).Contents (Elt F) → (⟨S8192, .f32⟩ : BufTy).Contents (Elt F)),
    StableHlo.nullary main_cst_14 (constant S_ .f32 0x00000000#32),
    StableHlo.TRef.unary (StableHlo.TRef.of main_cst_14 : StableHlo.TRef sig ⟨S_, .f32⟩) main_call6.v0 id,
    StableHlo.TRef.unary main_call6.v0 main_call6.v1 (broadcastInDim S8192 ![] bcast_S_S8192),
    StableHlo.TRef.ternary (StableHlo.TRef.of main_v38 : StableHlo.TRef sig ⟨S8192, .i1⟩) (StableHlo.TRef.of main_v44 : StableHlo.TRef sig ⟨S8192, .f32⟩) main_call6.v1 main_call6.v2 select,
    StableHlo.nullary main_cst_15 (constant S_ .f32 0x3F800000#32),
    StableHlo.unary main_cst_15 main_v46 (broadcastInDim S8192 ![] bcast_S_S8192 : (⟨S_, .f32⟩ : BufTy).Contents (Elt F) → (⟨S8192, .f32⟩ : BufTy).Contents (Elt F)),
    StableHlo.nullary main_cst_16 (constant S_ .f32 0x00000000#32),
    StableHlo.unary main_cst_16 main_v47 (broadcastInDim S4000 ![] bcast_S_S4000 : (⟨S_, .f32⟩ : BufTy).Contents (Elt F) → (⟨S4000, .f32⟩ : BufTy).Contents (Elt F)),
    StableHlo.unary main_arg1 main_v48 (broadcastInDim S8192x1 ![0] bcast_S8192_S8192x1_0 : (⟨S8192, .i32⟩ : BufTy).Contents (Elt F) → (⟨S8192x1, .i32⟩ : BufTy).Contents (Elt F)),
    StableHlo.ternary main_v47 main_v48 main_v46 main_v49 ((fun x i u => Host.scatterAdd scatter_S4000_S8192x1_S8192_n_0_0_1 x i u) : (⟨S4000, .f32⟩ : BufTy).Contents (Elt F) → (⟨S8192x1, .i32⟩ : BufTy).Contents (Elt F) → (⟨S8192, .f32⟩ : BufTy).Contents (Elt F) → (⟨S4000, .f32⟩ : BufTy).Contents (Elt F)),
    StableHlo.nullary main_cst_17 (constant S_ .f32 0x00000000#32),
    StableHlo.unary main_cst_17 main_v50 (broadcastInDim S4000 ![] bcast_S_S4000 : (⟨S_, .f32⟩ : BufTy).Contents (Elt F) → (⟨S4000, .f32⟩ : BufTy).Contents (Elt F)),
    StableHlo.unary main_arg1 main_v51 (broadcastInDim S8192x1 ![0] bcast_S8192_S8192x1_0 : (⟨S8192, .i32⟩ : BufTy).Contents (Elt F) → (⟨S8192x1, .i32⟩ : BufTy).Contents (Elt F)),
    StableHlo.ternary main_v50 main_v51 main_v45 main_v52 ((fun x i u => Host.scatterAdd scatter_S4000_S8192x1_S8192_n_0_0_1 x i u) : (⟨S4000, .f32⟩ : BufTy).Contents (Elt F) → (⟨S8192x1, .i32⟩ : BufTy).Contents (Elt F) → (⟨S8192, .f32⟩ : BufTy).Contents (Elt F) → (⟨S4000, .f32⟩ : BufTy).Contents (Elt F)),
    StableHlo.nullary main_cst_18 (constant S_ .f32 0x00000000#32),
    StableHlo.unary main_cst_18 main_v53 (broadcastInDim S4000 ![] bcast_S_S4000 : (⟨S_, .f32⟩ : BufTy).Contents (Elt F) → (⟨S4000, .f32⟩ : BufTy).Contents (Elt F)),
    StableHlo.binary main_v49 main_v53 main_v54 (cmpf .ogt : (⟨S4000, .f32⟩ : BufTy).Contents (Elt F) → (⟨S4000, .f32⟩ : BufTy).Contents (Elt F) → (⟨S4000, .i1⟩ : BufTy).Contents (Elt F)),
    StableHlo.nullary main_cst_19 (constant S_ .f32 0x3F800000#32),
    StableHlo.TRef.unary (StableHlo.TRef.of main_cst_19 : StableHlo.TRef sig ⟨S_, .f32⟩) main_call7.v0 id,
    StableHlo.TRef.unary main_call7.v0 main_call7.v1 (broadcastInDim S4000 ![] bcast_S_S4000),
    StableHlo.TRef.ternary (StableHlo.TRef.of main_v54 : StableHlo.TRef sig ⟨S4000, .i1⟩) (StableHlo.TRef.of main_v49 : StableHlo.TRef sig ⟨S4000, .f32⟩) main_call7.v1 main_call7.v2 select,
    StableHlo.binary main_v52 main_v55 main_v56 (Host.divf : (⟨S4000, .f32⟩ : BufTy).Contents (Elt F) → (⟨S4000, .f32⟩ : BufTy).Contents (Elt F) → (⟨S4000, .f32⟩ : BufTy).Contents (Elt F)),
    StableHlo.nullary main_cst_20 (constant S_ .f32 0x00000000#32),
    StableHlo.TRef.unary (StableHlo.TRef.of main_cst_20 : StableHlo.TRef sig ⟨S_, .f32⟩) main_call8.v0 id,
    StableHlo.TRef.unary main_call8.v0 main_call8.v1 (broadcastInDim S4000 ![] bcast_S_S4000),
    StableHlo.TRef.ternary (StableHlo.TRef.of main_v54 : StableHlo.TRef sig ⟨S4000, .i1⟩) (StableHlo.TRef.of main_v56 : StableHlo.TRef sig ⟨S4000, .f32⟩) main_call8.v1 main_call8.v2 select,
    StableHlo.unary main_v54 main_v58 (uitofp .f32 : (⟨S4000, .i1⟩ : BufTy).Contents (Elt F) → (⟨S4000, .f32⟩ : BufTy).Contents (Elt F)),
    StableHlo.nullary main_cst_21 (constant S_ .f32 0x00000000#32),
    StableHlo.binary main_v58 main_cst_21 main_v59 ((fun x v => Host.reduceAdd x v reducesTo_S4000_S_d0 h_S_) : (⟨S4000, .f32⟩ : BufTy).Contents (Elt F) → (⟨S_, .f32⟩ : BufTy).Contents (Elt F) → (⟨S_, .f32⟩ : BufTy).Contents (Elt F)),
    StableHlo.nullary main_cst_22 (constant S_ .f32 0x00000000#32),
    StableHlo.binary main_v57 main_cst_22 main_v60 ((fun x v => Host.reduceAdd x v reducesTo_S4000_S_d0 h_S_) : (⟨S4000, .f32⟩ : BufTy).Contents (Elt F) → (⟨S_, .f32⟩ : BufTy).Contents (Elt F) → (⟨S_, .f32⟩ : BufTy).Contents (Elt F)),
    StableHlo.binary main_v60 main_v59 main_v61 (Host.divf : (⟨S_, .f32⟩ : BufTy).Contents (Elt F) → (⟨S_, .f32⟩ : BufTy).Contents (Elt F) → (⟨S_, .f32⟩ : BufTy).Contents (Elt F)) ]

theorem ops_eq : (ops : List (HloOp τ sig (Elt F))) = ops0 ++ ops1 := rfl

set_option maxRecDepth 4096 in
set_option maxHeartbeats 4000000 in
/-- The first window is its straight line: the functions unfolded at their calls, sequencing reassociated. -/
theorem main_part0_eq (c : Dev nD) : main_part0 (F := F) c = seq ops0 := by
  simp only [main_part0, fn_floor_divide.body, fn_where.body, fn_where_0.body, fn_where_1.body, fn_where_2.body,
    seq, bind_assoc, pure_bind]
  rfl

set_option maxRecDepth 4096 in
set_option maxHeartbeats 4000000 in
/-- The second window is its straight line. -/
theorem main_part1_eq (c : Dev nD) : main_part1 (F := F) c = seq ops1 := by
  simp only [main_part1, fn_where_1.body, fn_where_2.body, seq, bind_assoc, pure_bind]

/-- @main is the two windows in order, hence the whole line. -/
theorem main_eq (c : Dev nD) : main (F := F) c = seq ops := by
  rw [ops_eq, seq_append, ← main_part0_eq c, ← main_part1_eq c]
  rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., unary_bufs_sub .., binary_bufs_sub .., unary_bufs_sub .., unary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., ternary_bufs_sub .., binary_bufs_sub .., nullary_bufs_sub .., binary_bufs_sub .., unary_bufs_sub .., unary_bufs_sub .., unary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., nullary_bufs_sub .., unary_bufs_sub .., unary_bufs_sub .., ternary_bufs_sub .., nullary_bufs_sub .., unary_bufs_sub .., binary_bufs_sub .., unary_bufs_sub .., nullary_bufs_sub .., unary_bufs_sub .., unary_bufs_sub .., ternary_bufs_sub .., unary_bufs_sub .., unary_bufs_sub .., unary_bufs_sub .., unary_bufs_sub .., binary_bufs_sub .., unary_bufs_sub .., unary_bufs_sub .., unary_bufs_sub .., unary_bufs_sub .., binary_bufs_sub .., unary_bufs_sub .., binary_bufs_sub .., nullary_bufs_sub .., unary_bufs_sub .., unary_bufs_sub .., ternary_bufs_sub .., nullary_bufs_sub .., binary_bufs_sub .., nullary_bufs_sub .., unary_bufs_sub .., unary_bufs_sub .., ternary_bufs_sub .., nullary_bufs_sub .., binary_bufs_sub .., nullary_bufs_sub .., binary_bufs_sub .., nullary_bufs_sub .., unary_bufs_sub .., unary_bufs_sub .., ternary_bufs_sub .., nullary_bufs_sub .., unary_bufs_sub .., binary_bufs_sub .., binary_bufs_sub .., nullary_bufs_sub .., unary_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., unary_bufs_sub .., ternary_bufs_sub .., nullary_bufs_sub .., unary_bufs_sub .., binary_bufs_sub .., nullary_bufs_sub .., unary_bufs_sub .., unary_bufs_sub .., ternary_bufs_sub .., binary_bufs_sub .., nullary_bufs_sub .., unary_bufs_sub .., unary_bufs_sub .., ternary_bufs_sub .., unary_bufs_sub .., nullary_bufs_sub .., binary_bufs_sub .., nullary_bufs_sub .., binary_bufs_sub .., binary_bufs_sub ..⟩

/-- At the compiled mesh, for any float values, from any memory with zero counters: every weakly fair execution of
    @main on the TensorCores terminates, and every final state has each TensorCore buffer at the operations' fold
    over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.Hand

end
-- ==== Proof.Ref.Out.lean ====
/- The reference's result buffer after its run as the composed pure term of the two arguments: the line of
   operations cut into seven consecutive stages, each stage's live values read off its own short fold, the stages
   chained; and the run restated at the result and the two arguments. -/
import proofs.«147753_j50903952392404_1_alg».proof.Proof.Ref.Run
import proofs.«147753_j50903952392404_1_alg».proof.Proof.Ref.Defs

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- Two lines folded one after the other are their concatenation folded. -/
theorem after_append (l₁ l₂ : List (HloOp τ sig (Elt F))) (V : Valuation τ sig (Elt F)) :
    after (l₁ ++ l₂) V = after l₂ (after l₁ V) := by
  induction l₁ generalizing V with
  | nil => rfl
  | cons op l ih => rw [List.cons_append, after_cons, after_cons, ih]

/-! ## The stages

A: the floor division of the labels (the class of each label). B: the clamped pairwise squared distances.
C: their guarded square root. D: the two masks (same label; same class, another label). E1, E2: the masked row
maximum and minimum. E3: the row's "has a negative" flag. E4: the minimum kept where the flag is set. F: the clamped
margin term, kept where the flag is set. G: the two sums by label, the guarded quotient, the final ratio. -/
/-- Stage A's operations: 1 … 18 of the line. -/
def LA : List (HloOp τ sig (Elt F)) :=
  [ StableHlo.nullary main_c (constantI S_ 32 1000#32),
    StableHlo.TRef.unary (StableHlo.TRef.of main_c : StableHlo.TRef sig ⟨S_, .i32⟩) main_call0.v0 id,
    StableHlo.TRef.unary main_call0.v0 main_call0.v1 (broadcastInDim S8192 ![] bcast_S_S8192),
    StableHlo.TRef.binary (StableHlo.TRef.of main_arg1 : StableHlo.TRef sig ⟨S8192, .i32⟩) main_call0.v1 main_call0.v2 Host.divsi,
    StableHlo.TRef.unary (StableHlo.TRef.of main_arg1 : StableHlo.TRef sig ⟨S8192, .i32⟩) main_call0.v3 signi,
    StableHlo.TRef.unary main_call0.v0 main_call0.v4 signi,
    StableHlo.TRef.unary main_call0.v4 main_call0.v5 (broadcastInDim S8192 ![] bcast_S_S8192),
    StableHlo.TRef.binary main_call0.v3 main_call0.v5 main_call0.v6 (cmpi .ne),
    StableHlo.TRef.unary main_call0.v0 main_call0.v7 (broadcastInDim S8192 ![] bcast_S_S8192),
    StableHlo.TRef.binary (StableHlo.TRef.of main_arg1 : StableHlo.TRef sig ⟨S8192, .i32⟩) main_call0.v7 main_call0.v8 Host.remsi,
    StableHlo.TRef.nullary main_call0.c (constantI S_ 32 0#32),
    StableHlo.TRef.unary main_call0.c main_call0.v9 (broadcastInDim S8192 ![] bcast_S_S8192),
    StableHlo.TRef.binary main_call0.v8 main_call0.v9 main_call0.v10 (cmpi .ne),
    StableHlo.TRef.binary main_call0.v6 main_call0.v10 main_call0.v11 andi,
    StableHlo.TRef.nullary main_call0.c_0 (constantI S_ 32 1#32),
    StableHlo.TRef.unary main_call0.c_0 main_call0.v12 (broadcastInDim S8192 ![] bcast_S_S8192),
    StableHlo.TRef.binary main_call0.v2 main_call0.v12 main_call0.v13 subi,
    StableHlo.TRef.ternary main_call0.v11 main_call0.v13 main_call0.v2 main_call0.call0.v0 select ]

/-- Stage A's value v0 as the composed term of the stage's inputs. -/
def sA_v0 (ids : IVec S8192 32) : IVec S8192 32 :=
  have c : IVec S_ 32 := constantI S_ 32 1000#32
  have fd0 : IVec S_ 32 := c
  have fd1 : IVec S8192 32 := broadcastInDim S8192 ![] bcast_S_S8192 fd0
  have fd2 : IVec S8192 32 := Host.divsi ids fd1
  have fd3 : IVec S8192 32 := signi ids
  have fd4 : IVec S_ 32 := signi fd0
  have fd5 : IVec S8192 32 := broadcastInDim S8192 ![] bcast_S_S8192 fd4
  have fd6 : IVec S8192 1 := cmpi .ne fd3 fd5
  have fd7 : IVec S8192 32 := broadcastInDim S8192 ![] bcast_S_S8192 fd0
  have fd8 : IVec S8192 32 := Host.remsi ids fd7
  have fdc : IVec S_ 32 := constantI S_ 32 0#32
  have fd9 : IVec S8192 32 := broadcastInDim S8192 ![] bcast_S_S8192 fdc
  have fd10 : IVec S8192 1 := cmpi .ne fd8 fd9
  have fd11 : IVec S8192 1 := andi fd6 fd10
  have fdc0 : IVec S_ 32 := constantI S_ 32 1#32
  have fd12 : IVec S8192 32 := broadcastInDim S8192 ![] bcast_S_S8192 fdc0
  have fd13 : IVec S8192 32 := subi fd2 fd12
  select fd11 fd13 fd2

attribute [local irreducible] Host.reduce Host.reduceAdd Host.scatterAdd in
set_option maxRecDepth 8192 in
set_option maxHeartbeats 1000000 in
theorem stA_v0 (W : Valuation τ sig (Elt F)) :
    after LA W (main_v0 : DevRef τ sig) = sA_v0 (W (main_arg1 : DevRef τ sig)) := by
  simp only [LA, after_cons, after_nil]
  rfl
theorem stA_keep_ids (W : Valuation τ sig (Elt F)) :
    after LA W (main_arg1 : DevRef τ sig) = W (main_arg1 : DevRef τ sig) := by
  simp only [LA, after_cons, after_nil]
  rfl
theorem stA_keep_x (W : Valuation τ sig (Elt F)) :
    after LA W (main_arg0 : DevRef τ sig) = W (main_arg0 : DevRef τ sig) := by
  simp only [LA, after_cons, after_nil]
  rfl

/-- Stage B's operations: 19 … 35 of the line. -/
def LB : List (HloOp τ sig (Elt F)) :=
  [ StableHlo.binary main_arg0 main_arg0 main_v1 (mulf : (⟨S8192x128, .f32⟩ : BufTy).Contents (Elt F) → (⟨S8192x128, .f32⟩ : BufTy).Contents (Elt F) → (⟨S8192x128, .f32⟩ : BufTy).Contents (Elt F)),
    StableHlo.nullary main_cst (constant S_ .f32 0x00000000#32),
    StableHlo.binary main_v1 main_cst main_v2 ((fun x v => Host.reduceAdd x v reducesTo_S8192x128_S8192_d1 h_S_) : (⟨S8192x128, .f32⟩ : BufTy).Contents (Elt F) → (⟨S_, .f32⟩ : BufTy).Contents (Elt F) → (⟨S8192, .f32⟩ : BufTy).Contents (Elt F)),
    StableHlo.unary main_v2 main_v3 (broadcastInDim S8192x1 ![0] bcast_S8192_S8192x1_0 : (⟨S8192, .f32⟩ : BufTy).Contents (Elt F) → (⟨S8192x1, .f32⟩ : BufTy).Contents (Elt F)),
    StableHlo.unary main_v2 main_v4 (broadcastInDim S1x8192 ![1] bcast_S8192_S1x8192_1 : (⟨S8192, .f32⟩ : BufTy).Contents (Elt F) → (⟨S1x8192, .f32⟩ : BufTy).Contents (Elt F)),
    StableHlo.unary main_v3 main_v5 (broadcastInDim S8192x8192 ![0, 1] bcast_S8192x1_S8192x8192_0_1 : (⟨S8192x1, .f32⟩ : BufTy).Contents (Elt F) → (⟨S8192x8192, .f32⟩ : BufTy).Contents (Elt F)),
    StableHlo.unary main_v4 main_v6 (broadcastInDim S8192x8192 ![0, 1] bcast_S1x8192_S8192x8192_0_1 : (⟨S1x8192, .f32⟩ : BufTy).Contents (Elt F) → (⟨S8192x8192, .f32⟩ : BufTy).Contents (Elt F)),
    StableHlo.binary main_v5 main_v6 main_v7 (addf : (⟨S8192x8192, .f32⟩ : BufTy).Contents (Elt F) → (⟨S8192x8192, .f32⟩ : BufTy).Contents (Elt F) → (⟨S8192x8192, .f32⟩ : BufTy).Contents (Elt F)),
    StableHlo.unary main_arg0 main_v8 ((transpose S128x8192 [1, 0] · transposes_S8192x128_S128x8192_1_0) : (⟨S8192x128, .f32⟩ : BufTy).Contents (Elt F) → (⟨S128x8192, .f32⟩ : BufTy).Contents (Elt F)),
    StableHlo.binary main_arg0 main_v8 main_v9 ((fun l r => Host.dotGeneral dot_S8192x128_S128x8192_S8192x8192_1_0_0_1_n_n none l r) : (⟨S8192x128, .f32⟩ : BufTy).Contents (Elt F) → (⟨S128x8192, .f32⟩ : BufTy).Contents (Elt F) → (⟨S8192x8192, .f32⟩ : BufTy).Contents (Elt F)),
    StableHlo.nullary main_cst_0 (constant S_ .f32 0x40000000#32),
    StableHlo.unary main_cst_0 main_v10 (broadcastInDim S8192x8192 ![] bcast_S_S8192x8192 : (⟨S_, .f32⟩ : BufTy).Contents (Elt F) → (⟨S8192x8192, .f32⟩ : BufTy).Contents (Elt F)),
    StableHlo.binary main_v10 main_v9 main_v11 (mulf : (⟨S8192x8192, .f32⟩ : BufTy).Contents (Elt F) → (⟨S8192x8192, .f32⟩ : BufTy).Contents (Elt F) → (⟨S8192x8192, .f32⟩ : BufTy).Contents (Elt F)),
    StableHlo.binary main_v7 main_v11 main_v12 (subf : (⟨S8192x8192, .f32⟩ : BufTy).Contents (Elt F) → (⟨S8192x8192, .f32⟩ : BufTy).Contents (Elt F) → (⟨S8192x8192, .f32⟩ : BufTy).Contents (Elt F)),
    StableHlo.nullary main_cst_1 (constant S_ .f32 0x00000000#32),
    StableHlo.unary main_cst_1 main_v13 (broadcastInDim S8192x8192 ![] bcast_S_S8192x8192 : (⟨S_, .f32⟩ : BufTy).Contents (Elt F) → (⟨S8192x8192, .f32⟩ : BufTy).Contents (Elt F)),
    StableHlo.binary main_v12 main_v13 main_v14 (maximumf : (⟨S8192x8192, .f32⟩ : BufTy).Contents (Elt F) → (⟨S8192x8192, .f32⟩ : BufTy).Contents (Elt F) → (⟨S8192x8192, .f32⟩ : BufTy).Contents (Elt F)) ]

/-- Stage B's value v14 as the composed term of the stage's inputs. -/
def sB_v14 (x : FVec F S8192x128 .f32) : FVec F S8192x8192 .f32 :=
  have v1 : FVec F S8192x128 .f32 := mulf x x
  have cst : FVec F S_ .f32 := constant S_ .f32 0x00000000#32
  have v2 : FVec F S8192 .f32 := Host.reduceAdd v1 cst reducesTo_S8192x128_S8192_d1 h_S_
  have v3 : FVec F S8192x1 .f32 := broadcastInDim S8192x1 ![0] bcast_S8192_S8192x1_0 v2
  have v4 : FVec F S1x8192 .f32 := broadcastInDim S1x8192 ![1] bcast_S8192_S1x8192_1 v2
  have v5 : FVec F S8192x8192 .f32 := broadcastInDim S8192x8192 ![0, 1] bcast_S8192x1_S8192x8192_0_1 v3
  have v6 : FVec F S8192x8192 .f32 := broadcastInDim S8192x8192 ![0, 1] bcast_S1x8192_S8192x8192_0_1 v4
  have v7 : FVec F S8192x8192 .f32 := addf v5 v6
  have v8 : FVec F S128x8192 .f32 := transpose S128x8192 [1, 0] x transposes_S8192x128_S128x8192_1_0
  have v9 : FVec F S8192x8192 .f32 := Host.dotGeneral dot_S8192x128_S128x8192_S8192x8192_1_0_0_1_n_n none x v8
  have cst_0 : FVec F S_ .f32 := constant S_ .f32 0x40000000#32
  have v10 : FVec F S8192x8192 .f32 := broadcastInDim S8192x8192 ![] bcast_S_S8192x8192 cst_0
  have v11 : FVec F S8192x8192 .f32 := mulf v10 v9
  have v12 : FVec F S8192x8192 .f32 := subf v7 v11
  have cst_1 : FVec F S_ .f32 := constant S_ .f32 0x00000000#32
  have v13 : FVec F S8192x8192 .f32 := broadcastInDim S8192x8192 ![] bcast_S_S8192x8192 cst_1
  maximumf v12 v13

attribute [local irreducible] Host.reduce Host.reduceAdd Host.scatterAdd in
set_option maxRecDepth 8192 in
set_option maxHeartbeats 1000000 in
theorem stB_v14 (W : Valuation τ sig (Elt F)) :
    after LB W (main_v14 : DevRef τ sig) = sB_v14 (W (main_arg0 : DevRef τ sig)) := by
  simp only [LB, after_cons, after_nil]
  rfl
theorem stB_keep_ids (W : Valuation τ sig (Elt F)) :
    after LB W (main_arg1 : DevRef τ sig) = W (main_arg1 : DevRef τ sig) := by
  simp only [LB, after_cons, after_nil]
  rfl
theorem stB_keep_v0 (W : Valuation τ sig (Elt F)) :
    after LB W (main_v0 : DevRef τ sig) = W (main_v0 : DevRef τ sig) := by
  simp only [LB, after_cons, after_nil]
  rfl
theorem stB_keep_x (W : Valuation τ sig (Elt F)) :
    after LB W (main_arg0 : DevRef τ sig) = W (main_arg0 : DevRef τ sig) := by
  simp only [LB, after_cons, after_nil]
  rfl

/-- Stage C's operations: 36 … 50 of the line. -/
def LC : List (HloOp τ sig (Elt F)) :=
  [ StableHlo.nullary main_cst_2 (constant S_ .f32 0x00000000#32),
    StableHlo.unary main_cst_2 main_v15 (broadcastInDim S8192x8192 ![] bcast_S_S8192x8192 : (⟨S_, .f32⟩ : BufTy).Contents (Elt F) → (⟨S8192x8192, .f32⟩ : BufTy).Contents (Elt F)),
    StableHlo.binary main_v14 main_v15 main_v16 (cmpf .ogt : (⟨S8192x8192, .f32⟩ : BufTy).Contents (Elt F) → (⟨S8192x8192, .f32⟩ : BufTy).Contents (Elt F) → (⟨S8192x8192, .i1⟩ : BufTy).Contents (Elt F)),
    StableHlo.nullary main_cst_3 (constant S_ .f32 0x3F800000#32),
    StableHlo.TRef.unary (StableHlo.TRef.of main_cst_3 : StableHlo.TRef sig ⟨S_, .f32⟩) main_call1.v0 id,
    StableHlo.TRef.unary main_call1.v0 main_call1.v1 (broadcastInDim S8192x8192 ![] bcast_S_S8192x8192),
    StableHlo.TRef.ternary (StableHlo.TRef.of main_v16 : StableHlo.TRef sig ⟨S8192x8192, .i1⟩) (StableHlo.TRef.of main_v14 : StableHlo.TRef sig ⟨S8192x8192, .f32⟩) main_call1.v1 main_call1.v2 select,
    StableHlo.nullary main_cst_4 (constant S_ .f32 0x00000000#32),
    StableHlo.unary main_cst_4 main_v18 (broadcastInDim S8192x8192 ![] bcast_S_S8192x8192 : (⟨S_, .f32⟩ : BufTy).Contents (Elt F) → (⟨S8192x8192, .f32⟩ : BufTy).Contents (Elt F)),
    StableHlo.binary main_v14 main_v18 main_v19 (cmpf .ogt : (⟨S8192x8192, .f32⟩ : BufTy).Contents (Elt F) → (⟨S8192x8192, .f32⟩ : BufTy).Contents (Elt F) → (⟨S8192x8192, .i1⟩ : BufTy).Contents (Elt F)),
    StableHlo.unary main_v17 main_v20 (Host.sqrt : (⟨S8192x8192, .f32⟩ : BufTy).Contents (Elt F) → (⟨S8192x8192, .f32⟩ : BufTy).Contents (Elt F)),
    StableHlo.nullary main_cst_5 (constant S_ .f32 0x00000000#32),
    StableHlo.TRef.unary (StableHlo.TRef.of main_cst_5 : StableHlo.TRef sig ⟨S_, .f32⟩) main_call2.v0 id,
    StableHlo.TRef.unary main_call2.v0 main_call2.v1 (broadcastInDim S8192x8192 ![] bcast_S_S8192x8192),
    StableHlo.TRef.ternary (StableHlo.TRef.of main_v19 : StableHlo.TRef sig ⟨S8192x8192, .i1⟩) (StableHlo.TRef.of main_v20 : StableHlo.TRef sig ⟨S8192x8192, .f32⟩) main_call2.v1 main_call2.v2 select ]

/-- Stage C's value v21 as the composed term of the stage's inputs. -/
def sC_v21 (v14 : FVec F S8192x8192 .f32) : FVec F S8192x8192 .f32 :=
  have cst_2 : FVec F S_ .f32 := constant S_ .f32 0x00000000#32
  have v15 : FVec F S8192x8192 .f32 := broadcastInDim S8192x8192 ![] bcast_S_S8192x8192 cst_2
  have v16 : IVec S8192x8192 1 := cmpf .ogt v14 v15
  have cst_3 : FVec F S_ .f32 := constant S_ .f32 0x3F800000#32
  have w1_0 : FVec F S_ .f32 := cst_3
  have w1_1 : FVec F S8192x8192 .f32 := broadcastInDim S8192x8192 ![] bcast_S_S8192x8192 w1_0
  have v17 : FVec F S8192x8192 .f32 := select v16 v14 w1_1
  have cst_4 : FVec F S_ .f32 := constant S_ .f32 0x00000000#32
  have v18 : FVec F S8192x8192 .f32 := broadcastInDim S8192x8192 ![] bcast_S_S8192x8192 cst_4
  have v19 : IVec S8192x8192 1 := cmpf .ogt v14 v18
  have v20 : FVec F S8192x8192 .f32 := Host.sqrt v17
  have cst_5 : FVec F S_ .f32 := constant S_ .f32 0x00000000#32
  have w2_0 : FVec F S_ .f32 := cst_5
  have w2_1 : FVec F S8192x8192 .f32 := broadcastInDim S8192x8192 ![] bcast_S_S8192x8192 w2_0
  select v19 v20 w2_1

attribute [local irreducible] Host.reduce Host.reduceAdd Host.scatterAdd in
set_option maxRecDepth 8192 in
set_option maxHeartbeats 1000000 in
theorem stC_v21 (W : Valuation τ sig (Elt F)) :
    after LC W (main_v21 : DevRef τ sig) = sC_v21 (W (main_v14 : DevRef τ sig)) := by
  simp only [LC, after_cons, after_nil]
  rfl
theorem stC_keep_ids (W : Valuation τ sig (Elt F)) :
    after LC W (main_arg1 : DevRef τ sig) = W (main_arg1 : DevRef τ sig) := by
  simp only [LC, after_cons, after_nil]
  rfl
theorem stC_keep_v0 (W : Valuation τ sig (Elt F)) :
    after LC W (main_v0 : DevRef τ sig) = W (main_v0 : DevRef τ sig) := by
  simp only [LC, after_cons, after_nil]
  rfl
theorem stC_keep_x (W : Valuation τ sig (Elt F)) :
    after LC W (main_arg0 : DevRef τ sig) = W (main_arg0 : DevRef τ sig) := by
  simp only [LC, after_cons, after_nil]
  rfl

/-- Stage D's operations: 51 … 62 of the line. -/
def LD : List (HloOp τ sig (Elt F)) :=
  [ StableHlo.unary main_arg1 main_v22 (broadcastInDim S8192x1 ![0] bcast_S8192_S8192x1_0 : (⟨S8192, .i32⟩ : BufTy).Contents (Elt F) → (⟨S8192x1, .i32⟩ : BufTy).Contents (Elt F)),
    StableHlo.unary main_arg1 main_v23 (broadcastInDim S1x8192 ![1] bcast_S8192_S1x8192_1 : (⟨S8192, .i32⟩ : BufTy).Contents (Elt F) → (⟨S1x8192, .i32⟩ : BufTy).Contents (Elt F)),
    StableHlo.unary main_v22 main_v24 (broadcastInDim S8192x8192 ![0, 1] bcast_S8192x1_S8192x8192_0_1 : (⟨S8192x1, .i32⟩ : BufTy).Contents (Elt F) → (⟨S8192x8192, .i32⟩ : BufTy).Contents (Elt F)),
    StableHlo.unary main_v23 main_v25 (broadcastInDim S8192x8192 ![0, 1] bcast_S1x8192_S8192x8192_0_1 : (⟨S1x8192, .i32⟩ : BufTy).Contents (Elt F) → (⟨S8192x8192, .i32⟩ : BufTy).Contents (Elt F)),
    StableHlo.binary main_v24 main_v25 main_v26 (cmpi .eq : (⟨S8192x8192, .i32⟩ : BufTy).Contents (Elt F) → (⟨S8192x8192, .i32⟩ : BufTy).Contents (Elt F) → (⟨S8192x8192, .i1⟩ : BufTy).Contents (Elt F)),
    StableHlo.unary main_v0 main_v27 (broadcastInDim S8192x1 ![0] bcast_S8192_S8192x1_0 : (⟨S8192, .i32⟩ : BufTy).Contents (Elt F) → (⟨S8192x1, .i32⟩ : BufTy).Contents (Elt F)),
    StableHlo.unary main_v0 main_v28 (broadcastInDim S1x8192 ![1] bcast_S8192_S1x8192_1 : (⟨S8192, .i32⟩ : BufTy).Contents (Elt F) → (⟨S1x8192, .i32⟩ : BufTy).Contents (Elt F)),
    StableHlo.unary main_v27 main_v29 (broadcastInDim S8192x8192 ![0, 1] bcast_S8192x1_S8192x8192_0_1 : (⟨S8192x1, .i32⟩ : BufTy).Contents (Elt F) → (⟨S8192x8192, .i32⟩ : BufTy).Contents (Elt F)),
    StableHlo.unary main_v28 main_v30 (broadcastInDim S8192x8192 ![0, 1] bcast_S1x8192_S8192x8192_0_1 : (⟨S1x8192, .i32⟩ : BufTy).Contents (Elt F) → (⟨S8192x8192, .i32⟩ : BufTy).Contents (Elt F)),
    StableHlo.binary main_v29 main_v30 main_v31 (cmpi .eq : (⟨S8192x8192, .i32⟩ : BufTy).Contents (Elt F) → (⟨S8192x8192, .i32⟩ : BufTy).Contents (Elt F) → (⟨S8192x8192, .i1⟩ : BufTy).Contents (Elt F)),
    StableHlo.unary main_v26 main_v32 (noti : (⟨S8192x8192, .i1⟩ : BufTy).Contents (Elt F) → (⟨S8192x8192, .i1⟩ : BufTy).Contents (Elt F)),
    StableHlo.binary main_v31 main_v32 main_v33 (andi : (⟨S8192x8192, .i1⟩ : BufTy).Contents (Elt F) → (⟨S8192x8192, .i1⟩ : BufTy).Contents (Elt F) → (⟨S8192x8192, .i1⟩ : BufTy).Contents (Elt F)) ]

/-- Stage D's value v26 as the composed term of the stage's inputs. -/
def sD_v26 (ids : IVec S8192 32) (v0 : IVec S8192 32) : IVec S8192x8192 1 :=
  have v22 : IVec S8192x1 32 := broadcastInDim S8192x1 ![0] bcast_S8192_S8192x1_0 ids
  have v23 : IVec S1x8192 32 := broadcastInDim S1x8192 ![1] bcast_S8192_S1x8192_1 ids
  have v24 : IVec S8192x8192 32 := broadcastInDim S8192x8192 ![0, 1] bcast_S8192x1_S8192x8192_0_1 v22
  have v25 : IVec S8192x8192 32 := broadcastInDim S8192x8192 ![0, 1] bcast_S1x8192_S8192x8192_0_1 v23
  cmpi .eq v24 v25

/-- Stage D's value v33 as the composed term of the stage's inputs. -/
def sD_v33 (ids : IVec S8192 32) (v0 : IVec S8192 32) : IVec S8192x8192 1 :=
  have v22 : IVec S8192x1 32 := broadcastInDim S8192x1 ![0] bcast_S8192_S8192x1_0 ids
  have v23 : IVec S1x8192 32 := broadcastInDim S1x8192 ![1] bcast_S8192_S1x8192_1 ids
  have v24 : IVec S8192x8192 32 := broadcastInDim S8192x8192 ![0, 1] bcast_S8192x1_S8192x8192_0_1 v22
  have v25 : IVec S8192x8192 32 := broadcastInDim S8192x8192 ![0, 1] bcast_S1x8192_S8192x8192_0_1 v23
  have v26 : IVec S8192x8192 1 := cmpi .eq v24 v25
  have v27 : IVec S8192x1 32 := broadcastInDim S8192x1 ![0] bcast_S8192_S8192x1_0 v0
  have v28 : IVec S1x8192 32 := broadcastInDim S1x8192 ![1] bcast_S8192_S1x8192_1 v0
  have v29 : IVec S8192x8192 32 := broadcastInDim S8192x8192 ![0, 1] bcast_S8192x1_S8192x8192_0_1 v27
  have v30 : IVec S8192x8192 32 := broadcastInDim S8192x8192 ![0, 1] bcast_S1x8192_S8192x8192_0_1 v28
  have v31 : IVec S8192x8192 1 := cmpi .eq v29 v30
  have v32 : IVec S8192x8192 1 := noti v26
  andi v31 v32

attribute [local irreducible] Host.reduce Host.reduceAdd Host.scatterAdd in
set_option maxRecDepth 8192 in
set_option maxHeartbeats 1000000 in
theorem stD_v26 (W : Valuation τ sig (Elt F)) :
    after LD W (main_v26 : DevRef τ sig) = sD_v26 (W (main_arg1 : DevRef τ sig)) (W (main_v0 : DevRef τ sig)) := by
  simp only [LD, after_cons, after_nil]
  rfl
attribute [local irreducible] Host.reduce Host.reduceAdd Host.scatterAdd in
set_option maxRecDepth 8192 in
set_option maxHeartbeats 1000000 in
theorem stD_v33 (W : Valuation τ sig (Elt F)) :
    after LD W (main_v33 : DevRef τ sig) = sD_v33 (W (main_arg1 : DevRef τ sig)) (W (main_v0 : DevRef τ sig)) := by
  simp only [LD, after_cons, after_nil]
  rfl
theorem stD_keep_v21 (W : Valuation τ sig (Elt F)) :
    after LD W (main_v21 : DevRef τ sig) = W (main_v21 : DevRef τ sig) := by
  simp only [LD, after_cons, after_nil]
  rfl
theorem stD_keep_ids (W : Valuation τ sig (Elt F)) :
    after LD W (main_arg1 : DevRef τ sig) = W (main_arg1 : DevRef τ sig) := by
  simp only [LD, after_cons, after_nil]
  rfl
theorem stD_keep_x (W : Valuation τ sig (Elt F)) :
    after LD W (main_arg0 : DevRef τ sig) = W (main_arg0 : DevRef τ sig) := by
  simp only [LD, after_cons, after_nil]
  rfl

/-- Stage E1's operations: 63 … 68 of the line. -/
def LE1 : List (HloOp τ sig (Elt F)) :=
  [ StableHlo.nullary main_cst_6 (constant S_ .f32 0xFF800000#32),
    StableHlo.TRef.unary (StableHlo.TRef.of main_cst_6 : StableHlo.TRef sig ⟨S_, .f32⟩) main_call3.v0 id,
    StableHlo.TRef.unary main_call3.v0 main_call3.v1 (broadcastInDim S8192x8192 ![] bcast_S_S8192x8192),
    StableHlo.TRef.ternary (StableHlo.TRef.of main_v26 : StableHlo.TRef sig ⟨S8192x8192, .i1⟩) (StableHlo.TRef.of main_v21 : StableHlo.TRef sig ⟨S8192x8192, .f32⟩) main_call3.v1 main_call3.v2 select,
    StableHlo.nullary main_cst_7 (constant S_ .f32 0xFF800000#32),
    StableHlo.binary main_v34 main_cst_7 main_v35 ((fun x v => Host.reduce FloatOps.maximumf x v reducesTo_S8192x8192_S8192_d0 h_S_) : (⟨S8192x8192, .f32⟩ : BufTy).Contents (Elt F) → (⟨S_, .f32⟩ : BufTy).Contents (Elt F) → (⟨S8192, .f32⟩ : BufTy).Contents (Elt F)) ]

/-- Stage E1's value v35 as the composed term of the stage's inputs. -/
def sE1_v35 (v26 : IVec S8192x8192 1) (v21 : FVec F S8192x8192 .f32) : FVec F S8192 .f32 :=
  have cst_6 : FVec F S_ .f32 := constant S_ .f32 0xFF800000#32
  have w3_0 : FVec F S_ .f32 := cst_6
  have w3_1 : FVec F S8192x8192 .f32 := broadcastInDim S8192x8192 ![] bcast_S_S8192x8192 w3_0
  have v34 : FVec F S8192x8192 .f32 := select v26 v21 w3_1
  have cst_7 : FVec F S_ .f32 := constant S_ .f32 0xFF800000#32
  Host.reduce FloatOps.maximumf v34 cst_7 reducesTo_S8192x8192_S8192_d0 h_S_

attribute [local irreducible] Host.reduce Host.reduceAdd Host.scatterAdd in
set_option maxRecDepth 8192 in
set_option maxHeartbeats 1000000 in
theorem stE1_v35 (W : Valuation τ sig (Elt F)) :
    after LE1 W (main_v35 : DevRef τ sig) = sE1_v35 (W (main_v26 : DevRef τ sig)) (W (main_v21 : DevRef τ sig)) := by
  unfold LE1
  after_results_simp
  try simp only [TRef.toBuf, TRef.ofBuf, cast_eq, id_eq]
  unfold sE1_v35
  rfl
theorem stE1_keep_v33 (W : Valuation τ sig (Elt F)) :
    after LE1 W (main_v33 : DevRef τ sig) = W (main_v33 : DevRef τ sig) := by
  unfold LE1
  after_results_simp
theorem stE1_keep_v21 (W : Valuation τ sig (Elt F)) :
    after LE1 W (main_v21 : DevRef τ sig) = W (main_v21 : DevRef τ sig) := by
  unfold LE1
  after_results_simp
theorem stE1_keep_ids (W : Valuation τ sig (Elt F)) :
    after LE1 W (main_arg1 : DevRef τ sig) = W (main_arg1 : DevRef τ sig) := by
  unfold LE1
  after_results_simp
theorem stE1_keep_x (W : Valuation τ sig (Elt F)) :
    after LE1 W (main_arg0 : DevRef τ sig) = W (main_arg0 : DevRef τ sig) := by
  unfold LE1
  after_results_simp

/-- Stage E2's operations: 69 … 74 of the line. -/
def LE2 : List (HloOp τ sig (Elt F)) :=
  [ StableHlo.nullary main_cst_8 (constant S_ .f32 0x7F800000#32),
    StableHlo.TRef.unary (StableHlo.TRef.of main_cst_8 : StableHlo.TRef sig ⟨S_, .f32⟩) main_call4.v0 id,
    StableHlo.TRef.unary main_call4.v0 main_call4.v1 (broadcastInDim S8192x8192 ![] bcast_S_S8192x8192),
    StableHlo.TRef.ternary (StableHlo.TRef.of main_v33 : StableHlo.TRef sig ⟨S8192x8192, .i1⟩) (StableHlo.TRef.of main_v21 : StableHlo.TRef sig ⟨S8192x8192, .f32⟩) main_call4.v1 main_call4.v2 select,
    StableHlo.nullary main_cst_9 (constant S_ .f32 0x7F800000#32),
    StableHlo.binary main_v36 main_cst_9 main_v37 ((fun x v => Host.reduce FloatOps.minimumf x v reducesTo_S8192x8192_S8192_d0 h_S_) : (⟨S8192x8192, .f32⟩ : BufTy).Contents (Elt F) → (⟨S_, .f32⟩ : BufTy).Contents (Elt F) → (⟨S8192, .f32⟩ : BufTy).Contents (Elt F)) ]

/-- Stage E2's value v37 as the composed term of the stage's inputs. -/
def sE2_v37 (v33 : IVec S8192x8192 1) (v21 : FVec F S8192x8192 .f32) : FVec F S8192 .f32 :=
  have cst_8 : FVec F S_ .f32 := constant S_ .f32 0x7F800000#32
  have w4_0 : FVec F S_ .f32 := cst_8
  have w4_1 : FVec F S8192x8192 .f32 := broadcastInDim S8192x8192 ![] bcast_S_S8192x8192 w4_0
  have v36 : FVec F S8192x8192 .f32 := select v33 v21 w4_1
  have cst_9 : FVec F S_ .f32 := constant S_ .f32 0x7F800000#32
  Host.reduce FloatOps.minimumf v36 cst_9 reducesTo_S8192x8192_S8192_d0 h_S_

attribute [local irreducible] Host.reduce Host.reduceAdd Host.scatterAdd in
set_option maxRecDepth 8192 in
set_option maxHeartbeats 1000000 in
theorem stE2_v37 (W : Valuation τ sig (Elt F)) :
    after LE2 W (main_v37 : DevRef τ sig) = sE2_v37 (W (main_v33 : DevRef τ sig)) (W (main_v21 : DevRef τ sig)) := by
  unfold LE2
  after_results_simp
  try simp only [TRef.toBuf, TRef.ofBuf, cast_eq, id_eq]
  unfold sE2_v37
  rfl
theorem stE2_keep_v35 (W : Valuation τ sig (Elt F)) :
    after LE2 W (main_v35 : DevRef τ sig) = W (main_v35 : DevRef τ sig) := by
  unfold LE2
  after_results_simp
theorem stE2_keep_v33 (W : Valuation τ sig (Elt F)) :
    after LE2 W (main_v33 : DevRef τ sig) = W (main_v33 : DevRef τ sig) := by
  unfold LE2
  after_results_simp
theorem stE2_keep_ids (W : Valuation τ sig (Elt F)) :
    after LE2 W (main_arg1 : DevRef τ sig) = W (main_arg1 : DevRef τ sig) := by
  unfold LE2
  after_results_simp
theorem stE2_keep_x (W : Valuation τ sig (Elt F)) :
    after LE2 W (main_arg0 : DevRef τ sig) = W (main_arg0 : DevRef τ sig) := by
  unfold LE2
  after_results_simp

/-- Stage E3's operations: 75 … 76 of the line. -/
def LE3 : List (HloOp τ sig (Elt F)) :=
  [ StableHlo.nullary main_c_10 (constantI S_ 1 0#1),
    StableHlo.binary main_v33 main_c_10 main_v38 ((fun x v => Host.reduce IntOp.ori x v reducesTo_S8192x8192_S8192_d0 h_S_) : (⟨S8192x8192, .i1⟩ : BufTy).Contents (Elt F) → (⟨S_, .i1⟩ : BufTy).Contents (Elt F) → (⟨S8192, .i1⟩ : BufTy).Contents (Elt F)) ]

/-- Stage E3's value v38 as the composed term of the stage's inputs. -/
def sE3_v38 (v33 : IVec S8192x8192 1) : IVec S8192 1 :=
  have c_10 : IVec S_ 1 := constantI S_ 1 0#1
  Host.reduce IntOp.ori v33 c_10 reducesTo_S8192x8192_S8192_d0 h_S_

attribute [local irreducible] Host.reduce Host.reduceAdd Host.scatterAdd in
set_option maxRecDepth 8192 in
set_option maxHeartbeats 1000000 in
theorem stE3_v38 (W : Valuation τ sig (Elt F)) :
    after LE3 W (main_v38 : DevRef τ sig) = sE3_v38 (W (main_v33 : DevRef τ sig)) := by
  unfold LE3
  after_results_simp
  try simp only [TRef.toBuf, TRef.ofBuf, cast_eq, id_eq]
  unfold sE3_v38
  rfl
theorem stE3_keep_v35 (W : Valuation τ sig (Elt F)) :
    after LE3 W (main_v35 : DevRef τ sig) = W (main_v35 : DevRef τ sig) := by
  unfold LE3
  after_results_simp
theorem stE3_keep_v37 (W : Valuation τ sig (Elt F)) :
    after LE3 W (main_v37 : DevRef τ sig) = W (main_v37 : DevRef τ sig) := by
  unfold LE3
  after_results_simp
theorem stE3_keep_ids (W : Valuation τ sig (Elt F)) :
    after LE3 W (main_arg1 : DevRef τ sig) = W (main_arg1 : DevRef τ sig) := by
  unfold LE3
  after_results_simp
theorem stE3_keep_x (W : Valuation τ sig (Elt F)) :
    after LE3 W (main_arg0 : DevRef τ sig) = W (main_arg0 : DevRef τ sig) := by
  unfold LE3
  after_results_simp

/-- Stage E4's operations: 77 … 80 of the line. -/
def LE4 : List (HloOp τ sig (Elt F)) :=
  [ StableHlo.nullary main_cst_11 (constant S_ .f32 0x00000000#32),
    StableHlo.TRef.unary (StableHlo.TRef.of main_cst_11 : StableHlo.TRef sig ⟨S_, .f32⟩) main_call5.v0 id,
    StableHlo.TRef.unary main_call5.v0 main_call5.v1 (broadcastInDim S8192 ![] bcast_S_S8192),
    StableHlo.TRef.ternary (StableHlo.TRef.of main_v38 : StableHlo.TRef sig ⟨S8192, .i1⟩) (StableHlo.TRef.of main_v37 : StableHlo.TRef sig ⟨S8192, .f32⟩) main_call5.v1 main_call5.v2 select ]

/-- Stage E4's value v39 as the composed term of the stage's inputs. -/
def sE4_v39 (v38 : IVec S8192 1) (v37 : FVec F S8192 .f32) : FVec F S8192 .f32 :=
  have cst_11 : FVec F S_ .f32 := constant S_ .f32 0x00000000#32
  have w5_0 : FVec F S_ .f32 := cst_11
  have w5_1 : FVec F S8192 .f32 := broadcastInDim S8192 ![] bcast_S_S8192 w5_0
  select v38 v37 w5_1

attribute [local irreducible] Host.reduce Host.reduceAdd Host.scatterAdd in
set_option maxRecDepth 8192 in
set_option maxHeartbeats 1000000 in
theorem stE4_v39 (W : Valuation τ sig (Elt F)) :
    after LE4 W (main_v39 : DevRef τ sig) = sE4_v39 (W (main_v38 : DevRef τ sig)) (W (main_v37 : DevRef τ sig)) := by
  simp only [LE4, after_cons, after_nil]
  rfl
theorem stE4_keep_v35 (W : Valuation τ sig (Elt F)) :
    after LE4 W (main_v35 : DevRef τ sig) = W (main_v35 : DevRef τ sig) := by
  simp only [LE4, after_cons, after_nil]
  rfl
theorem stE4_keep_v38 (W : Valuation τ sig (Elt F)) :
    after LE4 W (main_v38 : DevRef τ sig) = W (main_v38 : DevRef τ sig) := by
  simp only [LE4, after_cons, after_nil]
  rfl
theorem stE4_keep_ids (W : Valuation τ sig (Elt F)) :
    after LE4 W (main_arg1 : DevRef τ sig) = W (main_arg1 : DevRef τ sig) := by
  simp only [LE4, after_cons, after_nil]
  rfl
theorem stE4_keep_x (W : Valuation τ sig (Elt F)) :
    after LE4 W (main_arg0 : DevRef τ sig) = W (main_arg0 : DevRef τ sig) := by
  simp only [LE4, after_cons, after_nil]
  rfl

/-- Stage F's operations: 81 … 91 of the line. -/
def LF : List (HloOp τ sig (Elt F)) :=
  [ StableHlo.nullary main_cst_12 (constant S_ .f32 0x3DCCCCCD#32),
    StableHlo.unary main_cst_12 main_v40 (broadcastInDim S8192 ![] bcast_S_S8192 : (⟨S_, .f32⟩ : BufTy).Contents (Elt F) → (⟨S8192, .f32⟩ : BufTy).Contents (Elt F)),
    StableHlo.binary main_v40 main_v35 main_v41 (addf : (⟨S8192, .f32⟩ : BufTy).Contents (Elt F) → (⟨S8192, .f32⟩ : BufTy).Contents (Elt F) → (⟨S8192, .f32⟩ : BufTy).Contents (Elt F)),
    StableHlo.binary main_v41 main_v39 main_v42 (subf : (⟨S8192, .f32⟩ : BufTy).Contents (Elt F) → (⟨S8192, .f32⟩ : BufTy).Contents (Elt F) → (⟨S8192, .f32⟩ : BufTy).Contents (Elt F)),
    StableHlo.nullary main_cst_13 (constant S_ .f32 0x00000000#32),
    StableHlo.unary main_cst_13 main_v43 (broadcastInDim S8192 ![] bcast_S_S8192 : (⟨S_, .f32⟩ : BufTy).Contents (Elt F) → (⟨S8192, .f32⟩ : BufTy).Contents (Elt F)),
    StableHlo.binary main_v42 main_v43 main_v44 (maximumf : (⟨S8192, .f32⟩ : BufTy).Contents (Elt F) → (⟨S8192, .f32⟩ : BufTy).Contents (Elt F) → (⟨S8192, .f32⟩ : BufTy).Contents (Elt F)),
    StableHlo.nullary main_cst_14 (constant S_ .f32 0x00000000#32),
    StableHlo.TRef.unary (StableHlo.TRef.of main_cst_14 : StableHlo.TRef sig ⟨S_, .f32⟩) main_call6.v0 id,
    StableHlo.TRef.unary main_call6.v0 main_call6.v1 (broadcastInDim S8192 ![] bcast_S_S8192),
    StableHlo.TRef.ternary (StableHlo.TRef.of main_v38 : StableHlo.TRef sig ⟨S8192, .i1⟩) (StableHlo.TRef.of main_v44 : StableHlo.TRef sig ⟨S8192, .f32⟩) main_call6.v1 main_call6.v2 select ]

/-- Stage F's value v45 as the composed term of the stage's inputs. -/
def sF_v45 (v35 : FVec F S8192 .f32) (v39 : FVec F S8192 .f32) (v38 : IVec S8192 1) : FVec F S8192 .f32 :=
  have cst_12 : FVec F S_ .f32 := constant S_ .f32 0x3DCCCCCD#32
  have v40 : FVec F S8192 .f32 := broadcastInDim S8192 ![] bcast_S_S8192 cst_12
  have v41 : FVec F S8192 .f32 := addf v40 v35
  have v42 : FVec F S8192 .f32 := subf v41 v39
  have cst_13 : FVec F S_ .f32 := constant S_ .f32 0x00000000#32
  have v43 : FVec F S8192 .f32 := broadcastInDim S8192 ![] bcast_S_S8192 cst_13
  have v44 : FVec F S8192 .f32 := maximumf v42 v43
  have cst_14 : FVec F S_ .f32 := constant S_ .f32 0x00000000#32
  have w6_0 : FVec F S_ .f32 := cst_14
  have w6_1 : FVec F S8192 .f32 := broadcastInDim S8192 ![] bcast_S_S8192 w6_0
  select v38 v44 w6_1

attribute [local irreducible] Host.reduce Host.reduceAdd Host.scatterAdd in
set_option maxRecDepth 8192 in
set_option maxHeartbeats 1000000 in
theorem stF_v45 (W : Valuation τ sig (Elt F)) :
    after LF W (main_v45 : DevRef τ sig) = sF_v45 (W (main_v35 : DevRef τ sig)) (W (main_v39 : DevRef τ sig)) (W (main_v38 : DevRef τ sig)) := by
  simp only [LF, after_cons, after_nil]
  rfl
theorem stF_keep_ids (W : Valuation τ sig (Elt F)) :
    after LF W (main_arg1 : DevRef τ sig) = W (main_arg1 : DevRef τ sig) := by
  simp only [LF, after_cons, after_nil]
  rfl
theorem stF_keep_x (W : Valuation τ sig (Elt F)) :
    after LF W (main_arg0 : DevRef τ sig) = W (main_arg0 : DevRef τ sig) := by
  simp only [LF, after_cons, after_nil]
  rfl

/-- Stage G's operations: 92 … 119 of the line. -/
def LG : List (HloOp τ sig (Elt F)) :=
  [ StableHlo.nullary main_cst_15 (constant S_ .f32 0x3F800000#32),
    StableHlo.unary main_cst_15 main_v46 (broadcastInDim S8192 ![] bcast_S_S8192 : (⟨S_, .f32⟩ : BufTy).Contents (Elt F) → (⟨S8192, .f32⟩ : BufTy).Contents (Elt F)),
    StableHlo.nullary main_cst_16 (constant S_ .f32 0x00000000#32),
    StableHlo.unary main_cst_16 main_v47 (broadcastInDim S4000 ![] bcast_S_S4000 : (⟨S_, .f32⟩ : BufTy).Contents (Elt F) → (⟨S4000, .f32⟩ : BufTy).Contents (Elt F)),
    StableHlo.unary main_arg1 main_v48 (broadcastInDim S8192x1 ![0] bcast_S8192_S8192x1_0 : (⟨S8192, .i32⟩ : BufTy).Contents (Elt F) → (⟨S8192x1, .i32⟩ : BufTy).Contents (Elt F)),
    StableHlo.ternary main_v47 main_v48 main_v46 main_v49 ((fun x i u => Host.scatterAdd scatter_S4000_S8192x1_S8192_n_0_0_1 x i u) : (⟨S4000, .f32⟩ : BufTy).Contents (Elt F) → (⟨S8192x1, .i32⟩ : BufTy).Contents (Elt F) → (⟨S8192, .f32⟩ : BufTy).Contents (Elt F) → (⟨S4000, .f32⟩ : BufTy).Contents (Elt F)),
    StableHlo.nullary main_cst_17 (constant S_ .f32 0x00000000#32),
    StableHlo.unary main_cst_17 main_v50 (broadcastInDim S4000 ![] bcast_S_S4000 : (⟨S_, .f32⟩ : BufTy).Contents (Elt F) → (⟨S4000, .f32⟩ : BufTy).Contents (Elt F)),
    StableHlo.unary main_arg1 main_v51 (broadcastInDim S8192x1 ![0] bcast_S8192_S8192x1_0 : (⟨S8192, .i32⟩ : BufTy).Contents (Elt F) → (⟨S8192x1, .i32⟩ : BufTy).Contents (Elt F)),
    StableHlo.ternary main_v50 main_v51 main_v45 main_v52 ((fun x i u => Host.scatterAdd scatter_S4000_S8192x1_S8192_n_0_0_1 x i u) : (⟨S4000, .f32⟩ : BufTy).Contents (Elt F) → (⟨S8192x1, .i32⟩ : BufTy).Contents (Elt F) → (⟨S8192, .f32⟩ : BufTy).Contents (Elt F) → (⟨S4000, .f32⟩ : BufTy).Contents (Elt F)),
    StableHlo.nullary main_cst_18 (constant S_ .f32 0x00000000#32),
    StableHlo.unary main_cst_18 main_v53 (broadcastInDim S4000 ![] bcast_S_S4000 : (⟨S_, .f32⟩ : BufTy).Contents (Elt F) → (⟨S4000, .f32⟩ : BufTy).Contents (Elt F)),
    StableHlo.binary main_v49 main_v53 main_v54 (cmpf .ogt : (⟨S4000, .f32⟩ : BufTy).Contents (Elt F) → (⟨S4000, .f32⟩ : BufTy).Contents (Elt F) → (⟨S4000, .i1⟩ : BufTy).Contents (Elt F)),
    StableHlo.nullary main_cst_19 (constant S_ .f32 0x3F800000#32),
    StableHlo.TRef.unary (StableHlo.TRef.of main_cst_19 : StableHlo.TRef sig ⟨S_, .f32⟩) main_call7.v0 id,
    StableHlo.TRef.unary main_call7.v0 main_call7.v1 (broadcastInDim S4000 ![] bcast_S_S4000),
    StableHlo.TRef.ternary (StableHlo.TRef.of main_v54 : StableHlo.TRef sig ⟨S4000, .i1⟩) (StableHlo.TRef.of main_v49 : StableHlo.TRef sig ⟨S4000, .f32⟩) main_call7.v1 main_call7.v2 select,
    StableHlo.binary main_v52 main_v55 main_v56 (Host.divf : (⟨S4000, .f32⟩ : BufTy).Contents (Elt F) → (⟨S4000, .f32⟩ : BufTy).Contents (Elt F) → (⟨S4000, .f32⟩ : BufTy).Contents (Elt F)),
    StableHlo.nullary main_cst_20 (constant S_ .f32 0x00000000#32),
    StableHlo.TRef.unary (StableHlo.TRef.of main_cst_20 : StableHlo.TRef sig ⟨S_, .f32⟩) main_call8.v0 id,
    StableHlo.TRef.unary main_call8.v0 main_call8.v1 (broadcastInDim S4000 ![] bcast_S_S4000),
    StableHlo.TRef.ternary (StableHlo.TRef.of main_v54 : StableHlo.TRef sig ⟨S4000, .i1⟩) (StableHlo.TRef.of main_v56 : StableHlo.TRef sig ⟨S4000, .f32⟩) main_call8.v1 main_call8.v2 select,
    StableHlo.unary main_v54 main_v58 (uitofp .f32 : (⟨S4000, .i1⟩ : BufTy).Contents (Elt F) → (⟨S4000, .f32⟩ : BufTy).Contents (Elt F)),
    StableHlo.nullary main_cst_21 (constant S_ .f32 0x00000000#32),
    StableHlo.binary main_v58 main_cst_21 main_v59 ((fun x v => Host.reduceAdd x v reducesTo_S4000_S_d0 h_S_) : (⟨S4000, .f32⟩ : BufTy).Contents (Elt F) → (⟨S_, .f32⟩ : BufTy).Contents (Elt F) → (⟨S_, .f32⟩ : BufTy).Contents (Elt F)),
    StableHlo.nullary main_cst_22 (constant S_ .f32 0x00000000#32),
    StableHlo.binary main_v57 main_cst_22 main_v60 ((fun x v => Host.reduceAdd x v reducesTo_S4000_S_d0 h_S_) : (⟨S4000, .f32⟩ : BufTy).Contents (Elt F) → (⟨S_, .f32⟩ : BufTy).Contents (Elt F) → (⟨S_, .f32⟩ : BufTy).Contents (Elt F)),
    StableHlo.binary main_v60 main_v59 main_v61 (Host.divf : (⟨S_, .f32⟩ : BufTy).Contents (Elt F) → (⟨S_, .f32⟩ : BufTy).Contents (Elt F) → (⟨S_, .f32⟩ : BufTy).Contents (Elt F)) ]

/-- Stage G's value v61 as the composed term of the stage's inputs. -/
def sG_v61 (t : FVec F S8192 .f32) (ids : IVec S8192 32) : FVec F S_ .f32 :=
  have cst_15 : FVec F S_ .f32 := constant S_ .f32 0x3F800000#32
  have v46 : FVec F S8192 .f32 := broadcastInDim S8192 ![] bcast_S_S8192 cst_15
  have cst_16 : FVec F S_ .f32 := constant S_ .f32 0x00000000#32
  have v47 : FVec F S4000 .f32 := broadcastInDim S4000 ![] bcast_S_S4000 cst_16
  have v48 : IVec S8192x1 32 := broadcastInDim S8192x1 ![0] bcast_S8192_S8192x1_0 ids
  have v49 : FVec F S4000 .f32 := Host.scatterAdd scatter_S4000_S8192x1_S8192_n_0_0_1 v47 v48 v46
  have cst_17 : FVec F S_ .f32 := constant S_ .f32 0x00000000#32
  have v50 : FVec F S4000 .f32 := broadcastInDim S4000 ![] bcast_S_S4000 cst_17
  have v51 : IVec S8192x1 32 := broadcastInDim S8192x1 ![0] bcast_S8192_S8192x1_0 ids
  have v52 : FVec F S4000 .f32 := Host.scatterAdd scatter_S4000_S8192x1_S8192_n_0_0_1 v50 v51 t
  have cst_18 : FVec F S_ .f32 := constant S_ .f32 0x00000000#32
  have v53 : FVec F S4000 .f32 := broadcastInDim S4000 ![] bcast_S_S4000 cst_18
  have v54 : IVec S4000 1 := cmpf .ogt v49 v53
  have cst_19 : FVec F S_ .f32 := constant S_ .f32 0x3F800000#32
  have w7_0 : FVec F S_ .f32 := cst_19
  have w7_1 : FVec F S4000 .f32 := broadcastInDim S4000 ![] bcast_S_S4000 w7_0
  have v55 : FVec F S4000 .f32 := select v54 v49 w7_1
  have v56 : FVec F S4000 .f32 := Host.divf v52 v55
  have cst_20 : FVec F S_ .f32 := constant S_ .f32 0x00000000#32
  have w8_0 : FVec F S_ .f32 := cst_20
  have w8_1 : FVec F S4000 .f32 := broadcastInDim S4000 ![] bcast_S_S4000 w8_0
  have v57 : FVec F S4000 .f32 := select v54 v56 w8_1
  have v58 : FVec F S4000 .f32 := uitofp .f32 v54
  have cst_21 : FVec F S_ .f32 := constant S_ .f32 0x00000000#32
  have v59 : FVec F S_ .f32 := Host.reduceAdd v58 cst_21 reducesTo_S4000_S_d0 h_S_
  have cst_22 : FVec F S_ .f32 := constant S_ .f32 0x00000000#32
  have v60 : FVec F S_ .f32 := Host.reduceAdd v57 cst_22 reducesTo_S4000_S_d0 h_S_
  Host.divf v60 v59

attribute [local irreducible] Host.reduce Host.reduceAdd Host.scatterAdd in
set_option maxRecDepth 8192 in
set_option maxHeartbeats 1000000 in
theorem stG_v61 (W : Valuation τ sig (Elt F)) :
    after LG W (main_v61 : DevRef τ sig) = sG_v61 (W (main_v45 : DevRef τ sig)) (W (main_arg1 : DevRef τ sig)) := by
  simp only [LG, after_cons, after_nil]
  rfl
theorem stG_keep_x (W : Valuation τ sig (Elt F)) :
    after LG W (main_arg0 : DevRef τ sig) = W (main_arg0 : DevRef τ sig) := by
  simp only [LG, after_cons, after_nil]
  rfl
theorem stG_keep_ids (W : Valuation τ sig (Elt F)) :
    after LG W (main_arg1 : DevRef τ sig) = W (main_arg1 : DevRef τ sig) := by
  simp only [LG, after_cons, after_nil]
  rfl

/-! ## The chain -/

theorem ops_split : (ops : List (HloOp τ sig (Elt F))) = LA ++ (LB ++ (LC ++ (LD ++ (LE1 ++ (LE2 ++ (LE3 ++ (LE4 ++ (LF ++ (LG))))))))) := rfl

theorem after_ops (V : Valuation τ sig (Elt F)) :
    after ops V = after LG (after LF (after LE4 (after LE3 (after LE2 (after LE1 (after LD (after LC (after LB (after LA V))))))))) := by
  rw [ops_split, after_append, after_append, after_append, after_append, after_append, after_append, after_append, after_append, after_append]

set_option maxRecDepth 8192 in
/-- The per-anchor term is the stages' composition: the same lines, cut. -/
theorem refTrip_stages (x : FVec F S8192x128 .f32) (ids : IVec S8192 32) :
    refTrip x ids = sF_v45 (sE1_v35 (sD_v26 ids (sA_v0 ids)) (sC_v21 (sB_v14 x))) (sE4_v39 (sE3_v38 (sD_v33 ids (sA_v0 ids))) (sE2_v37 (sD_v33 ids (sA_v0 ids)) (sC_v21 (sB_v14 x)))) (sE3_v38 (sD_v33 ids (sA_v0 ids))) := rfl

theorem refTail_stages (t : FVec F S8192 .f32) (ids : IVec S8192 32) : refTail t ids = sG_v61 t ids := rfl

/-- The result buffer after the line is the composed term of the two arguments. -/
theorem out_eq (V : Valuation τ sig (Elt F)) :
    after ops V (main_v61 : DevRef τ sig)
      = refTail (refTrip (V (main_arg0 : DevRef τ sig)) (V (main_arg1 : DevRef τ sig))) (V (main_arg1 : DevRef τ sig)) := by
  rw [after_ops, stG_v61, stF_v45, stF_keep_ids, stE4_keep_v35, stE4_v39, stE4_keep_v38, stE4_keep_ids, stE3_keep_v35, stE3_v38, stE3_keep_v37, stE3_keep_ids, stE2_keep_v35, stE2_keep_v33, stE2_v37, stE2_keep_ids, stE1_v35, stE1_keep_v33, stE1_keep_v21, stE1_keep_ids, stD_v26, stD_keep_v21, stD_v33, stD_keep_ids, stC_keep_ids, stC_keep_v0, stC_v21, stB_keep_ids, stB_keep_v0, stB_v14, stA_keep_ids, stA_v0, stA_keep_x,
    refTrip_stages, refTail_stages]

theorem arg0_eq (V : Valuation τ sig (Elt F)) :
    after ops V (main_arg0 : DevRef τ sig) = V (main_arg0 : DevRef τ sig) := by
  rw [after_ops, stG_keep_x, stF_keep_x, stE4_keep_x, stE3_keep_x, stE2_keep_x, stE1_keep_x, stD_keep_x, stC_keep_x, stB_keep_x, stA_keep_x]

theorem arg1_eq (V : Valuation τ sig (Elt F)) :
    after ops V (main_arg1 : DevRef τ sig) = V (main_arg1 : DevRef τ sig) := by
  rw [after_ops, stG_keep_ids, stF_keep_ids, stE4_keep_ids, stE3_keep_ids, stE2_keep_ids, stE1_keep_ids, stD_keep_ids, stC_keep_ids, stB_keep_ids, stA_keep_ids]

/-- On every device, for any float values, from any memory with zero counters: every weakly fair execution of
    @main terminates with the result at the composed term of the arguments' launch contents and the arguments
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v61)
          = refTail (refTrip (m ((c.tc : Thread nD τ).loc main_arg0)) (m ((c.tc : Thread nD τ).loc main_arg1)))
              (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v61).trans (out_eq _), (h c main_arg0).trans (arg0_eq _),
      (h c main_arg1).trans (arg1_eq _)⟩)
    (run_main m ρ)

end Cert.ReferenceIdeal.Hand

end
-- ==== Proof.lean ====
/-
  The certificate of the association loss: a tiled kernel for the per-anchor triplet term (pairwise Euclidean distances
  of 8192 embeddings, for each anchor the farthest partner of its identity and the nearest partner of its class with
  another identity, a margin) followed by per-identity means, against the plain reference that builds the whole
  8192 × 8192 distance matrix.
  At the extended reals the two programs agree for every input: the kernel walks a 16 × 16 grid of 512 × 512 tiles and,
  along each grid row, folds the sixteen partner tiles into three running rows (a maximum from −∞, a minimum from +∞, and
  the maximum of the negative mask read as 0 or 1); maxima and minima are associative, commutative and idempotent, so the
  fold over the tiles is the reduction over all 8192 partners, and a tile's distances are the reference's entry by entry
  (the bf16 rounding on the way into the matrix product is the identity here, the product into a zero accumulator the
  reference's dot product, the lane sums its row sums). Both floor divisions by 1000 are the same function of a word.
  The lines that close the two programs (scatter-adds by identity, the guarded quotient, two sums and their quotient)
  are the same operations applied to equal vectors. No finiteness of the inputs is used.
  The frames: the kernel's program runs to the end without a fault for any contents (every access is a whole-buffer
  load or store, the two windows on one array share it by halves), and neither program writes an argument.
-/
import proofs.«147753_j50903952392404_1_alg».proof.Defs
import proofs.«147753_j50903952392404_1_alg».proof.Proof.Gen.Kernel
import proofs.«147753_j50903952392404_1_alg».proof.Proof.Gen.KernelIdeal
import proofs.«147753_j50903952392404_1_alg».proof.Proof.Gen.ReferenceIdeal
import proofs.«147753_j50903952392404_1_alg».proof.Proof.Gen.Pre_finite_inputs
import proofs.«147753_j50903952392404_1_alg».proof.Proof.K.Body
import proofs.«147753_j50903952392404_1_alg».proof.Proof.K.Launch
import proofs.«147753_j50903952392404_1_alg».proof.Proof.KI.Body
import proofs.«147753_j50903952392404_1_alg».proof.Proof.KI.Launch
import proofs.«147753_j50903952392404_1_alg».proof.Proof.KI.OutTail
import proofs.«147753_j50903952392404_1_alg».proof.Proof.KI.OutValue
import proofs.«147753_j50903952392404_1_alg».proof.Proof.Ref.Out
import proofs.«147753_j50903952392404_1_alg».proof.Proof.Ref.Value
import Idealize.ShloMosaic.Adequacy
import Idealize.ShloMosaic.Init

noncomputable section

namespace Cert.Proof

open Idealize.ShloMosaic Idealize.ShloMosaic.TcCoe Idealize.SL.Sem

/-- The word-level kernel program runs to the end and leaves its arguments as they were. -/
theorem frame_p : Cert.frame_Kernel := fun m ρ _ =>
  Cert.Kernel.Hand.frame m ρ (Cert.Kernel.Hand.body_obligation m)

/-- So does the idealized kernel program. -/
theorem frame_pi : Cert.frame_KernelIdeal := fun m ρ _ =>
  Cert.KernelIdeal.Hand.frame m ρ (Cert.KernelIdeal.Hand.body_obligation m)

/-- And the reference: its run with the result dropped. -/
theorem frame_ri : Cert.frame_ReferenceIdeal := fun m ρ _ =>
  (θ_run Cert.ReferenceIdeal.defs _ _).mono (fun _ h c => (h c).2) (Cert.ReferenceIdeal.Hand.run (F := Ideal) m ρ)

/-- The ideal pass rewrote nothing. -/
theorem preserves : Cert.preserves_Kernel_KernelIdeal := trivial

/-- Both programs end with the reference's closing lines applied to the reference's triplet vector of the arguments:
    the kernel's result row, read as a vector, is that vector entry by entry. -/
theorem algebraic : Cert.algebraic_KernelIdeal_ReferenceIdeal := by
  intro m ρ m' ρ' _ hagree
  refine ⟨fun c => Cert.ReferenceIdeal.Hand.refTail (F := Ideal)
      (Cert.ReferenceIdeal.Hand.refTrip (F := Ideal) (m ((c.tc : Thread Cert.KernelIdeal.nD Cert.KernelIdeal.τ).loc Cert.KernelIdeal.main_arg0))
        (m ((c.tc : Thread Cert.KernelIdeal.nD Cert.KernelIdeal.τ).loc Cert.KernelIdeal.main_arg1)))
      (m ((c.tc : Thread Cert.KernelIdeal.nD Cert.KernelIdeal.τ).loc Cert.KernelIdeal.main_arg1)), ?_, ?_⟩
  · refine (θ_run Cert.KernelIdeal.defs _ _).mono (fun _ h c => ⟨?_, ?_, ?_⟩)
      (Cert.KernelIdeal.Hand.run_main m ρ (Cert.KernelIdeal.Hand.body_obligation m))
    · exact ((h c).2 Cert.KernelIdeal.main_v18 Cert.KernelIdeal.Hand.v18_rest).trans
        ((Cert.KernelIdeal.Hand.afterV_v18 m c).trans
          (congrArg (fun t => Cert.ReferenceIdeal.Hand.refTail (F := Ideal) t _) (Cert.KernelIdeal.Hand.trip_vec m c)))
    · exact ((h c).1 0).trans ((Cert.KernelIdeal.Hand.arrAt0 m c _).trans (Cert.KernelIdeal.Hand.V_at_arg0 m c))
    · exact ((h c).2 Cert.KernelIdeal.main_arg1 Cert.KernelIdeal.Hand.arg1_rest).trans (Cert.KernelIdeal.Hand.afterV_arg1 m c)
  · refine (θ_run Cert.ReferenceIdeal.defs _ _).mono (fun _ h c => ⟨(h c).1.trans ?_, (h c).2⟩)
      (Cert.ReferenceIdeal.Hand.run (F := Ideal) m' ρ')
    rw [(hagree c).1, (hagree c).2]

theorem claim : Cert.Claim :=
  ⟨Cert.Kernel.Gen.facts, Cert.KernelIdeal.Gen.facts, Cert.ReferenceIdeal.Gen.facts, Cert.Pre_finite_inputs.Gen.facts,
    frame_p, frame_pi, frame_ri, preserves, algebraic⟩

end Cert.Proof

end
